-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  IdealRules.truncf_extf.Statement Cert.KernelIdeal.S256x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v83)) (v1 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_v84) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_v189) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x32x32 : Shape := ⟨4, ![32, 256, 32, 32]⟩
abbrev S32x2048x1x2 : Shape := ⟨4, ![32, 2048, 1, 2]⟩
abbrev S2x256 : Shape := ⟨2, ![2, 256]⟩
abbrev S2x256x256x3x3 : Shape := ⟨5, ![2, 256, 256, 3, 3]⟩
abbrev S2 : Shape := ⟨1, ![2]⟩
abbrev S256x256 : Shape := ⟨2, ![256, 256]⟩
abbrev S256 : Shape := ⟨1, ![256]⟩
abbrev S4x256 : Shape := ⟨2, ![4, 256]⟩
abbrev S4 : Shape := ⟨1, ![4]⟩
abbrev S_ : Shape := ⟨0, ![]⟩

class Facts : Prop where
  bcast_S_S32x256x32x32 : S_.BroadcastsInDim S32x256x32x32 (![] : Fin 0 → Fin S32x256x32x32.rank)
  reducesTo_S32x256x32x32_S_d0_1_2_3 : S32x256x32x32.ReducesTo [0, 1, 2, 3] S_
  h_S_ : 0 < S_.numel
  bcast_S_S2x256 : S_.BroadcastsInDim S2x256 (![] : Fin 0 → Fin S2x256.rank)
  reducesTo_S2x256_S_d0_1 : S2x256.ReducesTo [0, 1] S_
  bcast_S_S2x256x256x3x3 : S_.BroadcastsInDim S2x256x256x3x3 (![] : Fin 0 → Fin S2x256x256x3x3.rank)
  reducesTo_S2x256x256x3x3_S_d0_1_2_3_4 : S2x256x256x3x3.ReducesTo [0, 1, 2, 3, 4] S_
  bcast_S_S2 : S_.BroadcastsInDim S2 (![] : Fin 0 → Fin S2.rank)
  reducesTo_S2_S_d0 : S2.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S4x256 : S_.BroadcastsInDim S4x256 (![] : Fin 0 → Fin S4x256.rank)
  reducesTo_S4x256_S_d0_1 : S4x256.ReducesTo [0, 1] S_
  bcast_S_S4 : S_.BroadcastsInDim S4 (![] : Fin 0 → Fin S4.rank)
  reducesTo_S4_S_d0 : S4.ReducesTo [0] S_
  bcast_S_S32x2048x1x2 : S_.BroadcastsInDim S32x2048x1x2 (![] : Fin 0 → Fin S32x2048x1x2.rank)
  reducesTo_S32x2048x1x2_S_d0_1_2_3 : S32x2048x1x2.ReducesTo [0, 1, 2, 3] S_

variable [Facts]

def fn_part5 {F : FTy → Type} [FloatOps F] (main_arg1 : IVec S32x2048x1x2 32) (main_v83 : IVec S_ 1) (main_v84 : IVec S32x2048x1x2 32) : IVec S_ 1 :=
  let main_v85 : IVec S32x2048x1x2 1 := cmpi .sge main_arg1 main_v84
  let main_c_33 : IVec S_ 32 := constantI S_ 32 256#32
  let main_v86 : IVec S32x2048x1x2 32 := broadcastInDim S32x2048x1x2 ![] bcast_S_S32x2048x1x2 main_c_33
  let main_v87 : IVec S32x2048x1x2 1 := cmpi .slt main_arg1 main_v86
  let main_v88 : IVec S32x2048x1x2 1 := andi main_v85 main_v87
  let main_c_34 : IVec S_ 1 := constantI S_ 1 1#1
  let main_v89 : IVec S_ 1 := (fun x v => Host.reduce IntOp.andi x v reducesTo_S32x2048x1x2_S_d0_1_2_3 h_S_) main_v88 main_c_34
  let main_v90 : IVec S_ 1 := andi main_v83 main_v89
  main_v90

def fn_part4 {F : FTy → Type} [FloatOps F] (main_arg1 : IVec S32x2048x1x2 32) (main_arg15 : FVec F S256 .f32) (main_arg16 : FVec F S4x256 .f32) (main_arg17 : FVec F S4 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S4x256 .f32 := Host.absf main_arg16
  let main_cst_28 : FVec F S_ .f32 := constant S_ .f32 0x7F800000#32
  let main_v75 : FVec F S4x256 .f32 := broadcastInDim S4x256 ![] bcast_S_S4x256 main_cst_28
  let main_v76 : IVec S4x256 1 := cmpf .olt main_v74 main_v75
  let main_c_29 : IVec S_ 1 := constantI S_ 1 1#1
  let main_v77 : IVec S_ 1 := (fun x v => Host.reduce IntOp.andi x v reducesTo_S4x256_S_d0_1 h_S_) main_v76 main_c_29
  let main_v78 : IVec S_ 1 := andi main_v73 main_v77
  let main_v79 : FVec F S4 .f32 := Host.absf main_arg17
  let main_cst_30 : FVec F S_ .f32 := constant S_ .f32 0x7F800000#32
  let main_v80 : FVec F S4 .f32 := broadcastInDim S4 ![] bcast_S_S4 main_cst_30
  let main_v81 : IVec S4 1 := cmpf .olt main_v79 main_v80
  let main_c_31 : IVec S_ 1 := constantI S_ 1 1#1
  let main_v82 : IVec S_ 1 := (fun x v => Host.reduce IntOp.andi x v reducesTo_S4_S_d0 h_S_) main_v81 main_c_31
  let main_v83 : IVec S_ 1 := andi main_v78 main_v82
  let main_c_32 : IVec S_ 32 := constantI S_ 32 0#32
  let main_v84 : IVec S32x2048x1x2 32 := broadcastInDim S32x2048x1x2 ![] bcast_S_S32x2048x1x2 main_c_32
  fn_part5 (F := F) main_arg1 main_v83 main_v84

def fn_part3 {F : FTy → Type} [FloatOps F] (main_arg1 : IVec S32x2048x1x2 32) (main_arg12 : FVec F S256x256 .f32) (main_arg13 : FVec F S256 .f32) (main_arg14 : FVec F S256x256 .f32) (main_arg15 : FVec F S256 .f32) (main_arg16 : FVec F S4x256 .f32) (main_arg17 : FVec F S4 .f32) (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  let main_v54 : FVec F S256x256 .f32 := Host.absf main_arg12
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg14
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg1 main_arg15 main_arg16 main_arg17 main_v63 main_v67

def fn_part2 {F : FTy → Type} [FloatOps F] (main_arg1 : IVec S32x2048x1x2 32) (main_arg8 : FVec F S2x256x256x3x3 .f32) (main_arg9 : FVec F S2x256 .f32) (main_arg10 : FVec F S2x256 .f32) (main_arg11 : FVec F S2 .f32) (main_arg12 : FVec F S256x256 .f32) (main_arg13 : FVec F S256 .f32) (main_arg14 : FVec F S256x256 .f32) (main_arg15 : FVec F S256 .f32) (main_arg16 : FVec F S4x256 .f32) (main_arg17 : FVec F S4 .f32) (main_v33 : IVec S_ 1) : IVec S_ 1 :=
  let main_v34 : FVec F S2x256x256x3x3 .f32 := Host.absf main_arg8
  let main_cst_12 : FVec F S_ .f32 := constant S_ .f32 0x7F800000#32
  let main_v35 : FVec F S2x256x256x3x3 .f32 := broadcastInDim S2x256x256x3x3 ![] bcast_S_S2x256x256x3x3 main_cst_12
  let main_v36 : IVec S2x256x256x3x3 1 := cmpf .olt main_v34 main_v35
  let main_c_13 : IVec S_ 1 := constantI S_ 1 1#1
  let main_v37 : IVec S_ 1 := (fun x v => Host.reduce IntOp.andi x v reducesTo_S2x256x256x3x3_S_d0_1_2_3_4 h_S_) main_v36 main_c_13
  let main_v38 : IVec S_ 1 := andi main_v33 main_v37
  let main_v39 : FVec F S2x256 .f32 := Host.absf main_arg9
  let main_cst_14 : FVec F S_ .f32 := constant S_ .f32 0x7F800000#32
  let main_v40 : FVec F S2x256 .f32 := broadcastInDim S2x256 ![] bcast_S_S2x256 main_cst_14
  let main_v41 : IVec S2x256 1 := cmpf .olt main_v39 main_v40
  let main_c_15 : IVec S_ 1 := constantI S_ 1 1#1
  let main_v42 : IVec S_ 1 := (fun x v => Host.reduce IntOp.andi x v reducesTo_S2x256_S_d0_1 h_S_) main_v41 main_c_15
  let main_v43 : IVec S_ 1 := andi main_v38 main_v42
  let main_v44 : FVec F S2x256 .f32 := Host.absf main_arg10
  let main_cst_16 : FVec F S_ .f32 := constant S_ .f32 0x7F800000#32
  let main_v45 : FVec F S2x256 .f32 := broadcastInDim S2x256 ![] bcast_S_S2x256 main_cst_16
  let main_v46 : IVec S2x256 1 := cmpf .olt main_v44 main_v45
  let main_c_17 : IVec S_ 1 := constantI S_ 1 1#1
  let main_v47 : IVec S_ 1 := (fun x v => Host.reduce IntOp.andi x v reducesTo_S2x256_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_arg1 main_arg12 main_arg13 main_arg14 main_arg15 main_arg16 main_arg17 main_v48 main_v49 main_v50

def fn_part1 {F : FTy → Type} [FloatOps F] (main_arg1 : IVec S32x2048x1x2 32) (main_arg5 : FVec F S2x256 .f32) (main_arg6 : FVec F S2x256 .f32) (main_arg7 : FVec F S2x256 .f32) (main_arg8 : FVec F S2x256x256x3x3 .f32) (main_arg9 : FVec F S2x256 .f32) (main_arg10 : FVec F S2x256 .f32) (main_arg11 : FVec F S2 .f32) (main_arg12 : FVec F S256x256 .f32) (main_arg13 : FVec F S256 .f32) (main_arg14 : FVec F S256x256 .f32) (main_arg15 : FVec F S256 .f32) (main_arg16 : FVec F S4x256 .f32) (main_arg17 : FVec F S4 .f32) (main_v13 : IVec S_ 1) (main_v16 : IVec S2x256x256x3x3 1) : IVec S_ 1 :=
  let main_c_5 : IVec S_ 1 := constantI S_ 1 1#1
  let main_v17 : IVec S_ 1 := (fun x v => Host.reduce IntOp.andi x v reducesTo_S2x256x256x3x3_S_d0_1_2_3_4 h_S_) main_v16 main_c_5
  let main_v18 : IVec S_ 1 := andi main_v13 main_v17
  let main_v19 : FVec F S2x256 .f32 := Host.absf main_arg5
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  let main_v24 : FVec F S2x256 .f32 := Host.absf main_arg6
  let main_cst_8 : FVec F S_ .f32 := constant S_ .f32 0x7F800000#32
  let main_v25 : FVec F S2x256 .f32 := broadcastInDim S2x256 ![] bcast_S_S2x256 main_cst_8
  let main_v26 : IVec S2x256 1 := cmpf .olt main_v24 main_v25
  let main_c_9 : IVec S_ 1 := constantI S_ 1 1#1
  let main_v27 : IVec S_ 1 := (fun x v => Host.reduce IntOp.andi x v reducesTo_S2x256_S_d0_1 h_S_) main_v26 main_c_9
  let main_v28 : IVec S_ 1 := andi main_v23 main_v27
  let main_v29 : FVec F S2x256 .f32 := Host.absf main_arg7
  let main_cst_10 : FVec F S_ .f32 := constant S_ .f32 0x7F800000#32
  let main_v30 : FVec F S2x256 .f32 := broadcastInDim S2x256 ![] bcast_S_S2x256 main_cst_10
  let main_v31 : IVec S2x256 1 := cmpf .olt main_v29 main_v30
  let main_c_11 : IVec S_ 1 := constantI S_ 1 1#1
  let main_v32 : IVec S_ 1 := (fun x v => Host.reduce IntOp.andi x v reducesTo_S2x256_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_v33

def fn {F : FTy → Type} [FloatOps F] (main_arg0 : FVec F S32x256x32x32 .f32) (main_arg1 : IVec S32x2048x1x2 32) (main_arg2 : FVec F S2x256 .f32) (main_arg3 : FVec F S2x256 .f32) (main_arg4 : FVec F S2x256x256x3x3 .f32) (main_arg5 : FVec F S2x256 .f32) (main_arg6 : FVec F S2x256 .f32) (main_arg7 : FVec F S2x256 .f32) (main_arg8 : FVec F S2x256x256x3x3 .f32) (main_arg9 : FVec F S2x256 .f32) (main_arg10 : FVec F S2x256 .f32) (main_arg11 : FVec F S2 .f32) (main_arg12 : FVec F S256x256 .f32) (main_arg13 : FVec F S256 .f32) (main_arg14 : FVec F S256x256 .f32) (main_arg15 : FVec F S256 .f32) (main_arg16 : FVec F S4x256 .f32) (main_arg17 : FVec F S4 .f32) : IVec S_ 1 :=
  let main_v0 : FVec F S32x256x32x32 .f32 := Host.absf main_arg0
  let main_cst : FVec F S_ .f32 := constant S_ .f32 0x7F800000#32
  let main_v1 : FVec F S32x256x32x32 .f32 := broadcastInDim S32x256x32x32 ![] bcast_S_S32x256x32x32 main_cst
  let main_v2 : IVec S32x256x32x32 1 := cmpf .olt main_v0 main_v1
  let main_c : IVec S_ 1 := constantI S_ 1 1#1
  let main_v3 : IVec S_ 1 := (fun x v => Host.reduce IntOp.andi x v reducesTo_S32x256x32x32_S_d0_1_2_3 h_S_) main_v2 main_c
  let main_v4 : FVec F S2x256 .f32 := Host.absf main_arg2
  let main_cst_0 : FVec F S_ .f32 := constant S_ .f32 0x7F800000#32
  let main_v5 : FVec F S2x256 .f32 := broadcastInDim S2x256 ![] bcast_S_S2x256 main_cst_0
  let main_v6 : IVec S2x256 1 := cmpf .olt main_v4 main_v5
  let main_c_1 : IVec S_ 1 := constantI S_ 1 1#1
  let main_v7 : IVec S_ 1 := (fun x v => Host.reduce IntOp.andi x v reducesTo_S2x256_S_d0_1 h_S_) main_v6 main_c_1
  let main_v8 : IVec S_ 1 := andi main_v3 main_v7
  let main_v9 : FVec F S2x256 .f32 := Host.absf main_arg3
  let main_cst_2 : FVec F S_ .f32 := constant S_ .f32 0x7F800000#32
  let main_v10 : FVec F S2x256 .f32 := broadcastInDim S2x256 ![] bcast_S_S2x256 main_cst_2
  let main_v11 : IVec S2x256 1 := cmpf .olt main_v9 main_v10
  let main_c_3 : IVec S_ 1 := constantI S_ 1 1#1
  let main_v12 : IVec S_ 1 := (fun x v => Host.reduce IntOp.andi x v reducesTo_S2x256_S_d0_1 h_S_) main_v11 main_c_3
  let main_v13 : IVec S_ 1 := andi main_v8 main_v12
  let main_v14 : FVec F S2x256x256x3x3 .f32 := Host.absf main_arg4
  let main_cst_4 : FVec F S_ .f32 := constant S_ .f32 0x7F800000#32
  let main_v15 : FVec F S2x256x256x3x3 .f32 := broadcastInDim S2x256x256x3x3 ![] bcast_S_S2x256x256x3x3 main_cst_4
  let main_v16 : IVec S2x256x256x3x3 1 := cmpf .olt main_v14 main_v15
  fn_part1 (F := F) main_arg1 main_arg5 main_arg6 main_arg7 main_arg8 main_arg9 main_arg10 main_arg11 main_arg12 main_arg13 main_arg14 main_arg15 main_arg16 main_arg17 main_v13 main_v16
-- ==== Kernel.lean ====
abbrev S32x256x32x32 : Shape := ⟨4, ![32, 256, 32, 32]⟩
abbrev S32x2048x1x2 : Shape := ⟨4, ![32, 2048, 1, 2]⟩
abbrev S2x256 : Shape := ⟨2, ![2, 256]⟩
abbrev S2x256x256x3x3 : Shape := ⟨5, ![2, 256, 256, 3, 3]⟩
abbrev S2 : Shape := ⟨1, ![2]⟩
abbrev S256x256 : Shape := ⟨2, ![256, 256]⟩
abbrev S256 : Shape := ⟨1, ![256]⟩
abbrev S4x256 : Shape := ⟨2, ![4, 256]⟩
abbrev S4 : Shape := ⟨1, ![4]⟩
abbrev S32x2048x2 : Shape := ⟨3, ![32, 2048, 2]⟩
abbrev S_ : Shape := ⟨0, ![]⟩
abbrev S32x2048x1 : Shape := ⟨3, ![32, 2048, 1]⟩
abbrev S32x2048 : Shape := ⟨2, ![32, 2048]⟩
abbrev S32x1x2048 : Shape := ⟨3, ![32, 1, 2048]⟩
abbrev S32x256x1024 : Shape := ⟨3, ![32, 256, 1024]⟩
abbrev S32x2048x256 : Shape := ⟨3, ![32, 2048, 256]⟩
abbrev S1x256x1024 : Shape := ⟨3, ![1, 256, 1024]⟩
abbrev S1x1x2048 : Shape := ⟨3, ![1, 1, 2048]⟩
abbrev S1x2048x256 : Shape := ⟨3, ![1, 2048, 256]⟩
abbrev S256x1024 : Shape := ⟨2, ![256, 1024]⟩
abbrev S2048 : Shape := ⟨1, ![2048]⟩
abbrev S2048x1024 : Shape := ⟨2, ![2048, 1024]⟩
abbrev S2048x1 : Shape := ⟨2, ![2048, 1]⟩
abbrev S2048x256 : Shape := ⟨2, ![2048, 256]⟩
abbrev S65536x256 : Shape := ⟨2, ![65536, 256]⟩
abbrev S2x256x256x1x1 : Shape := ⟨5, ![2, 256, 256, 1, 1]⟩
abbrev S2x256x256 : Shape := ⟨3, ![2, 256, 256]⟩
abbrev S256x2 : Shape := ⟨2, ![256, 2]⟩
abbrev S256x4 : Shape := ⟨2, ![256, 4]⟩
abbrev S256x1 : Shape := ⟨2, ![256, 1]⟩
abbrev S32 : Shape := ⟨1, ![32]⟩
abbrev S1x32 : Shape := ⟨2, ![1, 32]⟩
abbrev S256x32 : Shape := ⟨2, ![256, 32]⟩
abbrev S32x256 : Shape := ⟨2, ![32, 256]⟩
abbrev S1x256 : Shape := ⟨2, ![1, 256]⟩
abbrev S1x256x256 : Shape := ⟨3, ![1, 256, 256]⟩
abbrev S1x2 : Shape := ⟨2, ![1, 2]⟩
abbrev S1x4 : Shape := ⟨2, ![1, 4]⟩
abbrev S65536x2 : Shape := ⟨2, ![65536, 2]⟩
abbrev S65536x4 : Shape := ⟨2, ![65536, 4]⟩
abbrev S1024x256 : Shape := ⟨2, ![1024, 256]⟩
abbrev S1024x2 : Shape := ⟨2, ![1024, 2]⟩
abbrev S1024x4 : Shape := ⟨2, ![1024, 4]⟩
abbrev S1024x32 : Shape := ⟨2, ![1024, 32]⟩
abbrev S32x2048x4 : Shape := ⟨3, ![32, 2048, 4]⟩

abbrev nBuf : Space → Nat
  | .hbm => 146
  | .vmem => 38
  | .smem => 0
  | _ => 0

abbrev hbmTy0_0 (i : Nat) : BufTy := match i % 128 with
  | 0 => ⟨S32x256x32x32, .f32⟩
  | 1 => ⟨S32x2048x1x2, .i32⟩
  | 2 => ⟨S2x256, .f32⟩
  | 3 => ⟨S2x256, .f32⟩
  | 4 => ⟨S2x256x256x3x3, .f32⟩
  | 5 => ⟨S2x256, .f32⟩
  | 6 => ⟨S2x256, .f32⟩
  | 7 => ⟨S2x256, .f32⟩
  | 8 => ⟨S2x256x256x3x3, .f32⟩
  | 9 => ⟨S2x256, .f32⟩
  | 10 => ⟨S2x256, .f32⟩
  | 11 => ⟨S2, .f32⟩
  | 12 => ⟨S256x256, .f32⟩
  | 13 => ⟨S256, .f32⟩
  | 14 => ⟨S256x256, .f32⟩
  | 15 => ⟨S256, .f32⟩
  | 16 => ⟨S4x256, .f32⟩
  | 17 => ⟨S4, .f32⟩
  | 18 => ⟨S32x2048x2, .i32⟩
  | 19 => ⟨S_, .i32⟩
  | 20 => ⟨S_, .i32⟩
  | 21 => ⟨S32x2048x2, .i32⟩
  | 22 => ⟨S32x2048x2, .i32⟩
  | 23 => ⟨S32x2048x2, .i32⟩
  | 24 => ⟨S_, .i32⟩
  | 25 => ⟨S32x2048x2, .i32⟩
  | 26 => ⟨S32x2048x2, .i1⟩
  | 27 => ⟨S32x2048x2, .i32⟩
  | 28 => ⟨S32x2048x2, .i32⟩
  | 29 => ⟨S_, .i32⟩
  | 30 => ⟨S32x2048x2, .i32⟩
  | 31 => ⟨S32x2048x2, .i1⟩
  | 32 => ⟨S32x2048x2, .i1⟩
  | 33 => ⟨S_, .i32⟩
  | 34 => ⟨S32x2048x2, .i32⟩
  | 35 => ⟨S32x2048x2, .i32⟩
  | 36 => ⟨S32x2048x2, .i32⟩
  | 37 => ⟨S32x2048x1, .i32⟩
  | 38 => ⟨S32x2048, .i32⟩
  | 39 => ⟨S_, .i32⟩
  | 40 => ⟨S32x2048, .i32⟩
  | 41 => ⟨S32x2048, .i32⟩
  | 42 => ⟨S32x2048x1, .i32⟩
  | 43 => ⟨S32x2048, .i32⟩
  | 44 => ⟨S32x2048, .i32⟩
  | 45 => ⟨S_, .i32⟩
  | 46 => ⟨S_, .i32⟩
  | 47 => ⟨S_, .i32⟩
  | 48 => ⟨S32x2048, .i32⟩
  | 49 => ⟨S32x2048, .i32⟩
  | 50 => ⟨S_, .i32⟩
  | 51 => ⟨S32x2048, .i32⟩
  | 52 => ⟨S32x2048, .i32⟩
  | 53 => ⟨S32x1x2048, .i32⟩
  | 54 => ⟨S32x256x1024, .f32⟩
  | 55 => ⟨S32x2048x256, .f32⟩
  | 56 => ⟨S65536x256, .f32⟩
  | 57 => ⟨S2x256x256x1x1, .f32⟩
  | 58 => ⟨S2x256x256, .f32⟩
  | 59 => ⟨S2x256x256, .f32⟩
  | 60 => ⟨S2x256x256x1x1, .f32⟩
  | 61 => ⟨S2x256x256, .f32⟩
  | 62 => ⟨S2x256x256, .f32⟩
  | 63 => ⟨S256x2, .f32⟩
  | 64 => ⟨S256x256, .f32⟩
  | 65 => ⟨S256x256, .f32⟩
  | 66 => ⟨S256x4, .f32⟩
  | 67 => ⟨S256, .i32⟩
  | 68 => ⟨S256x1, .i32⟩
  | 69 => ⟨S32, .i32⟩
  | 70 => ⟨S1x32, .i32⟩
  | 71 => ⟨S_, .i32⟩
  | 72 => ⟨S_, .i32⟩
  | 73 => ⟨S256x1, .i32⟩
  | 74 => ⟨S256x1, .i32⟩
  | 75 => ⟨S256x1, .i32⟩
  | 76 => ⟨S_, .i32⟩
  | 77 => ⟨S256x1, .i32⟩
  | 78 => ⟨S256x1, .i1⟩
  | 79 => ⟨S256x1, .i32⟩
  | 80 => ⟨S256x1, .i32⟩
  | 81 => ⟨S_, .i32⟩
  | 82 => ⟨S256x1, .i32⟩
  | 83 => ⟨S256x1, .i1⟩
  | 84 => ⟨S256x1, .i1⟩
  | 85 => ⟨S_, .i32⟩
  | 86 => ⟨S256x1, .i32⟩
  | 87 => ⟨S256x1, .i32⟩
  | 88 => ⟨S256x1, .i32⟩
  | 89 => ⟨S256x32, .i32⟩
  | 90 => ⟨S256x32, .i32⟩
  | 91 => ⟨S256x32, .i1⟩
  | 92 => ⟨S256x32, .f32⟩
  | 93 => ⟨S32x256, .f32⟩
  | 94 => ⟨S1x256, .f32⟩
  | 95 => ⟨S256, .f32⟩
  | 96 => ⟨S1x256, .f32⟩
  | 97 => ⟨S1x256, .f32⟩
  | 98 => ⟨S256, .f32⟩
  | 99 => ⟨S1x256, .f32⟩
  | 100 => ⟨S1x256x256, .f32⟩
  | 101 => ⟨S256x256, .f32⟩
  | 102 => ⟨S1x256, .f32⟩
  | 103 => ⟨S256, .f32⟩
  | 104 => ⟨S1x256, .f32⟩
  | 105 => ⟨S1x256, .f32⟩
  | 106 => ⟨S256, .f32⟩
  | 107 => ⟨S1x256, .f32⟩
  | 108 => ⟨S1x256, .f32⟩
  | 109 => ⟨S256, .f32⟩
  | 110 => ⟨S1x256, .f32⟩
  | 111 => ⟨S1x256x256, .f32⟩
  | 112 => ⟨S256x256, .f32⟩
  | 113 => ⟨S1x256, .f32⟩
  | 114 => ⟨S256, .f32⟩
  | 115 => ⟨S1x256, .f32⟩
  | 116 => ⟨S1x256, .f32⟩
  | 117 => ⟨S256, .f32⟩
  | 118 => ⟨S1x256, .f32⟩
  | 119 => ⟨S1x256, .f32⟩
  | 120 => ⟨S256, .f32⟩
  | 121 => ⟨S1x256, .f32⟩
  | 122 => ⟨S1x256x256, .f32⟩
  | 123 => ⟨S256x256, .f32⟩
  | 124 => ⟨S1x256, .f32⟩
  | 125 => ⟨S256, .f32⟩
  | 126 => ⟨S1x256, .f32⟩
  | 127 => ⟨S1x256, .f32⟩
  | _ => ⟨S32x256x32x32, .f32⟩

abbrev hbmTy0_1 (i : Nat) : BufTy := match i % 128 with
  | 0 => ⟨S256, .f32⟩
  | 1 => ⟨S1x256, .f32⟩
  | 2 => ⟨S1x256, .f32⟩
  | 3 => ⟨S256, .f32⟩
  | 4 => ⟨S1x256, .f32⟩
  | 5 => ⟨S1x256x256, .f32⟩
  | 6 => ⟨S256x256, .f32⟩
  | 7 => ⟨S1x256, .f32⟩
  | 8 => ⟨S256, .f32⟩
  | 9 => ⟨S1x256, .f32⟩
  | 10 => ⟨S1x2, .f32⟩
  | 11 => ⟨S1x256, .f32⟩
  | 12 => ⟨S1x256, .f32⟩
  | 13 => ⟨S1x4, .f32⟩
  | 14 => ⟨S65536x2, .f32⟩
  | 15 => ⟨S65536x4, .f32⟩
  | 16 => ⟨S32x2048x2, .f32⟩
  | 17 => ⟨S32x2048x4, .f32⟩
  | _ => ⟨S32x256x32x32, .f32⟩

abbrev hbmTy (i : Nat) : BufTy := match i / 128 with
  | 0 => hbmTy0_0 i
  | 1 => hbmTy0_1 i
  | _ => ⟨S32x256x32x32, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x1x2048, .i32⟩
  | .local _ .vmem, ⟨3, _⟩ => ⟨S1x1x2048, .i32⟩
  | .local _ .vmem, ⟨4, _⟩ => ⟨S1x2048x256, .f32⟩
  | .local _ .vmem, ⟨5, _⟩ => ⟨S1x2048x256, .f32⟩
  | .local _ .vmem, ⟨6, _⟩ => ⟨S1024x256, .f32⟩
  | .local _ .vmem, ⟨7, _⟩ => ⟨S1024x256, .f32⟩
  | .local _ .vmem, ⟨8, _⟩ => ⟨S1x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S256x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S256x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S256x256, .f32⟩
  | .local _ .vmem, ⟨23, _⟩ => ⟨S1x256, .f32⟩
  | .local _ .vmem, ⟨24, _⟩ => ⟨S256x2, .f32⟩
  | .local _ .vmem, ⟨25, _⟩ => ⟨S1x2, .f32⟩
  | .local _ .vmem, ⟨26, _⟩ => ⟨S256x256, .f32⟩
  | .local _ .vmem, ⟨27, _⟩ => ⟨S1x256, .f32⟩
  | .local _ .vmem, ⟨28, _⟩ => ⟨S256x256, .f32⟩
  | .local _ .vmem, ⟨29, _⟩ => ⟨S1x256, .f32⟩
  | .local _ .vmem, ⟨30, _⟩ => ⟨S256x4, .f32⟩
  | .local _ .vmem, ⟨31, _⟩ => ⟨S1x4, .f32⟩
  | .local _ .vmem, ⟨32, _⟩ => ⟨S256x32, .f32⟩
  | .local _ .vmem, ⟨33, _⟩ => ⟨S32x256, .f32⟩
  | .local _ .vmem, ⟨34, _⟩ => ⟨S1024x2, .f32⟩
  | .local _ .vmem, ⟨35, _⟩ => ⟨S1024x2, .f32⟩
  | .local _ .vmem, ⟨36, _⟩ => ⟨S1024x4, .f32⟩
  | .local _ .vmem, ⟨37, _⟩ => ⟨S1024x4, .f32⟩
  | _, _ => ⟨S32x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_c_0 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_c_1 : Ref sig .tc := ⟨.hbm, 45, rfl⟩
abbrev main_c_2 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_c_3 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_c : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_0 : Ref sig .tc := ⟨.hbm, 85, rfl⟩
abbrev main_call2_v12 : Ref sig .tc := ⟨.hbm, 86, rfl⟩
abbrev main_call2_v13 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82_0 : Ref sig .tc := ⟨.hbm, 142, rfl⟩
abbrev main_v82_1 : Ref sig .tc := ⟨.hbm, 143, rfl⟩
abbrev main_v83 : Ref sig .tc := ⟨.hbm, 144, rfl⟩
abbrev main_v84 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg12_0 : Ref sig .tc := ⟨.vmem, 19, rfl⟩
abbrev cc1_stg13_0 : Ref sig .tc := ⟨.vmem, 20, rfl⟩
abbrev cc1_stg14_0 : Ref sig .tc := ⟨.vmem, 21, rfl⟩
abbrev cc1_stg15_0 : Ref sig .tc := ⟨.vmem, 22, rfl⟩
abbrev cc1_stg16_0 : Ref sig .tc := ⟨.vmem, 23, rfl⟩
abbrev cc1_stg17_0 : Ref sig .tc := ⟨.vmem, 24, rfl⟩
abbrev cc1_stg18_0 : Ref sig .tc := ⟨.vmem, 25, rfl⟩
abbrev cc1_stg19_0 : Ref sig .tc := ⟨.vmem, 26, rfl⟩
abbrev cc1_stg20_0 : Ref sig .tc := ⟨.vmem, 27, rfl⟩
abbrev cc1_stg21_0 : Ref sig .tc := ⟨.vmem, 28, rfl⟩
abbrev cc1_stg22_0 : Ref sig .tc := ⟨.vmem, 29, rfl⟩
abbrev cc1_stg23_0 : Ref sig .tc := ⟨.vmem, 30, rfl⟩
abbrev cc1_stg24_0 : Ref sig .tc := ⟨.vmem, 31, rfl⟩
abbrev cc1_stg25_0 : Ref sig .tc := ⟨.vmem, 32, rfl⟩
abbrev cc1_stg26_0 : Ref sig .tc := ⟨.vmem, 33, rfl⟩
abbrev cc1_stg27_0 : Ref sig .tc := ⟨.vmem, 34, rfl⟩
abbrev cc1_stg27_1 : Ref sig .tc := ⟨.vmem, 35, rfl⟩
abbrev cc1_stg28_0 : Ref sig .tc := ⟨.vmem, 36, rfl⟩
abbrev cc1_stg28_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev cc1_sem14_0 : DmaSem sig := 21
abbrev cc1_sem15_0 : DmaSem sig := 22
abbrev cc1_sem16_0 : DmaSem sig := 23
abbrev cc1_sem17_0 : DmaSem sig := 24
abbrev cc1_sem18_0 : DmaSem sig := 25
abbrev cc1_sem19_0 : DmaSem sig := 26
abbrev cc1_sem20_0 : DmaSem sig := 27
abbrev cc1_sem21_0 : DmaSem sig := 28
abbrev cc1_sem22_0 : DmaSem sig := 29
abbrev cc1_sem23_0 : DmaSem sig := 30
abbrev cc1_sem24_0 : DmaSem sig := 31
abbrev cc1_sem25_0 : DmaSem sig := 32
abbrev cc1_sem26_0 : DmaSem sig := 33
abbrev cc1_sem27_0 : DmaSem sig := 34
abbrev cc1_sem27_1 : DmaSem sig := 35
abbrev cc1_sem28_0 : DmaSem sig := 36
abbrev cc1_sem28_1 : DmaSem sig := 37

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_23 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_24 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_25 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_26 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_27 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_28 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x256 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S256x256 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x256 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S256x2 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x2 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S256x256 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S1x256 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S256x256 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 1 → Memref sig .tc .vmem S1x256 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false]

abbrev stage1_23 : Fin 1 → Memref sig .tc .vmem S256x4 .f32 := fun | 0 => Memref.whole cc1_stg23_0 | ⟨_ + 1, h⟩ => absurd h (Nat.not_lt.2 (Nat.le_add_left _ _))
abbrev sem1_23 : Fin 1 → DmaSem sig := fun | 0 => cc1_sem23_0 | ⟨_ + 1, h⟩ => absurd h (Nat.not_lt.2 (Nat.le_add_left _ _))
abbrev reads1_23 : Fin grid1.rank → Bool := ![false]

abbrev stage1_24 : Fin 1 → Memref sig .tc .vmem S1x4 .f32 := fun | 0 => Memref.whole cc1_stg24_0 | ⟨_ + 1, h⟩ => absurd h (Nat.not_lt.2 (Nat.le_add_left _ _))
abbrev sem1_24 : Fin 1 → DmaSem sig := fun | 0 => cc1_sem24_0 | ⟨_ + 1, h⟩ => absurd h (Nat.not_lt.2 (Nat.le_add_left _ _))
abbrev reads1_24 : Fin grid1.rank → Bool := ![false]

abbrev stage1_25 : Fin 1 → Memref sig .tc .vmem S256x32 .f32 := fun | 0 => Memref.whole cc1_stg25_0 | ⟨_ + 1, h⟩ => absurd h (Nat.not_lt.2 (Nat.le_add_left _ _))
abbrev sem1_25 : Fin 1 → DmaSem sig := fun | 0 => cc1_sem25_0 | ⟨_ + 1, h⟩ => absurd h (Nat.not_lt.2 (Nat.le_add_left _ _))
abbrev reads1_25 : Fin grid1.rank → Bool := ![false]

abbrev stage1_26 : Fin 1 → Memref sig .tc .vmem S32x256 .f32 := fun | 0 => Memref.whole cc1_stg26_0 | ⟨_ + 1, h⟩ => absurd h (Nat.not_lt.2 (Nat.le_add_left _ _))
abbrev sem1_26 : Fin 1 → DmaSem sig := fun | 0 => cc1_sem26_0 | ⟨_ + 1, h⟩ => absurd h (Nat.not_lt.2 (Nat.le_add_left _ _))
abbrev reads1_26 : Fin grid1.rank → Bool := ![false]

abbrev stage1_27 : Fin 2 → Memref sig .tc .vmem S1024x2 .f32 := fun | 0 => Memref.whole cc1_stg27_0 | 1 => Memref.whole cc1_stg27_1 | ⟨_ + 2, h⟩ => absurd h (Nat.not_lt.2 (Nat.le_add_left _ _))
abbrev sem1_27 : Fin 2 → DmaSem sig := fun | 0 => cc1_sem27_0 | 1 => cc1_sem27_1 | ⟨_ + 2, h⟩ => absurd h (Nat.not_lt.2 (Nat.le_add_left _ _))
abbrev reads1_27 : Fin grid1.rank → Bool := ![true]

abbrev stage1_28 : Fin 2 → Memref sig .tc .vmem S1024x4 .f32 := fun | 0 => Memref.whole cc1_stg28_0 | 1 => Memref.whole cc1_stg28_1 | ⟨_ + 2, h⟩ => absurd h (Nat.not_lt.2 (Nat.le_add_left _ _))
abbrev sem1_28 : Fin 2 → DmaSem sig := fun | 0 => cc1_sem28_0 | 1 => cc1_sem28_1 | ⟨_ + 2, h⟩ => absurd h (Nat.not_lt.2 (Nat.le_add_left _ _))
abbrev reads1_28 : Fin grid1.rank → Bool := ![true]

class Facts₀ : Prop where
  shapeCasts_S32x2048x1x2_S32x2048x2 : S32x2048x1x2.ShapeCasts S32x2048x2
  bcast_S_S32x2048x2 : S_.BroadcastsInDim S32x2048x2 (![] : Fin 0 → Fin S32x2048x2.rank)
  slices_S32x2048x2_S32x2048x1_0_0_0 : S32x2048x2.Slices ![0, 0, 0] S32x2048x1
  shapeCasts_S32x2048x1_S32x2048 : S32x2048x1.ShapeCasts S32x2048
  bcast_S_S32x2048 : S_.BroadcastsInDim S32x2048 (![] : Fin 0 → Fin S32x2048.rank)
  slices_S32x2048x2_S32x2048x1_0_0_1 : S32x2048x2.Slices ![0, 0, 1] S32x2048x1
  shapeCasts_S32x2048_S32x1x2048 : S32x2048.ShapeCasts S32x1x2048
  shapeCasts_S32x256x32x32_S32x256x1024 : S32x256x32x32.ShapeCasts S32x256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  iota_S2048x1024_d1_w32 : S2048x1024.Iotas .tc 32 [1]
  shapeCasts_S2048_S2048x1 : S2048.ShapeCasts S2048x1
  broadcasts_S2048x1_S2048x1024 : S2048x1.Broadcasts S2048x1024
  natLt_1_32 : 1 < 32
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  shapeCasts_S32x2048x256_S65536x256 : S32x2048x256.ShapeCasts S65536x256
  slices_S2x256x256x3x3_S2x256x256x1x1_0_0_0_1_1 : S2x256x256x3x3.Slices ![0, 0, 0, 1, 1] S2x256x256x1x1
  shapeCasts_S2x256x256x1x1_S2x256x256 : S2x256x256x1x1.ShapeCasts S2x256x256
  transposes_S2x256x256_S2x256x256_0_2_1 : S2x256x256.Transposes [0, 2, 1] S2x256x256
  transposes_S2x256_S256x2_1_0 : S2x256.Transposes [1, 0] S256x2
  transposes_S256x256_S256x256_1_0 : S256x256.Transposes [1, 0] S256x256
  transposes_S4x256_S256x4_1_0 : S4x256.Transposes [1, 0] S256x4
  bcast_S256_S256x1_0 : S256.BroadcastsInDim S256x1 (![0] : Fin 1 → Fin S256x1.rank)
  bcast_S32_S1x32_1 : S32.BroadcastsInDim S1x32 (![1] : Fin 1 → Fin S1x32.rank)
  bcast_S_S256x1 : S_.BroadcastsInDim S256x1 (![] : Fin 0 → Fin S256x1.rank)
  bcast_S256x1_S256x32_0_1 : S256x1.BroadcastsInDim S256x32 (![0, 1] : Fin 2 → Fin S256x32.rank)
  bcast_S1x32_S256x32_0_1 : S1x32.BroadcastsInDim S256x32 (![0, 1] : Fin 2 → Fin S256x32.rank)
  transposes_S256x32_S32x256_1_0 : S256x32.Transposes [1, 0] S32x256
  slices_S2x256_S1x256_0_0 : S2x256.Slices ![0, 0] S1x256
  shapeCasts_S1x256_S256 : S1x256.ShapeCasts S256
  shapeCasts_S256_S1x256 : S256.ShapeCasts S1x256
  slices_S2x256x256_S1x256x256_0_0_0 : S2x256x256.Slices ![0, 0, 0] S1x256x256
  shapeCasts_S1x256x256_S256x256 : S1x256x256.ShapeCasts S256x256
  slices_S2x256_S1x256_1_0 : S2x256.Slices ![1, 0] S1x256
  slices_S2x256x256_S1x256x256_1_0_0 : S2x256x256.Slices ![1, 0, 0] S1x256x256
  shapeCasts_S2_S1x2 : S2.ShapeCasts S1x2
  shapeCasts_S4_S1x4 : S4.ShapeCasts S1x4
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S1x256_S1024x256 : S1x256.Broadcasts S1024x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  inb_S256x4_S256x4_0_0 : ∀ a, (![0, 0] : Fin 2 → Nat) a + S256x4.size a ≤ S256x4.size a
  h_S256x4 : 0 < S256x4.numel
  shapeCasts_S256x4_S256x4 : S256x4.ShapeCasts S256x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S1024x4 : S1x4.Broadcasts S1024x4
  inb_S1024x2_S1024x2_0_0 : ∀ a, (![0, 0] : Fin 2 → Nat) a + S1024x2.size a ≤ S1024x2.size a
  h_S1024x2 : 0 < S1024x2.numel
  inb_S1024x4_S1024x4_0_0 : ∀ a, (![0, 0] : Fin 2 → Nat) a + S1024x4.size a ≤ S1024x4.size a
  h_S1024x4 : 0 < S1024x4.numel
  shapeCasts_S65536x2_S32x2048x2 : S65536x2.ShapeCasts S32x2048x2
  shapeCasts_S65536x4_S32x2048x4 : S65536x4.ShapeCasts S32x2048x4
  dot_S2048x1024_S256x1024_S2048x256_1_1_0_0_n_n_wf : DotDims.WF S2048x1024 S256x1024 S2048x256 [1] [1] [0] [0] [] []
  dot_S1024x256_S256x32_S1024x32_1_0_0_1_n_n_wf : DotDims.WF S1024x256 S256x32 S1024x32 [1] [0] [0] [1] [] []
  dot_S1024x32_S32x256_S1024x256_1_0_0_1_n_n_wf : DotDims.WF S1024x32 S32x256 S1024x256 [1] [0] [0] [1] [] []
  dot_S1024x256_S256x256_S1024x256_1_0_0_1_n_n_wf : DotDims.WF S1024x256 S256x256 S1024x256 [1] [0] [0] [1] [] []
  dot_S1024x256_S256x2_S1024x2_1_0_0_1_n_n_wf : DotDims.WF S1024x256 S256x2 S1024x2 [1] [0] [0] [1] [] []
  dot_S1024x256_S256x4_S1024x4_1_0_0_1_n_n_wf : DotDims.WF S1024x256 S256x4 S1024x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x256x1024.size a
  hwx0_0 : ∀ i : grid0.Coords, EltTy.bits .f32 = 32 ∨ (Rect.block (s := S32x256x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S32x1x2048.size a
  hwx0_1 : ∀ i : grid0.Coords, EltTy.bits .i32 = 32 ∨ (Rect.block (s := S32x1x2048) S1x1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S32x2048x256.size a
  hwx0_2 : ∀ i : grid0.Coords, EltTy.bits .f32 = 32 ∨ (Rect.block (s := S32x2048x256) S1x2048x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S65536x256.size a
  hwx1_0 : ∀ i : grid1.Coords, EltTy.bits .f32 = 32 ∨ (Rect.block (s := S65536x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .f32 = 32 ∨ (Rect.block (s := S256x256) S256x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S256x256.size a ≤ S256x256.size a
  hwx1_11 : ∀ i : grid1.Coords, EltTy.bits .f32 = 32 ∨ (Rect.block (s := S256x256) S256x256.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x256.size a ≤ S1x256.size a
  hwx1_12 : ∀ i : grid1.Coords, EltTy.bits .f32 = 32 ∨ (Rect.block (s := S1x256) S1x256.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x256.size a ≤ S1x256.size a
  hwx1_13 : ∀ i : grid1.Coords, EltTy.bits .f32 = 32 ∨ (Rect.block (s := S1x256) S1x256.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x256.size a ≤ S1x256.size a
  hwx1_14 : ∀ i : grid1.Coords, EltTy.bits .f32 = 32 ∨ (Rect.block (s := S1x256) S1x256.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S256x256.size a ≤ S256x256.size a
  hwx1_15 : ∀ i : grid1.Coords, EltTy.bits .f32 = 32 ∨ (Rect.block (s := S256x256) S256x256.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1x256.size a ≤ S1x256.size a
  hwx1_16 : ∀ i : grid1.Coords, EltTy.bits .f32 = 32 ∨ (Rect.block (s := S1x256) S1x256.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S256x2.size a ≤ S256x2.size a
  hwx1_17 : ∀ i : grid1.Coords, EltTy.bits .f32 = 32 ∨ (Rect.block (s := S256x2) S256x2.size (cc1_transform_17 i) (hinb1_17 i)).WholeWords (EltTy.packing .f32)
  hstage1_18 : ∀ j, (stage1_18 j).IsWhole
  nbuf1_18 : grid1.bufCount reads1_18 true = 1
  hreads1_18 : ∀ i i' : grid1.Coords, (∀ a, reads1_18 a = true → i a = i' a) → cc1_transform_18 i = cc1_transform_18 i'
  hinb1_18 : ∀ (i : grid1.Coords) a, (cc1_transform_18 i a + 1) * S1x2.size a ≤ S1x2.size a
  hwx1_18 : ∀ i : grid1.Coords, EltTy.bits .f32 = 32 ∨ (Rect.block (s := S1x2) S1x2.size (cc1_transform_18 i) (hinb1_18 i)).WholeWords (EltTy.packing .f32)
  hstage1_19 : ∀ j, (stage1_19 j).IsWhole
  nbuf1_19 : grid1.bufCount reads1_19 true = 1
  hreads1_19 : ∀ i i' : grid1.Coords, (∀ a, reads1_19 a = true → i a = i' a) → cc1_transform_19 i = cc1_transform_19 i'
  hinb1_19 : ∀ (i : grid1.Coords) a, (cc1_transform_19 i a + 1) * S256x256.size a ≤ S256x256.size a
  hwx1_19 : ∀ i : grid1.Coords, EltTy.bits .f32 = 32 ∨ (Rect.block (s := S256x256) S256x256.size (cc1_transform_19 i) (hinb1_19 i)).WholeWords (EltTy.packing .f32)
  hstage1_20 : ∀ j, (stage1_20 j).IsWhole
  nbuf1_20 : grid1.bufCount reads1_20 true = 1
  hreads1_20 : ∀ i i' : grid1.Coords, (∀ a, reads1_20 a = true → i a = i' a) → cc1_transform_20 i = cc1_transform_20 i'
  hinb1_20 : ∀ (i : grid1.Coords) a, (cc1_transform_20 i a + 1) * S1x256.size a ≤ S1x256.size a
  hwx1_20 : ∀ i : grid1.Coords, EltTy.bits .f32 = 32 ∨ (Rect.block (s := S1x256) S1x256.size (cc1_transform_20 i) (hinb1_20 i)).WholeWords (EltTy.packing .f32)
  hstage1_21 : ∀ j, (stage1_21 j).IsWhole
  nbuf1_21 : grid1.bufCount reads1_21 true = 1
  hreads1_21 : ∀ i i' : grid1.Coords, (∀ a, reads1_21 a = true → i a = i' a) → cc1_transform_21 i = cc1_transform_21 i'
  hinb1_21 : ∀ (i : grid1.Coords) a, (cc1_transform_21 i a + 1) * S256x256.size a ≤ S256x256.size a
  hwx1_21 : ∀ i : grid1.Coords, EltTy.bits .f32 = 32 ∨ (Rect.block (s := S256x256) S256x256.size (cc1_transform_21 i) (hinb1_21 i)).WholeWords (EltTy.packing .f32)
  hstage1_22 : ∀ j, (stage1_22 j).IsWhole
  nbuf1_22 : grid1.bufCount reads1_22 true = 1
  hreads1_22 : ∀ i i' : grid1.Coords, (∀ a, reads1_22 a = true → i a = i' a) → cc1_transform_22 i = cc1_transform_22 i'
  hinb1_22 : ∀ (i : grid1.Coords) a, (cc1_transform_22 i a + 1) * S1x256.size a ≤ S1x256.size a
  hwx1_22 : ∀ i : grid1.Coords, EltTy.bits .f32 = 32 ∨ (Rect.block (s := S1x256) S1x256.size (cc1_transform_22 i) (hinb1_22 i)).WholeWords (EltTy.packing .f32)
  hstage1_23 : ∀ j, (stage1_23 j).IsWhole
  nbuf1_23 : grid1.bufCount reads1_23 true = 1
  hreads1_23 : ∀ i i' : grid1.Coords, (∀ a, reads1_23 a = true → i a = i' a) → cc1_transform_23 i = cc1_transform_23 i'
  hinb1_23 : ∀ (i : grid1.Coords) a, (cc1_transform_23 i a + 1) * S256x4.size a ≤ S256x4.size a
  hwx1_23 : ∀ i : grid1.Coords, EltTy.bits .f32 = 32 ∨ (Rect.block (s := S256x4) S256x4.size (cc1_transform_23 i) (hinb1_23 i)).WholeWords (EltTy.packing .f32)
  hstage1_24 : ∀ j, (stage1_24 j).IsWhole
  nbuf1_24 : grid1.bufCount reads1_24 true = 1
  hreads1_24 : ∀ i i' : grid1.Coords, (∀ a, reads1_24 a = true → i a = i' a) → cc1_transform_24 i = cc1_transform_24 i'
  hinb1_24 : ∀ (i : grid1.Coords) a, (cc1_transform_24 i a + 1) * S1x4.size a ≤ S1x4.size a
  hwx1_24 : ∀ i : grid1.Coords, EltTy.bits .f32 = 32 ∨ (Rect.block (s := S1x4) S1x4.size (cc1_transform_24 i) (hinb1_24 i)).WholeWords (EltTy.packing .f32)
  hstage1_25 : ∀ j, (stage1_25 j).IsWhole
  nbuf1_25 : grid1.bufCount reads1_25 true = 1
  hreads1_25 : ∀ i i' : grid1.Coords, (∀ a, reads1_25 a = true → i a = i' a) → cc1_transform_25 i = cc1_transform_25 i'
  hinb1_25 : ∀ (i : grid1.Coords) a, (cc1_transform_25 i a + 1) * S256x32.size a ≤ S256x32.size a
  hwx1_25 : ∀ i : grid1.Coords, EltTy.bits .f32 = 32 ∨ (Rect.block (s := S256x32) S256x32.size (cc1_transform_25 i) (hinb1_25 i)).WholeWords (EltTy.packing .f32)
  hstage1_26 : ∀ j, (stage1_26 j).IsWhole
  nbuf1_26 : grid1.bufCount reads1_26 true = 1
  hreads1_26 : ∀ i i' : grid1.Coords, (∀ a, reads1_26 a = true → i a = i' a) → cc1_transform_26 i = cc1_transform_26 i'
  hinb1_26 : ∀ (i : grid1.Coords) a, (cc1_transform_26 i a + 1) * S32x256.size a ≤ S32x256.size a
  hwx1_26 : ∀ i : grid1.Coords, EltTy.bits .f32 = 32 ∨ (Rect.block (s := S32x256) S32x256.size (cc1_transform_26 i) (hinb1_26 i)).WholeWords (EltTy.packing .f32)
  hstage1_27 : ∀ j, (stage1_27 j).IsWhole
  nbuf1_27 : grid1.bufCount reads1_27 false = 2
  hreads1_27 : ∀ i i' : grid1.Coords, (∀ a, reads1_27 a = true → i a = i' a) → cc1_transform_27 i = cc1_transform_27 i'
  hinb1_27 : ∀ (i : grid1.Coords) a, (cc1_transform_27 i a + 1) * S1024x2.size a ≤ S65536x2.size a
  hwx1_27 : ∀ i : grid1.Coords, EltTy.bits .f32 = 32 ∨ (Rect.block (s := S65536x2) S1024x2.size (cc1_transform_27 i) (hinb1_27 i)).WholeWords (EltTy.packing .f32)
  hstage1_28 : ∀ j, (stage1_28 j).IsWhole
  nbuf1_28 : grid1.bufCount reads1_28 false = 2
  hreads1_28 : ∀ i i' : grid1.Coords, (∀ a, reads1_28 a = true → i a = i' a) → cc1_transform_28 i = cc1_transform_28 i'
  hinb1_28 : ∀ (i : grid1.Coords) a, (cc1_transform_28 i a + 1) * S1024x4.size a ≤ S65536x4.size a
  hwx1_28 : ∀ i : grid1.Coords, EltTy.bits .f32 = 32 ∨ (Rect.block (s := S65536x4) S1024x4.size (cc1_transform_28 i) (hinb1_28 i)).WholeWords (EltTy.packing .f32)

variable [Facts₀]

def dot_S2048x1024_S256x1024_S2048x256_1_1_0_0_n_n : DotDims S2048x1024 S256x1024 S2048x256 where
  lhsContracting := [1]
  rhsContracting := [1]
  lhsNonContracting := [0]
  rhsNonContracting := [0]
  lhsBatch := []
  rhsBatch := []
  wf := dot_S2048x1024_S256x1024_S2048x256_1_1_0_0_n_n_wf
def dot_S1024x256_S256x32_S1024x32_1_0_0_1_n_n : DotDims S1024x256 S256x32 S1024x32 where
  lhsContracting := [1]
  rhsContracting := [0]
  lhsNonContracting := [0]
  rhsNonContracting := [1]
  lhsBatch := []
  rhsBatch := []
  wf := dot_S1024x256_S256x32_S1024x32_1_0_0_1_n_n_wf
def dot_S1024x32_S32x256_S1024x256_1_0_0_1_n_n : DotDims S1024x32 S32x256 S1024x256 where
  lhsContracting := [1]
  rhsContracting := [0]
  lhsNonContracting := [0]
  rhsNonContracting := [1]
  lhsBatch := []
  rhsBatch := []
  wf := dot_S1024x32_S32x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x2_S1024x2_1_0_0_1_n_n : DotDims S1024x256 S256x2 S1024x2 where
  lhsContracting := [1]
  rhsContracting := [0]
  lhsNonContracting := [0]
  rhsNonContracting := [1]
  lhsBatch := []
  rhsBatch := []
  wf := dot_S1024x256_S256x2_S1024x2_1_0_0_1_n_n_wf
def dot_S1024x256_S256x4_S1024x4_1_0_0_1_n_n : DotDims S1024x256 S256x4 S1024x4 where
  lhsContracting := [1]
  rhsContracting := [0]
  lhsNonContracting := [0]
  rhsNonContracting := [1]
  lhsBatch := []
  rhsBatch := []
  wf := dot_S1024x256_S256x4_S1024x4_1_0_0_1_n_n_wf

abbrev win0_0 : Pipeline.Window sig grid0 :=
  Pipeline.Window.ofSpec (Memref.whole main_v11) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v52) S256x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v55) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v58) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v61) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v63) S256x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v66) S1x256.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v69) S1x256.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v72) S1x256.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v74) S256x256.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v77) S1x256.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v20) S256x2.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_v78) S1x2.size cc1_transform_18 reads1_18 false true 1 stage1_18 sem1_18
    hrank1 hreads1_18 hinb1_18 nbuf1_18 (Memref.isWhole_whole _) hwx1_18 hstage1_18

abbrev win1_19 : Pipeline.Window sig grid1 :=
  Pipeline.Window.ofSpec (Memref.whole main_v21) S256x256.size cc1_transform_19 reads1_19 false true 1 stage1_19 sem1_19
    hrank1 hreads1_19 hinb1_19 nbuf1_19 (Memref.isWhole_whole _) hwx1_19 hstage1_19

abbrev win1_20 : Pipeline.Window sig grid1 :=
  Pipeline.Window.ofSpec (Memref.whole main_v79) S1x256.size cc1_transform_20 reads1_20 false true 1 stage1_20 sem1_20
    hrank1 hreads1_20 hinb1_20 nbuf1_20 (Memref.isWhole_whole _) hwx1_20 hstage1_20

abbrev win1_21 : Pipeline.Window sig grid1 :=
  Pipeline.Window.ofSpec (Memref.whole main_v22) S256x256.size cc1_transform_21 reads1_21 false true 1 stage1_21 sem1_21
    hrank1 hreads1_21 hinb1_21 nbuf1_21 (Memref.isWhole_whole _) hwx1_21 hstage1_21

abbrev win1_22 : Pipeline.Window sig grid1 :=
  Pipeline.Window.ofSpec (Memref.whole main_v80) S1x256.size cc1_transform_22 reads1_22 false true 1 stage1_22 sem1_22
    hrank1 hreads1_22 hinb1_22 nbuf1_22 (Memref.isWhole_whole _) hwx1_22 hstage1_22

abbrev win1_23 : Pipeline.Window sig grid1 :=
  Pipeline.Window.ofSpec (Memref.whole main_v23) S256x4.size cc1_transform_23 reads1_23 false true 1 stage1_23 sem1_23
    hrank1 hreads1_23 hinb1_23 nbuf1_23 (Memref.isWhole_whole _) hwx1_23 hstage1_23

abbrev win1_24 : Pipeline.Window sig grid1 :=
  Pipeline.Window.ofSpec (Memref.whole main_v81) S1x4.size cc1_transform_24 reads1_24 false true 1 stage1_24 sem1_24
    hrank1 hreads1_24 hinb1_24 nbuf1_24 (Memref.isWhole_whole _) hwx1_24 hstage1_24

abbrev win1_25 : Pipeline.Window sig grid1 :=
  Pipeline.Window.ofSpec (Memref.whole main_v32) S256x32.size cc1_transform_25 reads1_25 false true 1 stage1_25 sem1_25
    hrank1 hreads1_25 hinb1_25 nbuf1_25 (Memref.isWhole_whole _) hwx1_25 hstage1_25

abbrev win1_26 : Pipeline.Window sig grid1 :=
  Pipeline.Window.ofSpec (Memref.whole main_v33) S32x256.size cc1_transform_26 reads1_26 false true 1 stage1_26 sem1_26
    hrank1 hreads1_26 hinb1_26 nbuf1_26 (Memref.isWhole_whole _) hwx1_26 hstage1_26

abbrev win1_27 : Pipeline.Window sig grid1 :=
  Pipeline.Window.ofSpec (Memref.whole main_v82_0) S1024x2.size cc1_transform_27 reads1_27 true false 2 stage1_27 sem1_27
    hrank1 hreads1_27 hinb1_27 nbuf1_27 (Memref.isWhole_whole _) hwx1_27 hstage1_27

abbrev win1_28 : Pipeline.Window sig grid1 :=
  Pipeline.Window.ofSpec (Memref.whole main_v82_1) S1024x4.size cc1_transform_28 reads1_28 true false 2 stage1_28 sem1_28
    hrank1 hreads1_28 hinb1_28 nbuf1_28 (Memref.isWhole_whole _) hwx1_28 hstage1_28

abbrev win1 : Fin 29 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | 20 => win1_20 | 21 => win1_21 | 22 => win1_22 | 23 => win1_23 | 24 => win1_24 | 25 => win1_25 | 26 => win1_26 | 27 => win1_27 | 28 => win1_28 | ⟨_ + 29, h⟩ => absurd h (Nat.not_lt.2 (Nat.le_add_left _ _))
abbrev spec1 : Fin 29 → Pipeline.WinSpec sig grid1.rank := fun w => (win1 w).toWinSpec

class Facts : Prop extends Facts₀ where

variable [Facts]
-- ==== ReferenceIdeal.lean ====
abbrev S32x256x32x32 : Shape := ⟨4, ![32, 256, 32, 32]⟩
abbrev S32x2048x1x2 : Shape := ⟨4, ![32, 2048, 1, 2]⟩
abbrev S2x256 : Shape := ⟨2, ![2, 256]⟩
abbrev S2x256x256x3x3 : Shape := ⟨5, ![2, 256, 256, 3, 3]⟩
abbrev S2 : Shape := ⟨1, ![2]⟩
abbrev S256x256 : Shape := ⟨2, ![256, 256]⟩
abbrev S256 : Shape := ⟨1, ![256]⟩
abbrev S4x256 : Shape := ⟨2, ![4, 256]⟩
abbrev S4 : Shape := ⟨1, ![4]⟩
abbrev S32x2048x2 : Shape := ⟨3, ![32, 2048, 2]⟩
abbrev S_ : Shape := ⟨0, ![]⟩
abbrev S32x2048x1 : Shape := ⟨3, ![32, 2048, 1]⟩
abbrev S32x2048 : Shape := ⟨2, ![32, 2048]⟩
abbrev S32x256x1024 : Shape := ⟨3, ![32, 256, 1024]⟩
abbrev S32x1x2048 : Shape := ⟨3, ![32, 1, 2048]⟩
abbrev S1 : Shape := ⟨1, ![1]⟩
abbrev S1x1x1 : Shape := ⟨3, ![1, 1, 1]⟩
abbrev S32x256x2048 : Shape := ⟨3, ![32, 256, 2048]⟩
abbrev S32x2048x256 : Shape := ⟨3, ![32, 2048, 256]⟩
abbrev S65536x256 : Shape := ⟨2, ![65536, 256]⟩
abbrev S1x256 : Shape := ⟨2, ![1, 256]⟩
abbrev S1x256x256x3x3 : Shape := ⟨5, ![1, 256, 256, 3, 3]⟩
abbrev S256x256x3x3 : Shape := ⟨4, ![256, 256, 3, 3]⟩
abbrev S65536x32x8 : Shape := ⟨3, ![65536, 32, 8]⟩
abbrev S65536x32 : Shape := ⟨2, ![65536, 32]⟩
abbrev S65536x32x1 : Shape := ⟨3, ![65536, 32, 1]⟩
abbrev S256x256x1x1 : Shape := ⟨4, ![256, 256, 1, 1]⟩
abbrev S256x2 : Shape := ⟨2, ![256, 2]⟩
abbrev S65536x2 : Shape := ⟨2, ![65536, 2]⟩
abbrev S1x2 : Shape := ⟨2, ![1, 2]⟩
abbrev S256x4 : Shape := ⟨2, ![256, 4]⟩
abbrev S65536x4 : Shape := ⟨2, ![65536, 4]⟩
abbrev S1x4 : Shape := ⟨2, ![1, 4]⟩
abbrev S32x2048x4 : Shape := ⟨3, ![32, 2048, 4]⟩

abbrev nBuf : Space → Nat
  | .hbm => 390
  | .vmem => 0
  | .smem => 0
  | _ => 0

abbrev hbmTy0_0 (i : Nat) : BufTy := match i % 128 with
  | 0 => ⟨S32x256x32x32, .f32⟩
  | 1 => ⟨S32x2048x1x2, .i32⟩
  | 2 => ⟨S2x256, .f32⟩
  | 3 => ⟨S2x256, .f32⟩
  | 4 => ⟨S2x256x256x3x3, .f32⟩
  | 5 => ⟨S2x256, .f32⟩
  | 6 => ⟨S2x256, .f32⟩
  | 7 => ⟨S2x256, .f32⟩
  | 8 => ⟨S2x256x256x3x3, .f32⟩
  | 9 => ⟨S2x256, .f32⟩
  | 10 => ⟨S2x256, .f32⟩
  | 11 => ⟨S2, .f32⟩
  | 12 => ⟨S256x256, .f32⟩
  | 13 => ⟨S256, .f32⟩
  | 14 => ⟨S256x256, .f32⟩
  | 15 => ⟨S256, .f32⟩
  | 16 => ⟨S4x256, .f32⟩
  | 17 => ⟨S4, .f32⟩
  | 18 => ⟨S32x2048x2, .i32⟩
  | 19 => ⟨S_, .i32⟩
  | 20 => ⟨S_, .i32⟩
  | 21 => ⟨S32x2048x2, .i32⟩
  | 22 => ⟨S32x2048x2, .i32⟩
  | 23 => ⟨S32x2048x2, .i32⟩
  | 24 => ⟨S_, .i32⟩
  | 25 => ⟨S32x2048x2, .i32⟩
  | 26 => ⟨S32x2048x2, .i1⟩
  | 27 => ⟨S32x2048x2, .i32⟩
  | 28 => ⟨S32x2048x2, .i32⟩
  | 29 => ⟨S_, .i32⟩
  | 30 => ⟨S32x2048x2, .i32⟩
  | 31 => ⟨S32x2048x2, .i1⟩
  | 32 => ⟨S32x2048x2, .i1⟩
  | 33 => ⟨S_, .i32⟩
  | 34 => ⟨S32x2048x2, .i32⟩
  | 35 => ⟨S32x2048x2, .i32⟩
  | 36 => ⟨S32x2048x2, .i32⟩
  | 37 => ⟨S32x2048x1, .i32⟩
  | 38 => ⟨S32x2048, .i32⟩
  | 39 => ⟨S_, .i32⟩
  | 40 => ⟨S32x2048, .i32⟩
  | 41 => ⟨S32x2048, .i32⟩
  | 42 => ⟨S32x2048x1, .i32⟩
  | 43 => ⟨S32x2048, .i32⟩
  | 44 => ⟨S32x2048, .i32⟩
  | 45 => ⟨S32x256x1024, .f32⟩
  | 46 => ⟨S32x1x2048, .i32⟩
  | 47 => ⟨S_, .i32⟩
  | 48 => ⟨S32x1x2048, .i32⟩
  | 49 => ⟨S32x1x2048, .i1⟩
  | 50 => ⟨S_, .i32⟩
  | 51 => ⟨S32x1x2048, .i32⟩
  | 52 => ⟨S32x1x2048, .i32⟩
  | 53 => ⟨S32x1x2048, .i32⟩
  | 54 => ⟨S32x2048x1, .i32⟩
  | 55 => ⟨S1, .i32⟩
  | 56 => ⟨S_, .i32⟩
  | 57 => ⟨S32x2048x1, .i32⟩
  | 58 => ⟨S32x2048x1, .i1⟩
  | 59 => ⟨S1x1x1, .i32⟩
  | 60 => ⟨S32x2048x1, .i32⟩
  | 61 => ⟨S32x2048x1, .i1⟩
  | 62 => ⟨S32x2048x1, .i1⟩
  | 63 => ⟨S_, .i1⟩
  | 64 => ⟨S32x2048, .i1⟩
  | 65 => ⟨S32x256x2048, .f32⟩
  | 66 => ⟨S32x256x2048, .i1⟩
  | 67 => ⟨S_, .f32⟩
  | 68 => ⟨S32x256x2048, .f32⟩
  | 69 => ⟨S32x256x2048, .f32⟩
  | 70 => ⟨S32x2048x256, .f32⟩
  | 71 => ⟨S65536x256, .f32⟩
  | 72 => ⟨S1x256, .f32⟩
  | 73 => ⟨S256, .f32⟩
  | 74 => ⟨S1x256, .f32⟩
  | 75 => ⟨S256, .f32⟩
  | 76 => ⟨S1x256x256x3x3, .f32⟩
  | 77 => ⟨S256x256x3x3, .f32⟩
  | 78 => ⟨S1x256, .f32⟩
  | 79 => ⟨S256, .f32⟩
  | 80 => ⟨S1x256, .f32⟩
  | 81 => ⟨S256, .f32⟩
  | 82 => ⟨S1x256, .f32⟩
  | 83 => ⟨S256, .f32⟩
  | 84 => ⟨S1x256x256x3x3, .f32⟩
  | 85 => ⟨S256x256x3x3, .f32⟩
  | 86 => ⟨S1x256, .f32⟩
  | 87 => ⟨S256, .f32⟩
  | 88 => ⟨S65536x32x8, .f32⟩
  | 89 => ⟨S_, .f32⟩
  | 90 => ⟨S65536x32, .f32⟩
  | 91 => ⟨S65536x32x1, .f32⟩
  | 92 => ⟨S_, .f32⟩
  | 93 => ⟨S65536x32x1, .f32⟩
  | 94 => ⟨S65536x32x1, .f32⟩
  | 95 => ⟨S_, .i32⟩
  | 96 => ⟨S_, .f32⟩
  | 97 => ⟨S65536x32, .f32⟩
  | 98 => ⟨S65536x32x1, .f32⟩
  | 99 => ⟨S_, .f32⟩
  | 100 => ⟨S65536x32x1, .f32⟩
  | 101 => ⟨S65536x32x1, .f32⟩
  | 102 => ⟨S65536x32x8, .f32⟩
  | 103 => ⟨S65536x32x8, .f32⟩
  | 104 => ⟨S65536x32x8, .f32⟩
  | 105 => ⟨S_, .f32⟩
  | 106 => ⟨S_, .f32⟩
  | 107 => ⟨S_, .f32⟩
  | 108 => ⟨S_, .f32⟩
  | 109 => ⟨S65536x32, .f32⟩
  | 110 => ⟨S65536x32x1, .f32⟩
  | 111 => ⟨S65536x32x1, .f32⟩
  | 112 => ⟨S65536x32x1, .f32⟩
  | 113 => ⟨S_, .f32⟩
  | 114 => ⟨S_, .i1⟩
  | 115 => ⟨S_, .f32⟩
  | 116 => ⟨S_, .f32⟩
  | 117 => ⟨S65536x32x1, .f32⟩
  | 118 => ⟨S65536x32x1, .f32⟩
  | 119 => ⟨S65536x32x8, .f32⟩
  | 120 => ⟨S65536x32x8, .f32⟩
  | 121 => ⟨S_, .f32⟩
  | 122 => ⟨S65536x32x1, .f32⟩
  | 123 => ⟨S65536x32x1, .f32⟩
  | 124 => ⟨S65536x32x1, .f32⟩
  | 125 => ⟨S65536x32x8, .f32⟩
  | 126 => ⟨S65536x32x8, .f32⟩
  | 127 => ⟨S65536x256, .f32⟩
  | _ => ⟨S32x256x32x32, .f32⟩

abbrev hbmTy0_1 (i : Nat) : BufTy := match i % 128 with
  | 0 => ⟨S1x256, .f32⟩
  | 1 => ⟨S65536x256, .f32⟩
  | 2 => ⟨S65536x256, .f32⟩
  | 3 => ⟨S1x256, .f32⟩
  | 4 => ⟨S65536x256, .f32⟩
  | 5 => ⟨S65536x256, .f32⟩
  | 6 => ⟨S65536x256, .f32⟩
  | 7 => ⟨S65536x256, .f32⟩
  | 8 => ⟨S_, .f32⟩
  | 9 => ⟨S65536x256, .f32⟩
  | 10 => ⟨S65536x256, .f32⟩
  | 11 => ⟨S_, .f32⟩
  | 12 => ⟨S65536x256, .f32⟩
  | 13 => ⟨S65536x256, .f32⟩
  | 14 => ⟨S65536x256, .f32⟩
  | 15 => ⟨S256x256x1x1, .f32⟩
  | 16 => ⟨S256x256, .f32⟩
  | 17 => ⟨S256x256, .f32⟩
  | 18 => ⟨S65536x256, .f32⟩
  | 19 => ⟨S1x256, .f32⟩
  | 20 => ⟨S65536x256, .f32⟩
  | 21 => ⟨S65536x256, .f32⟩
  | 22 => ⟨S65536x32x8, .f32⟩
  | 23 => ⟨S_, .f32⟩
  | 24 => ⟨S65536x32, .f32⟩
  | 25 => ⟨S65536x32x1, .f32⟩
  | 26 => ⟨S_, .f32⟩
  | 27 => ⟨S65536x32x1, .f32⟩
  | 28 => ⟨S65536x32x1, .f32⟩
  | 29 => ⟨S_, .i32⟩
  | 30 => ⟨S_, .f32⟩
  | 31 => ⟨S65536x32, .f32⟩
  | 32 => ⟨S65536x32x1, .f32⟩
  | 33 => ⟨S_, .f32⟩
  | 34 => ⟨S65536x32x1, .f32⟩
  | 35 => ⟨S65536x32x1, .f32⟩
  | 36 => ⟨S65536x32x8, .f32⟩
  | 37 => ⟨S65536x32x8, .f32⟩
  | 38 => ⟨S65536x32x8, .f32⟩
  | 39 => ⟨S_, .f32⟩
  | 40 => ⟨S_, .f32⟩
  | 41 => ⟨S_, .f32⟩
  | 42 => ⟨S_, .f32⟩
  | 43 => ⟨S65536x32, .f32⟩
  | 44 => ⟨S65536x32x1, .f32⟩
  | 45 => ⟨S65536x32x1, .f32⟩
  | 46 => ⟨S65536x32x1, .f32⟩
  | 47 => ⟨S_, .f32⟩
  | 48 => ⟨S_, .i1⟩
  | 49 => ⟨S_, .f32⟩
  | 50 => ⟨S_, .f32⟩
  | 51 => ⟨S65536x32x1, .f32⟩
  | 52 => ⟨S65536x32x1, .f32⟩
  | 53 => ⟨S65536x32x8, .f32⟩
  | 54 => ⟨S65536x32x8, .f32⟩
  | 55 => ⟨S_, .f32⟩
  | 56 => ⟨S65536x32x1, .f32⟩
  | 57 => ⟨S65536x32x1, .f32⟩
  | 58 => ⟨S65536x32x1, .f32⟩
  | 59 => ⟨S65536x32x8, .f32⟩
  | 60 => ⟨S65536x32x8, .f32⟩
  | 61 => ⟨S65536x256, .f32⟩
  | 62 => ⟨S1x256, .f32⟩
  | 63 => ⟨S65536x256, .f32⟩
  | 64 => ⟨S65536x256, .f32⟩
  | 65 => ⟨S1x256, .f32⟩
  | 66 => ⟨S65536x256, .f32⟩
  | 67 => ⟨S65536x256, .f32⟩
  | 68 => ⟨S65536x256, .f32⟩
  | 69 => ⟨S65536x256, .f32⟩
  | 70 => ⟨S_, .f32⟩
  | 71 => ⟨S65536x256, .f32⟩
  | 72 => ⟨S65536x256, .f32⟩
  | 73 => ⟨S_, .f32⟩
  | 74 => ⟨S65536x256, .f32⟩
  | 75 => ⟨S65536x256, .f32⟩
  | 76 => ⟨S65536x256, .f32⟩
  | 77 => ⟨S256x256x1x1, .f32⟩
  | 78 => ⟨S256x256, .f32⟩
  | 79 => ⟨S256x256, .f32⟩
  | 80 => ⟨S65536x256, .f32⟩
  | 81 => ⟨S1x256, .f32⟩
  | 82 => ⟨S65536x256, .f32⟩
  | 83 => ⟨S65536x256, .f32⟩
  | 84 => ⟨S65536x256, .f32⟩
  | 85 => ⟨S1x256, .f32⟩
  | 86 => ⟨S256, .f32⟩
  | 87 => ⟨S1x256, .f32⟩
  | 88 => ⟨S256, .f32⟩
  | 89 => ⟨S1x256x256x3x3, .f32⟩
  | 90 => ⟨S256x256x3x3, .f32⟩
  | 91 => ⟨S1x256, .f32⟩
  | 92 => ⟨S256, .f32⟩
  | 93 => ⟨S1x256, .f32⟩
  | 94 => ⟨S256, .f32⟩
  | 95 => ⟨S1x256, .f32⟩
  | 96 => ⟨S256, .f32⟩
  | 97 => ⟨S1x256x256x3x3, .f32⟩
  | 98 => ⟨S256x256x3x3, .f32⟩
  | 99 => ⟨S1x256, .f32⟩
  | 100 => ⟨S256, .f32⟩
  | 101 => ⟨S65536x32x8, .f32⟩
  | 102 => ⟨S_, .f32⟩
  | 103 => ⟨S65536x32, .f32⟩
  | 104 => ⟨S65536x32x1, .f32⟩
  | 105 => ⟨S_, .f32⟩
  | 106 => ⟨S65536x32x1, .f32⟩
  | 107 => ⟨S65536x32x1, .f32⟩
  | 108 => ⟨S_, .i32⟩
  | 109 => ⟨S_, .f32⟩
  | 110 => ⟨S65536x32, .f32⟩
  | 111 => ⟨S65536x32x1, .f32⟩
  | 112 => ⟨S_, .f32⟩
  | 113 => ⟨S65536x32x1, .f32⟩
  | 114 => ⟨S65536x32x1, .f32⟩
  | 115 => ⟨S65536x32x8, .f32⟩
  | 116 => ⟨S65536x32x8, .f32⟩
  | 117 => ⟨S65536x32x8, .f32⟩
  | 118 => ⟨S_, .f32⟩
  | 119 => ⟨S_, .f32⟩
  | 120 => ⟨S_, .f32⟩
  | 121 => ⟨S_, .f32⟩
  | 122 => ⟨S65536x32, .f32⟩
  | 123 => ⟨S65536x32x1, .f32⟩
  | 124 => ⟨S65536x32x1, .f32⟩
  | 125 => ⟨S65536x32x1, .f32⟩
  | 126 => ⟨S_, .f32⟩
  | 127 => ⟨S_, .i1⟩
  | _ => ⟨S32x256x32x32, .f32⟩

abbrev hbmTy0_2 (i : Nat) : BufTy := match i % 128 with
  | 0 => ⟨S_, .f32⟩
  | 1 => ⟨S_, .f32⟩
  | 2 => ⟨S65536x32x1, .f32⟩
  | 3 => ⟨S65536x32x1, .f32⟩
  | 4 => ⟨S65536x32x8, .f32⟩
  | 5 => ⟨S65536x32x8, .f32⟩
  | 6 => ⟨S_, .f32⟩
  | 7 => ⟨S65536x32x1, .f32⟩
  | 8 => ⟨S65536x32x1, .f32⟩
  | 9 => ⟨S65536x32x1, .f32⟩
  | 10 => ⟨S65536x32x8, .f32⟩
  | 11 => ⟨S65536x32x8, .f32⟩
  | 12 => ⟨S65536x256, .f32⟩
  | 13 => ⟨S1x256, .f32⟩
  | 14 => ⟨S65536x256, .f32⟩
  | 15 => ⟨S65536x256, .f32⟩
  | 16 => ⟨S1x256, .f32⟩
  | 17 => ⟨S65536x256, .f32⟩
  | 18 => ⟨S65536x256, .f32⟩
  | 19 => ⟨S65536x256, .f32⟩
  | 20 => ⟨S65536x256, .f32⟩
  | 21 => ⟨S_, .f32⟩
  | 22 => ⟨S65536x256, .f32⟩
  | 23 => ⟨S65536x256, .f32⟩
  | 24 => ⟨S_, .f32⟩
  | 25 => ⟨S65536x256, .f32⟩
  | 26 => ⟨S65536x256, .f32⟩
  | 27 => ⟨S65536x256, .f32⟩
  | 28 => ⟨S256x256x1x1, .f32⟩
  | 29 => ⟨S256x256, .f32⟩
  | 30 => ⟨S256x256, .f32⟩
  | 31 => ⟨S65536x256, .f32⟩
  | 32 => ⟨S1x256, .f32⟩
  | 33 => ⟨S65536x256, .f32⟩
  | 34 => ⟨S65536x256, .f32⟩
  | 35 => ⟨S65536x32x8, .f32⟩
  | 36 => ⟨S_, .f32⟩
  | 37 => ⟨S65536x32, .f32⟩
  | 38 => ⟨S65536x32x1, .f32⟩
  | 39 => ⟨S_, .f32⟩
  | 40 => ⟨S65536x32x1, .f32⟩
  | 41 => ⟨S65536x32x1, .f32⟩
  | 42 => ⟨S_, .i32⟩
  | 43 => ⟨S_, .f32⟩
  | 44 => ⟨S65536x32, .f32⟩
  | 45 => ⟨S65536x32x1, .f32⟩
  | 46 => ⟨S_, .f32⟩
  | 47 => ⟨S65536x32x1, .f32⟩
  | 48 => ⟨S65536x32x1, .f32⟩
  | 49 => ⟨S65536x32x8, .f32⟩
  | 50 => ⟨S65536x32x8, .f32⟩
  | 51 => ⟨S65536x32x8, .f32⟩
  | 52 => ⟨S_, .f32⟩
  | 53 => ⟨S_, .f32⟩
  | 54 => ⟨S_, .f32⟩
  | 55 => ⟨S_, .f32⟩
  | 56 => ⟨S65536x32, .f32⟩
  | 57 => ⟨S65536x32x1, .f32⟩
  | 58 => ⟨S65536x32x1, .f32⟩
  | 59 => ⟨S65536x32x1, .f32⟩
  | 60 => ⟨S_, .f32⟩
  | 61 => ⟨S_, .i1⟩
  | 62 => ⟨S_, .f32⟩
  | 63 => ⟨S_, .f32⟩
  | 64 => ⟨S65536x32x1, .f32⟩
  | 65 => ⟨S65536x32x1, .f32⟩
  | 66 => ⟨S65536x32x8, .f32⟩
  | 67 => ⟨S65536x32x8, .f32⟩
  | 68 => ⟨S_, .f32⟩
  | 69 => ⟨S65536x32x1, .f32⟩
  | 70 => ⟨S65536x32x1, .f32⟩
  | 71 => ⟨S65536x32x1, .f32⟩
  | 72 => ⟨S65536x32x8, .f32⟩
  | 73 => ⟨S65536x32x8, .f32⟩
  | 74 => ⟨S65536x256, .f32⟩
  | 75 => ⟨S1x256, .f32⟩
  | 76 => ⟨S65536x256, .f32⟩
  | 77 => ⟨S65536x256, .f32⟩
  | 78 => ⟨S1x256, .f32⟩
  | 79 => ⟨S65536x256, .f32⟩
  | 80 => ⟨S65536x256, .f32⟩
  | 81 => ⟨S65536x256, .f32⟩
  | 82 => ⟨S65536x256, .f32⟩
  | 83 => ⟨S_, .f32⟩
  | 84 => ⟨S65536x256, .f32⟩
  | 85 => ⟨S65536x256, .f32⟩
  | 86 => ⟨S_, .f32⟩
  | 87 => ⟨S65536x256, .f32⟩
  | 88 => ⟨S65536x256, .f32⟩
  | 89 => ⟨S65536x256, .f32⟩
  | 90 => ⟨S256x256x1x1, .f32⟩
  | 91 => ⟨S256x256, .f32⟩
  | 92 => ⟨S256x256, .f32⟩
  | 93 => ⟨S65536x256, .f32⟩
  | 94 => ⟨S1x256, .f32⟩
  | 95 => ⟨S65536x256, .f32⟩
  | 96 => ⟨S65536x256, .f32⟩
  | 97 => ⟨S65536x256, .f32⟩
  | 98 => ⟨S256x2, .f32⟩
  | 99 => ⟨S65536x2, .f32⟩
  | 100 => ⟨S1x2, .f32⟩
  | 101 => ⟨S65536x2, .f32⟩
  | 102 => ⟨S65536x2, .f32⟩
  | 103 => ⟨S256x256, .f32⟩
  | 104 => ⟨S65536x256, .f32⟩
  | 105 => ⟨S1x256, .f32⟩
  | 106 => ⟨S65536x256, .f32⟩
  | 107 => ⟨S65536x256, .f32⟩
  | 108 => ⟨S_, .f32⟩
  | 109 => ⟨S65536x256, .f32⟩
  | 110 => ⟨S65536x256, .f32⟩
  | 111 => ⟨S256x256, .f32⟩
  | 112 => ⟨S65536x256, .f32⟩
  | 113 => ⟨S1x256, .f32⟩
  | 114 => ⟨S65536x256, .f32⟩
  | 115 => ⟨S65536x256, .f32⟩
  | 116 => ⟨S_, .f32⟩
  | 117 => ⟨S65536x256, .f32⟩
  | 118 => ⟨S65536x256, .f32⟩
  | 119 => ⟨S256x4, .f32⟩
  | 120 => ⟨S65536x4, .f32⟩
  | 121 => ⟨S1x4, .f32⟩
  | 122 => ⟨S65536x4, .f32⟩
  | 123 => ⟨S65536x4, .f32⟩
  | 124 => ⟨S65536x4, .f32⟩
  | 125 => ⟨S65536x4, .f32⟩
  | 126 => ⟨S_, .f32⟩
  | 127 => ⟨S65536x4, .f32⟩
  | _ => ⟨S32x256x32x32, .f32⟩

abbrev hbmTy0_3 (i : Nat) : BufTy := match i % 128 with
  | 0 => ⟨S65536x4, .f32⟩
  | 1 => ⟨S_, .f32⟩
  | 2 => ⟨S65536x4, .f32⟩
  | 3 => ⟨S65536x4, .f32⟩
  | 4 => ⟨S32x2048x2, .f32⟩
  | 5 => ⟨S32x2048x4, .f32⟩
  | _ => ⟨S32x256x32x32, .f32⟩

abbrev hbmTy (i : Nat) : BufTy := match i / 128 with
  | 0 => hbmTy0_0 i
  | 1 => hbmTy0_1 i
  | 2 => hbmTy0_2 i
  | 3 => hbmTy0_3 i
  | _ => ⟨S32x256x32x32, .f32⟩

abbrev bufTy : (tb : Table) → Fin (tcTables nBuf tb) → BufTy
  | .hbm, ⟨i, _⟩ => hbmTy i
  | _, _ => ⟨S32x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_c_0 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_cst : Ref sig .tc := ⟨.hbm, 89, rfl⟩
abbrev main_v31 : Ref sig .tc := ⟨.hbm, 90, rfl⟩
abbrev main_v32 : Ref sig .tc := ⟨.hbm, 91, rfl⟩
abbrev main_cst_1 : Ref sig .tc := ⟨.hbm, 92, rfl⟩
abbrev main_v33 : Ref sig .tc := ⟨.hbm, 93, rfl⟩
abbrev main_v34 : Ref sig .tc := ⟨.hbm, 94, rfl⟩
abbrev main_c_2 : Ref sig .tc := ⟨.hbm, 95, rfl⟩
abbrev main_call2_cst : Ref sig .tc := ⟨.hbm, 96, rfl⟩
abbrev main_call2_v0 : Ref sig .tc := ⟨.hbm, 97, rfl⟩
abbrev main_call2_v1 : Ref sig .tc := ⟨.hbm, 98, rfl⟩
abbrev main_call2_cst_0 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_v6 : Ref sig .tc := ⟨.hbm, 104, rfl⟩
abbrev main_call2_v7 : Ref sig .tc := ⟨.hbm, 105, rfl⟩
abbrev main_call2_cst_1 : Ref sig .tc := ⟨.hbm, 106, rfl⟩
abbrev main_call2_v8 : Ref sig .tc := ⟨.hbm, 107, rfl⟩
abbrev main_call2_cst_2 : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_call2_v12 : Ref sig .tc := ⟨.hbm, 112, rfl⟩
abbrev main_call2_cst_3 : Ref sig .tc := ⟨.hbm, 113, rfl⟩
abbrev main_call2_v13 : Ref sig .tc := ⟨.hbm, 114, rfl⟩
abbrev main_call2_cst_4 : Ref sig .tc := ⟨.hbm, 115, rfl⟩
abbrev main_call2_call0_v0 : Ref sig .tc := ⟨.hbm, 116, rfl⟩
abbrev main_call2_call0_v1 : Ref sig .tc := ⟨.hbm, 117, rfl⟩
abbrev main_v35 : Ref sig .tc := ⟨.hbm, 118, rfl⟩
abbrev main_v36 : Ref sig .tc := ⟨.hbm, 119, rfl⟩
abbrev main_v37 : Ref sig .tc := ⟨.hbm, 120, rfl⟩
abbrev main_cst_3 : Ref sig .tc := ⟨.hbm, 121, rfl⟩
abbrev main_v38 : Ref sig .tc := ⟨.hbm, 122, rfl⟩
abbrev main_v39 : Ref sig .tc := ⟨.hbm, 123, rfl⟩
abbrev main_v40 : Ref sig .tc := ⟨.hbm, 124, rfl⟩
abbrev main_v41 : Ref sig .tc := ⟨.hbm, 125, rfl⟩
abbrev main_v42 : Ref sig .tc := ⟨.hbm, 126, rfl⟩
abbrev main_v43 : Ref sig .tc := ⟨.hbm, 127, rfl⟩
abbrev main_v44 : Ref sig .tc := ⟨.hbm, 128, rfl⟩
abbrev main_v45 : Ref sig .tc := ⟨.hbm, 129, rfl⟩
abbrev main_v46 : Ref sig .tc := ⟨.hbm, 130, rfl⟩
abbrev main_v47 : Ref sig .tc := ⟨.hbm, 131, rfl⟩
abbrev main_v48 : Ref sig .tc := ⟨.hbm, 132, rfl⟩
abbrev main_v49 : Ref sig .tc := ⟨.hbm, 133, rfl⟩
abbrev main_call3_v0 : Ref sig .tc := ⟨.hbm, 134, rfl⟩
abbrev main_call3_v1 : Ref sig .tc := ⟨.hbm, 135, rfl⟩
abbrev main_call3_cst : Ref sig .tc := ⟨.hbm, 136, rfl⟩
abbrev main_call3_v2 : Ref sig .tc := ⟨.hbm, 137, rfl⟩
abbrev main_call3_v3 : Ref sig .tc := ⟨.hbm, 138, rfl⟩
abbrev main_call3_cst_0 : Ref sig .tc := ⟨.hbm, 139, rfl⟩
abbrev main_call3_v4 : Ref sig .tc := ⟨.hbm, 140, rfl⟩
abbrev main_call3_v5 : Ref sig .tc := ⟨.hbm, 141, rfl⟩
abbrev main_v50 : Ref sig .tc := ⟨.hbm, 142, rfl⟩
abbrev main_v51 : Ref sig .tc := ⟨.hbm, 143, rfl⟩
abbrev main_v52 : Ref sig .tc := ⟨.hbm, 144, rfl⟩
abbrev main_v53 : Ref sig .tc := ⟨.hbm, 145, rfl⟩
abbrev main_v54 : Ref sig .tc := ⟨.hbm, 146, rfl⟩
abbrev main_v55 : Ref sig .tc := ⟨.hbm, 147, rfl⟩
abbrev main_v56 : Ref sig .tc := ⟨.hbm, 148, rfl⟩
abbrev main_v57 : Ref sig .tc := ⟨.hbm, 149, rfl⟩
abbrev main_v58 : Ref sig .tc := ⟨.hbm, 150, rfl⟩
abbrev main_cst_4 : Ref sig .tc := ⟨.hbm, 151, rfl⟩
abbrev main_v59 : Ref sig .tc := ⟨.hbm, 152, rfl⟩
abbrev main_v60 : Ref sig .tc := ⟨.hbm, 153, rfl⟩
abbrev main_cst_5 : Ref sig .tc := ⟨.hbm, 154, rfl⟩
abbrev main_v61 : Ref sig .tc := ⟨.hbm, 155, rfl⟩
abbrev main_v62 : Ref sig .tc := ⟨.hbm, 156, rfl⟩
abbrev main_c_6 : Ref sig .tc := ⟨.hbm, 157, rfl⟩
abbrev main_call4_cst : Ref sig .tc := ⟨.hbm, 158, rfl⟩
abbrev main_call4_v0 : Ref sig .tc := ⟨.hbm, 159, rfl⟩
abbrev main_call4_v1 : Ref sig .tc := ⟨.hbm, 160, rfl⟩
abbrev main_call4_cst_0 : Ref sig .tc := ⟨.hbm, 161, rfl⟩
abbrev main_call4_v2 : Ref sig .tc := ⟨.hbm, 162, rfl⟩
abbrev main_call4_v3 : Ref sig .tc := ⟨.hbm, 163, rfl⟩
abbrev main_call4_v4 : Ref sig .tc := ⟨.hbm, 164, rfl⟩
abbrev main_call4_v5 : Ref sig .tc := ⟨.hbm, 165, rfl⟩
abbrev main_call4_v6 : Ref sig .tc := ⟨.hbm, 166, rfl⟩
abbrev main_call4_v7 : Ref sig .tc := ⟨.hbm, 167, rfl⟩
abbrev main_call4_cst_1 : Ref sig .tc := ⟨.hbm, 168, rfl⟩
abbrev main_call4_v8 : Ref sig .tc := ⟨.hbm, 169, rfl⟩
abbrev main_call4_cst_2 : Ref sig .tc := ⟨.hbm, 170, rfl⟩
abbrev main_call4_v9 : Ref sig .tc := ⟨.hbm, 171, rfl⟩
abbrev main_call4_v10 : Ref sig .tc := ⟨.hbm, 172, rfl⟩
abbrev main_call4_v11 : Ref sig .tc := ⟨.hbm, 173, rfl⟩
abbrev main_call4_v12 : Ref sig .tc := ⟨.hbm, 174, rfl⟩
abbrev main_call4_cst_3 : Ref sig .tc := ⟨.hbm, 175, rfl⟩
abbrev main_call4_v13 : Ref sig .tc := ⟨.hbm, 176, rfl⟩
abbrev main_call4_cst_4 : Ref sig .tc := ⟨.hbm, 177, rfl⟩
abbrev main_call4_call0_v0 : Ref sig .tc := ⟨.hbm, 178, rfl⟩
abbrev main_call4_call0_v1 : Ref sig .tc := ⟨.hbm, 179, rfl⟩
abbrev main_v63 : Ref sig .tc := ⟨.hbm, 180, rfl⟩
abbrev main_v64 : Ref sig .tc := ⟨.hbm, 181, rfl⟩
abbrev main_v65 : Ref sig .tc := ⟨.hbm, 182, rfl⟩
abbrev main_cst_7 : Ref sig .tc := ⟨.hbm, 183, rfl⟩
abbrev main_v66 : Ref sig .tc := ⟨.hbm, 184, rfl⟩
abbrev main_v67 : Ref sig .tc := ⟨.hbm, 185, rfl⟩
abbrev main_v68 : Ref sig .tc := ⟨.hbm, 186, rfl⟩
abbrev main_v69 : Ref sig .tc := ⟨.hbm, 187, rfl⟩
abbrev main_v70 : Ref sig .tc := ⟨.hbm, 188, rfl⟩
abbrev main_v71 : Ref sig .tc := ⟨.hbm, 189, rfl⟩
abbrev main_v72 : Ref sig .tc := ⟨.hbm, 190, rfl⟩
abbrev main_v73 : Ref sig .tc := ⟨.hbm, 191, rfl⟩
abbrev main_v74 : Ref sig .tc := ⟨.hbm, 192, rfl⟩
abbrev main_v75 : Ref sig .tc := ⟨.hbm, 193, rfl⟩
abbrev main_v76 : Ref sig .tc := ⟨.hbm, 194, rfl⟩
abbrev main_v77 : Ref sig .tc := ⟨.hbm, 195, rfl⟩
abbrev main_call5_v0 : Ref sig .tc := ⟨.hbm, 196, rfl⟩
abbrev main_call5_v1 : Ref sig .tc := ⟨.hbm, 197, rfl⟩
abbrev main_call5_cst : Ref sig .tc := ⟨.hbm, 198, rfl⟩
abbrev main_call5_v2 : Ref sig .tc := ⟨.hbm, 199, rfl⟩
abbrev main_call5_v3 : Ref sig .tc := ⟨.hbm, 200, rfl⟩
abbrev main_call5_cst_0 : Ref sig .tc := ⟨.hbm, 201, rfl⟩
abbrev main_call5_v4 : Ref sig .tc := ⟨.hbm, 202, rfl⟩
abbrev main_call5_v5 : Ref sig .tc := ⟨.hbm, 203, rfl⟩
abbrev main_v78 : Ref sig .tc := ⟨.hbm, 204, rfl⟩
abbrev main_v79 : Ref sig .tc := ⟨.hbm, 205, rfl⟩
abbrev main_v80 : Ref sig .tc := ⟨.hbm, 206, rfl⟩
abbrev main_v81 : Ref sig .tc := ⟨.hbm, 207, rfl⟩
abbrev main_v82 : Ref sig .tc := ⟨.hbm, 208, rfl⟩
abbrev main_v83 : Ref sig .tc := ⟨.hbm, 209, rfl⟩
abbrev main_v84 : Ref sig .tc := ⟨.hbm, 210, rfl⟩
abbrev main_v85 : Ref sig .tc := ⟨.hbm, 211, rfl⟩
abbrev main_v86 : Ref sig .tc := ⟨.hbm, 212, rfl⟩
abbrev main_v87 : Ref sig .tc := ⟨.hbm, 213, rfl⟩
abbrev main_v88 : Ref sig .tc := ⟨.hbm, 214, rfl⟩
abbrev main_v89 : Ref sig .tc := ⟨.hbm, 215, rfl⟩
abbrev main_v90 : Ref sig .tc := ⟨.hbm, 216, rfl⟩
abbrev main_v91 : Ref sig .tc := ⟨.hbm, 217, rfl⟩
abbrev main_v92 : Ref sig .tc := ⟨.hbm, 218, rfl⟩
abbrev main_v93 : Ref sig .tc := ⟨.hbm, 219, rfl⟩
abbrev main_v94 : Ref sig .tc := ⟨.hbm, 220, rfl⟩
abbrev main_v95 : Ref sig .tc := ⟨.hbm, 221, rfl⟩
abbrev main_v96 : Ref sig .tc := ⟨.hbm, 222, rfl⟩
abbrev main_v97 : Ref sig .tc := ⟨.hbm, 223, rfl⟩
abbrev main_v98 : Ref sig .tc := ⟨.hbm, 224, rfl⟩
abbrev main_v99 : Ref sig .tc := ⟨.hbm, 225, rfl⟩
abbrev main_v100 : Ref sig .tc := ⟨.hbm, 226, rfl⟩
abbrev main_v101 : Ref sig .tc := ⟨.hbm, 227, rfl⟩
abbrev main_v102 : Ref sig .tc := ⟨.hbm, 228, rfl⟩
abbrev main_v103 : Ref sig .tc := ⟨.hbm, 229, rfl⟩
abbrev main_cst_8 : Ref sig .tc := ⟨.hbm, 230, rfl⟩
abbrev main_v104 : Ref sig .tc := ⟨.hbm, 231, rfl⟩
abbrev main_v105 : Ref sig .tc := ⟨.hbm, 232, rfl⟩
abbrev main_cst_9 : Ref sig .tc := ⟨.hbm, 233, rfl⟩
abbrev main_v106 : Ref sig .tc := ⟨.hbm, 234, rfl⟩
abbrev main_v107 : Ref sig .tc := ⟨.hbm, 235, rfl⟩
abbrev main_c_10 : Ref sig .tc := ⟨.hbm, 236, rfl⟩
abbrev main_call6_cst : Ref sig .tc := ⟨.hbm, 237, rfl⟩
abbrev main_call6_v0 : Ref sig .tc := ⟨.hbm, 238, rfl⟩
abbrev main_call6_v1 : Ref sig .tc := ⟨.hbm, 239, rfl⟩
abbrev main_call6_cst_0 : Ref sig .tc := ⟨.hbm, 240, rfl⟩
abbrev main_call6_v2 : Ref sig .tc := ⟨.hbm, 241, rfl⟩
abbrev main_call6_v3 : Ref sig .tc := ⟨.hbm, 242, rfl⟩
abbrev main_call6_v4 : Ref sig .tc := ⟨.hbm, 243, rfl⟩
abbrev main_call6_v5 : Ref sig .tc := ⟨.hbm, 244, rfl⟩
abbrev main_call6_v6 : Ref sig .tc := ⟨.hbm, 245, rfl⟩
abbrev main_call6_v7 : Ref sig .tc := ⟨.hbm, 246, rfl⟩
abbrev main_call6_cst_1 : Ref sig .tc := ⟨.hbm, 247, rfl⟩
abbrev main_call6_v8 : Ref sig .tc := ⟨.hbm, 248, rfl⟩
abbrev main_call6_cst_2 : Ref sig .tc := ⟨.hbm, 249, rfl⟩
abbrev main_call6_v9 : Ref sig .tc := ⟨.hbm, 250, rfl⟩
abbrev main_call6_v10 : Ref sig .tc := ⟨.hbm, 251, rfl⟩
abbrev main_call6_v11 : Ref sig .tc := ⟨.hbm, 252, rfl⟩
abbrev main_call6_v12 : Ref sig .tc := ⟨.hbm, 253, rfl⟩
abbrev main_call6_cst_3 : Ref sig .tc := ⟨.hbm, 254, rfl⟩
abbrev main_call6_v13 : Ref sig .tc := ⟨.hbm, 255, rfl⟩
abbrev main_call6_cst_4 : Ref sig .tc := ⟨.hbm, 256, rfl⟩
abbrev main_call6_call0_v0 : Ref sig .tc := ⟨.hbm, 257, rfl⟩
abbrev main_call6_call0_v1 : Ref sig .tc := ⟨.hbm, 258, rfl⟩
abbrev main_v108 : Ref sig .tc := ⟨.hbm, 259, rfl⟩
abbrev main_v109 : Ref sig .tc := ⟨.hbm, 260, rfl⟩
abbrev main_v110 : Ref sig .tc := ⟨.hbm, 261, rfl⟩
abbrev main_cst_11 : Ref sig .tc := ⟨.hbm, 262, rfl⟩
abbrev main_v111 : Ref sig .tc := ⟨.hbm, 263, rfl⟩
abbrev main_v112 : Ref sig .tc := ⟨.hbm, 264, rfl⟩
abbrev main_v113 : Ref sig .tc := ⟨.hbm, 265, rfl⟩
abbrev main_v114 : Ref sig .tc := ⟨.hbm, 266, rfl⟩
abbrev main_v115 : Ref sig .tc := ⟨.hbm, 267, rfl⟩
abbrev main_v116 : Ref sig .tc := ⟨.hbm, 268, rfl⟩
abbrev main_v117 : Ref sig .tc := ⟨.hbm, 269, rfl⟩
abbrev main_v118 : Ref sig .tc := ⟨.hbm, 270, rfl⟩
abbrev main_v119 : Ref sig .tc := ⟨.hbm, 271, rfl⟩
abbrev main_v120 : Ref sig .tc := ⟨.hbm, 272, rfl⟩
abbrev main_v121 : Ref sig .tc := ⟨.hbm, 273, rfl⟩
abbrev main_v122 : Ref sig .tc := ⟨.hbm, 274, rfl⟩
abbrev main_call7_v0 : Ref sig .tc := ⟨.hbm, 275, rfl⟩
abbrev main_call7_v1 : Ref sig .tc := ⟨.hbm, 276, rfl⟩
abbrev main_call7_cst : Ref sig .tc := ⟨.hbm, 277, rfl⟩
abbrev main_call7_v2 : Ref sig .tc := ⟨.hbm, 278, rfl⟩
abbrev main_call7_v3 : Ref sig .tc := ⟨.hbm, 279, rfl⟩
abbrev main_call7_cst_0 : Ref sig .tc := ⟨.hbm, 280, rfl⟩
abbrev main_call7_v4 : Ref sig .tc := ⟨.hbm, 281, rfl⟩
abbrev main_call7_v5 : Ref sig .tc := ⟨.hbm, 282, rfl⟩
abbrev main_v123 : Ref sig .tc := ⟨.hbm, 283, rfl⟩
abbrev main_v124 : Ref sig .tc := ⟨.hbm, 284, rfl⟩
abbrev main_v125 : Ref sig .tc := ⟨.hbm, 285, rfl⟩
abbrev main_v126 : Ref sig .tc := ⟨.hbm, 286, rfl⟩
abbrev main_v127 : Ref sig .tc := ⟨.hbm, 287, rfl⟩
abbrev main_v128 : Ref sig .tc := ⟨.hbm, 288, rfl⟩
abbrev main_v129 : Ref sig .tc := ⟨.hbm, 289, rfl⟩
abbrev main_v130 : Ref sig .tc := ⟨.hbm, 290, rfl⟩
abbrev main_v131 : Ref sig .tc := ⟨.hbm, 291, rfl⟩
abbrev main_cst_12 : Ref sig .tc := ⟨.hbm, 292, rfl⟩
abbrev main_v132 : Ref sig .tc := ⟨.hbm, 293, rfl⟩
abbrev main_v133 : Ref sig .tc := ⟨.hbm, 294, rfl⟩
abbrev main_cst_13 : Ref sig .tc := ⟨.hbm, 295, rfl⟩
abbrev main_v134 : Ref sig .tc := ⟨.hbm, 296, rfl⟩
abbrev main_v135 : Ref sig .tc := ⟨.hbm, 297, rfl⟩
abbrev main_c_14 : Ref sig .tc := ⟨.hbm, 298, rfl⟩
abbrev main_call8_cst : Ref sig .tc := ⟨.hbm, 299, rfl⟩
abbrev main_call8_v0 : Ref sig .tc := ⟨.hbm, 300, rfl⟩
abbrev main_call8_v1 : Ref sig .tc := ⟨.hbm, 301, rfl⟩
abbrev main_call8_cst_0 : Ref sig .tc := ⟨.hbm, 302, rfl⟩
abbrev main_call8_v2 : Ref sig .tc := ⟨.hbm, 303, rfl⟩
abbrev main_call8_v3 : Ref sig .tc := ⟨.hbm, 304, rfl⟩
abbrev main_call8_v4 : Ref sig .tc := ⟨.hbm, 305, rfl⟩
abbrev main_call8_v5 : Ref sig .tc := ⟨.hbm, 306, rfl⟩
abbrev main_call8_v6 : Ref sig .tc := ⟨.hbm, 307, rfl⟩
abbrev main_call8_v7 : Ref sig .tc := ⟨.hbm, 308, rfl⟩
abbrev main_call8_cst_1 : Ref sig .tc := ⟨.hbm, 309, rfl⟩
abbrev main_call8_v8 : Ref sig .tc := ⟨.hbm, 310, rfl⟩
abbrev main_call8_cst_2 : Ref sig .tc := ⟨.hbm, 311, rfl⟩
abbrev main_call8_v9 : Ref sig .tc := ⟨.hbm, 312, rfl⟩
abbrev main_call8_v10 : Ref sig .tc := ⟨.hbm, 313, rfl⟩
abbrev main_call8_v11 : Ref sig .tc := ⟨.hbm, 314, rfl⟩
abbrev main_call8_v12 : Ref sig .tc := ⟨.hbm, 315, rfl⟩
abbrev main_call8_cst_3 : Ref sig .tc := ⟨.hbm, 316, rfl⟩
abbrev main_call8_v13 : Ref sig .tc := ⟨.hbm, 317, rfl⟩
abbrev main_call8_cst_4 : Ref sig .tc := ⟨.hbm, 318, rfl⟩
abbrev main_call8_call0_v0 : Ref sig .tc := ⟨.hbm, 319, rfl⟩
abbrev main_call8_call0_v1 : Ref sig .tc := ⟨.hbm, 320, rfl⟩
abbrev main_v136 : Ref sig .tc := ⟨.hbm, 321, rfl⟩
abbrev main_v137 : Ref sig .tc := ⟨.hbm, 322, rfl⟩
abbrev main_v138 : Ref sig .tc := ⟨.hbm, 323, rfl⟩
abbrev main_cst_15 : Ref sig .tc := ⟨.hbm, 324, rfl⟩
abbrev main_v139 : Ref sig .tc := ⟨.hbm, 325, rfl⟩
abbrev main_v140 : Ref sig .tc := ⟨.hbm, 326, rfl⟩
abbrev main_v141 : Ref sig .tc := ⟨.hbm, 327, rfl⟩
abbrev main_v142 : Ref sig .tc := ⟨.hbm, 328, rfl⟩
abbrev main_v143 : Ref sig .tc := ⟨.hbm, 329, rfl⟩
abbrev main_v144 : Ref sig .tc := ⟨.hbm, 330, rfl⟩
abbrev main_v145 : Ref sig .tc := ⟨.hbm, 331, rfl⟩
abbrev main_v146 : Ref sig .tc := ⟨.hbm, 332, rfl⟩
abbrev main_v147 : Ref sig .tc := ⟨.hbm, 333, rfl⟩
abbrev main_v148 : Ref sig .tc := ⟨.hbm, 334, rfl⟩
abbrev main_v149 : Ref sig .tc := ⟨.hbm, 335, rfl⟩
abbrev main_v150 : Ref sig .tc := ⟨.hbm, 336, rfl⟩
abbrev main_call9_v0 : Ref sig .tc := ⟨.hbm, 337, rfl⟩
abbrev main_call9_v1 : Ref sig .tc := ⟨.hbm, 338, rfl⟩
abbrev main_call9_cst : Ref sig .tc := ⟨.hbm, 339, rfl⟩
abbrev main_call9_v2 : Ref sig .tc := ⟨.hbm, 340, rfl⟩
abbrev main_call9_v3 : Ref sig .tc := ⟨.hbm, 341, rfl⟩
abbrev main_call9_cst_0 : Ref sig .tc := ⟨.hbm, 342, rfl⟩
abbrev main_call9_v4 : Ref sig .tc := ⟨.hbm, 343, rfl⟩
abbrev main_call9_v5 : Ref sig .tc := ⟨.hbm, 344, rfl⟩
abbrev main_v151 : Ref sig .tc := ⟨.hbm, 345, rfl⟩
abbrev main_v152 : Ref sig .tc := ⟨.hbm, 346, rfl⟩
abbrev main_v153 : Ref sig .tc := ⟨.hbm, 347, rfl⟩
abbrev main_v154 : Ref sig .tc := ⟨.hbm, 348, rfl⟩
abbrev main_v155 : Ref sig .tc := ⟨.hbm, 349, rfl⟩
abbrev main_v156 : Ref sig .tc := ⟨.hbm, 350, rfl⟩
abbrev main_v157 : Ref sig .tc := ⟨.hbm, 351, rfl⟩
abbrev main_v158 : Ref sig .tc := ⟨.hbm, 352, rfl⟩
abbrev main_v159 : Ref sig .tc := ⟨.hbm, 353, rfl⟩
abbrev main_v160 : Ref sig .tc := ⟨.hbm, 354, rfl⟩
abbrev main_v161 : Ref sig .tc := ⟨.hbm, 355, rfl⟩
abbrev main_v162 : Ref sig .tc := ⟨.hbm, 356, rfl⟩
abbrev main_v163 : Ref sig .tc := ⟨.hbm, 357, rfl⟩
abbrev main_v164 : Ref sig .tc := ⟨.hbm, 358, rfl⟩
abbrev main_v165 : Ref sig .tc := ⟨.hbm, 359, rfl⟩
abbrev main_v166 : Ref sig .tc := ⟨.hbm, 360, rfl⟩
abbrev main_v167 : Ref sig .tc := ⟨.hbm, 361, rfl⟩
abbrev main_v168 : Ref sig .tc := ⟨.hbm, 362, rfl⟩
abbrev main_v169 : Ref sig .tc := ⟨.hbm, 363, rfl⟩
abbrev main_call10_cst : Ref sig .tc := ⟨.hbm, 364, rfl⟩
abbrev main_call10_v0 : Ref sig .tc := ⟨.hbm, 365, rfl⟩
abbrev main_v170 : Ref sig .tc := ⟨.hbm, 366, rfl⟩
abbrev main_v171 : Ref sig .tc := ⟨.hbm, 367, rfl⟩
abbrev main_v172 : Ref sig .tc := ⟨.hbm, 368, rfl⟩
abbrev main_v173 : Ref sig .tc := ⟨.hbm, 369, rfl⟩
abbrev main_v174 : Ref sig .tc := ⟨.hbm, 370, rfl⟩
abbrev main_v175 : Ref sig .tc := ⟨.hbm, 371, rfl⟩
abbrev main_call11_cst : Ref sig .tc := ⟨.hbm, 372, rfl⟩
abbrev main_call11_v0 : Ref sig .tc := ⟨.hbm, 373, rfl⟩
abbrev main_v176 : Ref sig .tc := ⟨.hbm, 374, rfl⟩
abbrev main_v177 : Ref sig .tc := ⟨.hbm, 375, rfl⟩
abbrev main_v178 : Ref sig .tc := ⟨.hbm, 376, rfl⟩
abbrev main_v179 : Ref sig .tc := ⟨.hbm, 377, rfl⟩
abbrev main_v180 : Ref sig .tc := ⟨.hbm, 378, rfl⟩
abbrev main_v181 : Ref sig .tc := ⟨.hbm, 379, rfl⟩
abbrev main_v182 : Ref sig .tc := ⟨.hbm, 380, rfl⟩
abbrev main_v183 : Ref sig .tc := ⟨.hbm, 381, rfl⟩
abbrev main_cst_16 : Ref sig .tc := ⟨.hbm, 382, rfl⟩
abbrev main_v184 : Ref sig .tc := ⟨.hbm, 383, rfl⟩
abbrev main_v185 : Ref sig .tc := ⟨.hbm, 384, rfl⟩
abbrev main_cst_17 : Ref sig .tc := ⟨.hbm, 385, rfl⟩
abbrev main_v186 : Ref sig .tc := ⟨.hbm, 386, rfl⟩
abbrev main_v187 : Ref sig .tc := ⟨.hbm, 387, rfl⟩
abbrev main_v188 : Ref sig .tc := ⟨.hbm, 388, rfl⟩
abbrev main_v189 : Ref sig .tc := ⟨.hbm, 389, rfl⟩

abbrev nD : Nat := 1
abbrev τ : Topo := Topo.v7x

variable {F : FTy → Type} [FloatOps F]

class Facts₀ : Prop where
  shapeCasts_S32x2048x1x2_S32x2048x2 : S32x2048x1x2.ShapeCasts S32x2048x2
  bcast_S_S32x2048x2 : S_.BroadcastsInDim S32x2048x2 (![] : Fin 0 → Fin S32x2048x2.rank)
  slices_S32x2048x2_S32x2048x1_0_0_0 : S32x2048x2.Slices ![0, 0, 0] S32x2048x1
  shapeCasts_S32x2048x1_S32x2048 : S32x2048x1.ShapeCasts S32x2048
  bcast_S_S32x2048 : S_.BroadcastsInDim S32x2048 (![] : Fin 0 → Fin S32x2048.rank)
  slices_S32x2048x2_S32x2048x1_0_0_1 : S32x2048x2.Slices ![0, 0, 1] S32x2048x1
  shapeCasts_S32x256x32x32_S32x256x1024 : S32x256x32x32.ShapeCasts S32x256x1024
  bcast_S32x2048_S32x1x2048_0_2 : S32x2048.BroadcastsInDim S32x1x2048 (![0, 2] : Fin 2 → Fin S32x1x2048.rank)
  bcast_S_S32x1x2048 : S_.BroadcastsInDim S32x1x2048 (![] : Fin 0 → Fin S32x1x2048.rank)
  shapeCasts_S32x1x2048_S32x2048x1 : S32x1x2048.ShapeCasts S32x2048x1
  bcast_S_S32x2048x1 : S_.BroadcastsInDim S32x2048x1 (![] : Fin 0 → Fin S32x2048x1.rank)
  bcast_S1_S1x1x1_2 : S1.BroadcastsInDim S1x1x1 (![2] : Fin 1 → Fin S1x1x1.rank)
  bcast_S1x1x1_S32x2048x1_0_1_2 : S1x1x1.BroadcastsInDim S32x2048x1 (![0, 1, 2] : Fin 3 → Fin S32x2048x1.rank)
  reducesTo_S32x2048x1_S32x2048_d2 : S32x2048x1.ReducesTo [2] S32x2048
  h_S_ : 0 < S_.numel
  bcast_S32x2048_S32x256x2048_0_2 : S32x2048.BroadcastsInDim S32x256x2048 (![0, 2] : Fin 2 → Fin S32x256x2048.rank)
  bcast_S_S32x256x2048 : S_.BroadcastsInDim S32x256x2048 (![] : Fin 0 → Fin S32x256x2048.rank)
  transposes_S32x256x2048_S32x2048x256_0_2_1 : S32x256x2048.Transposes [0, 2, 1] S32x2048x256
  shapeCasts_S32x2048x256_S65536x256 : S32x2048x256.ShapeCasts S65536x256
  slices_S2x256_S1x256_0_0 : S2x256.Slices ![0, 0] S1x256
  shapeCasts_S1x256_S256 : S1x256.ShapeCasts S256
  slices_S2x256x256x3x3_S1x256x256x3x3_0_0_0_0_0 : S2x256x256x3x3.Slices ![0, 0, 0, 0, 0] S1x256x256x3x3
  shapeCasts_S1x256x256x3x3_S256x256x3x3 : S1x256x256x3x3.ShapeCasts S256x256x3x3
  shapeCasts_S65536x256_S65536x32x8 : S65536x256.ShapeCasts S65536x32x8
  reducesTo_S65536x32x8_S65536x32_d2 : S65536x32x8.ReducesTo [2] S65536x32
  bcast_S65536x32_S65536x32x1_0_1 : S65536x32.BroadcastsInDim S65536x32x1 (![0, 1] : Fin 2 → Fin S65536x32x1.rank)
  bcast_S_S65536x32x1 : S_.BroadcastsInDim S65536x32x1 (![] : Fin 0 → Fin S65536x32x1.rank)
  bcast_S65536x32x1_S65536x32x8_0_1_2 : S65536x32x1.BroadcastsInDim S65536x32x8 (![0, 1, 2] : Fin 3 → Fin S65536x32x8.rank)
  shapeCasts_S65536x32x8_S65536x256 : S65536x32x8.ShapeCasts S65536x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  slices_S256x256x3x3_S256x256x1x1_0_0_1_1 : S256x256x3x3.Slices ![0, 0, 1, 1] S256x256x1x1
  shapeCasts_S256x256x1x1_S256x256 : S256x256x1x1.ShapeCasts S256x256
  transposes_S256x256_S256x256_1_0 : S256x256.Transposes [1, 0] S256x256
  slices_S2x256_S1x256_1_0 : S2x256.Slices ![1, 0] S1x256
  slices_S2x256x256x3x3_S1x256x256x3x3_1_0_0_0_0 : S2x256x256x3x3.Slices ![1, 0, 0, 0, 0] S1x256x256x3x3
  transposes_S2x256_S256x2_1_0 : S2x256.Transposes [1, 0] S256x2
  bcast_S2_S1x2_1 : S2.BroadcastsInDim S1x2 (![1] : Fin 1 → Fin S1x2.rank)
  bcast_S1x2_S65536x2_0_1 : S1x2.BroadcastsInDim S65536x2 (![0, 1] : Fin 2 → Fin S65536x2.rank)
  transposes_S4x256_S256x4_1_0 : S4x256.Transposes [1, 0] S256x4
  bcast_S4_S1x4_1 : S4.BroadcastsInDim S1x4 (![1] : Fin 1 → Fin S1x4.rank)
  bcast_S1x4_S65536x4_0_1 : S1x4.BroadcastsInDim S65536x4 (![0, 1] : Fin 2 → Fin S65536x4.rank)
  bcast_S_S65536x4 : S_.BroadcastsInDim S65536x4 (![] : Fin 0 → Fin S65536x4.rank)
  shapeCasts_S65536x2_S32x2048x2 : S65536x2.ShapeCasts S32x2048x2
  shapeCasts_S65536x4_S32x2048x4 : S65536x4.ShapeCasts S32x2048x4
  gather_S32x256x1024_S32x2048x1_S32x256x2048_1_2_0_0_2_2_12561_wf : GatherDims.WF S32x256x1024 S32x2048x1 S32x256x2048 [1] [2] [0] [2] [0] 2 ![1, 256, 1]
  dot_S65536x256_S256x256_S65536x256_1_0_0_1_n_n_wf : DotDims.WF S65536x256 S256x256 S65536x256 [1] [0] [0] [1] [] []
  dot_S65536x256_S256x2_S65536x2_1_0_0_1_n_n_wf : DotDims.WF S65536x256 S256x2 S65536x2 [1] [0] [0] [1] [] []
  dot_S65536x256_S256x4_S65536x4_1_0_0_1_n_n_wf : DotDims.WF S65536x256 S256x4 S65536x4 [1] [0] [0] [1] [] []

variable [Facts₀]

def gather_S32x256x1024_S32x2048x1_S32x256x2048_1_2_0_0_2_2_12561 : GatherDims S32x256x1024 S32x2048x1 S32x256x2048 where
  offsetDims := [1]
  collapsedSliceDims := [2]
  operandBatchingDims := [0]
  startIndicesBatchingDims := [0]
  startIndexMap := [2]
  indexVectorDim := 2
  sliceSizes := ![1, 256, 1]
  wf := gather_S32x256x1024_S32x2048x1_S32x256x2048_1_2_0_0_2_2_12561_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x2_S65536x2_1_0_0_1_n_n : DotDims S65536x256 S256x2 S65536x2 where
  lhsContracting := [1]
  rhsContracting := [0]
  lhsNonContracting := [0]
  rhsNonContracting := [1]
  lhsBatch := []
  rhsBatch := []
  wf := dot_S65536x256_S256x2_S65536x2_1_0_0_1_n_n_wf
def dot_S65536x256_S256x4_S65536x4_1_0_0_1_n_n : DotDims S65536x256 S256x4 S65536x4 where
  lhsContracting := [1]
  rhsContracting := [0]
  lhsNonContracting := [0]
  rhsNonContracting := [1]
  lhsBatch := []
  rhsBatch := []
  wf := dot_S65536x256_S256x4_S65536x4_1_0_0_1_n_n_wf

class Facts : Prop extends Facts₀ where

variable [Facts]
-- ==== Proof.PreDecode.lean ====
import proofs.«405869_j26843545600773_3_alg».proof.Pre_finite_inputs
import proofs.«405869_j26843545600773_3_alg».proof.Proof.Gen.Pre_finite_inputs
import Idealize.ShloMosaic.Lib.ReduceAll
import Idealize.ShloMosaic.Lib.ValueIdx
import Idealize.ShloMosaic.PureOps.Ideal

noncomputable section

namespace Cert.PreDecode

open Idealize.ShloMosaic Cert.Pre_finite_inputs

/-- the rank-0 shape has exactly one index -/
instance subsingleton_scalarIdx : Subsingleton S_.Idx := ⟨fun a b => funext fun d => d.elim0⟩

/-- An extended real whose absolute value max x (-x) lies strictly below the word 0x7F800000 (which denotes +∞)
    is neither +∞ nor -∞, hence a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  have hlt : max (x : EReal) (-(x : EReal)) < ⊤ := by
    by_contra hn
    simp [hn] at h
  rw [max_lt_iff] at hlt
  induction x using EReal.rec with
  | bot => exact absurd hlt.2 (by simp)
  | coe r => exact ⟨r, rfl⟩
  | top => exact absurd hlt.1 (by simp)

/-- The conjunction over every entry x of a float array of "|x| < +∞" (absolute value, the word of +∞ broadcast to the
    array's shape, the ordered less-than, the reduction by "and" over every axis starting from 1): when it is 1,
    every entry is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ValueIdx.ix0 = 1#1) :
    ∀ i, ∃ r : ℝ, x i = (r : EReal) := fun i =>
  real_of_abs_lt_inf (x i) (Host.reduce_andi_all _ _ hr hu ValueIdx.ix0 e i)

/-- The conjunction over every entry p of an array of 32-bit words of "0 ≤ p and p < 256" (signed compares against the
    broadcast words 0 and 256, their "and", the reduction by "and" over every axis starting from 1): when it is 1,
    every word, read signed, lies in [0, 256). -/
theorem all_range {s : Shape} {axes : List (Fin s.rank)} (p : IVec s 32)
    (hb : S_.BroadcastsInDim s (![] : Fin 0 → Fin s.rank)) (hr : s.ReducesTo axes S_) (hu : 0 < S_.numel)
    (e : Host.reduce IntOp.andi
          (andi (cmpi .sge p (broadcastInDim s ![] hb (constantI S_ 32 0#32)))
                (cmpi .slt p (broadcastInDim s ![] hb (constantI S_ 32 256#32))))
          (constantI S_ 1 1#1) hr hu ValueIdx.ix0 = 1#1) :
    ∀ i, 0 ≤ (p i).toInt ∧ (p i).toInt < 256 := fun i => by
  have h := Host.reduce_andi_all _ _ hr hu ValueIdx.ix0 e i
  change IntOp.andi (IntOp.cmpi .sge (p i) 0#32) (IntOp.cmpi .slt (p i) 256#32) = 1#1 at h
  rw [IntOp.andi_eq_one, IntOp.cmpi_sge, IntOp.cmpi_slt] at h
  exact ⟨by simpa using h.1, by simpa using h.2⟩

/-- the "and" of two arrays of bits, read at an index -/
theorem andi_apply {s : Shape} {w : Nat} (x y : IVec s w) (i : s.Idx) : andi x y i = IntOp.andi (x i) (y i) := rfl

/-- what the precondition says, input by input -/
structure Decoded (a0 : FVec Ideal S32x256x32x32 .f32) (a1 : IVec S32x2048x1x2 32) (a2 a3 : FVec Ideal S2x256 .f32)
    (a4 : FVec Ideal S2x256x256x3x3 .f32) (a5 a6 a7 : FVec Ideal S2x256 .f32) (a8 : FVec Ideal S2x256x256x3x3 .f32)
    (a9 a10 : FVec Ideal S2x256 .f32) (a11 : FVec Ideal S2 .f32) (a12 : FVec Ideal S256x256 .f32)
    (a13 : FVec Ideal S256 .f32) (a14 : FVec Ideal S256x256 .f32) (a15 : FVec Ideal S256 .f32)
    (a16 : FVec Ideal S4x256 .f32) (a17 : FVec Ideal S4 .f32) : Prop where
  r0 : ∀ i, ∃ r : ℝ, a0 i = (r : EReal)
  pts : ∀ i, 0 ≤ (a1 i).toInt ∧ (a1 i).toInt < 256
  r2 : ∀ i, ∃ r : ℝ, a2 i = (r : EReal)
  r3 : ∀ i, ∃ r : ℝ, a3 i = (r : EReal)
  r4 : ∀ i, ∃ r : ℝ, a4 i = (r : EReal)
  r5 : ∀ i, ∃ r : ℝ, a5 i = (r : EReal)
  r6 : ∀ i, ∃ r : ℝ, a6 i = (r : EReal)
  r7 : ∀ i, ∃ r : ℝ, a7 i = (r : EReal)
  r8 : ∀ i, ∃ r : ℝ, a8 i = (r : EReal)
  r9 : ∀ i, ∃ r : ℝ, a9 i = (r : EReal)
  r10 : ∀ i, ∃ r : ℝ, a10 i = (r : EReal)
  r11 : ∀ i, ∃ r : ℝ, a11 i = (r : EReal)
  r12 : ∀ i, ∃ r : ℝ, a12 i = (r : EReal)
  r13 : ∀ i, ∃ r : ℝ, a13 i = (r : EReal)
  r14 : ∀ i, ∃ r : ℝ, a14 i = (r : EReal)
  r15 : ∀ i, ∃ r : ℝ, a15 i = (r : EReal)
  r16 : ∀ i, ∃ r : ℝ, a16 i = (r : EReal)
  r17 : ∀ i, ∃ r : ℝ, a17 i = (r : EReal)

/-- The precondition is a chain of "and"s of eighteen whole-array reductions, one per input; the chain being 1
    makes each reduction 1, and each reduction being 1 gives the entrywise fact of its input. -/
theorem decode (a0 : FVec Ideal S32x256x32x32 .f32) (a1 : IVec S32x2048x1x2 32) (a2 a3 : FVec Ideal S2x256 .f32)
    (a4 : FVec Ideal S2x256x256x3x3 .f32) (a5 a6 a7 : FVec Ideal S2x256 .f32) (a8 : FVec Ideal S2x256x256x3x3 .f32)
    (a9 a10 : FVec Ideal S2x256 .f32) (a11 : FVec Ideal S2 .f32) (a12 : FVec Ideal S256x256 .f32)
    (a13 : FVec Ideal S256 .f32) (a14 : FVec Ideal S256x256 .f32) (a15 : FVec Ideal S256 .f32)
    (a16 : FVec Ideal S4x256 .f32) (a17 : FVec Ideal S4 .f32)
    (h : Cert.Pre_finite_inputs.fn (F := Ideal) a0 a1 a2 a3 a4 a5 a6 a7 a8 a9 a10 a11 a12 a13 a14 a15 a16 a17 = fun _ => 1#1) :
    Decoded a0 a1 a2 a3 a4 a5 a6 a7 a8 a9 a10 a11 a12 a13 a14 a15 a16 a17 := by
  have e := congrFun h ValueIdx.ix0
  dsimp only [fn, fn_part1, fn_part2, fn_part3, fn_part4, fn_part5] at e
  simp only [andi_apply, IntOp.andi_eq_one] at e
  obtain ⟨⟨⟨⟨⟨⟨⟨⟨⟨⟨⟨⟨⟨⟨⟨⟨⟨h0, h2⟩, h3⟩, h4⟩, h5⟩, h6⟩, h7⟩, h8⟩, h9⟩, h10⟩, h11⟩, h12⟩, h13⟩, h14⟩, h15⟩, h16⟩, h17⟩, hp⟩ := e
  exact {
    r0 := all_real a0 _ _ _ h0
    pts := all_range a1 _ _ _ hp
    r2 := all_real a2 _ _ _ h2
    r3 := all_real a3 _ _ _ h3
    r4 := all_real a4 _ _ _ h4
    r5 := all_real a5 _ _ _ h5
    r6 := all_real a6 _ _ _ h6
    r7 := all_real a7 _ _ _ h7
    r8 := all_real a8 _ _ _ h8
    r9 := all_real a9 _ _ _ h9
    r10 := all_real a10 _ _ _ h10
    r11 := all_real a11 _ _ _ h11
    r12 := all_real a12 _ _ _ h12
    r13 := all_real a13 _ _ _ h13
    r14 := all_real a14 _ _ _ h14
    r15 := all_real a15 _ _ _ h15
    r16 := all_real a16 _ _ _ h16
    r17 := all_real a17 _ _ _ h17
  }

end Cert.PreDecode
-- ==== Proof.Spec.lean ====
/-
  The specification: what one row of 256 channels goes through, on the extended reals.

  A row `x : Fin 256 → EReal` passes two residual blocks and two heads. A residual block is
  `x ↦ A₂ (silu (gn (A₁ (silu (gn x))))) + x` with `A₁, A₂` affine maps (a 256 × 256 matrix and a bias),
  `silu h = h · σ(h)`, `σ` the logistic function, and `gn` a group normalisation over 32 groups of 8
  consecutive channels followed by a per-channel scale and shift. The heads are an affine map to 2 logits, and
  `σ ∘ A₃ ∘ relu ∘ A₂ ∘ relu ∘ A₁` to 4 box coordinates.

  The group normalisation is written twice. `gnR` takes each group's mean `μ = (Σⱼ xⱼ) / 8` and the centred
  second moment `(Σⱼ (xⱼ - μ)²) / 8`. `gnK` takes the first and second moments `m₁ = (Σₖ xₖ · a k g) · ⅛`,
  `m₂ = (Σₖ xₖ² · a k g) · ⅛` against a matrix `a` (the indicator of "channel k lies in group g" when it is
  used), forms `m₂ - m₁²`, and spreads the group statistics back over the channels by a second matrix `aT`.
  The two agree on rows of real numbers when `a` is that indicator and `aT` its transpose (SpecMath).
-/
import Idealize.ShloMosaic.PureOps.Ideal

noncomputable section

namespace Cert.Spec

open Idealize.ShloMosaic

/-- A row of 256 channels. -/
abbrev Row := Fin 256 → EReal

/-- The binary word of `0.125`. -/
def eighth : EReal := Ideal.ofBits .f32 0x3E000000#32
/-- The binary word of `8.0`. -/
def eight : EReal := Ideal.ofBits .f32 0x41000000#32
/-- The binary word nearest `1e-5`, the same word in both programs. -/
def eps : EReal := Ideal.ofBits .f32 0x3727C5AC#32

/-- Channel `8 g + j`: the `j`-th channel of group `g`. -/
def chan (g : Fin 32) (j : Fin 8) : Fin 256 := ⟨8 * g.val + j.val, by omega⟩
/-- The group of a channel. -/
def grpOf (ch : Fin 256) : Fin 32 := ⟨ch.val / 8, by omega⟩

/-! ## Group normalisation, in the form of moments against a matrix -/

/-- First moment of group `g`: `(Σₖ hₖ · a k g) · ⅛`. -/
def muK (a : Fin 256 → Fin 32 → EReal) (h : Row) (g : Fin 32) : EReal := (∑ k : Fin 256, h k * a k g) * eighth
/-- `m₂ - m₁²` of group `g`. -/
def varK (a : Fin 256 → Fin 32 → EReal) (h : Row) (g : Fin 32) : EReal :=
  (∑ k : Fin 256, (h k * h k) * a k g) * eighth - muK a h g * muK a h g
/-- `((h - Σ_g m₁ g · aT g ch) · (Σ_g rsqrt(m₂ - m₁² + ε) g · aT g ch)) · w + b`. -/
def gnK (a : Fin 256 → Fin 32 → EReal) (aT : Fin 32 → Fin 256 → EReal) (h w b : Row) : Row := fun ch =>
  ((h ch - ∑ g : Fin 32, muK a h g * aT g ch) * (∑ g : Fin 32, Ideal.rsqrt (varK a h g + eps) * aT g ch)) * w ch + b ch

/-! ## Group normalisation, in the form of a mean and centred squares -/

/-- The mean of group `g`: `(Σⱼ h (8g + j)) / 8`. -/
def meanR (h : Row) (g : Fin 32) : EReal := Ideal.div (∑ j : Fin 8, h (chan g j)) eight
/-- The variance of group `g`: `(Σⱼ (h (8g + j) - μ)²) / 8`. -/
def varR (h : Row) (g : Fin 32) : EReal :=
  Ideal.div (∑ j : Fin 8, (h (chan g j) - meanR h g) * (h (chan g j) - meanR h g)) eight
/-- `((h - μ) · rsqrt(var + ε)) · w + b`, the statistics those of the channel's group. -/
def gnR (h w b : Row) : Row := fun ch =>
  ((h ch - meanR h (grpOf ch)) * Ideal.rsqrt (varR h (grpOf ch) + eps)) * w ch + b ch

/-! ## The pointwise and affine stages -/

/-- `h · σ(h)`. -/
def silu (h : Row) : Row := fun k => h k * Ideal.logistic (h k)
/-- `max(h, 0)`. -/
def relu (h : Row) : Row := fun k => max (h k) 0
/-- `o ↦ (Σₖ hₖ · W o k) + b o`. -/
def affine {n : Nat} (W : Fin n → Fin 256 → EReal) (b : Fin n → EReal) (h : Row) : Fin n → EReal :=
  fun o => (∑ k : Fin 256, h k * W o k) + b o

/-- One residual block's parameters: two scale/shift pairs, two 256 × 256 matrices (`w o k`: output `o`,
    input `k`) and their biases. -/
structure RBP where
  g1w : Row
  g1b : Row
  w1 : Fin 256 → Fin 256 → EReal
  b1 : Row
  g2w : Row
  g2b : Row
  w2 : Fin 256 → Fin 256 → EReal
  b2 : Row

/-- A residual block over a group normalisation `gn`. -/
def rb (gn : Row → Row → Row → Row) (P : RBP) (x : Row) : Row := fun k =>
  affine P.w2 P.b2 (silu (gn (affine P.w1 P.b1 (silu (gn x P.g1w P.g1b))) P.g2w P.g2b)) k + x k

/-- The heads' parameters. -/
structure HeadP where
  cw : Fin 2 → Fin 256 → EReal
  cb : Fin 2 → EReal
  m1 : Fin 256 → Fin 256 → EReal
  mb1 : Row
  m2 : Fin 256 → Fin 256 → EReal
  mb2 : Row
  m3 : Fin 4 → Fin 256 → EReal
  mb3 : Fin 4 → EReal

/-- The two residual blocks. -/
def trunk (gn : Row → Row → Row → Row) (P0 P1 : RBP) (x : Row) : Row := rb gn P1 (rb gn P0 x)
/-- The class logits of a trunk output. -/
def logits (H : HeadP) (y : Row) : Fin 2 → EReal := affine H.cw H.cb y
/-- The box coordinates of a trunk output. -/
def boxes (H : HeadP) (y : Row) : Fin 4 → EReal := fun q =>
  Ideal.logistic (affine H.m3 H.mb3 (relu (affine H.m2 H.mb2 (relu (affine H.m1 H.mb1 y)))) q)

end Cert.Spec

end
-- ==== Proof.SpecMath.lean ====
/-
  The mathematics of the specification: on rows of real numbers the two forms of the group normalisation agree.

  Against the indicator `ind k g` of "channel k lies in group g", the moment sums `Σₖ hₖ · ind k g` keep the eight
  channels `8g + j` of group `g`, so the first moment is the group's mean and, in the reals,
  `m₂ - m₁² = (Σⱼ xⱼ²)/8 - μ² = (Σⱼ (xⱼ - μ)²)/8`; against the transpose, `Σ_g s g · indT g ch` keeps the
  statistic of the channel's own group. The variance is nonnegative and `ε` is positive, so the reciprocal square
  root is taken of a positive real and is the real `(√·)⁻¹`: every stage maps rows of real numbers to rows of real
  numbers, which is what lets the equality of the two normalisations be carried through the residual blocks.
-/
import proofs.«405869_j26843545600773_3_alg».proof.Proof.Spec

noncomputable section

namespace Cert.Spec

open Idealize.ShloMosaic

/-! ## The three binary words -/

/-- The word `0x3E000000` (exponent field 124, zero fraction) is `2⁻³`. -/
theorem eighth_eq : eighth = ((1 / 8 : ℝ) : EReal) := by
  simp [eighth, Ideal.ofBits, Ideal.ieee, -EReal.coe_mul]; norm_num

/-- The word `0x41000000` (exponent field 130, zero fraction) is `2³`. -/
theorem eight_eq : eight = ((8 : ℝ) : EReal) := by
  simp [eight, Ideal.ofBits, Ideal.ieee, -EReal.coe_mul]; norm_num

/-- The word `0x3727C5AC` is a normal positive number: a positive real. -/
theorem eps_pos : ∃ e : ℝ, 0 < e ∧ eps = (e : EReal) := by
  simp [eps, Ideal.ofBits, Ideal.ieee, -EReal.coe_mul]

/-- every entry is a real number -/
def IsReal {ι : Type} (v : ι → EReal) : Prop := ∀ i, ∃ r : ℝ, v i = (r : EReal)
/-- the indicator of "channel k lies in group g" -/
def ind : Fin 256 → Fin 32 → EReal := fun k g => if k.val / 8 = g.val then 1 else 0
def indT : Fin 32 → Fin 256 → EReal := fun g k => ind k g

structure RBP.IsReal (P : RBP) : Prop where
  g1w : Spec.IsReal P.g1w
  g1b : Spec.IsReal P.g1b
  w1 : ∀ o, Spec.IsReal (P.w1 o)
  b1 : Spec.IsReal P.b1
  g2w : Spec.IsReal P.g2w
  g2b : Spec.IsReal P.g2b
  w2 : ∀ o, Spec.IsReal (P.w2 o)
  b2 : Spec.IsReal P.b2

/-! ## Real numbers among the extended reals are closed under the operations used -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

theorem real_sum {ι : Type} [Fintype ι] {f : ι → EReal} (hf : ∀ i, ∃ r : ℝ, f i = (r : EReal)) :
    ∃ r : ℝ, ∑ i, f i = (r : EReal) := by
  choose r hr using hf
  exact ⟨∑ i, r i, by rw [coe_sum]; exact Finset.sum_congr rfl fun i _ => hr i⟩

theorem real_logistic {x : EReal} (hx : ∃ r : ℝ, x = (r : EReal)) : ∃ r : ℝ, Ideal.logistic x = (r : EReal) := by
  obtain ⟨a, rfl⟩ := hx; exact ⟨_, Ideal.logistic_coe a⟩

/-- Division by the word `8.0` is the product with `1 / 8`. -/
theorem div_eight (x : EReal) : Ideal.div x eight = x * ((1 / 8 : ℝ) : EReal) := by
  rw [eight_eq, Ideal.div_coe (by norm_num)]

/-- The reciprocal square root of a positive real is the real `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-! ## Channels are pairs (group, position in the group) -/

/-- `(g, j) ↦ 8 g + j` is a bijection from pairs to channels. -/
def chanEquiv : Fin 32 × Fin 8 ≃ Fin 256 where
  toFun p := chan p.1 p.2
  invFun k := (grpOf k, ⟨k.val % 8, Nat.mod_lt _ (by norm_num)⟩)
  left_inv p := by
    obtain ⟨g, j⟩ := p
    apply Prod.ext <;> apply Fin.ext <;> simp only [chan, grpOf] <;> omega
  right_inv k := by
    apply Fin.ext; simp only [chan, grpOf]; omega

/-- A sum over the channels is the sum over the groups of the sums over each group's channels. -/
theorem sum_groups {M : Type} [AddCommMonoid M] (f : Fin 256 → M) :
    ∑ k : Fin 256, f k = ∑ g : Fin 32, ∑ j : Fin 8, f (chan g j) :=
  calc ∑ k : Fin 256, f k = ∑ p : Fin 32 × Fin 8, f (chan p.1 p.2) :=
        (Fintype.sum_equiv chanEquiv _ _ (fun _ => rfl)).symm
    _ = ∑ g : Fin 32, ∑ j : Fin 8, f (chan g j) := Fintype.sum_prod_type' (fun g j => f (chan g j))

/-- Against the indicator of group `g`, a sum over the channels keeps that group's eight channels. -/
theorem sum_mul_ind (f : Fin 256 → EReal) (g : Fin 32) :
    ∑ k : Fin 256, f k * ind k g = ∑ j : Fin 8, f (chan g j) := by
  rw [sum_groups, Finset.sum_eq_single g]
  · refine Finset.sum_congr rfl fun j _ => ?_
    have hg : (chan g j).val / 8 = g.val := by simp only [chan]; omega
    simp only [ind]; rw [if_pos hg, mul_one]
  · intro g' _ hne
    refine Finset.sum_eq_zero fun j _ => ?_
    have hg : ¬ (chan g' j).val / 8 = g.val := by
      simp only [chan]; intro h; apply hne; apply Fin.ext; omega
    simp only [ind]; rw [if_neg hg, mul_zero]
  · intro h; exact absurd (Finset.mem_univ g) h

/-- Against the transposed indicator, a sum over the groups keeps the channel's own group. -/
theorem sum_mul_indT (s : Fin 32 → EReal) (ch : Fin 256) :
    ∑ g : Fin 32, s g * indT g ch = s (grpOf ch) := by
  rw [Finset.sum_eq_single (grpOf ch)]
  · have hg : ch.val / 8 = (grpOf ch).val := rfl
    simp only [indT, ind]; rw [if_pos hg, mul_one]
  · intro g _ hne
    have hg : ¬ ch.val / 8 = g.val := fun h => hne (Fin.ext h.symm)
    simp only [indT, ind]; rw [if_neg hg, mul_zero]
  · intro h; exact absurd (Finset.mem_univ _) h

/-! ## The two forms of the group statistics -/

/-- The first moment against the indicator is the group's mean, on every row. -/
theorem muK_ind (h : Row) (g : Fin 32) : muK ind h g = meanR h g := by
  rw [muK, meanR, sum_mul_ind, div_eight, eighth_eq]

/-- The mean of a group of a real row. -/
theorem meanR_coe (hr : Fin 256 → ℝ) (g : Fin 32) :
    meanR (fun k => (hr k : EReal)) g = (((∑ j : Fin 8, hr (chan g j)) / 8 : ℝ) : EReal) := by
  simp only [meanR, div_eight, ← coe_sum, ← EReal.coe_mul]
  congr 1; ring

/-- `m₂ - m₁²` of a group of a real row. -/
theorem varK_coe (hr : Fin 256 → ℝ) (g : Fin 32) :
    varK ind (fun k => (hr k : EReal)) g
      = (((∑ j : Fin 8, hr (chan g j) * hr (chan g j)) / 8
          - ((∑ j : Fin 8, hr (chan g j)) / 8) * ((∑ j : Fin 8, hr (chan g j)) / 8) : ℝ) : EReal) := by
  simp only [varK, muK_ind, meanR_coe, sum_mul_ind, eighth_eq, ← EReal.coe_mul, ← coe_sum, ← EReal.coe_sub]
  congr 1; ring

/-- The centred second moment of a group of a real row. -/
theorem varR_coe (hr : Fin 256 → ℝ) (g : Fin 32) :
    varR (fun k => (hr k : EReal)) g
      = (((∑ j : Fin 8, (hr (chan g j) - (∑ i : Fin 8, hr (chan g i)) / 8)
            * (hr (chan g j) - (∑ i : Fin 8, hr (chan g i)) / 8)) / 8 : ℝ) : EReal) := by
  simp only [varR, meanR_coe, div_eight, ← EReal.coe_sub, ← EReal.coe_mul, ← coe_sum]
  congr 1; ring

/-- `(Σ xⱼ²)/8 - ((Σ xⱼ)/8)² = (Σ (xⱼ - μ)²)/8` with `μ = (Σ xⱼ)/8`, for eight reals. -/
theorem var_real (x : Fin 8 → ℝ) :
    (∑ j, x j * x j) / 8 - ((∑ j, x j) / 8) * ((∑ j, x j) / 8)
      = (∑ j, (x j - (∑ i, x i) / 8) * (x j - (∑ i, x i) / 8)) / 8 := by
  simp only [Fin.sum_univ_eight]; ring

/-- On a real row the two variances agree. -/
theorem varK_ind (hr : Fin 256 → ℝ) (g : Fin 32) :
    varK ind (fun k => (hr k : EReal)) g = varR (fun k => (hr k : EReal)) g := by
  rw [varK_coe, varR_coe, var_real (fun j => hr (chan g j))]

/-- A row of real numbers is the coercion of a row of reals. -/
theorem IsReal.exists_eq {ι : Type} {v : ι → EReal} (hv : IsReal v) : ∃ r : ι → ℝ, v = fun i => (r i : EReal) := by
  choose r hr using hv
  exact ⟨r, funext hr⟩

theorem gnK_eq_gnR (h w b : Row) (hh : IsReal h) (hw : IsReal w) (hb : IsReal b) :
    gnK ind indT h w b = gnR h w b := by
  obtain ⟨hr, rfl⟩ := hh.exists_eq
  funext ch
  rw [gnK, gnR, sum_mul_indT (fun g => muK ind _ g) ch,
    sum_mul_indT (fun g => Ideal.rsqrt (varK ind _ g + eps)) ch, muK_ind, varK_ind]

theorem gnR_isReal (h w b : Row) (hh : IsReal h) (hw : IsReal w) (hb : IsReal b) : IsReal (gnR h w b) := by
  obtain ⟨hr, rfl⟩ := hh.exists_eq
  obtain ⟨e, he, hee⟩ := eps_pos
  intro ch
  refine real_add (real_mul (real_mul (real_sub ⟨_, rfl⟩ ⟨_, meanR_coe hr _⟩) ?_) (hw ch)) (hb ch)
  rw [varR_coe, hee, ← EReal.coe_add, rsqrt_coe_pos]
  · exact ⟨_, rfl⟩
  · have : 0 ≤ (∑ j : Fin 8, (hr (chan (grpOf ch) j) - (∑ i : Fin 8, hr (chan (grpOf ch) i)) / 8)
            * (hr (chan (grpOf ch) j) - (∑ i : Fin 8, hr (chan (grpOf ch) i)) / 8)) / 8 :=
      div_nonneg (Finset.sum_nonneg fun j _ => mul_self_nonneg _) (by norm_num)
    linarith

theorem silu_isReal (h : Row) (hh : IsReal h) : IsReal (silu h) :=
  fun k => real_mul (hh k) (real_logistic (hh k))

theorem affine_isReal {n : Nat} (W : Fin n → Fin 256 → EReal) (b : Fin n → EReal) (h : Row)
    (hW : ∀ o, IsReal (W o)) (hb : IsReal b) (hh : IsReal h) : IsReal (affine W b h) :=
  fun o => real_add (real_sum fun k => real_mul (hh k) (hW o k)) (hb o)

/-- The row between a block's two normalisations is real. -/
theorem rb_mid_isReal (P : RBP) (x : Row) (hP : P.IsReal) (hx : IsReal x) :
    IsReal (affine P.w1 P.b1 (silu (gnR x P.g1w P.g1b))) :=
  affine_isReal _ _ _ hP.w1 hP.b1 (silu_isReal _ (gnR_isReal _ _ _ hx hP.g1w hP.g1b))

theorem rb_eq (P : RBP) (x : Row) (hP : P.IsReal) (hx : IsReal x) : rb (gnK ind indT) P x = rb gnR P x := by
  unfold rb
  rw [gnK_eq_gnR x _ _ hx hP.g1w hP.g1b, gnK_eq_gnR _ _ _ (rb_mid_isReal P x hP hx) hP.g2w hP.g2b]

theorem rb_isReal (P : RBP) (x : Row) (hP : P.IsReal) (hx : IsReal x) : IsReal (rb gnR P x) :=
  fun k => real_add
    (affine_isReal _ _ _ hP.w2 hP.b2 (silu_isReal _ (gnR_isReal _ _ _ (rb_mid_isReal P x hP hx) hP.g2w hP.g2b)) k)
    (hx k)

theorem trunk_eq (P0 P1 : RBP) (x : Row) (hP0 : P0.IsReal) (hP1 : P1.IsReal) (hx : IsReal x) :
    trunk (gnK ind indT) P0 P1 x = trunk gnR P0 P1 x := by
  rw [trunk, trunk, rb_eq P0 x hP0 hx, rb_eq P1 _ hP1 (rb_isReal P0 x hP0 hx)]

end Cert.Spec

end
-- ==== Proof.Params.lean ====
/-
  The specification's parameters and rows, read off the argument arrays.

  Block `i` of the two stacked residual blocks takes its scale/shift pairs from row `i` of the `[2, 256]`
  arrays, and its two matrices from the centre tap `[i, o, k, 1, 1]` of the `[2, 256, 256, 3, 3]` convolution
  weights: on a 1 × 1 image every other tap of a 3 × 3 convolution with padding 1 meets only padding. The heads'
  matrices are used as given, `W o k`. The row of candidate `j` of batch `b` is the image's 256 channels at
  the cell `(iy, ix) = (p₀ / 8, p₁ / 8)` its point `(p₀, p₁)` falls in.
-/
import proofs.«405869_j26843545600773_3_alg».proof.Proof.Spec
import Idealize.ShloMosaic.Lib.ValueIdx

noncomputable section

namespace Cert.Spec

open Idealize.ShloMosaic Idealize.ShloMosaic.ValueIdx

/-- The cell coordinate of a point coordinate: `p / 8`, in `[0, 32)` for `0 ≤ p < 256`. -/
def cell (p : BitVec 32) : Fin 32 := ⟨(p.toNat / 8) % 32, Nat.mod_lt _ (by decide)⟩

/-- Residual block `i`'s parameters from the six `[2, 256]` arrays and the two convolution weights. -/
def rbp (i : Fin 2)
    (gn1w gn1b : (⟨2, ![2, 256]⟩ : Shape).Idx → EReal) (c1w : (⟨5, ![2, 256, 256, 3, 3]⟩ : Shape).Idx → EReal)
    (c1b gn2w gn2b : (⟨2, ![2, 256]⟩ : Shape).Idx → EReal) (c2w : (⟨5, ![2, 256, 256, 3, 3]⟩ : Shape).Idx → EReal)
    (c2b : (⟨2, ![2, 256]⟩ : Shape).Idx → EReal) : RBP where
  g1w := fun k => gn1w (ix2 i k)
  g1b := fun k => gn1b (ix2 i k)
  w1 := fun o k => c1w (ix5 i o k (1 : Fin 3) (1 : Fin 3))
  b1 := fun k => c1b (ix2 i k)
  g2w := fun k => gn2w (ix2 i k)
  g2b := fun k => gn2b (ix2 i k)
  w2 := fun o k => c2w (ix5 i o k (1 : Fin 3) (1 : Fin 3))
  b2 := fun k => c2b (ix2 i k)

/-- The heads' parameters from the class layer `[2, 256]`, `[2]` and the three box layers. -/
def headp (clsw : (⟨2, ![2, 256]⟩ : Shape).Idx → EReal) (clsb : (⟨1, ![2]⟩ : Shape).Idx → EReal)
    (w1 : (⟨2, ![256, 256]⟩ : Shape).Idx → EReal) (b1 : (⟨1, ![256]⟩ : Shape).Idx → EReal)
    (w2 : (⟨2, ![256, 256]⟩ : Shape).Idx → EReal) (b2 : (⟨1, ![256]⟩ : Shape).Idx → EReal)
    (w3 : (⟨2, ![4, 256]⟩ : Shape).Idx → EReal) (b3 : (⟨1, ![4]⟩ : Shape).Idx → EReal) : HeadP where
  cw := fun q k => clsw (ix2 q k)
  cb := fun q => clsb (ix1 q)
  m1 := fun o k => w1 (ix2 o k)
  mb1 := fun o => b1 (ix1 o)
  m2 := fun o k => w2 (ix2 o k)
  mb2 := fun o => b2 (ix1 o)
  m3 := fun q k => w3 (ix2 q k)
  mb3 := fun q => b3 (ix1 q)

/-- The gathered row: the image's channels at the cell of candidate `j` of batch `b`. -/
def xrow (gimage : (⟨4, ![32, 256, 32, 32]⟩ : Shape).Idx → EReal) (pts : (⟨4, ![32, 2048, 1, 2]⟩ : Shape).Idx → BitVec 32)
    (b : Fin 32) (j : Fin 2048) : Row := fun ch =>
  gimage (ix4 b ch (cell (pts (ix4 b j (0 : Fin 1) (0 : Fin 2)))) (cell (pts (ix4 b j (0 : Fin 1) (1 : Fin 2)))))

end Cert.Spec

end
-- ==== Proof.KValueDefs.lean ====
/-
  The two terms the kernel program's results are stated in: the trunk output of candidate `j` of batch `b`, in the
  kernel's form of the group normalisation, and the heads' parameters, both read off the program's arguments.
-/
import proofs.«405869_j26843545600773_3_alg».proof.Proof.KernelIdealFrameP
import proofs.«405869_j26843545600773_3_alg».proof.Proof.Params
import proofs.«405869_j26843545600773_3_alg».proof.Proof.SpecMath

noncomputable section

namespace Cert.KernelIdeal.KValue

open Cert.KernelIdeal Cert.KernelIdeal.Gen Cert.KernelIdeal.GenP Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-- The trunk output of candidate `j` of batch `b`, in the kernel's form of the normalisation. -/
def trunkK (b : Fin 32) (j : Fin 2048) : Spec.Row :=
  Spec.trunk (Spec.gnK Spec.ind Spec.indT) (Spec.rbp 0 (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (Spec.rbp 1 (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    (Spec.xrow (m ((c : Thread nD τ).loc main_arg0)) (m ((c : Thread nD τ).loc main_arg1)) b j)

/-- The heads' parameters. -/
def headK : Spec.HeadP := Spec.headp (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

end Cert.KernelIdeal.KValue

end
-- ==== Proof.KHostIdx.lean ====
/-
  The host operations around the two kernels, read at an index.

  The program's results are the second kernel's two output arrays reshaped from 65536 rows to 32 × 2048; the second
  kernel's rows are the first kernel's output array reshaped the other way; the first kernel's image window is the image
  with its two spatial axes flattened, and its index window holds, for candidate `j` of batch `b`, the flat cell index
  `⌊p₀ / 8⌋ · 32 + ⌊p₁ / 8⌋` clipped to `[0, 1023]`, which for point coordinates in `[0, 256)` is that number itself.
-/
import proofs.«405869_j26843545600773_3_alg».proof.Proof.KernelIdealFrameP
import proofs.«405869_j26843545600773_3_alg».proof.Proof.Params
import Idealize.ShloMosaic.Lib.ValueIdx
import Idealize.ShloMosaic.Lib.Pipeline.Value
import Idealize.ShloMosaic.Lib.StableHlo.Run

set_option maxRecDepth 16384

noncomputable section

namespace Cert.KernelIdeal.KHostIdx

open Cert.KernelIdeal Cert.KernelIdeal.Gen Cert.KernelIdeal.GenP
open Idealize.ShloMosaic Idealize.ShloMosaic.TcCoe Idealize.ShloMosaic.ValueIdx

variable (m : (ℓ : Loc nD τ sig) → Buf (Elt Ideal) ℓ) (ρ : Dev nD → PrngReg) (c : Dev nD)

/-- The sign word of a 32-bit two's-complement integer: 0, -1 or 1. -/
def sgnW (x : BitVec 32) : BitVec 32 := if x = 0 then 0 else if x.msb then -1 else 1

/-- Floor division of the word `p` by the word `k` as the seventeen operations compute it at one element: the
    quotient rounded toward zero, less one when the signs differ and the remainder is not zero. -/
def fdW (p k : BitVec 32) : BitVec 32 :=
  Scalar.select (IntOp.andi (IntOp.cmpi .ne (sgnW p) (sgnW k)) (IntOp.cmpi .ne (IntOp.remsi .host p k) 0#32))
    (IntOp.subi (IntOp.divsi .host p k) 1#32) (IntOp.divsi .host p k)

/-- On the 256 words 0 … 255 the floor division by 8 is the word of n / 8 (a finite check). -/
theorem fdW_ofNat : ∀ n : Fin 256, fdW (BitVec.ofNat 32 n.val) 8#32 = BitVec.ofNat 32 (n.val / 8) := by decide

/-- floor division by 8 of a word in [0, 256), as the seventeen printed operations compute it, is the word of p / 8 -/
theorem fdW_eight (p : BitVec 32) (h0 : 0 ≤ p.toInt) (h1 : p.toInt < 256) : fdW p 8#32 = BitVec.ofNat 32 (p.toNat / 8) := by
  have hlt := p.isLt
  have hn : p.toNat < 256 := by
    rw [BitVec.toInt_eq_toNat_cond] at h0 h1
    split at h0 <;> omega
  have hp : p = BitVec.ofNat 32 (⟨p.toNat, hn⟩ : Fin 256).val := by
    apply BitVec.eq_of_toNat_eq; simp
  have := fdW_ofNat ⟨p.toNat, hn⟩
  rw [← hp] at this
  exact this

/-- The seventeen operations of the floor division on whole arrays: `x` the dividend array, `kc` the rank-0 divisor. -/
def fdV (x : S32x2048x2.Idx → BitVec 32) (kc : S_.Idx → BitVec 32) : S32x2048x2.Idx → BitVec 32 :=
  select
    (andi (cmpi .ne (signi x) (broadcastInDim S32x2048x2 ![] bcast_S_S32x2048x2 (signi (id kc))))
      (cmpi .ne (Host.remsi x (broadcastInDim S32x2048x2 ![] bcast_S_S32x2048x2 (id kc)))
        (broadcastInDim S32x2048x2 ![] bcast_S_S32x2048x2 (constantI S_ 32 0#32))))
    (subi (Host.divsi x (broadcastInDim S32x2048x2 ![] bcast_S_S32x2048x2 (id kc)))
      (broadcastInDim S32x2048x2 ![] bcast_S_S32x2048x2 (constantI S_ 32 1#32)))
    (Host.divsi x (broadcastInDim S32x2048x2 ![] bcast_S_S32x2048x2 (id kc)))

/-- At one element, with the divisor the constant 8, the array form is the word form. -/
theorem fdV_apply (x : S32x2048x2.Idx → BitVec 32) (i : S32x2048x2.Idx) :
    fdV x (constantI S_ 32 8#32) i = fdW (x i) 8#32 := rfl

/-- Two cell coordinates below 32 combine to `a * 32 + b` below 1024 without wrap-around, and clipping to [0, 1023] leaves
    it (a finite check over the 1024 pairs). -/
theorem linW : ∀ a b : Fin 32,
    IntOp.minsi 1023#32 (IntOp.maxsi 0#32 (IntOp.addi (IntOp.muli (BitVec.ofNat 32 a.val) 32#32) (BitVec.ofNat 32 b.val)))
      = BitVec.ofNat 32 (a.val * 32 + b.val) := by decide

theorem W11_logits : (W11 m ρ c (Proc.devRef .tc main_v83) : S32x2048x2.Idx → EReal) = fun (i : S32x2048x2.Idx) =>
    (dat1 (V9 m ρ) c).arrAt 27 cfg1.N (ix2 (⟨(i 0).val * 2048 + (i 1).val, by
      have h0 : (i 0).val < 32 := (i 0).isLt; have h1 : (i 1).val < 2048 := (i 1).isLt; omega⟩ : Fin 65536) (i 2)) := by
  have e : (W11 m ρ c (Proc.devRef .tc main_v83) : S32x2048x2.Idx → EReal)
      = shapeCast S32x2048x2 (W10 m ρ c (Proc.devRef .tc main_v82_0) : S65536x2.Idx → EReal) shapeCasts_S65536x2_S32x2048x2 := by
    show StableHlo.after hostOps2 (W10 m ρ c) (Proc.devRef .tc main_v83) = _
    after_results
    rfl
  rw [e]
  funext i
  have h0 : (i 0).val < 32 := (i 0).isLt
  have h1 : (i 1).val < 2048 := (i 1).isLt
  have h2 : (i 2).val < 2 := (i 2).isLt
  refine (shapeCast_apply _ shapeCasts_S65536x2_S32x2048x2 i (ix2 (⟨(i 0).val * 2048 + (i 1).val, by omega⟩ : Fin 65536) (i 2)) (by
    rw [Shape.rowMajor_val_two, Shape.rowMajor_val_three]
    show ((i 0).val * 2048 + (i 1).val) * 2 + (i 2).val = ((i 0).val * 2048 + (i 1).val) * 2 + (i 2).val
    rfl)).trans ?_
  exact congrFun (W10_arr m ρ c 27) _

theorem W11_boxes : (W11 m ρ c (Proc.devRef .tc main_v84) : S32x2048x4.Idx → EReal) = fun (i : S32x2048x4.Idx) =>
    (dat1 (V9 m ρ) c).arrAt 28 cfg1.N (ix2 (⟨(i 0).val * 2048 + (i 1).val, by
      have h0 : (i 0).val < 32 := (i 0).isLt; have h1 : (i 1).val < 2048 := (i 1).isLt; omega⟩ : Fin 65536) (i 2)) := by
  have e : (W11 m ρ c (Proc.devRef .tc main_v84) : S32x2048x4.Idx → EReal)
      = shapeCast S32x2048x4 (W10 m ρ c (Proc.devRef .tc main_v82_1) : S65536x4.Idx → EReal) shapeCasts_S65536x4_S32x2048x4 := by
    show StableHlo.after hostOps2 (W10 m ρ c) (Proc.devRef .tc main_v84) = _
    after_results
    rfl
  rw [e]
  funext i
  have h0 : (i 0).val < 32 := (i 0).isLt
  have h1 : (i 1).val < 2048 := (i 1).isLt
  have h2 : (i 2).val < 4 := (i 2).isLt
  refine (shapeCast_apply _ shapeCasts_S65536x4_S32x2048x4 i (ix2 (⟨(i 0).val * 2048 + (i 1).val, by omega⟩ : Fin 65536) (i 2)) (by
    rw [Shape.rowMajor_val_two, Shape.rowMajor_val_three]
    show ((i 0).val * 2048 + (i 1).val) * 4 + (i 2).val = ((i 0).val * 2048 + (i 1).val) * 4 + (i 2).val
    rfl)).trans ?_
  exact congrFun (W10_arr m ρ c 28) _

theorem V9_rows : (V9 m ρ c (Pipeline.arrRef spec1 0) : S65536x256.Idx → EReal) = fun (i : S65536x256.Idx) =>
    (dat0 (V5 m ρ) c).arrAt 2 cfg0.N (ix3 (⟨(i 0).val / 2048, by
        have h0 : (i 0).val < 65536 := (i 0).isLt; omega⟩ : Fin 32)
      (⟨(i 0).val % 2048, Nat.mod_lt _ (by decide)⟩ : Fin 2048) (i 1)) := by
  have e : (V9 m ρ c (Pipeline.arrRef spec1 0) : S65536x256.Idx → EReal)
      = shapeCast S65536x256 (W6 m ρ c (Proc.devRef .tc main_v12) : S32x2048x256.Idx → EReal) shapeCasts_S32x2048x256_S65536x256 := by
    show StableHlo.after hostOps1_2 (StableHlo.after hostOps1_1 (StableHlo.after hostOps1 (W6 m ρ c))) (Proc.devRef .tc main_v13) = _
    after_results
    rfl
  rw [e]
  funext i
  have h0 : (i 0).val < 65536 := (i 0).isLt
  have h1 : (i 1).val < 256 := (i 1).isLt
  refine (shapeCast_apply _ shapeCasts_S32x2048x256_S65536x256 i (ix3 (⟨(i 0).val / 2048, by omega⟩ : Fin 32)
      (⟨(i 0).val % 2048, Nat.mod_lt _ (by decide)⟩ : Fin 2048) (i 1)) (by
    rw [Shape.rowMajor_val_two, Shape.rowMajor_val_three]
    show ((i 0).val / 2048 * 2048 + (i 0).val % 2048) * 256 + (i 1).val = (i 0).val * 256 + (i 1).val
    omega)).trans ?_
  exact congrFun (W6_arr m ρ c 2) _

theorem V5_img : (V5 m ρ c (Pipeline.arrRef spec0 0) : S32x256x1024.Idx → EReal) = fun (i : S32x256x1024.Idx) =>
    m ((c : Thread nD τ).loc main_arg0) (ix4 (i 0) (i 1)
      (⟨(i 2).val / 32, by have h2 : (i 2).val < 1024 := (i 2).isLt; omega⟩ : Fin 32)
      (⟨(i 2).val % 32, Nat.mod_lt _ (by decide)⟩ : Fin 32)) := by
  have e : (V5 m ρ c (Pipeline.arrRef spec0 0) : S32x256x1024.Idx → EReal)
      = shapeCast S32x256x1024 (m ((c : Thread nD τ).loc main_arg0) : S32x256x32x32.Idx → EReal) shapeCasts_S32x256x32x32_S32x256x1024 := by
    show StableHlo.after hostOps0_4 (StableHlo.after hostOps0_3 (StableHlo.after hostOps0_2 (StableHlo.after hostOps0_1
      (StableHlo.after hostOps0 (W0 m ρ c))))) (Proc.devRef .tc main_v11) = _
    after_results
    rfl
  rw [e]
  funext i
  have h0 : (i 0).val < 32 := (i 0).isLt
  have h1 : (i 1).val < 256 := (i 1).isLt
  have h2 : (i 2).val < 1024 := (i 2).isLt
  exact shapeCast_apply _ shapeCasts_S32x256x32x32_S32x256x1024 i (ix4 (i 0) (i 1)
      (⟨(i 2).val / 32, by omega⟩ : Fin 32) (⟨(i 2).val % 32, Nat.mod_lt _ (by decide)⟩ : Fin 32)) (by
    rw [Shape.rowMajor_val_four, Shape.rowMajor_val_three]
    show (((i 0).val * 256 + (i 1).val) * 32 + (i 2).val / 32) * 32 + (i 2).val % 32 = ((i 0).val * 256 + (i 1).val) * 1024 + (i 2).val
    omega)

/-- After the first stretch: the points as [32, 2048, 2] and the divisor 8. -/
theorem W1_v0 : (W1 m ρ c (Proc.devRef .tc main_v0) : S32x2048x2.Idx → BitVec 32)
    = shapeCast S32x2048x2 (m ((c : Thread nD τ).loc main_arg1) : S32x2048x1x2.Idx → BitVec 32) shapeCasts_S32x2048x1x2_S32x2048x2 := by
  show StableHlo.after hostOps0 (W0 m ρ c) (Proc.devRef .tc main_v0) = _
  after_results
  rfl
theorem W1_c : (W1 m ρ c (Proc.devRef .tc main_c) : S_.Idx → BitVec 32) = constantI S_ 32 8#32 := by
  show StableHlo.after hostOps0 (W0 m ρ c) (Proc.devRef .tc main_c) = _
  after_results

set_option maxHeartbeats 4000000 in
/-- After the floor division's seventeen operations. -/
theorem W2_v1 : (W2 m ρ c (Proc.devRef .tc main_v1) : S32x2048x2.Idx → BitVec 32)
    = fdV (W1 m ρ c (Proc.devRef .tc main_v0)) (W1 m ρ c (Proc.devRef .tc main_c)) := by
  show StableHlo.after hostOps0_1 (W1 m ρ c) (Proc.devRef .tc main_v1) = _
  after_results
  rfl

set_option maxHeartbeats 4000000 in
/-- After the third stretch: row coordinate times 32 plus column coordinate, and the clip's two bounds. -/
theorem W3_v8 : (W3 m ρ c (Proc.devRef .tc main_v8) : S32x2048.Idx → BitVec 32)
    = addi
        (muli
          (shapeCast S32x2048 (extractStridedSlice S32x2048x1 ![0, 0, 0]
            (W2 m ρ c (Proc.devRef .tc main_v1) : S32x2048x2.Idx → BitVec 32) slices_S32x2048x2_S32x2048x1_0_0_0) shapeCasts_S32x2048x1_S32x2048)
          (broadcastInDim S32x2048 ![] bcast_S_S32x2048 (constantI S_ 32 32#32)))
        (shapeCast S32x2048 (extractStridedSlice S32x2048x1 ![0, 0, 1]
          (W2 m ρ c (Proc.devRef .tc main_v1) : S32x2048x2.Idx → BitVec 32) slices_S32x2048x2_S32x2048x1_0_0_1) shapeCasts_S32x2048x1_S32x2048) := by
  show StableHlo.after hostOps0_2 (W2 m ρ c) (Proc.devRef .tc main_v8) = _
  after_results
  rfl
theorem W3_c1 : (W3 m ρ c (Proc.devRef .tc main_c_1) : S_.Idx → BitVec 32) = constantI S_ 32 0#32 := by
  show StableHlo.after hostOps0_2 (W2 m ρ c) (Proc.devRef .tc main_c_1) = _
  after_results
  first | done | rfl
theorem W3_c2 : (W3 m ρ c (Proc.devRef .tc main_c_2) : S_.Idx → BitVec 32) = constantI S_ 32 1023#32 := by
  show StableHlo.after hostOps0_2 (W2 m ρ c) (Proc.devRef .tc main_c_2) = _
  after_results
  first | done | rfl

set_option maxHeartbeats 4000000 in
/-- After the clip's six operations. -/
theorem W4_v9 : (W4 m ρ c (Proc.devRef .tc main_v9) : S32x2048.Idx → BitVec 32)
    = minsi (broadcastInDim S32x2048 ![] bcast_S_S32x2048 (id (W3 m ρ c (Proc.devRef .tc main_c_2) : S_.Idx → BitVec 32)))
        (maxsi (broadcastInDim S32x2048 ![] bcast_S_S32x2048 (id (W3 m ρ c (Proc.devRef .tc main_c_1) : S_.Idx → BitVec 32)))
          (W3 m ρ c (Proc.devRef .tc main_v8) : S32x2048.Idx → BitVec 32)) := by
  show StableHlo.after hostOps0_3 (W3 m ρ c) (Proc.devRef .tc main_v9) = _
  after_results
  rfl

set_option maxHeartbeats 4000000 in
/-- At region 0's entry the index window holds the clipped array as [32, 1, 2048]. -/
theorem V5_v10 : (V5 m ρ c (Pipeline.arrRef spec0 1) : S32x1x2048.Idx → BitVec 32)
    = shapeCast S32x1x2048 (W4 m ρ c (Proc.devRef .tc main_v9) : S32x2048.Idx → BitVec 32) shapeCasts_S32x2048_S32x1x2048 := by
  show StableHlo.after hostOps0_4 (W4 m ρ c) (Proc.devRef .tc main_v10) = _
  after_results
  rfl

/-- The slice of a `[32, 2048, 2]` array at last coordinate 0, as `[32, 2048]`, read at `(b, j)`. -/
theorem slice0_apply (q : S32x2048x2.Idx → BitVec 32) (b : Fin 32) (j : Fin 2048) :
    shapeCast S32x2048 (extractStridedSlice S32x2048x1 ![0, 0, 0] q slices_S32x2048x2_S32x2048x1_0_0_0)
      shapeCasts_S32x2048x1_S32x2048 (ix2 b j) = q (ix3 b j (0 : Fin 2)) := by
  refine (shapeCast_apply _ _ (ix2 b j) (ix3 b j (0 : Fin 1)) ?_).trans ?_
  · rw [Shape.rowMajor_val_three, Shape.rowMajor_val_two]
    show (b.val * 2048 + j.val) * 1 + 0 = b.val * 2048 + j.val
    omega
  · refine extractStridedSlice_apply _ _ _ _ (ix3 b j (0 : Fin 2)) ?_
    intro a
    match a with
    | ⟨0, _⟩ => show b.val = 0 + b.val; omega
    | ⟨1, _⟩ => show j.val = 0 + j.val; omega
    | ⟨2, _⟩ => rfl

/-- The slice of a `[32, 2048, 2]` array at last coordinate 1, as `[32, 2048]`, read at `(b, j)`. -/
theorem slice1_apply (q : S32x2048x2.Idx → BitVec 32) (b : Fin 32) (j : Fin 2048) :
    shapeCast S32x2048 (extractStridedSlice S32x2048x1 ![0, 0, 1] q slices_S32x2048x2_S32x2048x1_0_0_1)
      shapeCasts_S32x2048x1_S32x2048 (ix2 b j) = q (ix3 b j (1 : Fin 2)) := by
  refine (shapeCast_apply _ _ (ix2 b j) (ix3 b j (0 : Fin 1)) ?_).trans ?_
  · rw [Shape.rowMajor_val_three, Shape.rowMajor_val_two]
    show (b.val * 2048 + j.val) * 1 + 0 = b.val * 2048 + j.val
    omega
  · refine extractStridedSlice_apply _ _ _ _ (ix3 b j (1 : Fin 2)) ?_
    intro a
    match a with
    | ⟨0, _⟩ => show b.val = 0 + b.val; omega
    | ⟨1, _⟩ => show j.val = 0 + j.val; omega
    | ⟨2, _⟩ => rfl

/-- The cell coordinate of a word in `[0, 256)` is its quotient by 8. -/
theorem cell_val (p : BitVec 32) (h0 : 0 ≤ p.toInt) (h1 : p.toInt < 256) : (Spec.cell p).val = p.toNat / 8 := by
  have hlt := p.isLt
  have hn : p.toNat < 256 := by
    rw [BitVec.toInt_eq_toNat_cond] at h0 h1
    split at h0 <;> omega
  show (p.toNat / 8) % 32 = p.toNat / 8
  exact Nat.mod_eq_of_lt (by omega)

/-- The floor-divided point array at `(b, j, q)` is the word of the cell coordinate of the point coordinate there. -/
theorem W2_cell
    (hpts : ∀ i, 0 ≤ ((m ((c : Thread nD τ).loc main_arg1)) i).toInt ∧ ((m ((c : Thread nD τ).loc main_arg1)) i).toInt < 256)
    (b : Fin 32) (j : Fin 2048) (q : Fin 2) :
    (W2 m ρ c (Proc.devRef .tc main_v1) : S32x2048x2.Idx → BitVec 32) (ix3 b j q)
      = BitVec.ofNat 32 (Spec.cell (m ((c : Thread nD τ).loc main_arg1) (ix4 b j (0 : Fin 1) q))).val := by
  have e1 : (W2 m ρ c (Proc.devRef .tc main_v1) : S32x2048x2.Idx → BitVec 32) (ix3 b j q)
      = fdW ((W1 m ρ c (Proc.devRef .tc main_v0) : S32x2048x2.Idx → BitVec 32) (ix3 b j q)) 8#32 := by
    have h := congrFun (W2_v1 m ρ c) (ix3 b j q)
    rw [W1_c] at h
    exact h.trans (fdV_apply _ _)
  have e2 : (W1 m ρ c (Proc.devRef .tc main_v0) : S32x2048x2.Idx → BitVec 32) (ix3 b j q)
      = m ((c : Thread nD τ).loc main_arg1) (ix4 b j (0 : Fin 1) q) := by
    refine (congrFun (W1_v0 m ρ c) (ix3 b j q)).trans ?_
    refine shapeCast_apply _ shapeCasts_S32x2048x1x2_S32x2048x2 (ix3 b j q) (ix4 b j (0 : Fin 1) q) ?_
    show (S32x2048x1x2.rowMajor (ix4 b j (0 : Fin 1) q)).val = (S32x2048x2.rowMajor (ix3 b j q)).val
    rw [Shape.rowMajor_val_four, Shape.rowMajor_val_three]
    show ((b.val * 2048 + j.val) * 1 + 0) * 2 + q.val = (b.val * 2048 + j.val) * 2 + q.val
    omega
  obtain ⟨h0, h1⟩ := hpts (ix4 b j (0 : Fin 1) q)
  rw [e1, e2, fdW_eight _ h0 h1, cell_val _ h0 h1]

/-- For point coordinates in `[0, 256)` the index window holds, at `(b, 0, j)`, the word of the flat cell index of
    candidate `j` of batch `b`. -/
theorem V5_lin
    (hpts : ∀ i, 0 ≤ ((m ((c : Thread nD τ).loc main_arg1)) i).toInt ∧ ((m ((c : Thread nD τ).loc main_arg1)) i).toInt < 256)
    (b : Fin 32) (j : Fin 2048) :
    (V5 m ρ c (Pipeline.arrRef spec0 1) : S32x1x2048.Idx → BitVec 32) (ix3 b (0 : Fin 1) j)
      = BitVec.ofNat 32 ((Spec.cell (m ((c : Thread nD τ).loc main_arg1) (ix4 b j (0 : Fin 1) (0 : Fin 2)))).val * 32
          + (Spec.cell (m ((c : Thread nD τ).loc main_arg1) (ix4 b j (0 : Fin 1) (1 : Fin 2)))).val) := by
  have e5 : (V5 m ρ c (Pipeline.arrRef spec0 1) : S32x1x2048.Idx → BitVec 32) (ix3 b (0 : Fin 1) j)
      = (W4 m ρ c (Proc.devRef .tc main_v9) : S32x2048.Idx → BitVec 32) (ix2 b j) := by
    refine (congrFun (V5_v10 m ρ c) (ix3 b (0 : Fin 1) j)).trans ?_
    refine shapeCast_apply _ shapeCasts_S32x2048_S32x1x2048 (ix3 b (0 : Fin 1) j) (ix2 b j) ?_
    show (S32x2048.rowMajor (ix2 b j)).val = (S32x1x2048.rowMajor (ix3 b (0 : Fin 1) j)).val
    rw [Shape.rowMajor_val_two, Shape.rowMajor_val_three]
    show b.val * 2048 + j.val = (b.val * 1 + 0) * 2048 + j.val
    omega
  have e4 : (W4 m ρ c (Proc.devRef .tc main_v9) : S32x2048.Idx → BitVec 32) (ix2 b j)
      = IntOp.minsi 1023#32 (IntOp.maxsi 0#32 ((W3 m ρ c (Proc.devRef .tc main_v8) : S32x2048.Idx → BitVec 32) (ix2 b j))) := by
    have h := congrFun (W4_v9 m ρ c) (ix2 b j)
    rw [W3_c1, W3_c2] at h
    exact h
  have e3 : (W3 m ρ c (Proc.devRef .tc main_v8) : S32x2048.Idx → BitVec 32) (ix2 b j)
      = IntOp.addi (IntOp.muli ((W2 m ρ c (Proc.devRef .tc main_v1) : S32x2048x2.Idx → BitVec 32) (ix3 b j (0 : Fin 2))) 32#32)
          ((W2 m ρ c (Proc.devRef .tc main_v1) : S32x2048x2.Idx → BitVec 32) (ix3 b j (1 : Fin 2))) := by
    refine (congrFun (W3_v8 m ρ c) (ix2 b j)).trans ?_
    exact congrArg₂ IntOp.addi (congrArg (fun x => IntOp.muli x 32#32) (slice0_apply _ b j)) (slice1_apply _ b j)
  rw [e5, e4, e3, W2_cell m ρ c hpts b j 0, W2_cell m ρ c hpts b j 1]
  exact linW _ _

end Cert.KernelIdeal.KHostIdx

end
-- ==== Proof.KGather.lean ====
/-
  The first kernel's body, a gather written as a product with a one-hot matrix, read at an index.

  The body holds a 256 × 1024 block `v` (channel by position) and 2048 index words. It builds the 2048 × 1024 matrix
  `onehot[j, k] = 1` where position `k` is row `j`'s index and `0` elsewhere (an integer comparison of a column
  counter with the broadcast index column, widened and converted), splits `v` into `hi = v` and `lo = v - v` (at the
  ideal values a narrowing is the identity, so `lo` is `0` on real entries), and stores
  `Σₖ onehot[j, k] · hi[ch, k] + Σₖ onehot[j, k] · lo[ch, k]`. Each sum keeps the one term `k = L`, `L` the index of
  row `j`: the stored value at `(j, ch)` is `v[ch, L]`.
-/
import proofs.«405869_j26843545600773_3_alg».proof.Proof.KernelIdealFrameP
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KGather

open Cert.KernelIdeal Cert.KernelIdeal.Gen Cert.KernelIdeal.GenP Idealize.ShloMosaic Idealize.ShloMosaic.TcCoe
open Idealize.ShloMosaic.ValueIdx

/-! ## The product's operand indices: the left operand is read at `(j, k)`, the right at `(ch, k)` -/

theorem lhs_0 (i : S2048x256.Idx) (q : dot_S2048x1024_S256x1024_S2048x256_1_1_0_0_n_n.contr.Idx) :
    (dot_S2048x1024_S256x1024_S2048x256_1_1_0_0_n_n.lhsIdx i q 0).val = (i 0).val := by
  unfold DotDims.lhsIdx
  rw [dif_neg (show ¬(0 : Fin S2048x1024.rank) ∈ dot_S2048x1024_S256x1024_S2048x256_1_1_0_0_n_n.lhsBatch by decide),
    dif_pos (show (0 : Fin S2048x1024.rank) ∈ dot_S2048x1024_S256x1024_S2048x256_1_1_0_0_n_n.lhsNonContracting by decide)]
  rfl

theorem lhs_1 (i : S2048x256.Idx) (q : dot_S2048x1024_S256x1024_S2048x256_1_1_0_0_n_n.contr.Idx) :
    (dot_S2048x1024_S256x1024_S2048x256_1_1_0_0_n_n.lhsIdx i q 1).val = (q ⟨0, by decide⟩).val :=
  dot_S2048x1024_S256x1024_S2048x256_1_1_0_0_n_n.lhsIdx_val_of_single rfl i q

theorem rhs_0 (i : S2048x256.Idx) (q : dot_S2048x1024_S256x1024_S2048x256_1_1_0_0_n_n.contr.Idx) :
    (dot_S2048x1024_S256x1024_S2048x256_1_1_0_0_n_n.rhsIdx i q 0).val = (i 1).val := by
  unfold DotDims.rhsIdx
  rw [dif_neg (show ¬(0 : Fin S256x1024.rank) ∈ dot_S2048x1024_S256x1024_S2048x256_1_1_0_0_n_n.rhsBatch by decide),
    dif_pos (show (0 : Fin S256x1024.rank) ∈ dot_S2048x1024_S256x1024_S2048x256_1_1_0_0_n_n.rhsNonContracting by decide)]
  rfl

theorem rhs_1 (i : S2048x256.Idx) (q : dot_S2048x1024_S256x1024_S2048x256_1_1_0_0_n_n.contr.Idx) :
    (dot_S2048x1024_S256x1024_S2048x256_1_1_0_0_n_n.rhsIdx i q 1).val = (q ⟨0, by decide⟩).val :=
  dot_S2048x1024_S256x1024_S2048x256_1_1_0_0_n_n.rhsIdx_val_of_single rfl i q

/-- The product into a zero accumulator, read at `(j, ch)`: `Σₖ A[j, k] · B[ch, k]`. -/
theorem matmul_at {φ₁ φ₂ : FTy} (A : FVec Ideal S2048x1024 φ₁) (B : FVec Ideal S256x1024 φ₂) (j : Fin 2048) (ch : Fin 256) :
    matmul dot_S2048x1024_S256x1024_S2048x256_1_1_0_0_n_n none A B (constant S2048x256 .f32 0x00000000#32) (ix2 j ch)
      = ∑ k : Fin 1024, A (ix2 j k) * B (ix2 ch k) := by
  simp only [matmul]
  rw [Ideal.matmul_constant_zero_apply, ← Equiv.sum_comp (contrEquiv1 dot_S2048x1024_S256x1024_S2048x256_1_1_0_0_n_n 1024 rfl rfl).symm]
  refine Finset.sum_congr rfl fun k _ => ?_
  have hk := contrEquiv1_symm_val dot_S2048x1024_S256x1024_S2048x256_1_1_0_0_n_n 1024 rfl rfl k
  have el : dot_S2048x1024_S256x1024_S2048x256_1_1_0_0_n_n.lhsIdx (ix2 j ch) ((contrEquiv1 dot_S2048x1024_S256x1024_S2048x256_1_1_0_0_n_n 1024 rfl rfl).symm k) = ix2 j k := funext fun a => Fin.ext (by
    match a with
    | ⟨0, _⟩ => exact lhs_0 _ _
    | ⟨1, _⟩ => exact (lhs_1 _ _).trans hk)
  have er : dot_S2048x1024_S256x1024_S2048x256_1_1_0_0_n_n.rhsIdx (ix2 j ch) ((contrEquiv1 dot_S2048x1024_S256x1024_S2048x256_1_1_0_0_n_n 1024 rfl rfl).symm k) = ix2 ch k := funext fun a => Fin.ext (by
    match a with
    | ⟨0, _⟩ => exact rhs_0 _ _
    | ⟨1, _⟩ => exact (rhs_1 _ _).trans hk)
  rw [el, er]

/-! ## The one-hot matrix -/

/-- The broadcast column of indices, read at `(j, k)`, is the index word of row `j`. -/
theorem idx_at (v2 : Vec Ideal S1x1x2048 .i32) (j : Fin 2048) (k : Fin 1024) :
    broadcastTo S2048x1024 (shapeCast S2048x1 (shapeCast S2048 v2 shapeCasts_S1x1x2048_S2048) shapeCasts_S2048_S2048x1)
      broadcasts_S2048x1_S2048x1024 (ix2 j k) = v2 (ix3 (0 : Fin 1) (0 : Fin 1) j) := by
  rw [broadcastTo_apply _ _ (ix2 j k) (ix2 j (0 : Fin 1)) (fun a => match a with | ⟨0, _⟩ => rfl | ⟨1, _⟩ => rfl)]
  rw [shapeCast_apply _ _ (ix2 j (0 : Fin 1)) (ix1 j) (by
    rw [Shape.rowMajor_val_one, Shape.rowMajor_val_two]; show j.val = j.val * 1 + 0; omega)]
  rw [shapeCast_apply _ _ (ix1 j) (ix3 (0 : Fin 1) (0 : Fin 1) j) (by
    rw [Shape.rowMajor_val_three, Shape.rowMajor_val_one]; show (0 * 1 + 0) * 2048 + j.val = j.val; omega)]

/-- Two positions below 1024 have the same 32-bit word only if they are equal. -/
theorem ofNat_inj (k L : Fin 1024) (h : BitVec.ofNat 32 k.val = BitVec.ofNat 32 L.val) : k = L := by
  have h' := congrArg BitVec.toNat h
  simp only [BitVec.toNat_ofNat] at h'
  apply Fin.ext; omega

/-- The bit "position k is the index L", widened to a word and converted: `1` at `k = L`, else `0`. -/
theorem bit_at (k L : Fin 1024) :
    (FloatOps.sitofp (F := Ideal) .f32 ((IntOp.cmpi .eq (BitVec.ofNat 32 k.val) (BitVec.ofNat 32 L.val)).setWidth 32) : EReal)
      = if k = L then 1 else 0 := by
  show ((((BitVec.ofBool (BitVec.ofNat 32 k.val == BitVec.ofNat 32 L.val)).setWidth 32).toInt : ℝ) : EReal) = _
  by_cases h : k = L
  · subst h
    have e : ((BitVec.ofBool true).setWidth 32).toInt = 1 := by decide
    rw [if_pos rfl, beq_self_eq_true, e]; norm_num
  · have hb : (BitVec.ofNat 32 k.val == BitVec.ofNat 32 L.val) = false :=
      beq_false_of_ne (fun e => h (ofNat_inj k L e))
    have e : ((BitVec.ofBool false).setWidth 32).toInt = 0 := by decide
    rw [if_neg h, hb, e]; norm_num

/-- The one-hot matrix at `(j, k)`: `1` where `k` is row `j`'s index, else `0`. -/
theorem onehot_at (v2 : Vec Ideal S1x1x2048 .i32) (j : Fin 2048) (L k : Fin 1024)
    (hL : v2 (ix3 (0 : Fin 1) (0 : Fin 1) j) = BitVec.ofNat 32 L.val) :
    (truncf .bf16 (sitofp .f32 (extui 32 (cmpi .eq (iota .tc S2048x1024 32 [1] iota_S2048x1024_d1_w32)
        (broadcastTo S2048x1024 (shapeCast S2048x1 (shapeCast S2048 v2 shapeCasts_S1x1x2048_S2048) shapeCasts_S2048_S2048x1)
          broadcasts_S2048x1_S2048x1024)) natLt_1_32)) bitsLt_bf16_f32 : FVec Ideal S2048x1024 .bf16) (ix2 j k)
      = if k = L then 1 else 0 := by
  rw [truncf_apply, sitofp_apply, extui_apply]
  show FloatOps.sitofp (F := Ideal) .f32 ((IntOp.cmpi .eq (iota .tc S2048x1024 32 [1] iota_S2048x1024_d1_w32 (ix2 j k))
    (broadcastTo S2048x1024 (shapeCast S2048x1 (shapeCast S2048 v2 shapeCasts_S1x1x2048_S2048) shapeCasts_S2048_S2048x1)
      broadcasts_S2048x1_S2048x1024 (ix2 j k))).setWidth 32) = _
  rw [iota_single_apply, idx_at, hL]
  exact bit_at k L

/-! ## The stored value -/

/-- The body's stored value at `(j, ch)` is the block at `(ch, L)`, `L` the index of row `j`. -/
theorem k0_pay1_apply (v0 : Vec Ideal S1x256x1024 .f32) (v2 : Vec Ideal S1x1x2048 .i32)
    (hv0 : ∀ i, ∃ r : ℝ, v0 i = (r : EReal)) (j : Fin 2048) (ch : Fin 256) (L : Fin 1024)
    (hL : v2 (ix3 (0 : Fin 1) (0 : Fin 1) j) = BitVec.ofNat 32 L.val) :
    k0_pay1 (F := Ideal) v0 v2 (ix3 (0 : Fin 1) j ch) = v0 (ix3 (0 : Fin 1) ch L) := by
  unfold k0_pay1
  rw [shapeCast_ab_1ab_apply, addf_apply, matmul_at, matmul_at]
  have hv : ∀ k : Fin 1024, (truncf .bf16 (shapeCast S256x1024 v0 shapeCasts_S1x256x1024_S256x1024) bitsLt_bf16_f32
      : FVec Ideal S256x1024 .bf16) (ix2 ch k) = v0 (ix3 (0 : Fin 1) ch k) := fun k => by
    rw [truncf_apply, shapeCast_1ab_ab_apply]
  have hz : ∀ k : Fin 1024, (truncf .bf16 (subf (shapeCast S256x1024 v0 shapeCasts_S1x256x1024_S256x1024)
      (shapeCast S256x1024 v0 shapeCasts_S1x256x1024_S256x1024)) bitsLt_bf16_f32 : FVec Ideal S256x1024 .bf16) (ix2 ch k)
      = 0 := fun k => by
    rw [truncf_apply, subf_apply, shapeCast_1ab_ab_apply]
    obtain ⟨r, hr⟩ := hv0 (ix3 (0 : Fin 1) ch k)
    rw [hr, ← EReal.coe_sub, sub_self, EReal.coe_zero]
  simp only [onehot_at v2 j L _ hL, hv, hz, mul_zero, Finset.sum_const_zero, add_zero, ite_mul, one_mul, zero_mul,
    Finset.sum_ite_eq', Finset.mem_univ, if_true]

/-- The three zero offsets of a whole-buffer rectangle. -/
theorem zero3 : (![0, 0, 0] : Fin 3 → Nat) = fun _ => 0 :=
  funext fun a => match a with | ⟨0, _⟩ => rfl | ⟨1, _⟩ => rfl | ⟨2, _⟩ => rfl

/-- The output buffer after the body (one store through the whole buffer, of the payload at the whole input blocks). -/
theorem out0_2_apply (x0 : Vec Ideal S1x256x1024 .f32) (x1 : Vec Ideal S1x1x2048 .i32)
    (hx0 : ∀ i, ∃ r : ℝ, x0 i = (r : EReal)) (j : Fin 2048) (ch : Fin 256) (L : Fin 1024)
    (hL : x1 (ix3 (0 : Fin 1) (0 : Fin 1) j) = BitVec.ofNat 32 L.val) :
    out0_2 (F := Ideal) x0 x1 (ix3 (0 : Fin 1) j ch) = x0 (ix3 (0 : Fin 1) ch L) := by
  unfold out0_2
  rw [View.canon_unit_zero zero3]
  simp only [View.ld_unit_zero (S := S1x256x1024) zero3, View.ld_unit_zero (S := S1x1x2048) zero3]
  exact k0_pay1_apply x0 x1 hx0 j ch L hL

end Cert.KernelIdeal.KGather

end
-- ==== Proof.KRegion0.lean ====
/-
  The first region's output array after its 32 grid points: the gathered rows.

  Point `t` of the grid holds block `t` of the image viewed `[32, 256, 1024]` (channel by flat cell), block `t` of
  the flat cell indices `[32, 1, 2048]`, and writes block `t` of the output `[32, 2048, 256]`. The body's stored value
  at `(0, j, ch)` is the image block at `(0, ch, L)`, `L = cy · 32 + cx` the flat cell index of candidate `j`; the
  image block at flat cell `L` is the image at cell `(L / 32, L % 32) = (cy, cx)`: the gathered row of candidate `j` of
  batch `t` at channel `ch`. A block's coordinate in the array is index × size + the coordinate inside the block; the
  32 blocks `(t, 0, 0)` tile the output, so the array ends holding the gathered rows everywhere.
-/
import proofs.«405869_j26843545600773_3_alg».proof.Proof.KernelIdealFrameP
import proofs.«405869_j26843545600773_3_alg».proof.Proof.KGather
import proofs.«405869_j26843545600773_3_alg».proof.Proof.Params
import Idealize.ShloMosaic.Lib.ValueIdx
import Idealize.ShloMosaic.Lib.Pipeline.Value

set_option maxRecDepth 16384

noncomputable section

namespace Cert.KernelIdeal.KRegion0

open Cert Cert.KernelIdeal Cert.KernelIdeal.Gen Cert.KernelIdeal.GenP Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- The grid has 32 points. -/
theorem N0 : cfg0.N = 32 := by decide

/-- Each window's block index at point `t` is `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The image block and the index block of point `t`. -/
abbrev imgBlk (t : Fin cfg0.N) : Vec Ideal S1x256x1024 .f32 := iblk0 (V5 m ρ) c 0 t
abbrev linBlk (t : Fin cfg0.N) : Vec Ideal S1x1x2048 .i32 := iblk0 (V5 m ρ) c 1 t

/-- Point `t` as a batch index. -/
def pt (t : Fin cfg0.N) : Fin 32 := ⟨t.val, N0 ▸ t.isLt⟩

/-- The array index under the image block's `(0, ch, k)` at point `t` is `(t, ch, k)`. -/
theorem emb_img (t : Fin cfg0.N) (ch : Fin 256) (k : Fin 1024) :
    ((cfg0.win 0).blk t).view.emb (ix3 (0 : Fin 1) ch k) = ix3 (pt t) ch k := by
  obtain ⟨e0, e1, e2, -⟩ := idx_facts t
  funext a; apply Fin.ext
  match a with
  | ⟨0, _⟩ => show win0_0.index t (0 : Fin 3) * 1 + 1 * 0 = t.val; omega
  | ⟨1, _⟩ => show win0_0.index t (1 : Fin 3) * 256 + 1 * ch.val = ch.val; omega
  | ⟨2, _⟩ => show win0_0.index t (2 : Fin 3) * 1024 + 1 * k.val = k.val; omega

/-- The array index under the index block's `(0, 0, j)` at point `t` is `(t, 0, j)`. -/
theorem emb_lin (t : Fin cfg0.N) (j : Fin 2048) :
    ((cfg0.win 1).blk t).view.emb (ix3 (0 : Fin 1) (0 : Fin 1) j) = ix3 (pt t) (0 : Fin 1) j := by
  obtain ⟨-, -, -, e0, e1, e2, -⟩ := idx_facts t
  funext a; apply Fin.ext
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 2048 + 1 * j.val = j.val; omega

/-- The image block at `(0, ch, cy · 32 + cx)` is the image at `(t, ch, cy, cx)`. -/
theorem imgBlk_at
    (hV5img : (V5 m ρ c (Pipeline.arrRef spec0 0) : S32x256x1024.Idx → EReal)
      = fun i => m ((c : Thread nD τ).loc main_arg0)
          (ix4 (i 0) (i 1) (⟨(i 2).val / 32, by have h : (i 2).val < 1024 := (i 2).isLt; omega⟩ : Fin 32)
            (⟨(i 2).val % 32, Nat.mod_lt _ (by norm_num)⟩ : Fin 32)))
    (t : Fin cfg0.N) (ch : Fin 256) (cy cx : Fin 32) (hL : cy.val * 32 + cx.val < 1024) :
    imgBlk m ρ c t (ix3 (0 : Fin 1) ch ⟨cy.val * 32 + cx.val, hL⟩)
      = m ((c : Thread nD τ).loc main_arg0) (ix4 (pt t) ch cy cx) := by
  show (V5 m ρ c (Pipeline.arrRef spec0 0) : S32x256x1024.Idx → EReal)
    (((cfg0.win 0).blk t).view.emb (ix3 (0 : Fin 1) ch ⟨cy.val * 32 + cx.val, hL⟩)) = _
  rw [emb_img]
  refine (congrFun hV5img _).trans (congrArg _ (funext fun a => ?_))
  match a with
  | ⟨0, _⟩ => rfl
  | ⟨1, _⟩ => rfl
  | ⟨2, _⟩ => exact Fin.ext (by show (cy.val * 32 + cx.val) / 32 = cy.val; omega)
  | ⟨3, _⟩ => exact Fin.ext (by show (cy.val * 32 + cx.val) % 32 = cx.val; omega)

/-- The image block's entries are real numbers, the image's being so. -/
theorem imgBlk_real
    (hV5img : (V5 m ρ c (Pipeline.arrRef spec0 0) : S32x256x1024.Idx → EReal)
      = fun i => m ((c : Thread nD τ).loc main_arg0)
          (ix4 (i 0) (i 1) (⟨(i 2).val / 32, by have h : (i 2).val < 1024 := (i 2).isLt; omega⟩ : Fin 32)
            (⟨(i 2).val % 32, Nat.mod_lt _ (by norm_num)⟩ : Fin 32)))
    (himg : ∀ i, ∃ r : ℝ, m ((c : Thread nD τ).loc main_arg0) i = (r : EReal)) (t : Fin cfg0.N) : ∀ i, ∃ r : ℝ, imgBlk m ρ c t i = (r : EReal) := fun i => by
  show ∃ r : ℝ, (V5 m ρ c (Pipeline.arrRef spec0 0) : S32x256x1024.Idx → EReal) (((cfg0.win 0).blk t).view.emb i) = (r : EReal)
  rw [congrFun hV5img _]
  exact himg _

/-- The index block at `(0, 0, j)` is the word of the flat cell index of candidate `j` of batch `t`. -/
theorem linBlk_at
    (hV5lin : ∀ (b : Fin 32) (j : Fin 2048),
      (V5 m ρ c (Pipeline.arrRef spec0 1) : S32x1x2048.Idx → BitVec 32) (ix3 b (0 : Fin 1) j)
        = BitVec.ofNat 32 ((Spec.cell (m ((c : Thread nD τ).loc main_arg1) (ix4 b j (0 : Fin 1) (0 : Fin 2)))).val * 32
            + (Spec.cell (m ((c : Thread nD τ).loc main_arg1) (ix4 b j (0 : Fin 1) (1 : Fin 2)))).val))
    (t : Fin cfg0.N) (j : Fin 2048) :
    linBlk m ρ c t (ix3 (0 : Fin 1) (0 : Fin 1) j)
      = BitVec.ofNat 32 ((Spec.cell (m ((c : Thread nD τ).loc main_arg1) (ix4 (pt t) j (0 : Fin 1) (0 : Fin 2)))).val * 32
          + (Spec.cell (m ((c : Thread nD τ).loc main_arg1) (ix4 (pt t) j (0 : Fin 1) (1 : Fin 2)))).val) := by
  show (V5 m ρ c (Pipeline.arrRef spec0 1) : S32x1x2048.Idx → BitVec 32)
    (((cfg0.win 1).blk t).view.emb (ix3 (0 : Fin 1) (0 : Fin 1) j)) = _
  rw [emb_lin]
  exact hV5lin (pt t) j

/-- What the region's output array holds: at `(b, j, ch)` the gathered row of candidate `j` of batch `b` at channel `ch`. -/
abbrev G : S32x2048x256.Idx → EReal := fun i =>
  Spec.xrow (m ((c : Thread nD τ).loc main_arg0)) (m ((c : Thread nD τ).loc main_arg1)) (i 0) (i 1) (i 2)

/-- The body's output block at point `t`, read at `(0, j, ch)`: the gathered row of candidate `j` of batch `t`. -/
theorem block_at
    (hV5img : (V5 m ρ c (Pipeline.arrRef spec0 0) : S32x256x1024.Idx → EReal)
      = fun i => m ((c : Thread nD τ).loc main_arg0)
          (ix4 (i 0) (i 1) (⟨(i 2).val / 32, by have h : (i 2).val < 1024 := (i 2).isLt; omega⟩ : Fin 32)
            (⟨(i 2).val % 32, Nat.mod_lt _ (by norm_num)⟩ : Fin 32)))
    (hV5lin : ∀ (b : Fin 32) (j : Fin 2048),
      (V5 m ρ c (Pipeline.arrRef spec0 1) : S32x1x2048.Idx → BitVec 32) (ix3 b (0 : Fin 1) j)
        = BitVec.ofNat 32 ((Spec.cell (m ((c : Thread nD τ).loc main_arg1) (ix4 b j (0 : Fin 1) (0 : Fin 2)))).val * 32
            + (Spec.cell (m ((c : Thread nD τ).loc main_arg1) (ix4 b j (0 : Fin 1) (1 : Fin 2)))).val))
    (himg : ∀ i, ∃ r : ℝ, m ((c : Thread nD τ).loc main_arg0) i = (r : EReal)) (t : Fin cfg0.N) (j : Fin 2048) (ch : Fin 256) :
    out0_2 (imgBlk m ρ c t) (linBlk m ρ c t) (ix3 (0 : Fin 1) j ch)
      = Spec.xrow (m ((c : Thread nD τ).loc main_arg0)) (m ((c : Thread nD τ).loc main_arg1)) (pt t) j ch := by
  have hL : (Spec.cell (m ((c : Thread nD τ).loc main_arg1) (ix4 (pt t) j (0 : Fin 1) (0 : Fin 2)))).val * 32
      + (Spec.cell (m ((c : Thread nD τ).loc main_arg1) (ix4 (pt t) j (0 : Fin 1) (1 : Fin 2)))).val < 1024 := by
    have h0 := (Spec.cell (m ((c : Thread nD τ).loc main_arg1) (ix4 (pt t) j (0 : Fin 1) (0 : Fin 2)))).isLt
    have h1 := (Spec.cell (m ((c : Thread nD τ).loc main_arg1) (ix4 (pt t) j (0 : Fin 1) (1 : Fin 2)))).isLt
    omega
  rw [KGather.out0_2_apply (imgBlk m ρ c t) (linBlk m ρ c t) (imgBlk_real m ρ c hV5img himg t) j ch ⟨_, hL⟩
    (linBlk_at m ρ c hV5lin t j), imgBlk_at m ρ c hV5img]
  rfl

/-- What point `t` writes back is block `t` of `G`. -/
theorem flushed_eq
    (hV5img : (V5 m ρ c (Pipeline.arrRef spec0 0) : S32x256x1024.Idx → EReal)
      = fun i => m ((c : Thread nD τ).loc main_arg0)
          (ix4 (i 0) (i 1) (⟨(i 2).val / 32, by have h : (i 2).val < 1024 := (i 2).isLt; omega⟩ : Fin 32)
            (⟨(i 2).val % 32, Nat.mod_lt _ (by norm_num)⟩ : Fin 32)))
    (hV5lin : ∀ (b : Fin 32) (j : Fin 2048),
      (V5 m ρ c (Pipeline.arrRef spec0 1) : S32x1x2048.Idx → BitVec 32) (ix3 b (0 : Fin 1) j)
        = BitVec.ofNat 32 ((Spec.cell (m ((c : Thread nD τ).loc main_arg1) (ix4 b j (0 : Fin 1) (0 : Fin 2)))).val * 32
            + (Spec.cell (m ((c : Thread nD τ).loc main_arg1) (ix4 b j (0 : Fin 1) (1 : Fin 2)))).val))
    (himg : ∀ i, ∃ r : ℝ, m ((c : Thread nD τ).loc main_arg0) i = (r : EReal)) (t : Fin cfg0.N) :
    (dat0 (V5 m ρ) c).flushed 2 t = ((cfg0.win 2).blk t).view.read (Elt Ideal) (G m c) := by
  show (cfg0.win 2).cut (grid0.coords t) ((dat0 (V5 m ρ) c).after 2 t) = _
  rw [after0_2]
  obtain ⟨-, -, -, -, -, -, e0, e1, e2⟩ := idx_facts t
  funext y
  have y0 : (y 0).val < 1 := (y 0).isLt
  have y1 : (y 1).val < 2048 := (y 1).isLt
  have y2 : (y 2).val < 256 := (y 2).isLt
  have ex : win0_2.xinj (grid0.coords t) y = ix3 (0 : Fin 1) (⟨(y 1).val, y1⟩ : Fin 2048) (⟨(y 2).val, y2⟩ : Fin 256) := by
    funext a; apply Fin.ext
    match a with
    | ⟨0, _⟩ => show (y 0).val = 0; omega
    | ⟨1, _⟩ => rfl
    | ⟨2, _⟩ => rfl
  have ee : ((cfg0.win 2).blk t).view.emb y = ix3 (pt t) (⟨(y 1).val, y1⟩ : Fin 2048) (⟨(y 2).val, y2⟩ : Fin 256) := by
    funext a; apply Fin.ext
    match a with
    | ⟨0, _⟩ => show win0_2.index t (0 : Fin 3) * 1 + 1 * (y 0).val = t.val; omega
    | ⟨1, _⟩ => show win0_2.index t (1 : Fin 3) * 2048 + 1 * (y 1).val = (y 1).val; omega
    | ⟨2, _⟩ => show win0_2.index t (2 : Fin 3) * 256 + 1 * (y 2).val = (y 2).val; omega
  show out0_2 (imgBlk m ρ c t) (linBlk m ρ c t) (win0_2.xinj (grid0.coords t) y) = G m c (((cfg0.win 2).blk t).view.emb y)
  rw [ex, ee, block_at m ρ c hV5img hV5lin himg]

/-- An index of the array is in point `t`'s block iff each coordinate is in the block's range on its axis. -/
theorem mem_blk (t : Fin cfg0.N) (i : S32x2048x256.Idx) :
    i ∈ ((cfg0.win 2).blk t).view.set ↔ ∀ a : Fin 3, win0_2.index t a * S1x2048x256.size a ≤ (i a).val
      ∧ (i a).val < win0_2.index t a * S1x2048x256.size a + S1x2048x256.size a := by
  show i ∈ ((View.whole main_v12).slice (win0_2.rect t)).set ↔ _
  rw [View.set_slice_whole, Rect.mem_set_unit]
  exact Iff.rfl

/-- Every index `(b, j, ch)` of the output array is in the block of point `b`. -/
theorem cover (i : S32x2048x256.Idx) :
    ∃ t : Fin cfg0.N, (cfg0.win 2).flush t = true ∧ i ∈ ((cfg0.win 2).blk t).view.set := by
  have i0 : (i 0).val < 32 := (i 0).isLt
  have i1 : (i 1).val < 2048 := (i 1).isLt
  have i2 : (i 2).val < 256 := (i 2).isLt
  refine ⟨⟨(i 0).val, N0 ▸ i0⟩, flush0_2 _, ?_⟩
  obtain ⟨-, -, -, -, -, -, e0, e1, e2⟩ := idx_facts ⟨(i 0).val, N0 ▸ i0⟩
  rw [mem_blk]
  intro a
  match a with
  | ⟨0, _⟩ => show win0_2.index _ (0 : Fin 3) * 1 ≤ (i 0).val ∧ (i 0).val < win0_2.index _ (0 : Fin 3) * 1 + 1; rw [e0]; show (i 0).val * 1 ≤ (i 0).val ∧ (i 0).val < (i 0).val * 1 + 1; omega
  | ⟨1, _⟩ => show win0_2.index _ (1 : Fin 3) * 2048 ≤ (i 1).val ∧ (i 1).val < win0_2.index _ (1 : Fin 3) * 2048 + 2048; rw [e1]; omega
  | ⟨2, _⟩ => show win0_2.index _ (2 : Fin 3) * 256 ≤ (i 2).val ∧ (i 2).val < win0_2.index _ (2 : Fin 3) * 256 + 256; rw [e2]; omega

/-- The first region's output array after its 32 grid points: the gathered rows, given what the region finds in its two
    input arrays (the image viewed `[32, 256, 1024]`, and the flat cell indices). -/
theorem gathered_of
    (hV5img : (V5 m ρ c (Pipeline.arrRef spec0 0) : S32x256x1024.Idx → EReal)
      = fun i => m ((c : Thread nD τ).loc main_arg0)
          (ix4 (i 0) (i 1) (⟨(i 2).val / 32, by have h : (i 2).val < 1024 := (i 2).isLt; omega⟩ : Fin 32)
            (⟨(i 2).val % 32, Nat.mod_lt _ (by norm_num)⟩ : Fin 32)))
    (hV5lin : ∀ (b : Fin 32) (j : Fin 2048),
      (V5 m ρ c (Pipeline.arrRef spec0 1) : S32x1x2048.Idx → BitVec 32) (ix3 b (0 : Fin 1) j)
        = BitVec.ofNat 32 ((Spec.cell (m ((c : Thread nD τ).loc main_arg1) (ix4 b j (0 : Fin 1) (0 : Fin 2)))).val * 32
            + (Spec.cell (m ((c : Thread nD τ).loc main_arg1) (ix4 b j (0 : Fin 1) (1 : Fin 2)))).val))
    (himg : ∀ i, ∃ r : ℝ, m ((c : Thread nD τ).loc main_arg0) i = (r : EReal)) :
    ((dat0 (V5 m ρ) c).arrAt 2 cfg0.N : S32x2048x256.Idx → EReal)
      = fun i => Spec.xrow (m ((c : Thread nD τ).loc main_arg0)) (m ((c : Thread nD τ).loc main_arg1)) (i 0) (i 1) (i 2) :=
  (dat0 (V5 m ρ) c).arrAt_eq_of_cover 2 (G m c) (fun t _ => flushed_eq m ρ c hV5img hV5lin himg t) cover

end Cert.KernelIdeal.KRegion0

end
-- ==== Proof.KStages.lean ====
/-
  The second kernel's body, stage by stage, on whole blocks of 1024 rows.

  One grid point holds a block `h` of 1024 rows of 256 channels. A group normalisation takes the first and second
  moments of each row's 32 groups by two products with the 256 × 32 matrix `ag`, scaled by ⅛ (`muV`, `varV`),
  spreads `μ` and `rsqrt (var + ε)` back over the channels by two products with the 32 × 256 matrix `agT`, and
  applies the per-channel scale and shift (`gnFinV`). `siluV` is `h · σ(h)`; `linV`, `linV2`, `linV4` are a
  product with a 256 × n matrix (n = 256, 2, 4) plus a bias row; `reluV` is the maximum with zero. Each stage, read at
  an index `(r, ·)`, is the specification's row function of row `r`.
-/
import proofs.«405869_j26843545600773_3_alg».proof.Proof.Gen.KernelIdeal
import proofs.«405869_j26843545600773_3_alg».proof.Proof.Spec
import Idealize.ShloMosaic.Lib.ValueIdx
import Idealize.ShloMosaic.Lib.Pipeline.Value
import Idealize.ShloMosaic.PureOps.Ideal.Laws

noncomputable section

namespace Cert.KernelIdeal.Stage

open Cert.KernelIdeal Cert.KernelIdeal.Gen Idealize.ShloMosaic Idealize.ShloMosaic.TcCoe Idealize.ShloMosaic.ValueIdx

section Defs
variable {F : FTy → Type} [FloatOps F]

/-- Each group's first moment: `(h · ag) · ⅛`. -/
def muV (ag : FVec F S256x32 .f32) (h : FVec F S1024x256 .f32) : FVec F S1024x32 .f32 :=
  mulf (matmul dot_S1024x256_S256x32_S1024x32_1_0_0_1_n_n (some .fp32) h ag (constant S1024x32 .f32 0x00000000#32))
    (broadcast S1024x32 (Scalar.ofBits .f32 0x3E000000#32))

/-- Each group's second moment less the square of the first: `(h² · ag) · ⅛ - μ²`. -/
def varV (ag : FVec F S256x32 .f32) (h : FVec F S1024x256 .f32) : FVec F S1024x32 .f32 :=
  subf (mulf (matmul dot_S1024x256_S256x32_S1024x32_1_0_0_1_n_n (some .fp32) (mulf h h) ag (constant S1024x32 .f32 0x00000000#32))
      (broadcast S1024x32 (Scalar.ofBits .f32 0x3E000000#32)))
    (mulf (muV ag h) (muV ag h))

/-- The `ε` of the normalisation, on every group. -/
def epsV : FVec F S1024x32 .f32 := broadcast S1024x32 (Scalar.ofBits .f32 0x3727C5AC#32)

/-- `((h - μ · agT) · (rsqrt (var + ε) · agT)) · w + b` from given group statistics. -/
def gnFinV (agT : FVec F S32x256 .f32) (h : FVec F S1024x256 .f32) (w b : FVec F S1x256 .f32)
    (mu var e : FVec F S1024x32 .f32) : FVec F S1024x256 .f32 :=
  addf (mulf (mulf (subf h (matmul dot_S1024x32_S32x256_S1024x256_1_0_0_1_n_n (some .fp32) mu agT (constant S1024x256 .f32 0x00000000#32)))
        (matmul dot_S1024x32_S32x256_S1024x256_1_0_0_1_n_n (some .fp32) (rsqrt (addf var e)) agT (constant S1024x256 .f32 0x00000000#32)))
      (broadcastTo S1024x256 w broadcasts_S1x256_S1024x256))
    (broadcastTo S1024x256 b broadcasts_S1x256_S1024x256)

/-- The whole group normalisation of a block. -/
def gnV (ag : FVec F S256x32 .f32) (agT : FVec F S32x256 .f32) (h : FVec F S1024x256 .f32) (w b : FVec F S1x256 .f32) :
    FVec F S1024x256 .f32 := gnFinV agT h w b (muV ag h) (varV ag h) epsV

/-- `h · σ(h)`. -/
def siluV (h : FVec F S1024x256 .f32) : FVec F S1024x256 .f32 := mulf h (logistic h)

/-- `max(h, 0)`. -/
def reluV (h : FVec F S1024x256 .f32) : FVec F S1024x256 .f32 :=
  maximumf h (broadcast S1024x256 (Scalar.ofBits .f32 0x00000000#32))

/-- `h · wT + b` with `wT` 256 × 256 (input, output). -/
def linV (h : FVec F S1024x256 .f32) (wT : FVec F S256x256 .f32) (b : FVec F S1x256 .f32) : FVec F S1024x256 .f32 :=
  addf (matmul dot_S1024x256_S256x256_S1024x256_1_0_0_1_n_n none (truncf .bf16 h bitsLt_bf16_f32) (truncf .bf16 wT bitsLt_bf16_f32)
      (constant S1024x256 .f32 0x00000000#32))
    (broadcastTo S1024x256 b broadcasts_S1x256_S1024x256)

/-- `h · wT + b` with `wT` 256 × 2. -/
def linV2 (h : FVec F S1024x256 .f32) (wT : FVec F S256x2 .f32) (b : FVec F S1x2 .f32) : FVec F S1024x2 .f32 :=
  addf (matmul dot_S1024x256_S256x2_S1024x2_1_0_0_1_n_n none (truncf .bf16 h bitsLt_bf16_f32) (truncf .bf16 wT bitsLt_bf16_f32)
      (constant S1024x2 .f32 0x00000000#32))
    (broadcastTo S1024x2 b broadcasts_S1x2_S1024x2)

/-- `h · wT + b` with `wT` 256 × 4. -/
def linV4 (h : FVec F S1024x256 .f32) (wT : FVec F S256x4 .f32) (b : FVec F S1x4 .f32) : FVec F S1024x4 .f32 :=
  addf (matmul dot_S1024x256_S256x4_S1024x4_1_0_0_1_n_n none (truncf .bf16 h bitsLt_bf16_f32) (truncf .bf16 wT bitsLt_bf16_f32)
      (constant S1024x4 .f32 0x00000000#32))
    (broadcastTo S1024x4 b broadcasts_S1x4_S1024x4)

end Defs

/-! ## The stages at an index, at the ideal instance -/

/-- Row `r` of a block. -/
abbrev rowOf (h : FVec Ideal S1024x256 .f32) (r : Fin 1024) : Spec.Row := fun k => h (ix2 r k)
/-- A `1 × 256` row vector as a row. -/
abbrev vecOf (w : FVec Ideal S1x256 .f32) : Spec.Row := fun k => w (ix2 (0 : Fin 1) k)

/-! ## The vector operations that are not pointwise, read at an index

A `tpu.matmul` into the zero accumulator, read at `(r, o)`, is the sum over the contracted coordinate of the
operands' products: the contraction index has one axis, so the sum is re-indexed by that axis' coordinate, and the
operands' indices at output `(r, o)` and contraction coordinate `k` are `(r, k)` and `(k, o)`. One lemma per
shape of product, each over its four axis facts. -/

/-! ### The product of a 1024 × 256 block times a 256 × 32 matrix -/

/-- The left operand's row is the output's row. -/
theorem lhs_256x32_0 (j : S1024x32.Idx) (k : dot_S1024x256_S256x32_S1024x32_1_0_0_1_n_n.contr.Idx) :
    (dot_S1024x256_S256x32_S1024x32_1_0_0_1_n_n.lhsIdx j k 0).val = (j 0).val := rfl
/-- The left operand's column is the contracted coordinate. -/
theorem lhs_256x32_1 (j : S1024x32.Idx) (k : dot_S1024x256_S256x32_S1024x32_1_0_0_1_n_n.contr.Idx) :
    (dot_S1024x256_S256x32_S1024x32_1_0_0_1_n_n.lhsIdx j k 1).val = (k ⟨0, by decide⟩).val :=
  dot_S1024x256_S256x32_S1024x32_1_0_0_1_n_n.lhsIdx_val_of_single rfl j k
/-- The right operand's row is the contracted coordinate. -/
theorem rhs_256x32_0 (j : S1024x32.Idx) (k : dot_S1024x256_S256x32_S1024x32_1_0_0_1_n_n.contr.Idx) :
    (dot_S1024x256_S256x32_S1024x32_1_0_0_1_n_n.rhsIdx j k 0).val = (k ⟨0, by decide⟩).val :=
  dot_S1024x256_S256x32_S1024x32_1_0_0_1_n_n.rhsIdx_val_of_single rfl j k
/-- The right operand's column is the output's column. -/
theorem rhs_256x32_1 (j : S1024x32.Idx) (k : dot_S1024x256_S256x32_S1024x32_1_0_0_1_n_n.contr.Idx) :
    (dot_S1024x256_S256x32_S1024x32_1_0_0_1_n_n.rhsIdx j k 1).val = (j 1).val := rfl

/-- Into a zero accumulator, entry `(r, o)` of the product is `Σₖ A (r, k) · B (k, o)`. -/
theorem matmul_256x32_apply {φ₁ φ₂ : FTy} (prec : Option ContractPrecision) (A : FVec Ideal S1024x256 φ₁) (B : FVec Ideal S256x32 φ₂)
    (r : Fin 1024) (o : Fin 32) :
    matmul dot_S1024x256_S256x32_S1024x32_1_0_0_1_n_n prec A B (constant (F := Ideal) S1024x32 .f32 0x00000000#32) (ix2 r o)
      = ∑ k : Fin 256, A (ix2 r k) * B (ix2 k o) := by
  show FloatOps.matmul dot_S1024x256_S256x32_S1024x32_1_0_0_1_n_n prec A B (constant (F := Ideal) S1024x32 .f32 0x00000000#32) (ix2 r o) = _
  rw [Ideal.matmul_constant_zero_apply, ← Equiv.sum_comp (contrEquiv1 dot_S1024x256_S256x32_S1024x32_1_0_0_1_n_n 256 rfl rfl).symm]
  refine Finset.sum_congr rfl fun c _ => ?_
  have hk := contrEquiv1_symm_val dot_S1024x256_S256x32_S1024x32_1_0_0_1_n_n 256 rfl rfl c
  have hl : dot_S1024x256_S256x32_S1024x32_1_0_0_1_n_n.lhsIdx (ix2 r o) ((contrEquiv1 dot_S1024x256_S256x32_S1024x32_1_0_0_1_n_n 256 rfl rfl).symm c) = ix2 r c := by
    funext ax; apply Fin.ext
    match ax with
    | ⟨0, _⟩ => exact lhs_256x32_0 _ _
    | ⟨1, _⟩ => exact (lhs_256x32_1 _ _).trans hk
  have hr : dot_S1024x256_S256x32_S1024x32_1_0_0_1_n_n.rhsIdx (ix2 r o) ((contrEquiv1 dot_S1024x256_S256x32_S1024x32_1_0_0_1_n_n 256 rfl rfl).symm c) = ix2 c o := by
    funext ax; apply Fin.ext
    match ax with
    | ⟨0, _⟩ => exact (rhs_256x32_0 _ _).trans hk
    | ⟨1, _⟩ => exact rhs_256x32_1 _ _
  rw [hl, hr]

/-! ### The product of a 1024 × 32 block times a 32 × 256 matrix -/

/-- The left operand's row is the output's row. -/
theorem lhs_32x256_0 (j : S1024x256.Idx) (k : dot_S1024x32_S32x256_S1024x256_1_0_0_1_n_n.contr.Idx) :
    (dot_S1024x32_S32x256_S1024x256_1_0_0_1_n_n.lhsIdx j k 0).val = (j 0).val := rfl
/-- The left operand's column is the contracted coordinate. -/
theorem lhs_32x256_1 (j : S1024x256.Idx) (k : dot_S1024x32_S32x256_S1024x256_1_0_0_1_n_n.contr.Idx) :
    (dot_S1024x32_S32x256_S1024x256_1_0_0_1_n_n.lhsIdx j k 1).val = (k ⟨0, by decide⟩).val :=
  dot_S1024x32_S32x256_S1024x256_1_0_0_1_n_n.lhsIdx_val_of_single rfl j k
/-- The right operand's row is the contracted coordinate. -/
theorem rhs_32x256_0 (j : S1024x256.Idx) (k : dot_S1024x32_S32x256_S1024x256_1_0_0_1_n_n.contr.Idx) :
    (dot_S1024x32_S32x256_S1024x256_1_0_0_1_n_n.rhsIdx j k 0).val = (k ⟨0, by decide⟩).val :=
  dot_S1024x32_S32x256_S1024x256_1_0_0_1_n_n.rhsIdx_val_of_single rfl j k
/-- The right operand's column is the output's column. -/
theorem rhs_32x256_1 (j : S1024x256.Idx) (k : dot_S1024x32_S32x256_S1024x256_1_0_0_1_n_n.contr.Idx) :
    (dot_S1024x32_S32x256_S1024x256_1_0_0_1_n_n.rhsIdx j k 1).val = (j 1).val := rfl

/-- Into a zero accumulator, entry `(r, o)` of the product is `Σₖ A (r, k) · B (k, o)`. -/
theorem matmul_32x256_apply {φ₁ φ₂ : FTy} (prec : Option ContractPrecision) (A : FVec Ideal S1024x32 φ₁) (B : FVec Ideal S32x256 φ₂)
    (r : Fin 1024) (o : Fin 256) :
    matmul dot_S1024x32_S32x256_S1024x256_1_0_0_1_n_n prec A B (constant (F := Ideal) S1024x256 .f32 0x00000000#32) (ix2 r o)
      = ∑ k : Fin 32, A (ix2 r k) * B (ix2 k o) := by
  show FloatOps.matmul dot_S1024x32_S32x256_S1024x256_1_0_0_1_n_n prec A B (constant (F := Ideal) S1024x256 .f32 0x00000000#32) (ix2 r o) = _
  rw [Ideal.matmul_constant_zero_apply, ← Equiv.sum_comp (contrEquiv1 dot_S1024x32_S32x256_S1024x256_1_0_0_1_n_n 32 rfl rfl).symm]
  refine Finset.sum_congr rfl fun c _ => ?_
  have hk := contrEquiv1_symm_val dot_S1024x32_S32x256_S1024x256_1_0_0_1_n_n 32 rfl rfl c
  have hl : dot_S1024x32_S32x256_S1024x256_1_0_0_1_n_n.lhsIdx (ix2 r o) ((contrEquiv1 dot_S1024x32_S32x256_S1024x256_1_0_0_1_n_n 32 rfl rfl).symm c) = ix2 r c := by
    funext ax; apply Fin.ext
    match ax with
    | ⟨0, _⟩ => exact lhs_32x256_0 _ _
    | ⟨1, _⟩ => exact (lhs_32x256_1 _ _).trans hk
  have hr : dot_S1024x32_S32x256_S1024x256_1_0_0_1_n_n.rhsIdx (ix2 r o) ((contrEquiv1 dot_S1024x32_S32x256_S1024x256_1_0_0_1_n_n 32 rfl rfl).symm c) = ix2 c o := by
    funext ax; apply Fin.ext
    match ax with
    | ⟨0, _⟩ => exact (rhs_32x256_0 _ _).trans hk
    | ⟨1, _⟩ => exact rhs_32x256_1 _ _
  rw [hl, hr]

/-! ### The product of a 1024 × 256 block times a 256 × 256 matrix -/

/-- The left operand's row is the output's row. -/
theorem lhs_256x256_0 (j : S1024x256.Idx) (k : dot_S1024x256_S256x256_S1024x256_1_0_0_1_n_n.contr.Idx) :
    (dot_S1024x256_S256x256_S1024x256_1_0_0_1_n_n.lhsIdx j k 0).val = (j 0).val := rfl
/-- The left operand's column is the contracted coordinate. -/
theorem lhs_256x256_1 (j : S1024x256.Idx) (k : dot_S1024x256_S256x256_S1024x256_1_0_0_1_n_n.contr.Idx) :
    (dot_S1024x256_S256x256_S1024x256_1_0_0_1_n_n.lhsIdx j k 1).val = (k ⟨0, by decide⟩).val :=
  dot_S1024x256_S256x256_S1024x256_1_0_0_1_n_n.lhsIdx_val_of_single rfl j k
/-- The right operand's row is the contracted coordinate. -/
theorem rhs_256x256_0 (j : S1024x256.Idx) (k : dot_S1024x256_S256x256_S1024x256_1_0_0_1_n_n.contr.Idx) :
    (dot_S1024x256_S256x256_S1024x256_1_0_0_1_n_n.rhsIdx j k 0).val = (k ⟨0, by decide⟩).val :=
  dot_S1024x256_S256x256_S1024x256_1_0_0_1_n_n.rhsIdx_val_of_single rfl j k
/-- The right operand's column is the output's column. -/
theorem rhs_256x256_1 (j : S1024x256.Idx) (k : dot_S1024x256_S256x256_S1024x256_1_0_0_1_n_n.contr.Idx) :
    (dot_S1024x256_S256x256_S1024x256_1_0_0_1_n_n.rhsIdx j k 1).val = (j 1).val := rfl

/-- Into a zero accumulator, entry `(r, o)` of the product is `Σₖ A (r, k) · B (k, o)`. -/
theorem matmul_256x256_apply {φ₁ φ₂ : FTy} (prec : Option ContractPrecision) (A : FVec Ideal S1024x256 φ₁) (B : FVec Ideal S256x256 φ₂)
    (r : Fin 1024) (o : Fin 256) :
    matmul dot_S1024x256_S256x256_S1024x256_1_0_0_1_n_n prec A B (constant (F := Ideal) S1024x256 .f32 0x00000000#32) (ix2 r o)
      = ∑ k : Fin 256, A (ix2 r k) * B (ix2 k o) := by
  show FloatOps.matmul dot_S1024x256_S256x256_S1024x256_1_0_0_1_n_n prec A B (constant (F := Ideal) S1024x256 .f32 0x00000000#32) (ix2 r o) = _
  rw [Ideal.matmul_constant_zero_apply, ← Equiv.sum_comp (contrEquiv1 dot_S1024x256_S256x256_S1024x256_1_0_0_1_n_n 256 rfl rfl).symm]
  refine Finset.sum_congr rfl fun c _ => ?_
  have hk := contrEquiv1_symm_val dot_S1024x256_S256x256_S1024x256_1_0_0_1_n_n 256 rfl rfl c
  have hl : dot_S1024x256_S256x256_S1024x256_1_0_0_1_n_n.lhsIdx (ix2 r o) ((contrEquiv1 dot_S1024x256_S256x256_S1024x256_1_0_0_1_n_n 256 rfl rfl).symm c) = ix2 r c := by
    funext ax; apply Fin.ext
    match ax with
    | ⟨0, _⟩ => exact lhs_256x256_0 _ _
    | ⟨1, _⟩ => exact (lhs_256x256_1 _ _).trans hk
  have hr : dot_S1024x256_S256x256_S1024x256_1_0_0_1_n_n.rhsIdx (ix2 r o) ((contrEquiv1 dot_S1024x256_S256x256_S1024x256_1_0_0_1_n_n 256 rfl rfl).symm c) = ix2 c o := by
    funext ax; apply Fin.ext
    match ax with
    | ⟨0, _⟩ => exact (rhs_256x256_0 _ _).trans hk
    | ⟨1, _⟩ => exact rhs_256x256_1 _ _
  rw [hl, hr]

/-! ### The product of a 1024 × 256 block times a 256 × 2 matrix -/

/-- The left operand's row is the output's row. -/
theorem lhs_256x2_0 (j : S1024x2.Idx) (k : dot_S1024x256_S256x2_S1024x2_1_0_0_1_n_n.contr.Idx) :
    (dot_S1024x256_S256x2_S1024x2_1_0_0_1_n_n.lhsIdx j k 0).val = (j 0).val := rfl
/-- The left operand's column is the contracted coordinate. -/
theorem lhs_256x2_1 (j : S1024x2.Idx) (k : dot_S1024x256_S256x2_S1024x2_1_0_0_1_n_n.contr.Idx) :
    (dot_S1024x256_S256x2_S1024x2_1_0_0_1_n_n.lhsIdx j k 1).val = (k ⟨0, by decide⟩).val :=
  dot_S1024x256_S256x2_S1024x2_1_0_0_1_n_n.lhsIdx_val_of_single rfl j k
/-- The right operand's row is the contracted coordinate. -/
theorem rhs_256x2_0 (j : S1024x2.Idx) (k : dot_S1024x256_S256x2_S1024x2_1_0_0_1_n_n.contr.Idx) :
    (dot_S1024x256_S256x2_S1024x2_1_0_0_1_n_n.rhsIdx j k 0).val = (k ⟨0, by decide⟩).val :=
  dot_S1024x256_S256x2_S1024x2_1_0_0_1_n_n.rhsIdx_val_of_single rfl j k
/-- The right operand's column is the output's column. -/
theorem rhs_256x2_1 (j : S1024x2.Idx) (k : dot_S1024x256_S256x2_S1024x2_1_0_0_1_n_n.contr.Idx) :
    (dot_S1024x256_S256x2_S1024x2_1_0_0_1_n_n.rhsIdx j k 1).val = (j 1).val := rfl

/-- Into a zero accumulator, entry `(r, o)` of the product is `Σₖ A (r, k) · B (k, o)`. -/
theorem matmul_256x2_apply {φ₁ φ₂ : FTy} (prec : Option ContractPrecision) (A : FVec Ideal S1024x256 φ₁) (B : FVec Ideal S256x2 φ₂)
    (r : Fin 1024) (o : Fin 2) :
    matmul dot_S1024x256_S256x2_S1024x2_1_0_0_1_n_n prec A B (constant (F := Ideal) S1024x2 .f32 0x00000000#32) (ix2 r o)
      = ∑ k : Fin 256, A (ix2 r k) * B (ix2 k o) := by
  show FloatOps.matmul dot_S1024x256_S256x2_S1024x2_1_0_0_1_n_n prec A B (constant (F := Ideal) S1024x2 .f32 0x00000000#32) (ix2 r o) = _
  rw [Ideal.matmul_constant_zero_apply, ← Equiv.sum_comp (contrEquiv1 dot_S1024x256_S256x2_S1024x2_1_0_0_1_n_n 256 rfl rfl).symm]
  refine Finset.sum_congr rfl fun c _ => ?_
  have hk := contrEquiv1_symm_val dot_S1024x256_S256x2_S1024x2_1_0_0_1_n_n 256 rfl rfl c
  have hl : dot_S1024x256_S256x2_S1024x2_1_0_0_1_n_n.lhsIdx (ix2 r o) ((contrEquiv1 dot_S1024x256_S256x2_S1024x2_1_0_0_1_n_n 256 rfl rfl).symm c) = ix2 r c := by
    funext ax; apply Fin.ext
    match ax with
    | ⟨0, _⟩ => exact lhs_256x2_0 _ _
    | ⟨1, _⟩ => exact (lhs_256x2_1 _ _).trans hk
  have hr : dot_S1024x256_S256x2_S1024x2_1_0_0_1_n_n.rhsIdx (ix2 r o) ((contrEquiv1 dot_S1024x256_S256x2_S1024x2_1_0_0_1_n_n 256 rfl rfl).symm c) = ix2 c o := by
    funext ax; apply Fin.ext
    match ax with
    | ⟨0, _⟩ => exact (rhs_256x2_0 _ _).trans hk
    | ⟨1, _⟩ => exact rhs_256x2_1 _ _
  rw [hl, hr]

/-! ### The product of a 1024 × 256 block times a 256 × 4 matrix -/

/-- The left operand's row is the output's row. -/
theorem lhs_256x4_0 (j : S1024x4.Idx) (k : dot_S1024x256_S256x4_S1024x4_1_0_0_1_n_n.contr.Idx) :
    (dot_S1024x256_S256x4_S1024x4_1_0_0_1_n_n.lhsIdx j k 0).val = (j 0).val := rfl
/-- The left operand's column is the contracted coordinate. -/
theorem lhs_256x4_1 (j : S1024x4.Idx) (k : dot_S1024x256_S256x4_S1024x4_1_0_0_1_n_n.contr.Idx) :
    (dot_S1024x256_S256x4_S1024x4_1_0_0_1_n_n.lhsIdx j k 1).val = (k ⟨0, by decide⟩).val :=
  dot_S1024x256_S256x4_S1024x4_1_0_0_1_n_n.lhsIdx_val_of_single rfl j k
/-- The right operand's row is the contracted coordinate. -/
theorem rhs_256x4_0 (j : S1024x4.Idx) (k : dot_S1024x256_S256x4_S1024x4_1_0_0_1_n_n.contr.Idx) :
    (dot_S1024x256_S256x4_S1024x4_1_0_0_1_n_n.rhsIdx j k 0).val = (k ⟨0, by decide⟩).val :=
  dot_S1024x256_S256x4_S1024x4_1_0_0_1_n_n.rhsIdx_val_of_single rfl j k
/-- The right operand's column is the output's column. -/
theorem rhs_256x4_1 (j : S1024x4.Idx) (k : dot_S1024x256_S256x4_S1024x4_1_0_0_1_n_n.contr.Idx) :
    (dot_S1024x256_S256x4_S1024x4_1_0_0_1_n_n.rhsIdx j k 1).val = (j 1).val := rfl

/-- Into a zero accumulator, entry `(r, o)` of the product is `Σₖ A (r, k) · B (k, o)`. -/
theorem matmul_256x4_apply {φ₁ φ₂ : FTy} (prec : Option ContractPrecision) (A : FVec Ideal S1024x256 φ₁) (B : FVec Ideal S256x4 φ₂)
    (r : Fin 1024) (o : Fin 4) :
    matmul dot_S1024x256_S256x4_S1024x4_1_0_0_1_n_n prec A B (constant (F := Ideal) S1024x4 .f32 0x00000000#32) (ix2 r o)
      = ∑ k : Fin 256, A (ix2 r k) * B (ix2 k o) := by
  show FloatOps.matmul dot_S1024x256_S256x4_S1024x4_1_0_0_1_n_n prec A B (constant (F := Ideal) S1024x4 .f32 0x00000000#32) (ix2 r o) = _
  rw [Ideal.matmul_constant_zero_apply, ← Equiv.sum_comp (contrEquiv1 dot_S1024x256_S256x4_S1024x4_1_0_0_1_n_n 256 rfl rfl).symm]
  refine Finset.sum_congr rfl fun c _ => ?_
  have hk := contrEquiv1_symm_val dot_S1024x256_S256x4_S1024x4_1_0_0_1_n_n 256 rfl rfl c
  have hl : dot_S1024x256_S256x4_S1024x4_1_0_0_1_n_n.lhsIdx (ix2 r o) ((contrEquiv1 dot_S1024x256_S256x4_S1024x4_1_0_0_1_n_n 256 rfl rfl).symm c) = ix2 r c := by
    funext ax; apply Fin.ext
    match ax with
    | ⟨0, _⟩ => exact lhs_256x4_0 _ _
    | ⟨1, _⟩ => exact (lhs_256x4_1 _ _).trans hk
  have hr : dot_S1024x256_S256x4_S1024x4_1_0_0_1_n_n.rhsIdx (ix2 r o) ((contrEquiv1 dot_S1024x256_S256x4_S1024x4_1_0_0_1_n_n 256 rfl rfl).symm c) = ix2 c o := by
    funext ax; apply Fin.ext
    match ax with
    | ⟨0, _⟩ => exact (rhs_256x4_0 _ _).trans hk
    | ⟨1, _⟩ => exact rhs_256x4_1 _ _
  rw [hl, hr]

/-! ### A row broadcast over the block -/

/-- A `1 × 256` row spread over 1024 rows reads, at `(r, c)`, the row at `c`. -/
theorem bcast_1x256_apply (v : FVec Ideal S1x256 .f32) (r : Fin 1024) (c : Fin 256) :
    broadcastTo S1024x256 v broadcasts_S1x256_S1024x256 (ix2 r c) = v (ix2 (0 : Fin 1) c) := by
  refine broadcastTo_apply v broadcasts_S1x256_S1024x256 (ix2 r c) (ix2 (0 : Fin 1) c) fun ax => ?_
  match ax with
  | ⟨0, _⟩ => rfl
  | ⟨1, _⟩ => rfl

/-- A `1 × 2` row spread over 1024 rows reads, at `(r, c)`, the row at `c`. -/
theorem bcast_1x2_apply (v : FVec Ideal S1x2 .f32) (r : Fin 1024) (c : Fin 2) :
    broadcastTo S1024x2 v broadcasts_S1x2_S1024x2 (ix2 r c) = v (ix2 (0 : Fin 1) c) := by
  refine broadcastTo_apply v broadcasts_S1x2_S1024x2 (ix2 r c) (ix2 (0 : Fin 1) c) fun ax => ?_
  match ax with
  | ⟨0, _⟩ => rfl
  | ⟨1, _⟩ => rfl

/-- A `1 × 4` row spread over 1024 rows reads, at `(r, c)`, the row at `c`. -/
theorem bcast_1x4_apply (v : FVec Ideal S1x4 .f32) (r : Fin 1024) (c : Fin 4) :
    broadcastTo S1024x4 v broadcasts_S1x4_S1024x4 (ix2 r c) = v (ix2 (0 : Fin 1) c) := by
  refine broadcastTo_apply v broadcasts_S1x4_S1024x4 (ix2 r c) (ix2 (0 : Fin 1) c) fun ax => ?_
  match ax with
  | ⟨0, _⟩ => rfl
  | ⟨1, _⟩ => rfl

/-! ### The group statistics at an index -/

/-- Group `g`'s first moment of row `r`. -/
theorem muV_apply (ag : FVec Ideal S256x32 .f32) (h : FVec Ideal S1024x256 .f32) (r : Fin 1024) (g : Fin 32) :
    muV ag h (ix2 r g) = Spec.muK (fun k g => ag (ix2 k g)) (rowOf h r) g := by
  unfold muV Spec.muK Spec.eighth
  rw [mulf_apply, matmul_256x32_apply, broadcast_apply]
  rfl

/-- Group `g`'s second moment of row `r` less the square of the first. -/
theorem varV_apply (ag : FVec Ideal S256x32 .f32) (h : FVec Ideal S1024x256 .f32) (r : Fin 1024) (g : Fin 32) :
    varV ag h (ix2 r g) = Spec.varK (fun k g => ag (ix2 k g)) (rowOf h r) g := by
  unfold varV Spec.varK Spec.eighth
  rw [subf_apply, mulf_apply, mulf_apply, matmul_256x32_apply, broadcast_apply, muV_apply]
  rfl

/-- `rsqrt (var + ε)` of group `g` of row `r`. -/
theorem rstdV_apply (ag : FVec Ideal S256x32 .f32) (h : FVec Ideal S1024x256 .f32) (r : Fin 1024) (g : Fin 32) :
    rsqrt (addf (varV ag h) (epsV (F := Ideal))) (ix2 r g)
      = Ideal.rsqrt (Spec.varK (fun k g => ag (ix2 k g)) (rowOf h r) g + Spec.eps) := by
  show FloatOps.rsqrt (addf (varV ag h) (epsV (F := Ideal)) (ix2 r g)) = _
  rw [Ideal.rsqrt_def, addf_apply, varV_apply]
  rfl

/-! ### The six stages at an index -/

theorem gnV_apply (ag : FVec Ideal S256x32 .f32) (agT : FVec Ideal S32x256 .f32) (h : FVec Ideal S1024x256 .f32)
    (w b : FVec Ideal S1x256 .f32) (r : Fin 1024) (ch : Fin 256) :
    gnV ag agT h w b (ix2 r ch)
      = Spec.gnK (fun k g => ag (ix2 k g)) (fun g k => agT (ix2 g k)) (rowOf h r) (vecOf w) (vecOf b) ch := by
  unfold gnV gnFinV Spec.gnK
  rw [addf_apply, mulf_apply, mulf_apply, subf_apply, matmul_32x256_apply, matmul_32x256_apply, bcast_1x256_apply,
    bcast_1x256_apply]
  simp only [muV_apply, rstdV_apply]

theorem siluV_apply (h : FVec Ideal S1024x256 .f32) (r : Fin 1024) (k : Fin 256) :
    siluV h (ix2 r k) = Spec.silu (rowOf h r) k := by
  unfold siluV Spec.silu
  rw [mulf_apply]
  rfl

theorem reluV_apply (h : FVec Ideal S1024x256 .f32) (r : Fin 1024) (k : Fin 256) :
    reluV h (ix2 r k) = Spec.relu (rowOf h r) k := by
  unfold reluV Spec.relu
  rw [maximumf_apply, broadcast_apply]
  show max (h (ix2 r k)) (Ideal.ofBits .f32 0x00000000#32) = max (h (ix2 r k)) 0
  rw [Ideal.ofBits_zero_f32]

theorem linV_apply (h : FVec Ideal S1024x256 .f32) (wT : FVec Ideal S256x256 .f32) (b : FVec Ideal S1x256 .f32)
    (r : Fin 1024) (o : Fin 256) :
    linV h wT b (ix2 r o) = Spec.affine (fun o k => wT (ix2 k o)) (vecOf b) (rowOf h r) o := by
  unfold linV Spec.affine
  rw [addf_apply, matmul_256x256_apply, bcast_1x256_apply]
  rfl

theorem linV2_apply (h : FVec Ideal S1024x256 .f32) (wT : FVec Ideal S256x2 .f32) (b : FVec Ideal S1x2 .f32)
    (r : Fin 1024) (q : Fin 2) :
    linV2 h wT b (ix2 r q) = Spec.affine (fun q k => wT (ix2 k q)) (fun q => b (ix2 (0 : Fin 1) q)) (rowOf h r) q := by
  unfold linV2 Spec.affine
  rw [addf_apply, matmul_256x2_apply, bcast_1x2_apply]
  rfl

theorem linV4_apply (h : FVec Ideal S1024x256 .f32) (wT : FVec Ideal S256x4 .f32) (b : FVec Ideal S1x4 .f32)
    (r : Fin 1024) (q : Fin 4) :
    linV4 h wT b (ix2 r q) = Spec.affine (fun q k => wT (ix2 k q)) (fun q => b (ix2 (0 : Fin 1) q)) (rowOf h r) q := by
  unfold linV4 Spec.affine
  rw [addf_apply, matmul_256x4_apply, bcast_1x4_apply]
  rfl

end Cert.KernelIdeal.Stage

end
-- ==== Proof.ParamsBlk.lean ====
/-
  The specification's parameters read off the blocks one grid point of the second kernel holds: every parameter
  window is its whole array, a scale, shift or bias a `1 × 256` (or `1 × 2`, `1 × 4`) row, a matrix stored
  transposed, `wT k o` (input `k`, output `o`).
-/
import proofs.«405869_j26843545600773_3_alg».proof.Proof.Spec
import Idealize.ShloMosaic.Lib.ValueIdx

noncomputable section

namespace Cert.Spec

open Idealize.ShloMosaic Idealize.ShloMosaic.ValueIdx

/-- A residual block's parameters from its eight blocks. -/
def rbpBlk (x1 x2 : (⟨2, ![1, 256]⟩ : Shape).Idx → EReal) (x3 : (⟨2, ![256, 256]⟩ : Shape).Idx → EReal)
    (x4 x5 x6 : (⟨2, ![1, 256]⟩ : Shape).Idx → EReal) (x7 : (⟨2, ![256, 256]⟩ : Shape).Idx → EReal)
    (x8 : (⟨2, ![1, 256]⟩ : Shape).Idx → EReal) : RBP where
  g1w := fun k => x1 (ix2 (0 : Fin 1) k)
  g1b := fun k => x2 (ix2 (0 : Fin 1) k)
  w1 := fun o k => x3 (ix2 k o)
  b1 := fun k => x4 (ix2 (0 : Fin 1) k)
  g2w := fun k => x5 (ix2 (0 : Fin 1) k)
  g2b := fun k => x6 (ix2 (0 : Fin 1) k)
  w2 := fun o k => x7 (ix2 k o)
  b2 := fun k => x8 (ix2 (0 : Fin 1) k)

/-- The heads' parameters from their eight blocks. -/
def headBlk (x17 : (⟨2, ![256, 2]⟩ : Shape).Idx → EReal) (x18 : (⟨2, ![1, 2]⟩ : Shape).Idx → EReal)
    (x19 : (⟨2, ![256, 256]⟩ : Shape).Idx → EReal) (x20 : (⟨2, ![1, 256]⟩ : Shape).Idx → EReal)
    (x21 : (⟨2, ![256, 256]⟩ : Shape).Idx → EReal) (x22 : (⟨2, ![1, 256]⟩ : Shape).Idx → EReal)
    (x23 : (⟨2, ![256, 4]⟩ : Shape).Idx → EReal) (x24 : (⟨2, ![1, 4]⟩ : Shape).Idx → EReal) : HeadP where
  cw := fun q k => x17 (ix2 k q)
  cb := fun q => x18 (ix2 (0 : Fin 1) q)
  m1 := fun o k => x19 (ix2 k o)
  mb1 := fun o => x20 (ix2 (0 : Fin 1) o)
  m2 := fun o k => x21 (ix2 k o)
  mb2 := fun o => x22 (ix2 (0 : Fin 1) o)
  m3 := fun q k => x23 (ix2 k q)
  mb3 := fun q => x24 (ix2 (0 : Fin 1) q)

end Cert.Spec

end
-- ==== Proof.KPay.lean ====
/-
  The second kernel's two outputs, as the payload terms its body prints, against the specification of the block's rows.

  One grid point reads 27 whole blocks: 1024 rows of 256 channels, the eight parameter blocks of each of the two
  residual blocks, the eight of the two heads, and the two matrices of the group normalisation. The printed payloads are
  the stages of KStages composed: the first normalisation's statistics (`muV`, `varV`, `epsV`), the rest of residual
  block 0, residual block 1 in two pieces, the two logits (`linV2`), and the four box coordinates
  (`σ ∘ linV4 ∘ reluV ∘ linV ∘ reluV ∘ linV`). Each of these identities holds by unfolding, at any float instance. A
  `shape_cast` to the same shape is the identity, and a load of a whole buffer reads the buffer, so each output is
  `linV2` (or the box head `boxV`) of the trunk `trunkV` of the blocks themselves. At the ideal instance a stage's
  output row is the specification's function of its input row, so row `r` of the trunk is `Spec.trunk` of row `r`,
  and the outputs at `(r, q)` are `Spec.logits` and `Spec.boxes` of it.
-/
import proofs.«405869_j26843545600773_3_alg».proof.Proof.KernelIdealFrameP
import proofs.«405869_j26843545600773_3_alg».proof.Proof.KStages
import proofs.«405869_j26843545600773_3_alg».proof.Proof.ParamsBlk
import Idealize.ShloMosaic.Lib.Pipeline.Value
import Idealize.ShloMosaic.Lib.ValueIdx

noncomputable section

namespace Cert.KernelIdeal.KPay

open Cert.KernelIdeal Cert.KernelIdeal.Gen Cert.KernelIdeal.GenP Cert.KernelIdeal.Stage
open Idealize.ShloMosaic Idealize.ShloMosaic.ValueIdx

/-! ## The payloads are the stages composed, at any float instance -/

section Generic
variable {F : FTy → Type} [FloatOps F]

/-- A residual block on a whole block of rows: the second affine map of the activated second normalisation of
    the first affine map of the activated first normalisation, plus the input. -/
def rbV (ag : FVec F S256x32 .f32) (agT : FVec F S32x256 .f32) (x : FVec F S1024x256 .f32)
    (g1w g1b : FVec F S1x256 .f32) (w1T : FVec F S256x256 .f32) (b1 g2w g2b : FVec F S1x256 .f32)
    (w2T : FVec F S256x256 .f32) (b2 : FVec F S1x256 .f32) : FVec F S1024x256 .f32 :=
  addf (linV (siluV (gnV ag agT (linV (siluV (gnV ag agT x g1w g1b)) w1T b1) g2w g2b)) w2T b2) x

/-- The box head on a whole block of rows. -/
def boxV (y : FVec F S1024x256 .f32) (w1T : FVec F S256x256 .f32) (b1 : FVec F S1x256 .f32)
    (w2T : FVec F S256x256 .f32) (b2 : FVec F S1x256 .f32) (w3T : FVec F S256x4 .f32) (b3 : FVec F S1x4 .f32) :
    FVec F S1024x4 .f32 :=
  logistic (linV4 (reluV (linV (reluV (linV y w1T b1)) w2T b2)) w3T b3)

theorem pay13_eq (v0 : Vec F S256x32 .f32) (v4 : Vec F S1024x256 .f32) :
    k1_pay13 v0 v4 = muV (k1_pay2 v0) (k1_pay4 v4) := rfl

theorem pay14_eq (v0 : Vec F S256x32 .f32) (v4 : Vec F S1024x256 .f32) :
    k1_pay14 v0 v4 = varV (k1_pay2 v0) (k1_pay4 v4) := rfl

theorem pay15_eq : k1_pay15 (F := F) = epsV := rfl

theorem pay16_eq (v1 : FVec F S256x32 .f32) (v3 : FVec F S32x256 .f32) (v5 : FVec F S1024x256 .f32)
    (v7 v9 : FVec F S1x256 .f32) (v11 : FVec F S256x256 .f32) (v13 v15 v17 : FVec F S1x256 .f32)
    (v19 : FVec F S256x256 .f32) (v21 : FVec F S1x256 .f32) :
    k1_pay16 v1 v3 v5 v7 v9 v11 v13 v15 v17 v19 v21 (muV v1 v5) (varV v1 v5) epsV
      = rbV v1 v3 v5 v7 v9 v11 v13 v15 v17 v19 v21 := rfl

theorem pay25_eq (v1 : FVec F S256x32 .f32) (v3 : FVec F S32x256 .f32) (v76 : FVec F S1024x256 .f32)
    (v78 : FVec F S1x256 .f32) (v79 : Vec F S1x256 .f32) (v81 : Vec F S256x256 .f32)
    (v84 v86 v88 : FVec F S1x256 .f32) (v90 : FVec F S256x256 .f32) (v92 : FVec F S1x256 .f32) :
    k1_pay25 v1 v3 v76 v84 v86 v88 v90 v92 (k1_pay23 v1 v3 v76 v78 v79) (k1_pay24 v81)
        (constant S1024x256 .f32 0x00000000#32)
      = rbV v1 v3 v76 v78 (shapeCast S1x256 v79 shapeCasts_S1x256_S1x256)
          (shapeCast S256x256 v81 shapeCasts_S256x256_S256x256) v84 v86 v88 v90 v92 := rfl

theorem pay26_eq (v1 : FVec F S256x32 .f32) (v3 : FVec F S32x256 .f32) (v76 : FVec F S1024x256 .f32)
    (v84 v86 v88 : FVec F S1x256 .f32) (v90 : FVec F S256x256 .f32) (v92 : FVec F S1x256 .f32)
    (v115 : FVec F S1024x256 .bf16) (v116 : FVec F S256x256 .bf16) (cst_59 : FVec F S1024x256 .f32)
    (v149 : Vec F S256x2 .f32) (v153 : Vec F S1x2 .f32) :
    k1_pay26 v1 v3 v76 v84 v86 v88 v90 v92 v115 v116 cst_59 v149 v153
      = linV2 (k1_pay25 v1 v3 v76 v84 v86 v88 v90 v92 v115 v116 cst_59)
          (shapeCast S256x2 v149 shapeCasts_S256x2_S256x2) (shapeCast S1x2 v153 shapeCasts_S1x2_S1x2) := rfl

theorem pay1_eq (v1 : FVec F S256x32 .f32) (v3 : FVec F S32x256 .f32) (v76 : FVec F S1024x256 .f32)
    (v84 v86 v88 : FVec F S1x256 .f32) (v90 : FVec F S256x256 .f32) (v92 : FVec F S1x256 .f32)
    (v115 : FVec F S1024x256 .bf16) (v116 : FVec F S256x256 .bf16) (cst_59 : FVec F S1024x256 .f32)
    (v158 : Vec F S256x256 .f32) (v162 : Vec F S1x256 .f32) (v169 : Vec F S256x256 .f32) (v173 : Vec F S1x256 .f32)
    (v180 : Vec F S256x4 .f32) (v184 : Vec F S1x4 .f32) :
    k1_pay1 (k1_pay27 v1 v3 v76 v84 v86 v88 v90 v92 v115 v116 cst_59) (k1_pay28 v158)
        (constant S1024x256 .f32 0x00000000#32) v162 v169 v173 v180 v184
      = boxV (k1_pay25 v1 v3 v76 v84 v86 v88 v90 v92 v115 v116 cst_59)
          (shapeCast S256x256 v158 shapeCasts_S256x256_S256x256) (shapeCast S1x256 v162 shapeCasts_S1x256_S1x256)
          (shapeCast S256x256 v169 shapeCasts_S256x256_S256x256) (shapeCast S1x256 v173 shapeCasts_S1x256_S1x256)
          (shapeCast S256x4 v180 shapeCasts_S256x4_S256x4) (shapeCast S1x4 v184 shapeCasts_S1x4_S1x4) := rfl

/-! ## The identity casts, the whole-buffer loads, and the two outputs as stages of the blocks -/

theorem pay2_id (v : Vec F S256x32 .f32) : k1_pay2 v = v := shapeCast_self _ _
theorem pay3_id (v : Vec F S32x256 .f32) : k1_pay3 v = v := shapeCast_self _ _
theorem pay4_id (v : Vec F S1024x256 .f32) : k1_pay4 v = v := shapeCast_self _ _
theorem pay5_id (v : Vec F S1x256 .f32) : k1_pay5 v = v := shapeCast_self _ _
theorem pay6_id (v : Vec F S1x256 .f32) : k1_pay6 v = v := shapeCast_self _ _
theorem pay7_id (v : Vec F S256x256 .f32) : k1_pay7 v = v := shapeCast_self _ _
theorem pay8_id (v : Vec F S1x256 .f32) : k1_pay8 v = v := shapeCast_self _ _
theorem pay9_id (v : Vec F S1x256 .f32) : k1_pay9 v = v := shapeCast_self _ _
theorem pay10_id (v : Vec F S1x256 .f32) : k1_pay10 v = v := shapeCast_self _ _
theorem pay11_id (v : Vec F S256x256 .f32) : k1_pay11 v = v := shapeCast_self _ _
theorem pay12_id (v : Vec F S1x256 .f32) : k1_pay12 v = v := shapeCast_self _ _
theorem pay17_id (v : Vec F S1x256 .f32) : k1_pay17 v = v := shapeCast_self _ _
theorem pay18_id (v : Vec F S1x256 .f32) : k1_pay18 v = v := shapeCast_self _ _
theorem pay19_id (v : Vec F S1x256 .f32) : k1_pay19 v = v := shapeCast_self _ _
theorem pay20_id (v : Vec F S1x256 .f32) : k1_pay20 v = v := shapeCast_self _ _
theorem pay21_id (v : Vec F S256x256 .f32) : k1_pay21 v = v := shapeCast_self _ _
theorem pay22_id (v : Vec F S1x256 .f32) : k1_pay22 v = v := shapeCast_self _ _

/-- The offsets of every whole-buffer rectangle are zero. -/
theorem hz : (![0, 0] : Fin 2 → Nat) = fun _ => 0 := funext fun a => by fin_cases a <;> rfl

/-- The trunk's output on a whole block of rows, from the 19 blocks it reads. -/
def trunkV (x0 : FVec F S1024x256 .f32) (x1 x2 : FVec F S1x256 .f32) (x3 : FVec F S256x256 .f32)
    (x4 x5 x6 : FVec F S1x256 .f32) (x7 : FVec F S256x256 .f32) (x8 x9 x10 : FVec F S1x256 .f32)
    (x11 : FVec F S256x256 .f32) (x12 x13 x14 : FVec F S1x256 .f32) (x15 : FVec F S256x256 .f32)
    (x16 : FVec F S1x256 .f32) (x25 : FVec F S256x32 .f32) (x26 : FVec F S32x256 .f32) : FVec F S1024x256 .f32 :=
  rbV x25 x26 (rbV x25 x26 x0 x1 x2 x3 x4 x5 x6 x7 x8) x9 x10 x11 x12 x13 x14 x15 x16

theorem out1_27_eq (x0 : Vec F S1024x256 .f32) (x1 x2 : Vec F S1x256 .f32) (x3 : Vec F S256x256 .f32) (x4 x5 x6 : Vec F S1x256 .f32) (x7 : Vec F S256x256 .f32) (x8 x9 x10 : Vec F S1x256 .f32) (x11 : Vec F S256x256 .f32) (x12 x13 x14 : Vec F S1x256 .f32) (x15 : Vec F S256x256 .f32) (x16 : Vec F S1x256 .f32) (x17 : Vec F S256x2 .f32) (x18 : Vec F S1x2 .f32) (x19 : Vec F S256x256 .f32) (x20 : Vec F S1x256 .f32) (x21 : Vec F S256x256 .f32) (x22 : Vec F S1x256 .f32) (x23 : Vec F S256x4 .f32) (x24 : Vec F S1x4 .f32) (x25 : Vec F S256x32 .f32) (x26 : Vec F S32x256 .f32) :
    out1_27 x0 x1 x2 x3 x4 x5 x6 x7 x8 x9 x10 x11 x12 x13 x14 x15 x16 x17 x18 x19 x20 x21 x22 x23 x24 x25 x26
      = linV2 (trunkV x0 x1 x2 x3 x4 x5 x6 x7 x8 x9 x10 x11 x12 x13 x14 x15 x16 x25 x26) x17 x18 := by
  unfold out1_27 trunkV
  rw [View.canon_unit_zero hz]
  simp only [View.ld_unit_zero (S := S256x32) hz, View.ld_unit_zero (S := S32x256) hz,
    View.ld_unit_zero (S := S1024x256) hz, View.ld_unit_zero (S := S1x256) hz, View.ld_unit_zero (S := S256x256) hz,
    View.ld_unit_zero (S := S256x2) hz, View.ld_unit_zero (S := S1x2) hz]
  rw [pay13_eq, pay14_eq, pay15_eq, pay16_eq, pay26_eq, pay25_eq]
  simp only [pay2_id, pay3_id, pay4_id, pay5_id, pay6_id, pay7_id, pay8_id, pay9_id, pay10_id, pay11_id, pay12_id,
    pay17_id, pay18_id, pay19_id, pay20_id, pay21_id, pay22_id, shapeCast_self]

theorem out1_28_eq (x0 : Vec F S1024x256 .f32) (x1 x2 : Vec F S1x256 .f32) (x3 : Vec F S256x256 .f32) (x4 x5 x6 : Vec F S1x256 .f32) (x7 : Vec F S256x256 .f32) (x8 x9 x10 : Vec F S1x256 .f32) (x11 : Vec F S256x256 .f32) (x12 x13 x14 : Vec F S1x256 .f32) (x15 : Vec F S256x256 .f32) (x16 : Vec F S1x256 .f32) (x17 : Vec F S256x2 .f32) (x18 : Vec F S1x2 .f32) (x19 : Vec F S256x256 .f32) (x20 : Vec F S1x256 .f32) (x21 : Vec F S256x256 .f32) (x22 : Vec F S1x256 .f32) (x23 : Vec F S256x4 .f32) (x24 : Vec F S1x4 .f32) (x25 : Vec F S256x32 .f32) (x26 : Vec F S32x256 .f32) :
    out1_28 x0 x1 x2 x3 x4 x5 x6 x7 x8 x9 x10 x11 x12 x13 x14 x15 x16 x17 x18 x19 x20 x21 x22 x23 x24 x25 x26
      = boxV (trunkV x0 x1 x2 x3 x4 x5 x6 x7 x8 x9 x10 x11 x12 x13 x14 x15 x16 x25 x26) x19 x20 x21 x22 x23 x24 := by
  unfold out1_28 trunkV
  rw [View.canon_unit_zero hz]
  simp only [View.ld_unit_zero (S := S256x32) hz, View.ld_unit_zero (S := S32x256) hz,
    View.ld_unit_zero (S := S1024x256) hz, View.ld_unit_zero (S := S1x256) hz, View.ld_unit_zero (S := S256x256) hz,
    View.ld_unit_zero (S := S256x4) hz, View.ld_unit_zero (S := S1x4) hz]
  rw [pay13_eq, pay14_eq, pay15_eq, pay16_eq, pay1_eq, pay25_eq]
  simp only [pay2_id, pay3_id, pay4_id, pay5_id, pay6_id, pay7_id, pay8_id, pay9_id, pay10_id, pay11_id, pay12_id,
    pay17_id, pay18_id, pay19_id, pay20_id, pay21_id, pay22_id, shapeCast_self]

end Generic

/-! ## The composed stages at an index, at the ideal instance -/

section AtIdeal

theorem rowOf_gnV (ag : FVec Ideal S256x32 .f32) (agT : FVec Ideal S32x256 .f32) (h : FVec Ideal S1024x256 .f32)
    (w b : FVec Ideal S1x256 .f32) (r : Fin 1024) :
    rowOf (gnV ag agT h w b) r
      = Spec.gnK (fun k g => ag (ix2 k g)) (fun g k => agT (ix2 g k)) (rowOf h r) (vecOf w) (vecOf b) :=
  funext fun ch => gnV_apply ag agT h w b r ch

theorem rowOf_siluV (h : FVec Ideal S1024x256 .f32) (r : Fin 1024) : rowOf (siluV h) r = Spec.silu (rowOf h r) :=
  funext fun k => siluV_apply h r k

theorem rowOf_reluV (h : FVec Ideal S1024x256 .f32) (r : Fin 1024) : rowOf (reluV h) r = Spec.relu (rowOf h r) :=
  funext fun k => reluV_apply h r k

theorem rowOf_linV (h : FVec Ideal S1024x256 .f32) (wT : FVec Ideal S256x256 .f32) (b : FVec Ideal S1x256 .f32)
    (r : Fin 1024) : rowOf (linV h wT b) r = Spec.affine (fun o k => wT (ix2 k o)) (vecOf b) (rowOf h r) :=
  funext fun o => linV_apply h wT b r o

/-- Row `r` of a residual block of a block of rows is the specification's residual block of row `r`. -/
theorem rbV_apply (ag : FVec Ideal S256x32 .f32) (agT : FVec Ideal S32x256 .f32) (x : FVec Ideal S1024x256 .f32)
    (g1w g1b : FVec Ideal S1x256 .f32) (w1T : FVec Ideal S256x256 .f32) (b1 g2w g2b : FVec Ideal S1x256 .f32)
    (w2T : FVec Ideal S256x256 .f32) (b2 : FVec Ideal S1x256 .f32) (r : Fin 1024) (k : Fin 256) :
    rbV ag agT x g1w g1b w1T b1 g2w g2b w2T b2 (ix2 r k)
      = Spec.rb (Spec.gnK (fun k g => ag (ix2 k g)) (fun g k => agT (ix2 g k)))
          (Spec.rbpBlk g1w g1b w1T b1 g2w g2b w2T b2) (rowOf x r) k := by
  unfold rbV
  rw [addf_apply, linV_apply, rowOf_siluV, rowOf_gnV, rowOf_linV, rowOf_siluV, rowOf_gnV]
  rfl

theorem rowOf_rbV (ag : FVec Ideal S256x32 .f32) (agT : FVec Ideal S32x256 .f32) (x : FVec Ideal S1024x256 .f32)
    (g1w g1b : FVec Ideal S1x256 .f32) (w1T : FVec Ideal S256x256 .f32) (b1 g2w g2b : FVec Ideal S1x256 .f32)
    (w2T : FVec Ideal S256x256 .f32) (b2 : FVec Ideal S1x256 .f32) (r : Fin 1024) :
    rowOf (rbV ag agT x g1w g1b w1T b1 g2w g2b w2T b2) r
      = Spec.rb (Spec.gnK (fun k g => ag (ix2 k g)) (fun g k => agT (ix2 g k)))
          (Spec.rbpBlk g1w g1b w1T b1 g2w g2b w2T b2) (rowOf x r) :=
  funext fun k => rbV_apply ag agT x g1w g1b w1T b1 g2w g2b w2T b2 r k

/-- Row `r` of the trunk of a block of rows is the specification's trunk of row `r`. -/
theorem rowOf_trunkV (x0 : FVec Ideal S1024x256 .f32) (x1 x2 : FVec Ideal S1x256 .f32) (x3 : FVec Ideal S256x256 .f32)
    (x4 x5 x6 : FVec Ideal S1x256 .f32) (x7 : FVec Ideal S256x256 .f32) (x8 x9 x10 : FVec Ideal S1x256 .f32)
    (x11 : FVec Ideal S256x256 .f32) (x12 x13 x14 : FVec Ideal S1x256 .f32) (x15 : FVec Ideal S256x256 .f32)
    (x16 : FVec Ideal S1x256 .f32) (x25 : FVec Ideal S256x32 .f32) (x26 : FVec Ideal S32x256 .f32) (r : Fin 1024) :
    rowOf (trunkV x0 x1 x2 x3 x4 x5 x6 x7 x8 x9 x10 x11 x12 x13 x14 x15 x16 x25 x26) r
      = Spec.trunk (Spec.gnK (fun k g => x25 (ix2 k g)) (fun g k => x26 (ix2 g k)))
          (Spec.rbpBlk x1 x2 x3 x4 x5 x6 x7 x8) (Spec.rbpBlk x9 x10 x11 x12 x13 x14 x15 x16) (rowOf x0 r) := by
  unfold trunkV Spec.trunk
  rw [rowOf_rbV, rowOf_rbV]

/-- The box head of a block of rows, at an index, is the specification's box head of that row. -/
theorem boxV_apply (y : FVec Ideal S1024x256 .f32) (w1T : FVec Ideal S256x256 .f32) (b1 : FVec Ideal S1x256 .f32)
    (w2T : FVec Ideal S256x256 .f32) (b2 : FVec Ideal S1x256 .f32) (w3T : FVec Ideal S256x4 .f32)
    (b3 : FVec Ideal S1x4 .f32) (cwT : FVec Ideal S256x2 .f32) (cb : FVec Ideal S1x2 .f32) (r : Fin 1024) (q : Fin 4) :
    boxV y w1T b1 w2T b2 w3T b3 (ix2 r q)
      = Spec.boxes (Spec.headBlk cwT cb w1T b1 w2T b2 w3T b3) (rowOf y r) q := by
  unfold boxV
  show Ideal.logistic (linV4 _ w3T b3 (ix2 r q)) = _
  rw [linV4_apply, rowOf_reluV, rowOf_linV, rowOf_reluV, rowOf_linV]
  rfl

theorem out1_27_apply (x0 : Vec Ideal S1024x256 .f32) (x1 x2 : Vec Ideal S1x256 .f32) (x3 : Vec Ideal S256x256 .f32) (x4 x5 x6 : Vec Ideal S1x256 .f32) (x7 : Vec Ideal S256x256 .f32) (x8 x9 x10 : Vec Ideal S1x256 .f32) (x11 : Vec Ideal S256x256 .f32) (x12 x13 x14 : Vec Ideal S1x256 .f32) (x15 : Vec Ideal S256x256 .f32) (x16 : Vec Ideal S1x256 .f32) (x17 : Vec Ideal S256x2 .f32) (x18 : Vec Ideal S1x2 .f32) (x19 : Vec Ideal S256x256 .f32) (x20 : Vec Ideal S1x256 .f32) (x21 : Vec Ideal S256x256 .f32) (x22 : Vec Ideal S1x256 .f32) (x23 : Vec Ideal S256x4 .f32) (x24 : Vec Ideal S1x4 .f32) (x25 : Vec Ideal S256x32 .f32) (x26 : Vec Ideal S32x256 .f32) (r : Fin 1024) (q : Fin 2) :
    out1_27 (F := Ideal) x0 x1 x2 x3 x4 x5 x6 x7 x8 x9 x10 x11 x12 x13 x14 x15 x16 x17 x18 x19 x20 x21 x22 x23 x24 x25 x26 (ix2 r q)
      = Spec.logits (Spec.headBlk x17 x18 x19 x20 x21 x22 x23 x24)
          (Spec.trunk (Spec.gnK (fun k g => x25 (ix2 k g)) (fun g k => x26 (ix2 g k)))
            (Spec.rbpBlk x1 x2 x3 x4 x5 x6 x7 x8) (Spec.rbpBlk x9 x10 x11 x12 x13 x14 x15 x16)
            (fun k => x0 (ix2 r k))) q := by
  rw [out1_27_eq, linV2_apply, rowOf_trunkV]
  rfl

theorem out1_28_apply (x0 : Vec Ideal S1024x256 .f32) (x1 x2 : Vec Ideal S1x256 .f32) (x3 : Vec Ideal S256x256 .f32) (x4 x5 x6 : Vec Ideal S1x256 .f32) (x7 : Vec Ideal S256x256 .f32) (x8 x9 x10 : Vec Ideal S1x256 .f32) (x11 : Vec Ideal S256x256 .f32) (x12 x13 x14 : Vec Ideal S1x256 .f32) (x15 : Vec Ideal S256x256 .f32) (x16 : Vec Ideal S1x256 .f32) (x17 : Vec Ideal S256x2 .f32) (x18 : Vec Ideal S1x2 .f32) (x19 : Vec Ideal S256x256 .f32) (x20 : Vec Ideal S1x256 .f32) (x21 : Vec Ideal S256x256 .f32) (x22 : Vec Ideal S1x256 .f32) (x23 : Vec Ideal S256x4 .f32) (x24 : Vec Ideal S1x4 .f32) (x25 : Vec Ideal S256x32 .f32) (x26 : Vec Ideal S32x256 .f32) (r : Fin 1024) (q : Fin 4) :
    out1_28 (F := Ideal) x0 x1 x2 x3 x4 x5 x6 x7 x8 x9 x10 x11 x12 x13 x14 x15 x16 x17 x18 x19 x20 x21 x22 x23 x24 x25 x26 (ix2 r q)
      = Spec.boxes (Spec.headBlk x17 x18 x19 x20 x21 x22 x23 x24)
          (Spec.trunk (Spec.gnK (fun k g => x25 (ix2 k g)) (fun g k => x26 (ix2 g k)))
            (Spec.rbpBlk x1 x2 x3 x4 x5 x6 x7 x8) (Spec.rbpBlk x9 x10 x11 x12 x13 x14 x15 x16)
            (fun k => x0 (ix2 r k))) q := by
  rw [out1_28_eq, boxV_apply _ _ _ _ _ _ _ x17 x18, rowOf_trunkV]

end AtIdeal

end Cert.KernelIdeal.KPay

end
-- ==== Proof.KHostParams.lean ====
/-
  What the second kernel's twenty-six parameter windows hold, read back through the host operations to the argument
  arrays.

  Every parameter window of the second kernel has the constant index map (0, 0) and a block that is its whole array,
  so the block at any grid point is the array as the region finds it. Each such array is written by host operations
  from an argument array: a scale, shift or bias is row i of a [2, 256] array (a slice, flattened, given a unit axis),
  or a vector given a unit axis; a convolution matrix is the centre tap [i, ·, ·, 1, 1] of the 3 × 3 weights,
  transposed (stored input-major); a head's matrix is the argument transposed. No host operation and no window of the
  first kernel writes an argument array, so these are the launch's arrays. The two indicator windows are computed from
  iotas: the floor division of the channel number by 8, compared with the group number, as a 0/1 real.
-/
import proofs.«405869_j26843545600773_3_alg».proof.Proof.KernelIdealFrameP
import proofs.«405869_j26843545600773_3_alg».proof.Proof.Params
import proofs.«405869_j26843545600773_3_alg».proof.Proof.ParamsBlk
import proofs.«405869_j26843545600773_3_alg».proof.Proof.SpecMath
import Idealize.ShloMosaic.Lib.ValueIdx
import Idealize.ShloMosaic.Lib.ValueLayout
import Idealize.ShloMosaic.Lib.Pipeline.Value

set_option maxRecDepth 16384

noncomputable section

namespace Cert.KernelIdeal.KHost

open Cert.KernelIdeal Cert.KernelIdeal.Gen Cert.KernelIdeal.GenP
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg) (c : Dev nD) (t : Fin cfg1.N)
/-! ## The blocks: every parameter window's index map is constantly (0, 0) and its block is its whole array -/

/-- window 1's block at grid point t -/
abbrev pb1 : Vec Ideal S1x256 .f32 := iblk1 (V9 m ρ) c 1 t
theorem idx1 : ∀ t : Fin cfg1.N, win1_1.index t (0 : Fin 2) = 0 ∧ win1_1.index t (1 : Fin 2) = 0 :=
  (by decide +kernel : ∀ t : Fin grid1.N, _)
theorem pb1_apply (y : S1x256.Idx) : pb1 m ρ c t y = V9 m ρ c main_v36 y := by
  show V9 m ρ c main_v36 (((cfg1.win 1).blk t).view.emb y) = _
  refine congrArg (V9 m ρ c main_v36) (funext fun a => Fin.ext ?_)
  obtain ⟨e0, e1⟩ := idx1 t
  match a with
  | ⟨0, _⟩ => show win1_1.index t (0 : Fin 2) * 1 + 1 * (y 0).val = (y 0).val; omega
  | ⟨1, _⟩ => show win1_1.index t (1 : Fin 2) * 256 + 1 * (y 1).val = (y 1).val; omega

/-- window 2's block at grid point t -/
abbrev pb2 : Vec Ideal S1x256 .f32 := iblk1 (V9 m ρ) c 2 t
theorem idx2 : ∀ t : Fin cfg1.N, win1_2.index t (0 : Fin 2) = 0 ∧ win1_2.index t (1 : Fin 2) = 0 :=
  (by decide +kernel : ∀ t : Fin grid1.N, _)
theorem pb2_apply (y : S1x256.Idx) : pb2 m ρ c t y = V9 m ρ c main_v39 y := by
  show V9 m ρ c main_v39 (((cfg1.win 2).blk t).view.emb y) = _
  refine congrArg (V9 m ρ c main_v39) (funext fun a => Fin.ext ?_)
  obtain ⟨e0, e1⟩ := idx2 t
  match a with
  | ⟨0, _⟩ => show win1_2.index t (0 : Fin 2) * 1 + 1 * (y 0).val = (y 0).val; omega
  | ⟨1, _⟩ => show win1_2.index t (1 : Fin 2) * 256 + 1 * (y 1).val = (y 1).val; omega

/-- window 3's block at grid point t -/
abbrev pb3 : Vec Ideal S256x256 .f32 := iblk1 (V9 m ρ) c 3 t
theorem idx3 : ∀ t : Fin cfg1.N, win1_3.index t (0 : Fin 2) = 0 ∧ win1_3.index t (1 : Fin 2) = 0 :=
  (by decide +kernel : ∀ t : Fin grid1.N, _)
theorem pb3_apply (y : S256x256.Idx) : pb3 m ρ c t y = V9 m ρ c main_v41 y := by
  show V9 m ρ c main_v41 (((cfg1.win 3).blk t).view.emb y) = _
  refine congrArg (V9 m ρ c main_v41) (funext fun a => Fin.ext ?_)
  obtain ⟨e0, e1⟩ := idx3 t
  match a with
  | ⟨0, _⟩ => show win1_3.index t (0 : Fin 2) * 256 + 1 * (y 0).val = (y 0).val; omega
  | ⟨1, _⟩ => show win1_3.index t (1 : Fin 2) * 256 + 1 * (y 1).val = (y 1).val; omega

/-- window 4's block at grid point t -/
abbrev pb4 : Vec Ideal S1x256 .f32 := iblk1 (V9 m ρ) c 4 t
theorem idx4 : ∀ t : Fin cfg1.N, win1_4.index t (0 : Fin 2) = 0 ∧ win1_4.index t (1 : Fin 2) = 0 :=
  (by decide +kernel : ∀ t : Fin grid1.N, _)
theorem pb4_apply (y : S1x256.Idx) : pb4 m ρ c t y = V9 m ρ c main_v44 y := by
  show V9 m ρ c main_v44 (((cfg1.win 4).blk t).view.emb y) = _
  refine congrArg (V9 m ρ c main_v44) (funext fun a => Fin.ext ?_)
  obtain ⟨e0, e1⟩ := idx4 t
  match a with
  | ⟨0, _⟩ => show win1_4.index t (0 : Fin 2) * 1 + 1 * (y 0).val = (y 0).val; omega
  | ⟨1, _⟩ => show win1_4.index t (1 : Fin 2) * 256 + 1 * (y 1).val = (y 1).val; omega

/-- window 5's block at grid point t -/
abbrev pb5 : Vec Ideal S1x256 .f32 := iblk1 (V9 m ρ) c 5 t
theorem idx5 : ∀ t : Fin cfg1.N, win1_5.index t (0 : Fin 2) = 0 ∧ win1_5.index t (1 : Fin 2) = 0 :=
  (by decide +kernel : ∀ t : Fin grid1.N, _)
theorem pb5_apply (y : S1x256.Idx) : pb5 m ρ c t y = V9 m ρ c main_v47 y := by
  show V9 m ρ c main_v47 (((cfg1.win 5).blk t).view.emb y) = _
  refine congrArg (V9 m ρ c main_v47) (funext fun a => Fin.ext ?_)
  obtain ⟨e0, e1⟩ := idx5 t
  match a with
  | ⟨0, _⟩ => show win1_5.index t (0 : Fin 2) * 1 + 1 * (y 0).val = (y 0).val; omega
  | ⟨1, _⟩ => show win1_5.index t (1 : Fin 2) * 256 + 1 * (y 1).val = (y 1).val; omega

/-- window 6's block at grid point t -/
abbrev pb6 : Vec Ideal S1x256 .f32 := iblk1 (V9 m ρ) c 6 t
theorem idx6 : ∀ t : Fin cfg1.N, win1_6.index t (0 : Fin 2) = 0 ∧ win1_6.index t (1 : Fin 2) = 0 :=
  (by decide +kernel : ∀ t : Fin grid1.N, _)
theorem pb6_apply (y : S1x256.Idx) : pb6 m ρ c t y = V9 m ρ c main_v50 y := by
  show V9 m ρ c main_v50 (((cfg1.win 6).blk t).view.emb y) = _
  refine congrArg (V9 m ρ c main_v50) (funext fun a => Fin.ext ?_)
  obtain ⟨e0, e1⟩ := idx6 t
  match a with
  | ⟨0, _⟩ => show win1_6.index t (0 : Fin 2) * 1 + 1 * (y 0).val = (y 0).val; omega
  | ⟨1, _⟩ => show win1_6.index t (1 : Fin 2) * 256 + 1 * (y 1).val = (y 1).val; omega

/-- window 7's block at grid point t -/
abbrev pb7 : Vec Ideal S256x256 .f32 := iblk1 (V9 m ρ) c 7 t
theorem idx7 : ∀ t : Fin cfg1.N, win1_7.index t (0 : Fin 2) = 0 ∧ win1_7.index t (1 : Fin 2) = 0 :=
  (by decide +kernel : ∀ t : Fin grid1.N, _)
theorem pb7_apply (y : S256x256.Idx) : pb7 m ρ c t y = V9 m ρ c main_v52 y := by
  show V9 m ρ c main_v52 (((cfg1.win 7).blk t).view.emb y) = _
  refine congrArg (V9 m ρ c main_v52) (funext fun a => Fin.ext ?_)
  obtain ⟨e0, e1⟩ := idx7 t
  match a with
  | ⟨0, _⟩ => show win1_7.index t (0 : Fin 2) * 256 + 1 * (y 0).val = (y 0).val; omega
  | ⟨1, _⟩ => show win1_7.index t (1 : Fin 2) * 256 + 1 * (y 1).val = (y 1).val; omega

/-- window 8's block at grid point t -/
abbrev pb8 : Vec Ideal S1x256 .f32 := iblk1 (V9 m ρ) c 8 t
theorem idx8 : ∀ t : Fin cfg1.N, win1_8.index t (0 : Fin 2) = 0 ∧ win1_8.index t (1 : Fin 2) = 0 :=
  (by decide +kernel : ∀ t : Fin grid1.N, _)
theorem pb8_apply (y : S1x256.Idx) : pb8 m ρ c t y = V9 m ρ c main_v55 y := by
  show V9 m ρ c main_v55 (((cfg1.win 8).blk t).view.emb y) = _
  refine congrArg (V9 m ρ c main_v55) (funext fun a => Fin.ext ?_)
  obtain ⟨e0, e1⟩ := idx8 t
  match a with
  | ⟨0, _⟩ => show win1_8.index t (0 : Fin 2) * 1 + 1 * (y 0).val = (y 0).val; omega
  | ⟨1, _⟩ => show win1_8.index t (1 : Fin 2) * 256 + 1 * (y 1).val = (y 1).val; omega

/-- window 9's block at grid point t -/
abbrev pb9 : Vec Ideal S1x256 .f32 := iblk1 (V9 m ρ) c 9 t
theorem idx9 : ∀ t : Fin cfg1.N, win1_9.index t (0 : Fin 2) = 0 ∧ win1_9.index t (1 : Fin 2) = 0 :=
  (by decide +kernel : ∀ t : Fin grid1.N, _)
theorem pb9_apply (y : S1x256.Idx) : pb9 m ρ c t y = V9 m ρ c main_v58 y := by
  show V9 m ρ c main_v58 (((cfg1.win 9).blk t).view.emb y) = _
  refine congrArg (V9 m ρ c main_v58) (funext fun a => Fin.ext ?_)
  obtain ⟨e0, e1⟩ := idx9 t
  match a with
  | ⟨0, _⟩ => show win1_9.index t (0 : Fin 2) * 1 + 1 * (y 0).val = (y 0).val; omega
  | ⟨1, _⟩ => show win1_9.index t (1 : Fin 2) * 256 + 1 * (y 1).val = (y 1).val; omega

/-- window 10's block at grid point t -/
abbrev pb10 : Vec Ideal S1x256 .f32 := iblk1 (V9 m ρ) c 10 t
theorem idx10 : ∀ t : Fin cfg1.N, win1_10.index t (0 : Fin 2) = 0 ∧ win1_10.index t (1 : Fin 2) = 0 :=
  (by decide +kernel : ∀ t : Fin grid1.N, _)
theorem pb10_apply (y : S1x256.Idx) : pb10 m ρ c t y = V9 m ρ c main_v61 y := by
  show V9 m ρ c main_v61 (((cfg1.win 10).blk t).view.emb y) = _
  refine congrArg (V9 m ρ c main_v61) (funext fun a => Fin.ext ?_)
  obtain ⟨e0, e1⟩ := idx10 t
  match a with
  | ⟨0, _⟩ => show win1_10.index t (0 : Fin 2) * 1 + 1 * (y 0).val = (y 0).val; omega
  | ⟨1, _⟩ => show win1_10.index t (1 : Fin 2) * 256 + 1 * (y 1).val = (y 1).val; omega

/-- window 11's block at grid point t -/
abbrev pb11 : Vec Ideal S256x256 .f32 := iblk1 (V9 m ρ) c 11 t
theorem idx11 : ∀ t : Fin cfg1.N, win1_11.index t (0 : Fin 2) = 0 ∧ win1_11.index t (1 : Fin 2) = 0 :=
  (by decide +kernel : ∀ t : Fin grid1.N, _)
theorem pb11_apply (y : S256x256.Idx) : pb11 m ρ c t y = V9 m ρ c main_v63 y := by
  show V9 m ρ c main_v63 (((cfg1.win 11).blk t).view.emb y) = _
  refine congrArg (V9 m ρ c main_v63) (funext fun a => Fin.ext ?_)
  obtain ⟨e0, e1⟩ := idx11 t
  match a with
  | ⟨0, _⟩ => show win1_11.index t (0 : Fin 2) * 256 + 1 * (y 0).val = (y 0).val; omega
  | ⟨1, _⟩ => show win1_11.index t (1 : Fin 2) * 256 + 1 * (y 1).val = (y 1).val; omega

/-- window 12's block at grid point t -/
abbrev pb12 : Vec Ideal S1x256 .f32 := iblk1 (V9 m ρ) c 12 t
theorem idx12 : ∀ t : Fin cfg1.N, win1_12.index t (0 : Fin 2) = 0 ∧ win1_12.index t (1 : Fin 2) = 0 :=
  (by decide +kernel : ∀ t : Fin grid1.N, _)
theorem pb12_apply (y : S1x256.Idx) : pb12 m ρ c t y = V9 m ρ c main_v66 y := by
  show V9 m ρ c main_v66 (((cfg1.win 12).blk t).view.emb y) = _
  refine congrArg (V9 m ρ c main_v66) (funext fun a => Fin.ext ?_)
  obtain ⟨e0, e1⟩ := idx12 t
  match a with
  | ⟨0, _⟩ => show win1_12.index t (0 : Fin 2) * 1 + 1 * (y 0).val = (y 0).val; omega
  | ⟨1, _⟩ => show win1_12.index t (1 : Fin 2) * 256 + 1 * (y 1).val = (y 1).val; omega

/-- window 13's block at grid point t -/
abbrev pb13 : Vec Ideal S1x256 .f32 := iblk1 (V9 m ρ) c 13 t
theorem idx13 : ∀ t : Fin cfg1.N, win1_13.index t (0 : Fin 2) = 0 ∧ win1_13.index t (1 : Fin 2) = 0 :=
  (by decide +kernel : ∀ t : Fin grid1.N, _)
theorem pb13_apply (y : S1x256.Idx) : pb13 m ρ c t y = V9 m ρ c main_v69 y := by
  show V9 m ρ c main_v69 (((cfg1.win 13).blk t).view.emb y) = _
  refine congrArg (V9 m ρ c main_v69) (funext fun a => Fin.ext ?_)
  obtain ⟨e0, e1⟩ := idx13 t
  match a with
  | ⟨0, _⟩ => show win1_13.index t (0 : Fin 2) * 1 + 1 * (y 0).val = (y 0).val; omega
  | ⟨1, _⟩ => show win1_13.index t (1 : Fin 2) * 256 + 1 * (y 1).val = (y 1).val; omega

/-- window 14's block at grid point t -/
abbrev pb14 : Vec Ideal S1x256 .f32 := iblk1 (V9 m ρ) c 14 t
theorem idx14 : ∀ t : Fin cfg1.N, win1_14.index t (0 : Fin 2) = 0 ∧ win1_14.index t (1 : Fin 2) = 0 :=
  (by decide +kernel : ∀ t : Fin grid1.N, _)
theorem pb14_apply (y : S1x256.Idx) : pb14 m ρ c t y = V9 m ρ c main_v72 y := by
  show V9 m ρ c main_v72 (((cfg1.win 14).blk t).view.emb y) = _
  refine congrArg (V9 m ρ c main_v72) (funext fun a => Fin.ext ?_)
  obtain ⟨e0, e1⟩ := idx14 t
  match a with
  | ⟨0, _⟩ => show win1_14.index t (0 : Fin 2) * 1 + 1 * (y 0).val = (y 0).val; omega
  | ⟨1, _⟩ => show win1_14.index t (1 : Fin 2) * 256 + 1 * (y 1).val = (y 1).val; omega

/-- window 15's block at grid point t -/
abbrev pb15 : Vec Ideal S256x256 .f32 := iblk1 (V9 m ρ) c 15 t
theorem idx15 : ∀ t : Fin cfg1.N, win1_15.index t (0 : Fin 2) = 0 ∧ win1_15.index t (1 : Fin 2) = 0 :=
  (by decide +kernel : ∀ t : Fin grid1.N, _)
theorem pb15_apply (y : S256x256.Idx) : pb15 m ρ c t y = V9 m ρ c main_v74 y := by
  show V9 m ρ c main_v74 (((cfg1.win 15).blk t).view.emb y) = _
  refine congrArg (V9 m ρ c main_v74) (funext fun a => Fin.ext ?_)
  obtain ⟨e0, e1⟩ := idx15 t
  match a with
  | ⟨0, _⟩ => show win1_15.index t (0 : Fin 2) * 256 + 1 * (y 0).val = (y 0).val; omega
  | ⟨1, _⟩ => show win1_15.index t (1 : Fin 2) * 256 + 1 * (y 1).val = (y 1).val; omega

/-- window 16's block at grid point t -/
abbrev pb16 : Vec Ideal S1x256 .f32 := iblk1 (V9 m ρ) c 16 t
theorem idx16 : ∀ t : Fin cfg1.N, win1_16.index t (0 : Fin 2) = 0 ∧ win1_16.index t (1 : Fin 2) = 0 :=
  (by decide +kernel : ∀ t : Fin grid1.N, _)
theorem pb16_apply (y : S1x256.Idx) : pb16 m ρ c t y = V9 m ρ c main_v77 y := by
  show V9 m ρ c main_v77 (((cfg1.win 16).blk t).view.emb y) = _
  refine congrArg (V9 m ρ c main_v77) (funext fun a => Fin.ext ?_)
  obtain ⟨e0, e1⟩ := idx16 t
  match a with
  | ⟨0, _⟩ => show win1_16.index t (0 : Fin 2) * 1 + 1 * (y 0).val = (y 0).val; omega
  | ⟨1, _⟩ => show win1_16.index t (1 : Fin 2) * 256 + 1 * (y 1).val = (y 1).val; omega

/-- window 17's block at grid point t -/
abbrev pb17 : Vec Ideal S256x2 .f32 := iblk1 (V9 m ρ) c 17 t
theorem idx17 : ∀ t : Fin cfg1.N, win1_17.index t (0 : Fin 2) = 0 ∧ win1_17.index t (1 : Fin 2) = 0 :=
  (by decide +kernel : ∀ t : Fin grid1.N, _)
theorem pb17_apply (y : S256x2.Idx) : pb17 m ρ c t y = V9 m ρ c main_v20 y := by
  show V9 m ρ c main_v20 (((cfg1.win 17).blk t).view.emb y) = _
  refine congrArg (V9 m ρ c main_v20) (funext fun a => Fin.ext ?_)
  obtain ⟨e0, e1⟩ := idx17 t
  match a with
  | ⟨0, _⟩ => show win1_17.index t (0 : Fin 2) * 256 + 1 * (y 0).val = (y 0).val; omega
  | ⟨1, _⟩ => show win1_17.index t (1 : Fin 2) * 2 + 1 * (y 1).val = (y 1).val; omega

/-- window 18's block at grid point t -/
abbrev pb18 : Vec Ideal S1x2 .f32 := iblk1 (V9 m ρ) c 18 t
theorem idx18 : ∀ t : Fin cfg1.N, win1_18.index t (0 : Fin 2) = 0 ∧ win1_18.index t (1 : Fin 2) = 0 :=
  (by decide +kernel : ∀ t : Fin grid1.N, _)
theorem pb18_apply (y : S1x2.Idx) : pb18 m ρ c t y = V9 m ρ c main_v78 y := by
  show V9 m ρ c main_v78 (((cfg1.win 18).blk t).view.emb y) = _
  refine congrArg (V9 m ρ c main_v78) (funext fun a => Fin.ext ?_)
  obtain ⟨e0, e1⟩ := idx18 t
  match a with
  | ⟨0, _⟩ => show win1_18.index t (0 : Fin 2) * 1 + 1 * (y 0).val = (y 0).val; omega
  | ⟨1, _⟩ => show win1_18.index t (1 : Fin 2) * 2 + 1 * (y 1).val = (y 1).val; omega

/-- window 19's block at grid point t -/
abbrev pb19 : Vec Ideal S256x256 .f32 := iblk1 (V9 m ρ) c 19 t
theorem idx19 : ∀ t : Fin cfg1.N, win1_19.index t (0 : Fin 2) = 0 ∧ win1_19.index t (1 : Fin 2) = 0 :=
  (by decide +kernel : ∀ t : Fin grid1.N, _)
theorem pb19_apply (y : S256x256.Idx) : pb19 m ρ c t y = V9 m ρ c main_v21 y := by
  show V9 m ρ c main_v21 (((cfg1.win 19).blk t).view.emb y) = _
  refine congrArg (V9 m ρ c main_v21) (funext fun a => Fin.ext ?_)
  obtain ⟨e0, e1⟩ := idx19 t
  match a with
  | ⟨0, _⟩ => show win1_19.index t (0 : Fin 2) * 256 + 1 * (y 0).val = (y 0).val; omega
  | ⟨1, _⟩ => show win1_19.index t (1 : Fin 2) * 256 + 1 * (y 1).val = (y 1).val; omega

/-- window 20's block at grid point t -/
abbrev pb20 : Vec Ideal S1x256 .f32 := iblk1 (V9 m ρ) c 20 t
theorem idx20 : ∀ t : Fin cfg1.N, win1_20.index t (0 : Fin 2) = 0 ∧ win1_20.index t (1 : Fin 2) = 0 :=
  (by decide +kernel : ∀ t : Fin grid1.N, _)
theorem pb20_apply (y : S1x256.Idx) : pb20 m ρ c t y = V9 m ρ c main_v79 y := by
  show V9 m ρ c main_v79 (((cfg1.win 20).blk t).view.emb y) = _
  refine congrArg (V9 m ρ c main_v79) (funext fun a => Fin.ext ?_)
  obtain ⟨e0, e1⟩ := idx20 t
  match a with
  | ⟨0, _⟩ => show win1_20.index t (0 : Fin 2) * 1 + 1 * (y 0).val = (y 0).val; omega
  | ⟨1, _⟩ => show win1_20.index t (1 : Fin 2) * 256 + 1 * (y 1).val = (y 1).val; omega

/-- window 21's block at grid point t -/
abbrev pb21 : Vec Ideal S256x256 .f32 := iblk1 (V9 m ρ) c 21 t
theorem idx21 : ∀ t : Fin cfg1.N, win1_21.index t (0 : Fin 2) = 0 ∧ win1_21.index t (1 : Fin 2) = 0 :=
  (by decide +kernel : ∀ t : Fin grid1.N, _)
theorem pb21_apply (y : S256x256.Idx) : pb21 m ρ c t y = V9 m ρ c main_v22 y := by
  show V9 m ρ c main_v22 (((cfg1.win 21).blk t).view.emb y) = _
  refine congrArg (V9 m ρ c main_v22) (funext fun a => Fin.ext ?_)
  obtain ⟨e0, e1⟩ := idx21 t
  match a with
  | ⟨0, _⟩ => show win1_21.index t (0 : Fin 2) * 256 + 1 * (y 0).val = (y 0).val; omega
  | ⟨1, _⟩ => show win1_21.index t (1 : Fin 2) * 256 + 1 * (y 1).val = (y 1).val; omega

/-- window 22's block at grid point t -/
abbrev pb22 : Vec Ideal S1x256 .f32 := iblk1 (V9 m ρ) c 22 t
theorem idx22 : ∀ t : Fin cfg1.N, win1_22.index t (0 : Fin 2) = 0 ∧ win1_22.index t (1 : Fin 2) = 0 :=
  (by decide +kernel : ∀ t : Fin grid1.N, _)
theorem pb22_apply (y : S1x256.Idx) : pb22 m ρ c t y = V9 m ρ c main_v80 y := by
  show V9 m ρ c main_v80 (((cfg1.win 22).blk t).view.emb y) = _
  refine congrArg (V9 m ρ c main_v80) (funext fun a => Fin.ext ?_)
  obtain ⟨e0, e1⟩ := idx22 t
  match a with
  | ⟨0, _⟩ => show win1_22.index t (0 : Fin 2) * 1 + 1 * (y 0).val = (y 0).val; omega
  | ⟨1, _⟩ => show win1_22.index t (1 : Fin 2) * 256 + 1 * (y 1).val = (y 1).val; omega

/-- window 23's block at grid point t -/
abbrev pb23 : Vec Ideal S256x4 .f32 := iblk1 (V9 m ρ) c 23 t
theorem idx23 : ∀ t : Fin cfg1.N, win1_23.index t (0 : Fin 2) = 0 ∧ win1_23.index t (1 : Fin 2) = 0 :=
  (by decide +kernel : ∀ t : Fin grid1.N, _)
theorem pb23_apply (y : S256x4.Idx) : pb23 m ρ c t y = V9 m ρ c main_v23 y := by
  show V9 m ρ c main_v23 (((cfg1.win 23).blk t).view.emb y) = _
  refine congrArg (V9 m ρ c main_v23) (funext fun a => Fin.ext ?_)
  obtain ⟨e0, e1⟩ := idx23 t
  match a with
  | ⟨0, _⟩ => show win1_23.index t (0 : Fin 2) * 256 + 1 * (y 0).val = (y 0).val; omega
  | ⟨1, _⟩ => show win1_23.index t (1 : Fin 2) * 4 + 1 * (y 1).val = (y 1).val; omega

/-- window 24's block at grid point t -/
abbrev pb24 : Vec Ideal S1x4 .f32 := iblk1 (V9 m ρ) c 24 t
theorem idx24 : ∀ t : Fin cfg1.N, win1_24.index t (0 : Fin 2) = 0 ∧ win1_24.index t (1 : Fin 2) = 0 :=
  (by decide +kernel : ∀ t : Fin grid1.N, _)
theorem pb24_apply (y : S1x4.Idx) : pb24 m ρ c t y = V9 m ρ c main_v81 y := by
  show V9 m ρ c main_v81 (((cfg1.win 24).blk t).view.emb y) = _
  refine congrArg (V9 m ρ c main_v81) (funext fun a => Fin.ext ?_)
  obtain ⟨e0, e1⟩ := idx24 t
  match a with
  | ⟨0, _⟩ => show win1_24.index t (0 : Fin 2) * 1 + 1 * (y 0).val = (y 0).val; omega
  | ⟨1, _⟩ => show win1_24.index t (1 : Fin 2) * 4 + 1 * (y 1).val = (y 1).val; omega

/-- window 25's block at grid point t -/
abbrev pb25 : Vec Ideal S256x32 .f32 := iblk1 (V9 m ρ) c 25 t
theorem idx25 : ∀ t : Fin cfg1.N, win1_25.index t (0 : Fin 2) = 0 ∧ win1_25.index t (1 : Fin 2) = 0 :=
  (by decide +kernel : ∀ t : Fin grid1.N, _)
theorem pb25_apply (y : S256x32.Idx) : pb25 m ρ c t y = V9 m ρ c main_v32 y := by
  show V9 m ρ c main_v32 (((cfg1.win 25).blk t).view.emb y) = _
  refine congrArg (V9 m ρ c main_v32) (funext fun a => Fin.ext ?_)
  obtain ⟨e0, e1⟩ := idx25 t
  match a with
  | ⟨0, _⟩ => show win1_25.index t (0 : Fin 2) * 256 + 1 * (y 0).val = (y 0).val; omega
  | ⟨1, _⟩ => show win1_25.index t (1 : Fin 2) * 32 + 1 * (y 1).val = (y 1).val; omega

/-- window 26's block at grid point t -/
abbrev pb26 : Vec Ideal S32x256 .f32 := iblk1 (V9 m ρ) c 26 t
theorem idx26 : ∀ t : Fin cfg1.N, win1_26.index t (0 : Fin 2) = 0 ∧ win1_26.index t (1 : Fin 2) = 0 :=
  (by decide +kernel : ∀ t : Fin grid1.N, _)
theorem pb26_apply (y : S32x256.Idx) : pb26 m ρ c t y = V9 m ρ c main_v33 y := by
  show V9 m ρ c main_v33 (((cfg1.win 26).blk t).view.emb y) = _
  refine congrArg (V9 m ρ c main_v33) (funext fun a => Fin.ext ?_)
  obtain ⟨e0, e1⟩ := idx26 t
  match a with
  | ⟨0, _⟩ => show win1_26.index t (0 : Fin 2) * 32 + 1 * (y 0).val = (y 0).val; omega
  | ⟨1, _⟩ => show win1_26.index t (1 : Fin 2) * 256 + 1 * (y 1).val = (y 1).val; omega

/-! ## The argument arrays at the first region's exit are the launch's: no host operation before it writes one,
    and none is an array of the first region -/

theorem W6_arg2 : W6 m ρ c (Proc.devRef .tc main_arg2) = m ((c : Thread nD τ).loc main_arg2) := by
  rw [W6_of_ne m ρ c main_arg2 (by decide)]
  show StableHlo.after hostOps0_4 (W4 m ρ c) _ = _
  after_results
theorem W6_arg3 : W6 m ρ c (Proc.devRef .tc main_arg3) = m ((c : Thread nD τ).loc main_arg3) := by
  rw [W6_of_ne m ρ c main_arg3 (by decide)]
  show StableHlo.after hostOps0_4 (W4 m ρ c) _ = _
  after_results
theorem W6_arg4 : W6 m ρ c (Proc.devRef .tc main_arg4) = m ((c : Thread nD τ).loc main_arg4) := by
  rw [W6_of_ne m ρ c main_arg4 (by decide)]
  show StableHlo.after hostOps0_4 (W4 m ρ c) _ = _
  after_results
theorem W6_arg5 : W6 m ρ c (Proc.devRef .tc main_arg5) = m ((c : Thread nD τ).loc main_arg5) := by
  rw [W6_of_ne m ρ c main_arg5 (by decide)]
  show StableHlo.after hostOps0_4 (W4 m ρ c) _ = _
  after_results
theorem W6_arg6 : W6 m ρ c (Proc.devRef .tc main_arg6) = m ((c : Thread nD τ).loc main_arg6) := by
  rw [W6_of_ne m ρ c main_arg6 (by decide)]
  show StableHlo.after hostOps0_4 (W4 m ρ c) _ = _
  after_results
theorem W6_arg7 : W6 m ρ c (Proc.devRef .tc main_arg7) = m ((c : Thread nD τ).loc main_arg7) := by
  rw [W6_of_ne m ρ c main_arg7 (by decide)]
  show StableHlo.after hostOps0_4 (W4 m ρ c) _ = _
  after_results
theorem W6_arg8 : W6 m ρ c (Proc.devRef .tc main_arg8) = m ((c : Thread nD τ).loc main_arg8) := by
  rw [W6_of_ne m ρ c main_arg8 (by decide)]
  show StableHlo.after hostOps0_4 (W4 m ρ c) _ = _
  after_results
theorem W6_arg9 : W6 m ρ c (Proc.devRef .tc main_arg9) = m ((c : Thread nD τ).loc main_arg9) := by
  rw [W6_of_ne m ρ c main_arg9 (by decide)]
  show StableHlo.after hostOps0_4 (W4 m ρ c) _ = _
  after_results
theorem W6_arg10 : W6 m ρ c (Proc.devRef .tc main_arg10) = m ((c : Thread nD τ).loc main_arg10) := by
  rw [W6_of_ne m ρ c main_arg10 (by decide)]
  show StableHlo.after hostOps0_4 (W4 m ρ c) _ = _
  after_results
theorem W6_arg11 : W6 m ρ c (Proc.devRef .tc main_arg11) = m ((c : Thread nD τ).loc main_arg11) := by
  rw [W6_of_ne m ρ c main_arg11 (by decide)]
  show StableHlo.after hostOps0_4 (W4 m ρ c) _ = _
  after_results
theorem W6_arg12 : W6 m ρ c (Proc.devRef .tc main_arg12) = m ((c : Thread nD τ).loc main_arg12) := by
  rw [W6_of_ne m ρ c main_arg12 (by decide)]
  show StableHlo.after hostOps0_4 (W4 m ρ c) _ = _
  after_results
theorem W6_arg13 : W6 m ρ c (Proc.devRef .tc main_arg13) = m ((c : Thread nD τ).loc main_arg13) := by
  rw [W6_of_ne m ρ c main_arg13 (by decide)]
  show StableHlo.after hostOps0_4 (W4 m ρ c) _ = _
  after_results
theorem W6_arg14 : W6 m ρ c (Proc.devRef .tc main_arg14) = m ((c : Thread nD τ).loc main_arg14) := by
  rw [W6_of_ne m ρ c main_arg14 (by decide)]
  show StableHlo.after hostOps0_4 (W4 m ρ c) _ = _
  after_results
theorem W6_arg15 : W6 m ρ c (Proc.devRef .tc main_arg15) = m ((c : Thread nD τ).loc main_arg15) := by
  rw [W6_of_ne m ρ c main_arg15 (by decide)]
  show StableHlo.after hostOps0_4 (W4 m ρ c) _ = _
  after_results
theorem W6_arg16 : W6 m ρ c (Proc.devRef .tc main_arg16) = m ((c : Thread nD τ).loc main_arg16) := by
  rw [W6_of_ne m ρ c main_arg16 (by decide)]
  show StableHlo.after hostOps0_4 (W4 m ρ c) _ = _
  after_results
theorem W6_arg17 : W6 m ρ c (Proc.devRef .tc main_arg17) = m ((c : Thread nD τ).loc main_arg17) := by
  rw [W6_of_ne m ρ c main_arg17 (by decide)]
  show StableHlo.after hostOps0_4 (W4 m ρ c) _ = _
  after_results

/-! ## The host's layout operations read at an index -/

/-- a row cut from a two-row array, flattened and given back its unit axis, reads that row -/
theorem row_read {o : Nat} (X : (⟨2, ![2, 256]⟩ : Shape).Idx → EReal)
    (h : (⟨2, ![2, 256]⟩ : Shape).Slices ![o, 0] ⟨2, ![1, 256]⟩)
    (h1 : (⟨2, ![1, 256]⟩ : Shape).ShapeCasts ⟨1, ![256]⟩) (h2 : (⟨1, ![256]⟩ : Shape).ShapeCasts ⟨2, ![1, 256]⟩)
    (i : Fin 2) (hi : i.val = o) (k : Fin 256) :
    shapeCast ⟨2, ![1, 256]⟩ (shapeCast ⟨1, ![256]⟩ (extractStridedSlice ⟨2, ![1, 256]⟩ ![o, 0] X h) h1) h2 (ix2 (0 : Fin 1) k)
      = X (ix2 i k) := by
  rw [shapeCast_a_1a_apply, shapeCast_1a_a_apply]
  exact slice2_axis0_apply o X h 0 k i (by rw [hi]; rfl)

/-- The centre tap of the 3 × 3 weights (a slice at offset (1, 1) on the two tap axes, the two unit axes dropped), each
    block's matrix transposed, block i cut out and its unit axis dropped: at (k, o) it reads the weights at (i, o, k, 1, 1). -/
theorem tap_read {b : Nat} (X : (⟨5, ![2, 256, 256, 3, 3]⟩ : Shape).Idx → EReal)
    (h5 : (⟨5, ![2, 256, 256, 3, 3]⟩ : Shape).Slices ![0, 0, 0, 1, 1] ⟨5, ![2, 256, 256, 1, 1]⟩)
    (hc : (⟨5, ![2, 256, 256, 1, 1]⟩ : Shape).ShapeCasts ⟨3, ![2, 256, 256]⟩)
    (ht : (⟨3, ![2, 256, 256]⟩ : Shape).Transposes [0, 2, 1] ⟨3, ![2, 256, 256]⟩)
    (hs : (⟨3, ![2, 256, 256]⟩ : Shape).Slices ![b, 0, 0] ⟨3, ![1, 256, 256]⟩)
    (hc2 : (⟨3, ![1, 256, 256]⟩ : Shape).ShapeCasts ⟨2, ![256, 256]⟩)
    (i : Fin 2) (hi : i.val = b) (k o : Fin 256) :
    shapeCast ⟨2, ![256, 256]⟩ (extractStridedSlice ⟨3, ![1, 256, 256]⟩ ![b, 0, 0]
        (transpose ⟨3, ![2, 256, 256]⟩ [0, 2, 1]
          (shapeCast ⟨3, ![2, 256, 256]⟩ (extractStridedSlice ⟨5, ![2, 256, 256, 1, 1]⟩ ![0, 0, 0, 1, 1] X h5) hc) ht) hs) hc2
        (ix2 k o)
      = X (ix5 i o k (1 : Fin 3) (1 : Fin 3)) := by
  rw [shapeCast_1ab_ab_apply]
  rw [extractStridedSlice_apply ![b, 0, 0] _ hs (ix3 (0 : Fin 1) k o) (ix3 i k o) (fun a => by
    match a with
    | ⟨0, _⟩ => show i.val = b + 0; omega
    | ⟨1, _⟩ => show k.val = 0 + k.val; omega
    | ⟨2, _⟩ => show o.val = 0 + o.val; omega)]
  rw [transpose_ix3_021_apply]
  rw [shapeCast_apply _ hc (ix3 i o k) (ix5 i o k (0 : Fin 1) (0 : Fin 1)) (by
    rw [Shape.rowMajor_val_five, Shape.rowMajor_val_three]
    show (((i.val * 256 + o.val) * 256 + k.val) * 1 + 0) * 1 + 0 = (i.val * 256 + o.val) * 256 + k.val
    omega)]
  exact extractStridedSlice_apply _ X h5 _ (ix5 i o k (1 : Fin 3) (1 : Fin 3)) (fun a => by
    match a with
    | ⟨0, _⟩ => show i.val = 0 + i.val; omega
    | ⟨1, _⟩ => show o.val = 0 + o.val; omega
    | ⟨2, _⟩ => show k.val = 0 + k.val; omega
    | ⟨3, _⟩ => show 1 = 1 + 0; omega
    | ⟨4, _⟩ => show 1 = 1 + 0; omega)

/-! ## Each window's array as the second region finds it: the host operations' term over the argument arrays -/

theorem v36_eq : (V9 m ρ c main_v36 : S1x256.Idx → EReal)
    = shapeCast S1x256 (shapeCast S256 (extractStridedSlice S1x256 ![0, 0] (m ((c : Thread nD τ).loc main_arg2) : S2x256.Idx → EReal)
        slices_S2x256_S1x256_0_0) shapeCasts_S1x256_S256) shapeCasts_S256_S1x256 := by
  rw [← W6_arg2 m ρ c]
  dsimp only [V9, W9]
  after_results
  rfl
theorem v39_eq : (V9 m ρ c main_v39 : S1x256.Idx → EReal)
    = shapeCast S1x256 (shapeCast S256 (extractStridedSlice S1x256 ![0, 0] (m ((c : Thread nD τ).loc main_arg3) : S2x256.Idx → EReal)
        slices_S2x256_S1x256_0_0) shapeCasts_S1x256_S256) shapeCasts_S256_S1x256 := by
  rw [← W6_arg3 m ρ c]
  dsimp only [V9, W9]
  after_results
  rfl
theorem v44_eq : (V9 m ρ c main_v44 : S1x256.Idx → EReal)
    = shapeCast S1x256 (shapeCast S256 (extractStridedSlice S1x256 ![0, 0] (m ((c : Thread nD τ).loc main_arg5) : S2x256.Idx → EReal)
        slices_S2x256_S1x256_0_0) shapeCasts_S1x256_S256) shapeCasts_S256_S1x256 := by
  rw [← W6_arg5 m ρ c]
  dsimp only [V9, W9]
  after_results
  rfl
theorem v47_eq : (V9 m ρ c main_v47 : S1x256.Idx → EReal)
    = shapeCast S1x256 (shapeCast S256 (extractStridedSlice S1x256 ![0, 0] (m ((c : Thread nD τ).loc main_arg6) : S2x256.Idx → EReal)
        slices_S2x256_S1x256_0_0) shapeCasts_S1x256_S256) shapeCasts_S256_S1x256 := by
  rw [← W6_arg6 m ρ c]
  dsimp only [V9, W9]
  after_results
  rfl
theorem v50_eq : (V9 m ρ c main_v50 : S1x256.Idx → EReal)
    = shapeCast S1x256 (shapeCast S256 (extractStridedSlice S1x256 ![0, 0] (m ((c : Thread nD τ).loc main_arg7) : S2x256.Idx → EReal)
        slices_S2x256_S1x256_0_0) shapeCasts_S1x256_S256) shapeCasts_S256_S1x256 := by
  rw [← W6_arg7 m ρ c]
  dsimp only [V9, W9]
  after_results
  rfl
theorem v55_eq : (V9 m ρ c main_v55 : S1x256.Idx → EReal)
    = shapeCast S1x256 (shapeCast S256 (extractStridedSlice S1x256 ![0, 0] (m ((c : Thread nD τ).loc main_arg9) : S2x256.Idx → EReal)
        slices_S2x256_S1x256_0_0) shapeCasts_S1x256_S256) shapeCasts_S256_S1x256 := by
  rw [← W6_arg9 m ρ c]
  dsimp only [V9, W9]
  after_results
  rfl
theorem v58_eq : (V9 m ρ c main_v58 : S1x256.Idx → EReal)
    = shapeCast S1x256 (shapeCast S256 (extractStridedSlice S1x256 ![1, 0] (m ((c : Thread nD τ).loc main_arg2) : S2x256.Idx → EReal)
        slices_S2x256_S1x256_1_0) shapeCasts_S1x256_S256) shapeCasts_S256_S1x256 := by
  rw [← W6_arg2 m ρ c]
  dsimp only [V9, W9]
  after_results
  rfl
theorem v61_eq : (V9 m ρ c main_v61 : S1x256.Idx → EReal)
    = shapeCast S1x256 (shapeCast S256 (extractStridedSlice S1x256 ![1, 0] (m ((c : Thread nD τ).loc main_arg3) : S2x256.Idx → EReal)
        slices_S2x256_S1x256_1_0) shapeCasts_S1x256_S256) shapeCasts_S256_S1x256 := by
  rw [← W6_arg3 m ρ c]
  dsimp only [V9, W9]
  after_results
  rfl
theorem v66_eq : (V9 m ρ c main_v66 : S1x256.Idx → EReal)
    = shapeCast S1x256 (shapeCast S256 (extractStridedSlice S1x256 ![1, 0] (m ((c : Thread nD τ).loc main_arg5) : S2x256.Idx → EReal)
        slices_S2x256_S1x256_1_0) shapeCasts_S1x256_S256) shapeCasts_S256_S1x256 := by
  rw [← W6_arg5 m ρ c]
  dsimp only [V9, W9]
  after_results
  rfl
theorem v69_eq : (V9 m ρ c main_v69 : S1x256.Idx → EReal)
    = shapeCast S1x256 (shapeCast S256 (extractStridedSlice S1x256 ![1, 0] (m ((c : Thread nD τ).loc main_arg6) : S2x256.Idx → EReal)
        slices_S2x256_S1x256_1_0) shapeCasts_S1x256_S256) shapeCasts_S256_S1x256 := by
  rw [← W6_arg6 m ρ c]
  dsimp only [V9, W9]
  after_results
  rfl
theorem v72_eq : (V9 m ρ c main_v72 : S1x256.Idx → EReal)
    = shapeCast S1x256 (shapeCast S256 (extractStridedSlice S1x256 ![1, 0] (m ((c : Thread nD τ).loc main_arg7) : S2x256.Idx → EReal)
        slices_S2x256_S1x256_1_0) shapeCasts_S1x256_S256) shapeCasts_S256_S1x256 := by
  rw [← W6_arg7 m ρ c]
  dsimp only [V9, W9]
  after_results
  rfl
theorem v77_eq : (V9 m ρ c main_v77 : S1x256.Idx → EReal)
    = shapeCast S1x256 (shapeCast S256 (extractStridedSlice S1x256 ![1, 0] (m ((c : Thread nD τ).loc main_arg9) : S2x256.Idx → EReal)
        slices_S2x256_S1x256_1_0) shapeCasts_S1x256_S256) shapeCasts_S256_S1x256 := by
  rw [← W6_arg9 m ρ c]
  dsimp only [V9, W9]
  after_results
  rfl
theorem v41_eq : (V9 m ρ c main_v41 : S256x256.Idx → EReal)
    = shapeCast S256x256 (extractStridedSlice S1x256x256 ![0, 0, 0]
        (transpose S2x256x256 [0, 2, 1]
          (shapeCast S2x256x256 (extractStridedSlice S2x256x256x1x1 ![0, 0, 0, 1, 1] (m ((c : Thread nD τ).loc main_arg4) : S2x256x256x3x3.Idx → EReal)
            slices_S2x256x256x3x3_S2x256x256x1x1_0_0_0_1_1) shapeCasts_S2x256x256x1x1_S2x256x256)
          transposes_S2x256x256_S2x256x256_0_2_1)
        slices_S2x256x256_S1x256x256_0_0_0) shapeCasts_S1x256x256_S256x256 := by
  rw [← W6_arg4 m ρ c]
  dsimp only [V9, W9]
  after_results
  rfl
theorem v52_eq : (V9 m ρ c main_v52 : S256x256.Idx → EReal)
    = shapeCast S256x256 (extractStridedSlice S1x256x256 ![0, 0, 0]
        (transpose S2x256x256 [0, 2, 1]
          (shapeCast S2x256x256 (extractStridedSlice S2x256x256x1x1 ![0, 0, 0, 1, 1] (m ((c : Thread nD τ).loc main_arg8) : S2x256x256x3x3.Idx → EReal)
            slices_S2x256x256x3x3_S2x256x256x1x1_0_0_0_1_1) shapeCasts_S2x256x256x1x1_S2x256x256)
          transposes_S2x256x256_S2x256x256_0_2_1)
        slices_S2x256x256_S1x256x256_0_0_0) shapeCasts_S1x256x256_S256x256 := by
  rw [← W6_arg8 m ρ c]
  dsimp only [V9, W9]
  after_results
  rfl
theorem v63_eq : (V9 m ρ c main_v63 : S256x256.Idx → EReal)
    = shapeCast S256x256 (extractStridedSlice S1x256x256 ![1, 0, 0]
        (transpose S2x256x256 [0, 2, 1]
          (shapeCast S2x256x256 (extractStridedSlice S2x256x256x1x1 ![0, 0, 0, 1, 1] (m ((c : Thread nD τ).loc main_arg4) : S2x256x256x3x3.Idx → EReal)
            slices_S2x256x256x3x3_S2x256x256x1x1_0_0_0_1_1) shapeCasts_S2x256x256x1x1_S2x256x256)
          transposes_S2x256x256_S2x256x256_0_2_1)
        slices_S2x256x256_S1x256x256_1_0_0) shapeCasts_S1x256x256_S256x256 := by
  rw [← W6_arg4 m ρ c]
  dsimp only [V9, W9]
  after_results
  rfl
theorem v74_eq : (V9 m ρ c main_v74 : S256x256.Idx → EReal)
    = shapeCast S256x256 (extractStridedSlice S1x256x256 ![1, 0, 0]
        (transpose S2x256x256 [0, 2, 1]
          (shapeCast S2x256x256 (extractStridedSlice S2x256x256x1x1 ![0, 0, 0, 1, 1] (m ((c : Thread nD τ).loc main_arg8) : S2x256x256x3x3.Idx → EReal)
            slices_S2x256x256x3x3_S2x256x256x1x1_0_0_0_1_1) shapeCasts_S2x256x256x1x1_S2x256x256)
          transposes_S2x256x256_S2x256x256_0_2_1)
        slices_S2x256x256_S1x256x256_1_0_0) shapeCasts_S1x256x256_S256x256 := by
  rw [← W6_arg8 m ρ c]
  dsimp only [V9, W9]
  after_results
  rfl
theorem v20_eq : (V9 m ρ c main_v20 : S256x2.Idx → EReal)
    = transpose S256x2 [1, 0] (m ((c : Thread nD τ).loc main_arg10) : S2x256.Idx → EReal) transposes_S2x256_S256x2_1_0 := by
  rw [← W6_arg10 m ρ c]
  dsimp only [V9, W9]
  after_results
theorem v21_eq : (V9 m ρ c main_v21 : S256x256.Idx → EReal)
    = transpose S256x256 [1, 0] (m ((c : Thread nD τ).loc main_arg12) : S256x256.Idx → EReal) transposes_S256x256_S256x256_1_0 := by
  rw [← W6_arg12 m ρ c]
  dsimp only [V9, W9]
  after_results
theorem v22_eq : (V9 m ρ c main_v22 : S256x256.Idx → EReal)
    = transpose S256x256 [1, 0] (m ((c : Thread nD τ).loc main_arg14) : S256x256.Idx → EReal) transposes_S256x256_S256x256_1_0 := by
  rw [← W6_arg14 m ρ c]
  dsimp only [V9, W9]
  after_results
theorem v23_eq : (V9 m ρ c main_v23 : S256x4.Idx → EReal)
    = transpose S256x4 [1, 0] (m ((c : Thread nD τ).loc main_arg16) : S4x256.Idx → EReal) transposes_S4x256_S256x4_1_0 := by
  rw [← W6_arg16 m ρ c]
  dsimp only [V9, W9]
  after_results
theorem v78_eq : (V9 m ρ c main_v78 : S1x2.Idx → EReal)
    = shapeCast S1x2 (m ((c : Thread nD τ).loc main_arg11) : S2.Idx → EReal) shapeCasts_S2_S1x2 := by
  rw [← W6_arg11 m ρ c]
  dsimp only [V9, W9]
  after_results
  rfl
theorem v79_eq : (V9 m ρ c main_v79 : S1x256.Idx → EReal)
    = shapeCast S1x256 (m ((c : Thread nD τ).loc main_arg13) : S256.Idx → EReal) shapeCasts_S256_S1x256 := by
  rw [← W6_arg13 m ρ c]
  dsimp only [V9, W9]
  after_results
  rfl
theorem v80_eq : (V9 m ρ c main_v80 : S1x256.Idx → EReal)
    = shapeCast S1x256 (m ((c : Thread nD τ).loc main_arg15) : S256.Idx → EReal) shapeCasts_S256_S1x256 := by
  rw [← W6_arg15 m ρ c]
  dsimp only [V9, W9]
  after_results
  rfl
theorem v81_eq : (V9 m ρ c main_v81 : S1x4.Idx → EReal)
    = shapeCast S1x4 (m ((c : Thread nD τ).loc main_arg17) : S4.Idx → EReal) shapeCasts_S4_S1x4 := by
  rw [← W6_arg17 m ρ c]
  dsimp only [V9, W9]
  after_results
  rfl

/-! ## Each block read at an index of the specification's parameters -/

theorem r1 (k : Fin 256) : pb1 m ρ c t (ix2 (0 : Fin 1) k) = m ((c : Thread nD τ).loc main_arg2) (ix2 (0 : Fin 2) k) := by
  rw [pb1_apply, v36_eq]
  exact row_read _ _ _ _ 0 rfl k
theorem r2 (k : Fin 256) : pb2 m ρ c t (ix2 (0 : Fin 1) k) = m ((c : Thread nD τ).loc main_arg3) (ix2 (0 : Fin 2) k) := by
  rw [pb2_apply, v39_eq]
  exact row_read _ _ _ _ 0 rfl k
theorem r4 (k : Fin 256) : pb4 m ρ c t (ix2 (0 : Fin 1) k) = m ((c : Thread nD τ).loc main_arg5) (ix2 (0 : Fin 2) k) := by
  rw [pb4_apply, v44_eq]
  exact row_read _ _ _ _ 0 rfl k
theorem r5 (k : Fin 256) : pb5 m ρ c t (ix2 (0 : Fin 1) k) = m ((c : Thread nD τ).loc main_arg6) (ix2 (0 : Fin 2) k) := by
  rw [pb5_apply, v47_eq]
  exact row_read _ _ _ _ 0 rfl k
theorem r6 (k : Fin 256) : pb6 m ρ c t (ix2 (0 : Fin 1) k) = m ((c : Thread nD τ).loc main_arg7) (ix2 (0 : Fin 2) k) := by
  rw [pb6_apply, v50_eq]
  exact row_read _ _ _ _ 0 rfl k
theorem r8 (k : Fin 256) : pb8 m ρ c t (ix2 (0 : Fin 1) k) = m ((c : Thread nD τ).loc main_arg9) (ix2 (0 : Fin 2) k) := by
  rw [pb8_apply, v55_eq]
  exact row_read _ _ _ _ 0 rfl k
theorem r9 (k : Fin 256) : pb9 m ρ c t (ix2 (0 : Fin 1) k) = m ((c : Thread nD τ).loc main_arg2) (ix2 (1 : Fin 2) k) := by
  rw [pb9_apply, v58_eq]
  exact row_read _ _ _ _ 1 rfl k
theorem r10 (k : Fin 256) : pb10 m ρ c t (ix2 (0 : Fin 1) k) = m ((c : Thread nD τ).loc main_arg3) (ix2 (1 : Fin 2) k) := by
  rw [pb10_apply, v61_eq]
  exact row_read _ _ _ _ 1 rfl k
theorem r12 (k : Fin 256) : pb12 m ρ c t (ix2 (0 : Fin 1) k) = m ((c : Thread nD τ).loc main_arg5) (ix2 (1 : Fin 2) k) := by
  rw [pb12_apply, v66_eq]
  exact row_read _ _ _ _ 1 rfl k
theorem r13 (k : Fin 256) : pb13 m ρ c t (ix2 (0 : Fin 1) k) = m ((c : Thread nD τ).loc main_arg6) (ix2 (1 : Fin 2) k) := by
  rw [pb13_apply, v69_eq]
  exact row_read _ _ _ _ 1 rfl k
theorem r14 (k : Fin 256) : pb14 m ρ c t (ix2 (0 : Fin 1) k) = m ((c : Thread nD τ).loc main_arg7) (ix2 (1 : Fin 2) k) := by
  rw [pb14_apply, v72_eq]
  exact row_read _ _ _ _ 1 rfl k
theorem r16 (k : Fin 256) : pb16 m ρ c t (ix2 (0 : Fin 1) k) = m ((c : Thread nD τ).loc main_arg9) (ix2 (1 : Fin 2) k) := by
  rw [pb16_apply, v77_eq]
  exact row_read _ _ _ _ 1 rfl k
theorem r3 (o k : Fin 256) : pb3 m ρ c t (ix2 k o) = m ((c : Thread nD τ).loc main_arg4) (ix5 (0 : Fin 2) o k (1 : Fin 3) (1 : Fin 3)) := by
  rw [pb3_apply, v41_eq]
  exact tap_read _ _ _ _ _ _ 0 rfl k o
theorem r7 (o k : Fin 256) : pb7 m ρ c t (ix2 k o) = m ((c : Thread nD τ).loc main_arg8) (ix5 (0 : Fin 2) o k (1 : Fin 3) (1 : Fin 3)) := by
  rw [pb7_apply, v52_eq]
  exact tap_read _ _ _ _ _ _ 0 rfl k o
theorem r11 (o k : Fin 256) : pb11 m ρ c t (ix2 k o) = m ((c : Thread nD τ).loc main_arg4) (ix5 (1 : Fin 2) o k (1 : Fin 3) (1 : Fin 3)) := by
  rw [pb11_apply, v63_eq]
  exact tap_read _ _ _ _ _ _ 1 rfl k o
theorem r15 (o k : Fin 256) : pb15 m ρ c t (ix2 k o) = m ((c : Thread nD τ).loc main_arg8) (ix5 (1 : Fin 2) o k (1 : Fin 3) (1 : Fin 3)) := by
  rw [pb15_apply, v74_eq]
  exact tap_read _ _ _ _ _ _ 1 rfl k o
theorem r17 (q : Fin 2) (k : Fin 256) : pb17 m ρ c t (ix2 k q) = m ((c : Thread nD τ).loc main_arg10) (ix2 q k) := by
  rw [pb17_apply, v20_eq]
  exact transpose_ix2_apply _ _ k q
theorem r19 (q : Fin 256) (k : Fin 256) : pb19 m ρ c t (ix2 k q) = m ((c : Thread nD τ).loc main_arg12) (ix2 q k) := by
  rw [pb19_apply, v21_eq]
  exact transpose_ix2_apply _ _ k q
theorem r21 (q : Fin 256) (k : Fin 256) : pb21 m ρ c t (ix2 k q) = m ((c : Thread nD τ).loc main_arg14) (ix2 q k) := by
  rw [pb21_apply, v22_eq]
  exact transpose_ix2_apply _ _ k q
theorem r23 (q : Fin 4) (k : Fin 256) : pb23 m ρ c t (ix2 k q) = m ((c : Thread nD τ).loc main_arg16) (ix2 q k) := by
  rw [pb23_apply, v23_eq]
  exact transpose_ix2_apply _ _ k q
theorem r18 (q : Fin 2) : pb18 m ρ c t (ix2 (0 : Fin 1) q) = m ((c : Thread nD τ).loc main_arg11) (ix1 q) := by
  rw [pb18_apply, v78_eq]
  exact shapeCast_a_1a_apply _ _ 0 q
theorem r20 (q : Fin 256) : pb20 m ρ c t (ix2 (0 : Fin 1) q) = m ((c : Thread nD τ).loc main_arg13) (ix1 q) := by
  rw [pb20_apply, v79_eq]
  exact shapeCast_a_1a_apply _ _ 0 q
theorem r22 (q : Fin 256) : pb22 m ρ c t (ix2 (0 : Fin 1) q) = m ((c : Thread nD τ).loc main_arg15) (ix1 q) := by
  rw [pb22_apply, v80_eq]
  exact shapeCast_a_1a_apply _ _ 0 q
theorem r24 (q : Fin 4) : pb24 m ρ c t (ix2 (0 : Fin 1) q) = m ((c : Thread nD τ).loc main_arg17) (ix1 q) := by
  rw [pb24_apply, v81_eq]
  exact shapeCast_a_1a_apply _ _ 0 q

/-! ## The group indicator: window 25 holds 1 where channel k lies in group g (k / 8 = g) and 0 elsewhere, window 26 its transpose -/

/-- The host's floor division by a scalar, on arrays: the truncated quotient, lowered by one where the operands' signs differ
    and the remainder is not zero. -/
def floorDiv (X : IVec S256x1 32) (C : IVec S_ 32) : IVec S256x1 32 :=
  select
    (andi (cmpi .ne (signi X) (broadcastInDim S256x1 ![] bcast_S_S256x1 (signi (id C))))
      (cmpi .ne (Host.remsi X (broadcastInDim S256x1 ![] bcast_S_S256x1 (id C)))
        (broadcastInDim S256x1 ![] bcast_S_S256x1 (constantI S_ 32 0#32))))
    (subi (Host.divsi X (broadcastInDim S256x1 ![] bcast_S_S256x1 (id C)))
      (broadcastInDim S256x1 ![] bcast_S_S256x1 (constantI S_ 32 1#32)))
    (Host.divsi X (broadcastInDim S256x1 ![] bcast_S_S256x1 (id C)))

/-- the sign of a word: 0, -1 or 1 -/
def sgn (x : BitVec 32) : BitVec 32 := if x = 0 then 0 else if x.msb then -1 else 1

/-- the same on one word, the divisor 8 -/
def floorDiv8 (x : BitVec 32) : BitVec 32 :=
  Scalar.select
    (IntOp.andi (IntOp.cmpi .ne (sgn x) (sgn 8#32))
      (IntOp.cmpi .ne (IntOp.remsi .host x 8#32) 0#32))
    (IntOp.subi (IntOp.divsi .host x 8#32) 1#32)
    (IntOp.divsi .host x 8#32)

/-- on a channel number below 256 it is the quotient k / 8 -/
theorem floorDiv8_ofNat : ∀ k : Fin 256, floorDiv8 (BitVec.ofNat 32 k.val) = BitVec.ofNat 32 (k.val / 8) := by
  decide +kernel

/-- the indicator array as the host computes it from the quotient column and the group row -/
abbrev indArr : S256x32.Idx → EReal :=
  uitofp (F := Ideal) .f32 (cmpi .eq
    (broadcastInDim S256x32 ![0, 1] bcast_S256x1_S256x32_0_1 (W8 m ρ c (Proc.devRef .tc main_v28)))
    (broadcastInDim S256x32 ![0, 1] bcast_S1x32_S256x32_0_1 (W8 m ρ c (Proc.devRef .tc main_v27))))

theorem v32_eq : (V9 m ρ c main_v32 : S256x32.Idx → EReal) = indArr m ρ c := by
  show StableHlo.after hostOps1_2 (W8 m ρ c) (Proc.devRef .tc main_v32) = _
  unfold indArr
  generalize W8 m ρ c = F8
  after_results

theorem v33_eq : (V9 m ρ c main_v33 : S32x256.Idx → EReal)
    = transpose S32x256 [1, 0] (indArr m ρ c) transposes_S256x32_S32x256_1_0 := by
  show StableHlo.after hostOps1_2 (W8 m ρ c) (Proc.devRef .tc main_v33) = _
  unfold indArr
  generalize W8 m ρ c = F8
  after_results

theorem v28_eq : (W8 m ρ c (Proc.devRef .tc main_v28) : S256x1.Idx → BitVec 32)
    = floorDiv (W7 m ρ c (Proc.devRef .tc main_v25)) (W7 m ρ c (Proc.devRef .tc main_c_3)) := by
  show StableHlo.after hostOps1_1 (W7 m ρ c) (Proc.devRef .tc main_v28) = _
  generalize W7 m ρ c = F7
  after_results_simp
  rfl

theorem v27_eq : (W8 m ρ c (Proc.devRef .tc main_v27) : S1x32.Idx → BitVec 32)
    = broadcastInDim S1x32 ![1] bcast_S32_S1x32_1 (iotaInDim S32 32 0) := by
  show StableHlo.after hostOps1_1 (StableHlo.after hostOps1 (W6 m ρ c)) (Proc.devRef .tc main_v27) = _
  generalize W6 m ρ c = F6
  after_results

theorem v25_eq : (W7 m ρ c (Proc.devRef .tc main_v25) : S256x1.Idx → BitVec 32)
    = broadcastInDim S256x1 ![0] bcast_S256_S256x1_0 (iotaInDim S256 32 0) := by
  show StableHlo.after hostOps1 (W6 m ρ c) (Proc.devRef .tc main_v25) = _
  generalize W6 m ρ c = F6
  after_results

theorem c3_eq : (W7 m ρ c (Proc.devRef .tc main_c_3) : S_.Idx → BitVec 32) = constantI S_ 32 8#32 := by
  show StableHlo.after hostOps1 (W6 m ρ c) (Proc.devRef .tc main_c_3) = _
  generalize W6 m ρ c = F6
  after_results

/-- the quotient column at channel k -/
theorem v28_apply (k : Fin 256) : W8 m ρ c (Proc.devRef .tc main_v28) (ix2 k (0 : Fin 1)) = BitVec.ofNat 32 (k.val / 8) := by
  rw [v28_eq, v25_eq, c3_eq, ← floorDiv8_ofNat k]
  rfl

/-- the group row at group g -/
theorem v27_apply (g : Fin 32) : W8 m ρ c (Proc.devRef .tc main_v27) (ix2 (0 : Fin 1) g) = BitVec.ofNat 32 g.val := by
  rw [v27_eq]
  rfl

/-- the indicator array at (k, g) -/
theorem indArr_apply (k : Fin 256) (g : Fin 32) : indArr m ρ c (ix2 k g) = Spec.ind k g := by
  show (((IntOp.cmpi .eq
      (broadcastInDim S256x32 ![0, 1] bcast_S256x1_S256x32_0_1 (W8 m ρ c (Proc.devRef .tc main_v28)) (ix2 k g))
      (broadcastInDim S256x32 ![0, 1] bcast_S1x32_S256x32_0_1 (W8 m ρ c (Proc.devRef .tc main_v27)) (ix2 k g))).toNat : ℝ) : EReal) = _
  rw [broadcastInDim_apply _ _ _ (ix2 k g) (ix2 k (0 : Fin 1)) (fun a => by
        match a with | ⟨0, _⟩ => rfl | ⟨1, _⟩ => rfl),
      broadcastInDim_apply _ _ _ (ix2 k g) (ix2 (0 : Fin 1) g) (fun a => by
        match a with | ⟨0, _⟩ => rfl | ⟨1, _⟩ => rfl),
      v28_apply, v27_apply]
  unfold Spec.ind
  have hk : k.val / 8 < 2 ^ 32 := by have := k.isLt; omega
  have hg : g.val < 2 ^ 32 := by have := g.isLt; omega
  by_cases h : k.val / 8 = g.val
  · rw [if_pos h, h, IntOp.cmpi_eq.2 rfl]; simp
  · rw [if_neg h]
    have hne : ¬ IntOp.cmpi .eq (BitVec.ofNat 32 (k.val / 8)) (BitVec.ofNat 32 g.val) = 1#1 := by
      rw [IntOp.cmpi_eq]
      intro e
      apply h
      have := congrArg BitVec.toNat e
      rw [BitVec.toNat_ofNat, BitVec.toNat_ofNat, Nat.mod_eq_of_lt hk, Nat.mod_eq_of_lt hg] at this
      exact this
    have h0 : IntOp.cmpi .eq (BitVec.ofNat 32 (k.val / 8)) (BitVec.ofNat 32 g.val) = 0#1 := by
      revert hne
      generalize IntOp.cmpi .eq (BitVec.ofNat 32 (k.val / 8)) (BitVec.ofNat 32 g.val) = b
      revert b
      decide
    rw [h0]; simp

/-! ## The specification's parameters read off the blocks are those read off the argument arrays -/

/-- residual block 0 -/
theorem rbp0_blocks : Spec.rbpBlk (pb1 m ρ c t) (pb2 m ρ c t) (pb3 m ρ c t) (pb4 m ρ c t) (pb5 m ρ c t) (pb6 m ρ c t) (pb7 m ρ c t) (pb8 m ρ c t)
    = Spec.rbp 0 (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold Spec.rbpBlk Spec.rbp
  congr 1
  · funext k; exact r1 m ρ c t k
  · funext k; exact r2 m ρ c t k
  · funext o k; exact r3 m ρ c t o k
  · funext k; exact r4 m ρ c t k
  · funext k; exact r5 m ρ c t k
  · funext k; exact r6 m ρ c t k
  · funext o k; exact r7 m ρ c t o k
  · funext k; exact r8 m ρ c t k

/-- residual block 1 -/
theorem rbp1_blocks : Spec.rbpBlk (pb9 m ρ c t) (pb10 m ρ c t) (pb11 m ρ c t) (pb12 m ρ c t) (pb13 m ρ c t) (pb14 m ρ c t) (pb15 m ρ c t) (pb16 m ρ c t)
    = Spec.rbp 1 (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold Spec.rbpBlk Spec.rbp
  congr 1
  · funext k; exact r9 m ρ c t k
  · funext k; exact r10 m ρ c t k
  · funext o k; exact r11 m ρ c t o k
  · funext k; exact r12 m ρ c t k
  · funext k; exact r13 m ρ c t k
  · funext k; exact r14 m ρ c t k
  · funext o k; exact r15 m ρ c t o k
  · funext k; exact r16 m ρ c t k

/-- the two heads -/
theorem head_blocks : Spec.headBlk (pb17 m ρ c t) (pb18 m ρ c t) (pb19 m ρ c t) (pb20 m ρ c t) (pb21 m ρ c t) (pb22 m ρ c t) (pb23 m ρ c t) (pb24 m ρ c t)
    = Spec.headp (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  unfold Spec.headBlk Spec.headp
  congr 1
  · funext q k; exact r17 m ρ c t q k
  · funext q; exact r18 m ρ c t q
  · funext o k; exact r19 m ρ c t o k
  · funext o; exact r20 m ρ c t o
  · funext o k; exact r21 m ρ c t o k
  · funext o; exact r22 m ρ c t o
  · funext q k; exact r23 m ρ c t q k
  · funext q; exact r24 m ρ c t q

/-- the group indicator -/
theorem ag_block : (fun (k : Fin 256) (g : Fin 32) => pb25 m ρ c t (ix2 k g)) = Spec.ind := by
  funext k g
  rw [pb25_apply, v32_eq]
  exact indArr_apply m ρ c k g

/-- and its transpose -/
theorem agT_block : (fun (g : Fin 32) (k : Fin 256) => pb26 m ρ c t (ix2 g k)) = Spec.indT := by
  funext g k
  rw [pb26_apply, v33_eq, transpose_ix2_apply]
  exact indArr_apply m ρ c k g

end Cert.KernelIdeal.KHost
-- ==== Proof.KRegion1.lean ====
/-
  The second region's two output arrays after its 64 grid points, as functions of the rows it is entered with.

  Grid point `t` holds rows `1024 t … 1024 t + 1023` of the 65536 × 256 array of rows and the whole of every
  parameter array. The body's outputs at `(r, q)` are the specification's logits and box coordinates of row `r` of
  the row block, which is row `1024 t + r` of the rows; the parameter blocks are the specification's parameters.
  So what point `t` writes back to an output is block `t` of one array, "the head's value of row `R`'s trunk
  output at `(R, q)`"; the 64 blocks of 1024 rows tile the 65536 rows (row `R` lies in block `R / 1024`), so after
  the last point each output array is that array.
-/
import proofs.«405869_j26843545600773_3_alg».proof.Proof.KernelIdealFrameP
import proofs.«405869_j26843545600773_3_alg».proof.Proof.KValueDefs
import proofs.«405869_j26843545600773_3_alg».proof.Proof.KPay
import proofs.«405869_j26843545600773_3_alg».proof.Proof.ParamsBlk
import proofs.«405869_j26843545600773_3_alg».proof.Proof.KHostParams
import Idealize.ShloMosaic.Lib.Pipeline.Value
import Idealize.ShloMosaic.Lib.ValueIdx

set_option maxRecDepth 16384

noncomputable section

namespace Cert.KernelIdeal.KRegion1

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg) (c : Dev nD)

/-! ## The rows, and a row's trunk output -/

/-- The rows region 1 is entered with. -/
abbrev rows : S65536x256.Idx → EReal := V9 m ρ c (Pipeline.arrRef spec1 0)

/-- A row's trunk output, in the kernel's form of the normalisation. -/
def trunkRow (R : Fin 65536) : Spec.Row :=
  Spec.trunk (Spec.gnK Spec.ind Spec.indT) (Spec.rbp 0 (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (Spec.rbp 1 (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    (fun k => rows m ρ c (ix2 R k))

/-! ## Where a block sits -/

/-- The index maps over the grid: the row window and both output windows sit at block `(t, 0)`. -/
theorem idx_facts : ∀ t : Fin cfg1.N, win1_0.index t (0 : Fin 2) = t.val ∧ win1_0.index t (1 : Fin 2) = 0
    ∧ win1_27.index t (0 : Fin 2) = t.val ∧ win1_27.index t (1 : Fin 2) = 0
    ∧ win1_28.index t (0 : Fin 2) = t.val ∧ win1_28.index t (1 : Fin 2) = 0 :=
  (by decide +kernel : ∀ t : Fin grid1.N, _)

/-- Row `r` of point `t`'s blocks is row `1024 t + r` of the arrays. -/
def rowAt (t : Fin cfg1.N) (r : Fin 1024) : Fin 65536 :=
  ⟨1024 * t.val + r.val, by have h := t.isLt; have h64 : cfg1.N = 64 := rfl; have := r.isLt; omega⟩

/-- Point `t`'s block of the rows. -/
abbrev pb0 (t : Fin cfg1.N) : Vec Ideal S1024x256 .f32 := iblk1 (V9 m ρ) c 0 t

/-- Its entry `(r, k)` is entry `(1024 t + r, k)` of the rows. -/
theorem pb0_apply (t : Fin cfg1.N) (r : Fin 1024) (k : Fin 256) :
    pb0 m ρ c t (ix2 r k) = rows m ρ c (ix2 (rowAt t r) k) := by
  show rows m ρ c (((cfg1.win 0).blk t).view.emb (ix2 r k)) = _
  refine congrArg (rows m ρ c) (funext fun a => Fin.ext ?_)
  obtain ⟨e0, e1, -, -, -, -⟩ := idx_facts t
  match a with
  | ⟨0, _⟩ => show win1_0.index t (0 : Fin 2) * 1024 + 1 * r.val = 1024 * t.val + r.val; omega
  | ⟨1, _⟩ => show win1_0.index t (1 : Fin 2) * 256 + 1 * k.val = k.val; omega

/-- Row `r` of the block is row `1024 t + r` of the rows. -/
theorem pb0_row (t : Fin cfg1.N) (r : Fin 1024) :
    (fun k : Fin 256 => pb0 m ρ c t (ix2 r k)) = fun k => rows m ρ c (ix2 (rowAt t r) k) :=
  funext fun k => pb0_apply m ρ c t r k

/-! ## Output window 27: the class logit -/

/-- The array the window ends holding: at `(R, q)`, the class logit `q` of row `R`'s trunk output. -/
abbrev logitsArr : S65536x2.Idx → EReal := fun i => Spec.logits (KValue.headK m c) (trunkRow m ρ c (i 0)) (i 1)

/-- Element `(r, q)` of point `t`'s block of the array sits at row `1024 t + r`, column `q`. -/
theorem emb27 (t : Fin cfg1.N) (r : Fin 1024) (q : Fin 2) :
    (((cfg1.win 27).blk t).view.emb (ix2 r q) : S65536x2.Idx) = ix2 (rowAt t r) q := by
  funext a; apply Fin.ext
  obtain ⟨-, -, e0, e1, -, -⟩ := idx_facts t
  match a with
  | ⟨0, _⟩ => show win1_27.index t (0 : Fin 2) * 1024 + 1 * r.val = 1024 * t.val + r.val; omega
  | ⟨1, _⟩ => show win1_27.index t (1 : Fin 2) * 2 + 1 * q.val = q.val; omega

/-- What point `t` writes back is block `t` of that array: the body's output at `(r, q)` is the specification's
    function of row `r` of the row block, the parameter blocks are the parameters, and row `r` of the row block is
    row `1024 t + r` of the rows. -/
theorem flushed27_eq (t : Fin cfg1.N) :
    (dat1 (V9 m ρ) c).flushed 27 t = ((cfg1.win 27).blk t).view.read (Elt Ideal) (logitsArr m ρ c) := by
  show (cfg1.win 27).cut (grid1.coords t) ((dat1 (V9 m ρ) c).after 27 t) = _
  rw [after1_27]
  refine funext fun (y : S1024x2.Idx) => ?_
  obtain ⟨r, q, rfl⟩ : ∃ (r : Fin 1024) (q : Fin 2), y = ix2 r q := ⟨y 0, y 1, eq_ix2 y⟩
  show out1_27 (F := Ideal) (pb0 m ρ c t) (KHost.pb1 m ρ c t) (KHost.pb2 m ρ c t) (KHost.pb3 m ρ c t) (KHost.pb4 m ρ c t) (KHost.pb5 m ρ c t) (KHost.pb6 m ρ c t) (KHost.pb7 m ρ c t) (KHost.pb8 m ρ c t) (KHost.pb9 m ρ c t) (KHost.pb10 m ρ c t) (KHost.pb11 m ρ c t) (KHost.pb12 m ρ c t) (KHost.pb13 m ρ c t) (KHost.pb14 m ρ c t) (KHost.pb15 m ρ c t) (KHost.pb16 m ρ c t) (KHost.pb17 m ρ c t) (KHost.pb18 m ρ c t) (KHost.pb19 m ρ c t) (KHost.pb20 m ρ c t) (KHost.pb21 m ρ c t) (KHost.pb22 m ρ c t) (KHost.pb23 m ρ c t) (KHost.pb24 m ρ c t) (KHost.pb25 m ρ c t) (KHost.pb26 m ρ c t) (ix2 r q)
      = logitsArr m ρ c (((cfg1.win 27).blk t).view.emb (ix2 r q))
  rw [emb27 t r q]
  refine (KPay.out1_27_apply (pb0 m ρ c t) (KHost.pb1 m ρ c t) (KHost.pb2 m ρ c t) (KHost.pb3 m ρ c t) (KHost.pb4 m ρ c t) (KHost.pb5 m ρ c t) (KHost.pb6 m ρ c t) (KHost.pb7 m ρ c t) (KHost.pb8 m ρ c t) (KHost.pb9 m ρ c t) (KHost.pb10 m ρ c t) (KHost.pb11 m ρ c t) (KHost.pb12 m ρ c t) (KHost.pb13 m ρ c t) (KHost.pb14 m ρ c t) (KHost.pb15 m ρ c t) (KHost.pb16 m ρ c t) (KHost.pb17 m ρ c t) (KHost.pb18 m ρ c t) (KHost.pb19 m ρ c t) (KHost.pb20 m ρ c t) (KHost.pb21 m ρ c t) (KHost.pb22 m ρ c t) (KHost.pb23 m ρ c t) (KHost.pb24 m ρ c t) (KHost.pb25 m ρ c t) (KHost.pb26 m ρ c t) r q).trans ?_
  rw [KHost.rbp0_blocks m ρ c t, KHost.rbp1_blocks m ρ c t, KHost.head_blocks m ρ c t, KHost.ag_block m ρ c t,
    KHost.agT_block m ρ c t, pb0_row m ρ c t r]
  rfl

/-- An index of the array is in point `t`'s block iff each coordinate is in the block's range on its axis. -/
theorem mem_blk27 (t : Fin cfg1.N) (i : S65536x2.Idx) :
    i ∈ ((cfg1.win 27).blk t).view.set ↔ ∀ a : Fin 2, win1_27.index t a * S1024x2.size a ≤ (i a).val
      ∧ (i a).val < win1_27.index t a * S1024x2.size a + S1024x2.size a := by
  show i ∈ ((View.whole main_v82_0).slice (win1_27.rect t)).set ↔ _
  rw [View.set_slice_whole, Rect.mem_set_unit]
  exact Iff.rfl

/-- Row `R` of the array is in the block of point `R / 1024`. -/
theorem cover27 (i : S65536x2.Idx) :
    ∃ t : Fin cfg1.N, (cfg1.win 27).flush t = true ∧ i ∈ ((cfg1.win 27).blk t).view.set := by
  have hi0 : (i 0).val < 65536 := (i 0).isLt
  have hi1 : (i 1).val < 2 := (i 1).isLt
  obtain ⟨t, ht⟩ : ∃ t : Fin cfg1.N, t.val = (i 0).val / 1024 := ⟨⟨(i 0).val / 1024, by show _ < 64; omega⟩, rfl⟩
  refine ⟨t, flush1_27 t, ?_⟩
  rw [mem_blk27]
  obtain ⟨-, -, e0, e1, -, -⟩ := idx_facts t
  intro a
  match a with
  | ⟨0, _⟩ =>
    show win1_27.index t (0 : Fin 2) * 1024 ≤ (i 0).val ∧ (i 0).val < win1_27.index t (0 : Fin 2) * 1024 + 1024
    omega
  | ⟨1, _⟩ =>
    show win1_27.index t (1 : Fin 2) * 2 ≤ (i 1).val ∧ (i 1).val < win1_27.index t (1 : Fin 2) * 2 + 2
    omega

/-! ## Output window 28: the box coordinate -/

/-- The array the window ends holding: at `(R, q)`, the box coordinate `q` of row `R`'s trunk output. -/
abbrev boxesArr : S65536x4.Idx → EReal := fun i => Spec.boxes (KValue.headK m c) (trunkRow m ρ c (i 0)) (i 1)

/-- Element `(r, q)` of point `t`'s block of the array sits at row `1024 t + r`, column `q`. -/
theorem emb28 (t : Fin cfg1.N) (r : Fin 1024) (q : Fin 4) :
    (((cfg1.win 28).blk t).view.emb (ix2 r q) : S65536x4.Idx) = ix2 (rowAt t r) q := by
  funext a; apply Fin.ext
  obtain ⟨-, -, -, -, e0, e1⟩ := idx_facts t
  match a with
  | ⟨0, _⟩ => show win1_28.index t (0 : Fin 2) * 1024 + 1 * r.val = 1024 * t.val + r.val; omega
  | ⟨1, _⟩ => show win1_28.index t (1 : Fin 2) * 4 + 1 * q.val = q.val; omega

/-- What point `t` writes back is block `t` of that array: the body's output at `(r, q)` is the specification's
    function of row `r` of the row block, the parameter blocks are the parameters, and row `r` of the row block is
    row `1024 t + r` of the rows. -/
theorem flushed28_eq (t : Fin cfg1.N) :
    (dat1 (V9 m ρ) c).flushed 28 t = ((cfg1.win 28).blk t).view.read (Elt Ideal) (boxesArr m ρ c) := by
  show (cfg1.win 28).cut (grid1.coords t) ((dat1 (V9 m ρ) c).after 28 t) = _
  rw [after1_28]
  refine funext fun (y : S1024x4.Idx) => ?_
  obtain ⟨r, q, rfl⟩ : ∃ (r : Fin 1024) (q : Fin 4), y = ix2 r q := ⟨y 0, y 1, eq_ix2 y⟩
  show out1_28 (F := Ideal) (pb0 m ρ c t) (KHost.pb1 m ρ c t) (KHost.pb2 m ρ c t) (KHost.pb3 m ρ c t) (KHost.pb4 m ρ c t) (KHost.pb5 m ρ c t) (KHost.pb6 m ρ c t) (KHost.pb7 m ρ c t) (KHost.pb8 m ρ c t) (KHost.pb9 m ρ c t) (KHost.pb10 m ρ c t) (KHost.pb11 m ρ c t) (KHost.pb12 m ρ c t) (KHost.pb13 m ρ c t) (KHost.pb14 m ρ c t) (KHost.pb15 m ρ c t) (KHost.pb16 m ρ c t) (KHost.pb17 m ρ c t) (KHost.pb18 m ρ c t) (KHost.pb19 m ρ c t) (KHost.pb20 m ρ c t) (KHost.pb21 m ρ c t) (KHost.pb22 m ρ c t) (KHost.pb23 m ρ c t) (KHost.pb24 m ρ c t) (KHost.pb25 m ρ c t) (KHost.pb26 m ρ c t) (ix2 r q)
      = boxesArr m ρ c (((cfg1.win 28).blk t).view.emb (ix2 r q))
  rw [emb28 t r q]
  refine (KPay.out1_28_apply (pb0 m ρ c t) (KHost.pb1 m ρ c t) (KHost.pb2 m ρ c t) (KHost.pb3 m ρ c t) (KHost.pb4 m ρ c t) (KHost.pb5 m ρ c t) (KHost.pb6 m ρ c t) (KHost.pb7 m ρ c t) (KHost.pb8 m ρ c t) (KHost.pb9 m ρ c t) (KHost.pb10 m ρ c t) (KHost.pb11 m ρ c t) (KHost.pb12 m ρ c t) (KHost.pb13 m ρ c t) (KHost.pb14 m ρ c t) (KHost.pb15 m ρ c t) (KHost.pb16 m ρ c t) (KHost.pb17 m ρ c t) (KHost.pb18 m ρ c t) (KHost.pb19 m ρ c t) (KHost.pb20 m ρ c t) (KHost.pb21 m ρ c t) (KHost.pb22 m ρ c t) (KHost.pb23 m ρ c t) (KHost.pb24 m ρ c t) (KHost.pb25 m ρ c t) (KHost.pb26 m ρ c t) r q).trans ?_
  rw [KHost.rbp0_blocks m ρ c t, KHost.rbp1_blocks m ρ c t, KHost.head_blocks m ρ c t, KHost.ag_block m ρ c t,
    KHost.agT_block m ρ c t, pb0_row m ρ c t r]
  rfl

/-- An index of the array is in point `t`'s block iff each coordinate is in the block's range on its axis. -/
theorem mem_blk28 (t : Fin cfg1.N) (i : S65536x4.Idx) :
    i ∈ ((cfg1.win 28).blk t).view.set ↔ ∀ a : Fin 2, win1_28.index t a * S1024x4.size a ≤ (i a).val
      ∧ (i a).val < win1_28.index t a * S1024x4.size a + S1024x4.size a := by
  show i ∈ ((View.whole main_v82_1).slice (win1_28.rect t)).set ↔ _
  rw [View.set_slice_whole, Rect.mem_set_unit]
  exact Iff.rfl

/-- Row `R` of the array is in the block of point `R / 1024`. -/
theorem cover28 (i : S65536x4.Idx) :
    ∃ t : Fin cfg1.N, (cfg1.win 28).flush t = true ∧ i ∈ ((cfg1.win 28).blk t).view.set := by
  have hi0 : (i 0).val < 65536 := (i 0).isLt
  have hi1 : (i 1).val < 4 := (i 1).isLt
  obtain ⟨t, ht⟩ : ∃ t : Fin cfg1.N, t.val = (i 0).val / 1024 := ⟨⟨(i 0).val / 1024, by show _ < 64; omega⟩, rfl⟩
  refine ⟨t, flush1_28 t, ?_⟩
  rw [mem_blk28]
  obtain ⟨-, -, -, -, e0, e1⟩ := idx_facts t
  intro a
  match a with
  | ⟨0, _⟩ =>
    show win1_28.index t (0 : Fin 2) * 1024 ≤ (i 0).val ∧ (i 0).val < win1_28.index t (0 : Fin 2) * 1024 + 1024
    omega
  | ⟨1, _⟩ =>
    show win1_28.index t (1 : Fin 2) * 4 ≤ (i 1).val ∧ (i 1).val < win1_28.index t (1 : Fin 2) * 4 + 4
    omega

/-! ## The two arrays after the last point -/

theorem region1_logits : ((dat1 (V9 m ρ) c).arrAt 27 cfg1.N : S65536x2.Idx → EReal)
    = fun i => Spec.logits (Cert.KernelIdeal.KValue.headK m c) (trunkRow m ρ c (i 0)) (i 1) :=
  (dat1 (V9 m ρ) c).arrAt_eq_of_cover 27 (logitsArr m ρ c) (fun t _ => flushed27_eq m ρ c t) cover27

theorem region1_boxes : ((dat1 (V9 m ρ) c).arrAt 28 cfg1.N : S65536x4.Idx → EReal)
    = fun i => Spec.boxes (Cert.KernelIdeal.KValue.headK m c) (trunkRow m ρ c (i 0)) (i 1) :=
  (dat1 (V9 m ρ) c).arrAt_eq_of_cover 28 (boxesArr m ρ c) (fun t _ => flushed28_eq m ρ c t) cover28

end Cert.KernelIdeal.KRegion1

end
-- ==== Proof.KValue.lean ====
/-
  The kernel program's two results as functions of its arguments.

  Grid point `b` of the first kernel writes block `b` of the gathered array: candidate `j`'s row is the image's
  channels at the cell its point names (the one-hot product picks that column; the low half of the split is zero).
  Reshaped to 65536 rows, grid point `t` of the second kernel takes rows `1024 t … 1024 t + 1023` through the two
  residual blocks and the heads, row by row. Every output block is written once and the blocks tile their arrays.

  The chain: a result at `(b, j, q)` is the second region's output array at row `R = 2048 b + j`, which is the head of
  the trunk of row `R` of the region's first input; that row is the first region's output at
  `(R / 2048, R % 2048, ·) = (b, j, ·)`, the gathered row of candidate `j` of batch `b`.
-/
import proofs.«405869_j26843545600773_3_alg».proof.Proof.KValueDefs
import proofs.«405869_j26843545600773_3_alg».proof.Proof.KernelIdealFrameP
import proofs.«405869_j26843545600773_3_alg».proof.Proof.Params
import proofs.«405869_j26843545600773_3_alg».proof.Proof.SpecMath
import proofs.«405869_j26843545600773_3_alg».proof.Proof.KHostIdx
import proofs.«405869_j26843545600773_3_alg».proof.Proof.KRegion0
import proofs.«405869_j26843545600773_3_alg».proof.Proof.KRegion1

noncomputable section

namespace Cert.KernelIdeal.KValue

open Cert.KernelIdeal Cert.KernelIdeal.Gen Cert.KernelIdeal.GenP Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-- The first region's output array after its 32 grid points holds the gathered rows: its image window is the image
    with the spatial axes flattened, and its index window the flat cell indices of the points. -/
theorem gathered
    (hpts : ∀ i, 0 ≤ ((m ((c : Thread nD τ).loc main_arg1)) i).toInt ∧ ((m ((c : Thread nD τ).loc main_arg1)) i).toInt < 256)
    (himg : ∀ i, ∃ r : ℝ, (m ((c : Thread nD τ).loc main_arg0)) i = (r : EReal)) :
    ((dat0 (V5 m ρ) c).arrAt 2 cfg0.N : S32x2048x256.Idx → EReal)
      = fun i => Spec.xrow (m ((c : Thread nD τ).loc main_arg0)) (m ((c : Thread nD τ).loc main_arg1)) (i 0) (i 1) (i 2) :=
  KRegion0.gathered_of m ρ c (KHostIdx.V5_img m ρ c) (KHostIdx.V5_lin m ρ c hpts) himg

/-- Row `2048 b + j` of the second region's first input is the gathered row of candidate `j` of batch `b`, so its
    trunk is `trunkK b j`. -/
theorem trunkRow_eq
    (hpts : ∀ i, 0 ≤ ((m ((c : Thread nD τ).loc main_arg1)) i).toInt ∧ ((m ((c : Thread nD τ).loc main_arg1)) i).toInt < 256)
    (himg : ∀ i, ∃ r : ℝ, (m ((c : Thread nD τ).loc main_arg0)) i = (r : EReal))
    (b : Fin 32) (j : Fin 2048) (h : b.val * 2048 + j.val < 65536) :
    KRegion1.trunkRow m ρ c ⟨b.val * 2048 + j.val, h⟩ = trunkK m c b j := by
  have hj : j.val < 2048 := j.isLt
  have hrow : (fun k : Fin 256 => KRegion1.rows m ρ c (ix2 (⟨b.val * 2048 + j.val, h⟩ : Fin 65536) k))
      = Spec.xrow (m ((c : Thread nD τ).loc main_arg0)) (m ((c : Thread nD τ).loc main_arg1)) b j := by
    funext k
    show (V9 m ρ c (Pipeline.arrRef spec1 0) : S65536x256.Idx → EReal) (ix2 (⟨b.val * 2048 + j.val, h⟩ : Fin 65536) k) = _
    rw [KHostIdx.V9_rows, gathered m ρ c hpts himg]
    show Spec.xrow _ _ (⟨(b.val * 2048 + j.val) / 2048, _⟩ : Fin 32) (⟨(b.val * 2048 + j.val) % 2048, _⟩ : Fin 2048) k = _
    have e0 : (b.val * 2048 + j.val) / 2048 = b.val := by omega
    have e1 : (b.val * 2048 + j.val) % 2048 = j.val := by omega
    simp only [e0, e1]
  unfold KRegion1.trunkRow trunkK
  rw [hrow]

theorem kernel_logits
    (hpts : ∀ i, 0 ≤ ((m ((c : Thread nD τ).loc main_arg1)) i).toInt ∧ ((m ((c : Thread nD τ).loc main_arg1)) i).toInt < 256)
    (himg : ∀ i, ∃ r : ℝ, (m ((c : Thread nD τ).loc main_arg0)) i = (r : EReal)) :
    (W11 m ρ c (Proc.devRef .tc main_v83) : S32x2048x2.Idx → EReal)
      = fun i => Spec.logits (headK m c) (trunkK m c (i 0) (i 1)) (i 2) := by
  rw [KHostIdx.W11_logits, KRegion1.region1_logits]
  funext i
  show Spec.logits (headK m c) (KRegion1.trunkRow m ρ c ⟨(i 0).val * 2048 + (i 1).val, _⟩) (i 2) = _
  rw [trunkRow_eq m ρ c hpts himg (i 0) (i 1)]

theorem kernel_boxes
    (hpts : ∀ i, 0 ≤ ((m ((c : Thread nD τ).loc main_arg1)) i).toInt ∧ ((m ((c : Thread nD τ).loc main_arg1)) i).toInt < 256)
    (himg : ∀ i, ∃ r : ℝ, (m ((c : Thread nD τ).loc main_arg0)) i = (r : EReal)) :
    (W11 m ρ c (Proc.devRef .tc main_v84) : S32x2048x4.Idx → EReal)
      = fun i => Spec.boxes (headK m c) (trunkK m c (i 0) (i 1)) (i 2) := by
  rw [KHostIdx.W11_boxes, KRegion1.region1_boxes]
  funext i
  show Spec.boxes (headK m c) (KRegion1.trunkRow m ρ c ⟨(i 0).val * 2048 + (i 1).val, _⟩) (i 2) = _
  rw [trunkRow_eq m ρ c hpts himg (i 0) (i 1)]

end Cert.KernelIdeal.KValue

end
-- ==== Proof.RefOps0.lean ====
/- A TABLE laid out by that script from proof/ReferenceIdeal.lean: the operations of @main's window
   main_part0, in order, each statement as printed there and each call of a module-local function replaced
   by the function's statements over the call's arguments and buffer record (a nested call likewise);
   cut at statements of @main into 3 consecutive lists. The trailing comment names the buffer written. -/
import proofs.«405869_j26843545600773_3_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- Window 0, statements 1 … 14 of its 60: 52 operations, the last writing main_v11. -/
abbrev ops0 : List (HloOp τ sig (Elt F)) :=
  [ StableHlo.reshape main_arg1 main_v0 rfl shapeCasts_S32x2048x1x2_S32x2048x2, -- main_v0
    StableHlo.nullary main_c (constantI S_ 32 8#32), -- main_c
    StableHlo.TRef.unary (.of main_c) main_call0.v0 id, -- main_call0_v0
    StableHlo.TRef.unary main_call0.v0 main_call0.v1 (broadcastInDim S32x2048x2 ![] bcast_S_S32x2048x2), -- main_call0_v1
    StableHlo.TRef.binary (.of main_v0) main_call0.v1 main_call0.v2 Host.divsi, -- main_call0_v2
    StableHlo.TRef.unary (.of main_v0) main_call0.v3 signi, -- main_call0_v3
    StableHlo.TRef.unary main_call0.v0 main_call0.v4 signi, -- main_call0_v4
    StableHlo.TRef.unary main_call0.v4 main_call0.v5 (broadcastInDim S32x2048x2 ![] bcast_S_S32x2048x2), -- main_call0_v5
    StableHlo.TRef.binary main_call0.v3 main_call0.v5 main_call0.v6 (cmpi .ne), -- main_call0_v6
    StableHlo.TRef.unary main_call0.v0 main_call0.v7 (broadcastInDim S32x2048x2 ![] bcast_S_S32x2048x2), -- main_call0_v7
    StableHlo.TRef.binary (.of main_v0) main_call0.v7 main_call0.v8 Host.remsi, -- main_call0_v8
    StableHlo.TRef.nullary main_call0.c (constantI S_ 32 0#32), -- main_call0_c
    StableHlo.TRef.unary main_call0.c main_call0.v9 (broadcastInDim S32x2048x2 ![] bcast_S_S32x2048x2), -- main_call0_v9
    StableHlo.TRef.binary main_call0.v8 main_call0.v9 main_call0.v10 (cmpi .ne), -- main_call0_v10
    StableHlo.TRef.binary main_call0.v6 main_call0.v10 main_call0.v11 andi, -- main_call0_v11
    StableHlo.TRef.nullary main_call0.c_0 (constantI S_ 32 1#32), -- main_call0_c_0
    StableHlo.TRef.unary main_call0.c_0 main_call0.v12 (broadcastInDim S32x2048x2 ![] bcast_S_S32x2048x2), -- main_call0_v12
    StableHlo.TRef.binary main_call0.v2 main_call0.v12 main_call0.v13 subi, -- main_call0_v13
    StableHlo.TRef.ternary main_call0.v11 main_call0.v13 main_call0.v2 main_call0.call0.v0 select, -- main_v1
    StableHlo.unary main_v1 main_v2 ((extractStridedSlice S32x2048x1 ![0, 0, 0] · slices_S32x2048x2_S32x2048x1_0_0_0) : (⟨S32x2048x2, .i32⟩ : BufTy).Contents (Elt F) → (⟨S32x2048x1, .i32⟩ : BufTy).Contents (Elt F)), -- main_v2
    StableHlo.reshape main_v2 main_v3 rfl shapeCasts_S32x2048x1_S32x2048, -- main_v3
    StableHlo.nullary main_c_0 (constantI S_ 32 32#32), -- main_c_0
    StableHlo.unary main_c_0 main_v4 (broadcastInDim S32x2048 ![] bcast_S_S32x2048 : (⟨S_, .i32⟩ : BufTy).Contents (Elt F) → (⟨S32x2048, .i32⟩ : BufTy).Contents (Elt F)), -- main_v4
    StableHlo.binary main_v3 main_v4 main_v5 (muli : (⟨S32x2048, .i32⟩ : BufTy).Contents (Elt F) → (⟨S32x2048, .i32⟩ : BufTy).Contents (Elt F) → (⟨S32x2048, .i32⟩ : BufTy).Contents (Elt F)), -- main_v5
    StableHlo.unary main_v1 main_v6 ((extractStridedSlice S32x2048x1 ![0, 0, 1] · slices_S32x2048x2_S32x2048x1_0_0_1) : (⟨S32x2048x2, .i32⟩ : BufTy).Contents (Elt F) → (⟨S32x2048x1, .i32⟩ : BufTy).Contents (Elt F)), -- main_v6
    StableHlo.reshape main_v6 main_v7 rfl shapeCasts_S32x2048x1_S32x2048, -- main_v7
    StableHlo.binary main_v5 main_v7 main_v8 (addi : (⟨S32x2048, .i32⟩ : BufTy).Contents (Elt F) → (⟨S32x2048, .i32⟩ : BufTy).Contents (Elt F) → (⟨S32x2048, .i32⟩ : BufTy).Contents (Elt F)), -- main_v8
    StableHlo.reshape main_arg0 main_v9 rfl shapeCasts_S32x256x32x32_S32x256x1024, -- main_v9
    StableHlo.unary main_v8 main_v10 (broadcastInDim S32x1x2048 ![0, 2] bcast_S32x2048_S32x1x2048_0_2 : (⟨S32x2048, .i32⟩ : BufTy).Contents (Elt F) → (⟨S32x1x2048, .i32⟩ : BufTy).Contents (Elt F)), -- main_v10
    StableHlo.TRef.nullary main_call1.c (constantI S_ 32 0#32), -- main_call1_c
    StableHlo.TRef.unary main_call1.c main_call1.v0 (broadcastInDim S32x1x2048 ![] bcast_S_S32x1x2048), -- main_call1_v0
    StableHlo.TRef.binary (.of main_v10) main_call1.v0 main_call1.v1 (cmpi .slt), -- main_call1_v1
    StableHlo.TRef.nullary main_call1.c_0 (constantI S_ 32 1024#32), -- main_call1_c_0
    StableHlo.TRef.unary main_call1.c_0 main_call1.v2 (broadcastInDim S32x1x2048 ![] bcast_S_S32x1x2048), -- main_call1_v2
    StableHlo.TRef.binary (.of main_v10) main_call1.v2 main_call1.v3 addi, -- main_call1_v3
    StableHlo.TRef.ternary main_call1.v1 main_call1.v3 (.of main_v10) main_call1.v4 select, -- main_call1_v4
    StableHlo.TRef.reshape main_call1.v4 main_call1.v5 rfl shapeCasts_S32x1x2048_S32x2048x1, -- main_call1_v5
    StableHlo.TRef.nullary main_call1.c_1 (constantI S1 32 1023#32), -- main_call1_c_1
    StableHlo.TRef.nullary main_call1.c_2 (constantI S_ 32 0#32), -- main_call1_c_2
    StableHlo.TRef.unary main_call1.c_2 main_call1.v6 (broadcastInDim S32x2048x1 ![] bcast_S_S32x2048x1), -- main_call1_v6
    StableHlo.TRef.binary main_call1.v5 main_call1.v6 main_call1.v7 (cmpi .sge), -- main_call1_v7
    StableHlo.TRef.unary main_call1.c_1 main_call1.v8 (broadcastInDim S1x1x1 ![2] bcast_S1_S1x1x1_2), -- main_call1_v8
    StableHlo.TRef.unary main_call1.v8 main_call1.v9 (broadcastInDim S32x2048x1 ![0, 1, 2] bcast_S1x1x1_S32x2048x1_0_1_2), -- main_call1_v9
    StableHlo.TRef.binary main_call1.v5 main_call1.v9 main_call1.v10 (cmpi .sle), -- main_call1_v10
    StableHlo.TRef.binary main_call1.v7 main_call1.v10 main_call1.v11 andi, -- main_call1_v11
    StableHlo.TRef.nullary main_call1.c_3 (constantI S_ 1 1#1), -- main_call1_c_3
    StableHlo.TRef.binary main_call1.v11 main_call1.c_3 main_call1.v12 (fun x v => Host.reduce IntOp.andi x v reducesTo_S32x2048x1_S32x2048_d2 h_S_), -- main_call1_v12
    StableHlo.TRef.binary (.of main_v9) main_call1.v5 main_call1.v13 (fun x i => Host.gather gather_S32x256x1024_S32x2048x1_S32x256x2048_1_2_0_0_2_2_12561 x i), -- main_call1_v13
    StableHlo.TRef.unary main_call1.v12 main_call1.v14 (broadcastInDim S32x256x2048 ![0, 2] bcast_S32x2048_S32x256x2048_0_2), -- main_call1_v14
    StableHlo.TRef.nullary main_call1.cst (constant S_ .f32 0x7FC00000#32), -- main_call1_cst
    StableHlo.TRef.unary main_call1.cst main_call1.v15 (broadcastInDim S32x256x2048 ![] bcast_S_S32x256x2048), -- main_call1_v15
    StableHlo.TRef.ternary main_call1.v14 main_call1.v13 main_call1.v15 main_call1.v16 select ] -- main_v11

/-- Window 0, statements 15 … 41 of its 60: 49 operations, the last writing main_v35. -/
abbrev ops1 : List (HloOp τ sig (Elt F)) :=
  [ StableHlo.unary main_v11 main_v12 ((transpose S32x2048x256 [0, 2, 1] · transposes_S32x256x2048_S32x2048x256_0_2_1) : (⟨S32x256x2048, .f32⟩ : BufTy).Contents (Elt F) → (⟨S32x2048x256, .f32⟩ : BufTy).Contents (Elt F)), -- main_v12
    StableHlo.reshape main_v12 main_v13 rfl shapeCasts_S32x2048x256_S65536x256, -- main_v13
    StableHlo.unary main_arg2 main_v14 ((extractStridedSlice S1x256 ![0, 0] · slices_S2x256_S1x256_0_0) : (⟨S2x256, .f32⟩ : BufTy).Contents (Elt F) → (⟨S1x256, .f32⟩ : BufTy).Contents (Elt F)), -- main_v14
    StableHlo.reshape main_v14 main_v15 rfl shapeCasts_S1x256_S256, -- main_v15
    StableHlo.unary main_arg3 main_v16 ((extractStridedSlice S1x256 ![0, 0] · slices_S2x256_S1x256_0_0) : (⟨S2x256, .f32⟩ : BufTy).Contents (Elt F) → (⟨S1x256, .f32⟩ : BufTy).Contents (Elt F)), -- main_v16
    StableHlo.reshape main_v16 main_v17 rfl shapeCasts_S1x256_S256, -- main_v17
    StableHlo.unary main_arg4 main_v18 ((extractStridedSlice S1x256x256x3x3 ![0, 0, 0, 0, 0] · slices_S2x256x256x3x3_S1x256x256x3x3_0_0_0_0_0) : (⟨S2x256x256x3x3, .f32⟩ : BufTy).Contents (Elt F) → (⟨S1x256x256x3x3, .f32⟩ : BufTy).Contents (Elt F)), -- main_v18
    StableHlo.reshape main_v18 main_v19 rfl shapeCasts_S1x256x256x3x3_S256x256x3x3, -- main_v19
    StableHlo.unary main_arg5 main_v20 ((extractStridedSlice S1x256 ![0, 0] · slices_S2x256_S1x256_0_0) : (⟨S2x256, .f32⟩ : BufTy).Contents (Elt F) → (⟨S1x256, .f32⟩ : BufTy).Contents (Elt F)), -- main_v20
    StableHlo.reshape main_v20 main_v21 rfl shapeCasts_S1x256_S256, -- main_v21
    StableHlo.unary main_arg6 main_v22 ((extractStridedSlice S1x256 ![0, 0] · slices_S2x256_S1x256_0_0) : (⟨S2x256, .f32⟩ : BufTy).Contents (Elt F) → (⟨S1x256, .f32⟩ : BufTy).Contents (Elt F)), -- main_v22
    StableHlo.reshape main_v22 main_v23 rfl shapeCasts_S1x256_S256, -- main_v23
    StableHlo.unary main_arg7 main_v24 ((extractStridedSlice S1x256 ![0, 0] · slices_S2x256_S1x256_0_0) : (⟨S2x256, .f32⟩ : BufTy).Contents (Elt F) → (⟨S1x256, .f32⟩ : BufTy).Contents (Elt F)), -- main_v24
    StableHlo.reshape main_v24 main_v25 rfl shapeCasts_S1x256_S256, -- main_v25
    StableHlo.unary main_arg8 main_v26 ((extractStridedSlice S1x256x256x3x3 ![0, 0, 0, 0, 0] · slices_S2x256x256x3x3_S1x256x256x3x3_0_0_0_0_0) : (⟨S2x256x256x3x3, .f32⟩ : BufTy).Contents (Elt F) → (⟨S1x256x256x3x3, .f32⟩ : BufTy).Contents (Elt F)), -- main_v26
    StableHlo.reshape main_v26 main_v27 rfl shapeCasts_S1x256x256x3x3_S256x256x3x3, -- main_v27
    StableHlo.unary main_arg9 main_v28 ((extractStridedSlice S1x256 ![0, 0] · slices_S2x256_S1x256_0_0) : (⟨S2x256, .f32⟩ : BufTy).Contents (Elt F) → (⟨S1x256, .f32⟩ : BufTy).Contents (Elt F)), -- main_v28
    StableHlo.reshape main_v28 main_v29 rfl shapeCasts_S1x256_S256, -- main_v29
    StableHlo.reshape main_v13 main_v30 rfl shapeCasts_S65536x256_S65536x32x8, -- main_v30
    StableHlo.nullary main_cst (constant S_ .f32 0x00000000#32), -- main_cst
    StableHlo.binary main_v30 main_cst main_v31 ((fun x v => Host.reduceAdd x v reducesTo_S65536x32x8_S65536x32_d2 h_S_) : (⟨S65536x32x8, .f32⟩ : BufTy).Contents (Elt F) → (⟨S_, .f32⟩ : BufTy).Contents (Elt F) → (⟨S65536x32, .f32⟩ : BufTy).Contents (Elt F)), -- main_v31
    StableHlo.unary main_v31 main_v32 (broadcastInDim S65536x32x1 ![0, 1] bcast_S65536x32_S65536x32x1_0_1 : (⟨S65536x32, .f32⟩ : BufTy).Contents (Elt F) → (⟨S65536x32x1, .f32⟩ : BufTy).Contents (Elt F)), -- main_v32
    StableHlo.nullary main_cst_1 (constant S_ .f32 0x41000000#32), -- main_cst_1
    StableHlo.unary main_cst_1 main_v33 (broadcastInDim S65536x32x1 ![] bcast_S_S65536x32x1 : (⟨S_, .f32⟩ : BufTy).Contents (Elt F) → (⟨S65536x32x1, .f32⟩ : BufTy).Contents (Elt F)), -- main_v33
    StableHlo.binary main_v32 main_v33 main_v34 (Host.divf : (⟨S65536x32x1, .f32⟩ : BufTy).Contents (Elt F) → (⟨S65536x32x1, .f32⟩ : BufTy).Contents (Elt F) → (⟨S65536x32x1, .f32⟩ : BufTy).Contents (Elt F)), -- main_v34
    StableHlo.nullary main_c_2 (constantI S_ 32 0#32), -- main_c_2
    StableHlo.TRef.nullary main_call2.cst (constant S_ .f32 0x00000000#32), -- main_call2_cst
    StableHlo.TRef.binary (.of main_v30) main_call2.cst main_call2.v0 (fun x v => Host.reduceAdd x v reducesTo_S65536x32x8_S65536x32_d2 h_S_), -- main_call2_v0
    StableHlo.TRef.unary main_call2.v0 main_call2.v1 (broadcastInDim S65536x32x1 ![0, 1] bcast_S65536x32_S65536x32x1_0_1), -- main_call2_v1
    StableHlo.TRef.nullary main_call2.cst_0 (constant S_ .f32 0x41000000#32), -- main_call2_cst_0
    StableHlo.TRef.unary main_call2.cst_0 main_call2.v2 (broadcastInDim S65536x32x1 ![] bcast_S_S65536x32x1), -- main_call2_v2
    StableHlo.TRef.binary main_call2.v1 main_call2.v2 main_call2.v3 Host.divf, -- main_call2_v3
    StableHlo.TRef.unary main_call2.v3 main_call2.v4 (broadcastInDim S65536x32x8 ![0, 1, 2] bcast_S65536x32x1_S65536x32x8_0_1_2), -- main_call2_v4
    StableHlo.TRef.binary (.of main_v30) main_call2.v4 main_call2.v5 subf, -- main_call2_v5
    StableHlo.TRef.binary main_call2.v5 main_call2.v5 main_call2.v6 mulf, -- main_call2_v6
    StableHlo.TRef.unary (.of main_c_2) main_call2.v7 (sitofp .f32), -- main_call2_v7
    StableHlo.TRef.nullary main_call2.cst_1 (constant S_ .f32 0x41000000#32), -- main_call2_cst_1
    StableHlo.TRef.binary main_call2.cst_1 main_call2.v7 main_call2.v8 subf, -- main_call2_v8
    StableHlo.TRef.nullary main_call2.cst_2 (constant S_ .f32 0x00000000#32), -- main_call2_cst_2
    StableHlo.TRef.binary main_call2.v6 main_call2.cst_2 main_call2.v9 (fun x v => Host.reduceAdd x v reducesTo_S65536x32x8_S65536x32_d2 h_S_), -- main_call2_v9
    StableHlo.TRef.unary main_call2.v9 main_call2.v10 (broadcastInDim S65536x32x1 ![0, 1] bcast_S65536x32_S65536x32x1_0_1), -- main_call2_v10
    StableHlo.TRef.unary main_call2.v8 main_call2.v11 (broadcastInDim S65536x32x1 ![] bcast_S_S65536x32x1), -- main_call2_v11
    StableHlo.TRef.binary main_call2.v10 main_call2.v11 main_call2.v12 Host.divf, -- main_call2_v12
    StableHlo.TRef.nullary main_call2.cst_3 (constant S_ .f32 0x00000000#32), -- main_call2_cst_3
    StableHlo.TRef.binary main_call2.v8 main_call2.cst_3 main_call2.v13 (cmpf .ogt), -- main_call2_v13
    StableHlo.TRef.nullary main_call2.cst_4 (constant S_ .f32 0x7FC00000#32), -- main_call2_cst_4
    StableHlo.TRef.unary main_call2.cst_4 main_call2.call0.v0 id, -- main_call2_call0_v0
    StableHlo.TRef.unary main_call2.call0.v0 main_call2.call0.v1 (broadcastInDim S65536x32x1 ![] bcast_S_S65536x32x1), -- main_call2_call0_v1
    StableHlo.TRef.ternary main_call2.v13 main_call2.v12 main_call2.call0.v1 main_call2.call0.v2 (fun p a b => select (broadcastInDim S65536x32x1 ![] bcast_S_S65536x32x1 p) a b) ] -- main_v35

/-- Window 0, statements 42 … 60 of its 60: 27 operations, the last writing main_v53. -/
abbrev ops2 : List (HloOp τ sig (Elt F)) :=
  [ StableHlo.unary main_v34 main_v36 (broadcastInDim S65536x32x8 ![0, 1, 2] bcast_S65536x32x1_S65536x32x8_0_1_2 : (⟨S65536x32x1, .f32⟩ : BufTy).Contents (Elt F) → (⟨S65536x32x8, .f32⟩ : BufTy).Contents (Elt F)), -- main_v36
    StableHlo.binary main_v30 main_v36 main_v37 (subf : (⟨S65536x32x8, .f32⟩ : BufTy).Contents (Elt F) → (⟨S65536x32x8, .f32⟩ : BufTy).Contents (Elt F) → (⟨S65536x32x8, .f32⟩ : BufTy).Contents (Elt F)), -- main_v37
    StableHlo.nullary main_cst_3 (constant S_ .f32 0x3727C5AC#32), -- main_cst_3
    StableHlo.unary main_cst_3 main_v38 (broadcastInDim S65536x32x1 ![] bcast_S_S65536x32x1 : (⟨S_, .f32⟩ : BufTy).Contents (Elt F) → (⟨S65536x32x1, .f32⟩ : BufTy).Contents (Elt F)), -- main_v38
    StableHlo.binary main_v35 main_v38 main_v39 (addf : (⟨S65536x32x1, .f32⟩ : BufTy).Contents (Elt F) → (⟨S65536x32x1, .f32⟩ : BufTy).Contents (Elt F) → (⟨S65536x32x1, .f32⟩ : BufTy).Contents (Elt F)), -- main_v39
    StableHlo.unary main_v39 main_v40 (Host.rsqrt : (⟨S65536x32x1, .f32⟩ : BufTy).Contents (Elt F) → (⟨S65536x32x1, .f32⟩ : BufTy).Contents (Elt F)), -- main_v40
    StableHlo.unary main_v40 main_v41 (broadcastInDim S65536x32x8 ![0, 1, 2] bcast_S65536x32x1_S65536x32x8_0_1_2 : (⟨S65536x32x1, .f32⟩ : BufTy).Contents (Elt F) → (⟨S65536x32x8, .f32⟩ : BufTy).Contents (Elt F)), -- main_v41
    StableHlo.binary main_v37 main_v41 main_v42 (mulf : (⟨S65536x32x8, .f32⟩ : BufTy).Contents (Elt F) → (⟨S65536x32x8, .f32⟩ : BufTy).Contents (Elt F) → (⟨S65536x32x8, .f32⟩ : BufTy).Contents (Elt F)), -- main_v42
    StableHlo.reshape main_v42 main_v43 rfl shapeCasts_S65536x32x8_S65536x256, -- main_v43
    StableHlo.unary main_v15 main_v44 (broadcastInDim S1x256 ![1] bcast_S256_S1x256_1 : (⟨S256, .f32⟩ : BufTy).Contents (Elt F) → (⟨S1x256, .f32⟩ : BufTy).Contents (Elt F)), -- main_v44
    StableHlo.unary main_v44 main_v45 (broadcastInDim S65536x256 ![0, 1] bcast_S1x256_S65536x256_0_1 : (⟨S1x256, .f32⟩ : BufTy).Contents (Elt F) → (⟨S65536x256, .f32⟩ : BufTy).Contents (Elt F)), -- main_v45
    StableHlo.binary main_v43 main_v45 main_v46 (mulf : (⟨S65536x256, .f32⟩ : BufTy).Contents (Elt F) → (⟨S65536x256, .f32⟩ : BufTy).Contents (Elt F) → (⟨S65536x256, .f32⟩ : BufTy).Contents (Elt F)), -- main_v46
    StableHlo.unary main_v17 main_v47 (broadcastInDim S1x256 ![1] bcast_S256_S1x256_1 : (⟨S256, .f32⟩ : BufTy).Contents (Elt F) → (⟨S1x256, .f32⟩ : BufTy).Contents (Elt F)), -- main_v47
    StableHlo.unary main_v47 main_v48 (broadcastInDim S65536x256 ![0, 1] bcast_S1x256_S65536x256_0_1 : (⟨S1x256, .f32⟩ : BufTy).Contents (Elt F) → (⟨S65536x256, .f32⟩ : BufTy).Contents (Elt F)), -- main_v48
    StableHlo.binary main_v46 main_v48 main_v49 (addf : (⟨S65536x256, .f32⟩ : BufTy).Contents (Elt F) → (⟨S65536x256, .f32⟩ : BufTy).Contents (Elt F) → (⟨S65536x256, .f32⟩ : BufTy).Contents (Elt F)), -- main_v49
    StableHlo.TRef.unary (.of main_v49) main_call3.v0 Host.negf, -- main_call3_v0
    StableHlo.TRef.unary main_call3.v0 main_call3.v1 Host.exp, -- main_call3_v1
    StableHlo.TRef.nullary main_call3.cst (constant S_ .f32 0x3F800000#32), -- main_call3_cst
    StableHlo.TRef.unary main_call3.cst main_call3.v2 (broadcastInDim S65536x256 ![] bcast_S_S65536x256), -- main_call3_v2
    StableHlo.TRef.binary main_call3.v2 main_call3.v1 main_call3.v3 addf, -- main_call3_v3
    StableHlo.TRef.nullary main_call3.cst_0 (constant S_ .f32 0x3F800000#32), -- main_call3_cst_0
    StableHlo.TRef.unary main_call3.cst_0 main_call3.v4 (broadcastInDim S65536x256 ![] bcast_S_S65536x256), -- main_call3_v4
    StableHlo.TRef.binary main_call3.v4 main_call3.v3 main_call3.v5 Host.divf, -- main_call3_v5
    StableHlo.TRef.binary (.of main_v49) main_call3.v5 main_call3.v6 mulf, -- main_v50
    StableHlo.unary main_v19 main_v51 ((extractStridedSlice S256x256x1x1 ![0, 0, 1, 1] · slices_S256x256x3x3_S256x256x1x1_0_0_1_1) : (⟨S256x256x3x3, .f32⟩ : BufTy).Contents (Elt F) → (⟨S256x256x1x1, .f32⟩ : BufTy).Contents (Elt F)), -- main_v51
    StableHlo.reshape main_v51 main_v52 rfl shapeCasts_S256x256x1x1_S256x256, -- main_v52
    StableHlo.unary main_v52 main_v53 ((transpose S256x256 [1, 0] · transposes_S256x256_S256x256_1_0) : (⟨S256x256, .f32⟩ : BufTy).Contents (Elt F) → (⟨S256x256, .f32⟩ : BufTy).Contents (Elt F)) ] -- main_v53

end Cert.ReferenceIdeal.Run

end
-- ==== Proof.RefWin0.lean ====
/- The reference program's @main, window main_part0: it is the straight line `seq` of its operation lists
   (ops0, ops1, ops2: the window's statements with every call of a module-local function written out at the
   call), every operation touches TensorCore references only, and none leaves a result undetermined. -/
import proofs.«405869_j26843545600773_3_alg».proof.Proof.RefOps0

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- Each operation of `ops0` is one of the builders over TensorCore references, whose buffers are TensorCore
    references: the conjunction over the literal list, one builder fact per conjunct. -/
theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub, and_self]

/-- No operation of `ops0` allocates: each determines its results (membership in the literal list, case by case). -/
theorem ops0_fresh : ∀ op ∈ (ops0 : List (HloOp τ sig (Elt F))), op.fresh = ∅ := by
  intro _ h; (repeat (cases h with | head => rfl | tail _ h => ?_)); exact nomatch h

/-- Each operation of `ops1` is one of the builders over TensorCore references, whose buffers are TensorCore
    references: the conjunction over the literal list, one builder fact per conjunct. -/
theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub, and_self]

/-- No operation of `ops1` allocates: each determines its results (membership in the literal list, case by case). -/
theorem ops1_fresh : ∀ op ∈ (ops1 : List (HloOp τ sig (Elt F))), op.fresh = ∅ := by
  intro _ h; (repeat (cases h with | head => rfl | tail _ h => ?_)); exact nomatch h

/-- Each operation of `ops2` is one of the builders over TensorCore references, whose buffers are TensorCore
    references: the conjunction over the literal list, one builder fact per conjunct. -/
theorem ops2_sub : (ops2 : List (HloOp τ sig (Elt F))).Forall fun op => op.bufs ⊆ tcRefs τ sig := by
  simp only [List.Forall, nullary_bufs_sub, unary_bufs_sub, binary_bufs_sub, ternary_bufs_sub, reshape_bufs_sub, and_self]

/-- No operation of `ops2` allocates: each determines its results (membership in the literal list, case by case). -/
theorem ops2_fresh : ∀ op ∈ (ops2 : List (HloOp τ sig (Elt F))), op.fresh = ∅ := by
  intro _ h; (repeat (cases h with | head => rfl | tail _ h => ?_)); exact nomatch h

/-- The window is that line: a call unfolds to its callee's body at the call's arguments and record, sequencing
    reassociates, and both sides are the same chain of `hlo` steps — by computation. -/
theorem main_part0_eq (c : Dev nD) : main_part0 (F := F) c = seq (ops0 ++ ops1 ++ ops2) := rfl

end Cert.ReferenceIdeal.Run

end
-- ==== Proof.RefOps1.lean ====
/- A TABLE laid out by that script from proof/ReferenceIdeal.lean: the operations of @main's window
   main_part1, in order, each statement as printed there and each call of a module-local function replaced
   by the function's statements over the call's arguments and buffer record (a nested call likewise);
   cut at statements of @main into 2 consecutive lists. The trailing comment names the buffer written. -/
import proofs.«405869_j26843545600773_3_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- Window 1, statements 1 … 23 of its 60: 45 operations, the last writing main_v72. -/
abbrev ops3 : List (HloOp τ sig (Elt F)) :=
  [ StableHlo.binary main_v50 main_v53 main_v54 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)), -- main_v54
    StableHlo.unary main_v21 main_v55 (broadcastInDim S1x256 ![1] bcast_S256_S1x256_1 : (⟨S256, .f32⟩ : BufTy).Contents (Elt F) → (⟨S1x256, .f32⟩ : BufTy).Contents (Elt F)), -- main_v55
    StableHlo.unary main_v55 main_v56 (broadcastInDim S65536x256 ![0, 1] bcast_S1x256_S65536x256_0_1 : (⟨S1x256, .f32⟩ : BufTy).Contents (Elt F) → (⟨S65536x256, .f32⟩ : BufTy).Contents (Elt F)), -- main_v56
    StableHlo.binary main_v54 main_v56 main_v57 (addf : (⟨S65536x256, .f32⟩ : BufTy).Contents (Elt F) → (⟨S65536x256, .f32⟩ : BufTy).Contents (Elt F) → (⟨S65536x256, .f32⟩ : BufTy).Contents (Elt F)), -- main_v57
    StableHlo.reshape main_v57 main_v58 rfl shapeCasts_S65536x256_S65536x32x8, -- main_v58
    StableHlo.nullary main_cst_4 (constant S_ .f32 0x00000000#32), -- main_cst_4
    StableHlo.binary main_v58 main_cst_4 main_v59 ((fun x v => Host.reduceAdd x v reducesTo_S65536x32x8_S65536x32_d2 h_S_) : (⟨S65536x32x8, .f32⟩ : BufTy).Contents (Elt F) → (⟨S_, .f32⟩ : BufTy).Contents (Elt F) → (⟨S65536x32, .f32⟩ : BufTy).Contents (Elt F)), -- main_v59
    StableHlo.unary main_v59 main_v60 (broadcastInDim S65536x32x1 ![0, 1] bcast_S65536x32_S65536x32x1_0_1 : (⟨S65536x32, .f32⟩ : BufTy).Contents (Elt F) → (⟨S65536x32x1, .f32⟩ : BufTy).Contents (Elt F)), -- main_v60
    StableHlo.nullary main_cst_5 (constant S_ .f32 0x41000000#32), -- main_cst_5
    StableHlo.unary main_cst_5 main_v61 (broadcastInDim S65536x32x1 ![] bcast_S_S65536x32x1 : (⟨S_, .f32⟩ : BufTy).Contents (Elt F) → (⟨S65536x32x1, .f32⟩ : BufTy).Contents (Elt F)), -- main_v61
    StableHlo.binary main_v60 main_v61 main_v62 (Host.divf : (⟨S65536x32x1, .f32⟩ : BufTy).Contents (Elt F) → (⟨S65536x32x1, .f32⟩ : BufTy).Contents (Elt F) → (⟨S65536x32x1, .f32⟩ : BufTy).Contents (Elt F)), -- main_v62
    StableHlo.nullary main_c_6 (constantI S_ 32 0#32), -- main_c_6
    StableHlo.TRef.nullary main_call4.cst (constant S_ .f32 0x00000000#32), -- main_call4_cst
    StableHlo.TRef.binary (.of main_v58) main_call4.cst main_call4.v0 (fun x v => Host.reduceAdd x v reducesTo_S65536x32x8_S65536x32_d2 h_S_), -- main_call4_v0
    StableHlo.TRef.unary main_call4.v0 main_call4.v1 (broadcastInDim S65536x32x1 ![0, 1] bcast_S65536x32_S65536x32x1_0_1), -- main_call4_v1
    StableHlo.TRef.nullary main_call4.cst_0 (constant S_ .f32 0x41000000#32), -- main_call4_cst_0
    StableHlo.TRef.unary main_call4.cst_0 main_call4.v2 (broadcastInDim S65536x32x1 ![] bcast_S_S65536x32x1), -- main_call4_v2
    StableHlo.TRef.binary main_call4.v1 main_call4.v2 main_call4.v3 Host.divf, -- main_call4_v3
    StableHlo.TRef.unary main_call4.v3 main_call4.v4 (broadcastInDim S65536x32x8 ![0, 1, 2] bcast_S65536x32x1_S65536x32x8_0_1_2), -- main_call4_v4
    StableHlo.TRef.binary (.of main_v58) main_call4.v4 main_call4.v5 subf, -- main_call4_v5
    StableHlo.TRef.binary main_call4.v5 main_call4.v5 main_call4.v6 mulf, -- main_call4_v6
    StableHlo.TRef.unary (.of main_c_6) main_call4.v7 (sitofp .f32), -- main_call4_v7
    StableHlo.TRef.nullary main_call4.cst_1 (constant S_ .f32 0x41000000#32), -- main_call4_cst_1
    StableHlo.TRef.binary main_call4.cst_1 main_call4.v7 main_call4.v8 subf, -- main_call4_v8
    StableHlo.TRef.nullary main_call4.cst_2 (constant S_ .f32 0x00000000#32), -- main_call4_cst_2
    StableHlo.TRef.binary main_call4.v6 main_call4.cst_2 main_call4.v9 (fun x v => Host.reduceAdd x v reducesTo_S65536x32x8_S65536x32_d2 h_S_), -- main_call4_v9
    StableHlo.TRef.unary main_call4.v9 main_call4.v10 (broadcastInDim S65536x32x1 ![0, 1] bcast_S65536x32_S65536x32x1_0_1), -- main_call4_v10
    StableHlo.TRef.unary main_call4.v8 main_call4.v11 (broadcastInDim S65536x32x1 ![] bcast_S_S65536x32x1), -- main_call4_v11
    StableHlo.TRef.binary main_call4.v10 main_call4.v11 main_call4.v12 Host.divf, -- main_call4_v12
    StableHlo.TRef.nullary main_call4.cst_3 (constant S_ .f32 0x00000000#32), -- main_call4_cst_3
    StableHlo.TRef.binary main_call4.v8 main_call4.cst_3 main_call4.v13 (cmpf .ogt), -- main_call4_v13
    StableHlo.TRef.nullary main_call4.cst_4 (constant S_ .f32 0x7FC00000#32), -- main_call4_cst_4
    StableHlo.TRef.unary main_call4.cst_4 main_call4.call0.v0 id, -- main_call4_call0_v0
    StableHlo.TRef.unary main_call4.call0.v0 main_call4.call0.v1 (broadcastInDim S65536x32x1 ![] bcast_S_S65536x32x1), -- main_call4_call0_v1
    StableHlo.TRef.ternary main_call4.v13 main_call4.v12 main_call4.call0.v1 main_call4.call0.v2 (fun p a b => select (broadcastInDim S65536x32x1 ![] bcast_S_S65536x32x1 p) a b), -- main_v63
    StableHlo.unary main_v62 main_v64 (broadcastInDim S65536x32x8 ![0, 1, 2] bcast_S65536x32x1_S65536x32x8_0_1_2 : (⟨S65536x32x1, .f32⟩ : BufTy).Contents (Elt F) → (⟨S65536x32x8, .f32⟩ : BufTy).Contents (Elt F)), -- main_v64
    StableHlo.binary main_v58 main_v64 main_v65 (subf : (⟨S65536x32x8, .f32⟩ : BufTy).Contents (Elt F) → (⟨S65536x32x8, .f32⟩ : BufTy).Contents (Elt F) → (⟨S65536x32x8, .f32⟩ : BufTy).Contents (Elt F)), -- main_v65
    StableHlo.nullary main_cst_7 (constant S_ .f32 0x3727C5AC#32), -- main_cst_7
    StableHlo.unary main_cst_7 main_v66 (broadcastInDim S65536x32x1 ![] bcast_S_S65536x32x1 : (⟨S_, .f32⟩ : BufTy).Contents (Elt F) → (⟨S65536x32x1, .f32⟩ : BufTy).Contents (Elt F)), -- main_v66
    StableHlo.binary main_v63 main_v66 main_v67 (addf : (⟨S65536x32x1, .f32⟩ : BufTy).Contents (Elt F) → (⟨S65536x32x1, .f32⟩ : BufTy).Contents (Elt F) → (⟨S65536x32x1, .f32⟩ : BufTy).Contents (Elt F)), -- main_v67
    StableHlo.unary main_v67 main_v68 (Host.rsqrt : (⟨S65536x32x1, .f32⟩ : BufTy).Contents (Elt F) → (⟨S65536x32x1, .f32⟩ : BufTy).Contents (Elt F)), -- main_v68
    StableHlo.unary main_v68 main_v69 (broadcastInDim S65536x32x8 ![0, 1, 2] bcast_S65536x32x1_S65536x32x8_0_1_2 : (⟨S65536x32x1, .f32⟩ : BufTy).Contents (Elt F) → (⟨S65536x32x8, .f32⟩ : BufTy).Contents (Elt F)), -- main_v69
    StableHlo.binary main_v65 main_v69 main_v70 (mulf : (⟨S65536x32x8, .f32⟩ : BufTy).Contents (Elt F) → (⟨S65536x32x8, .f32⟩ : BufTy).Contents (Elt F) → (⟨S65536x32x8, .f32⟩ : BufTy).Contents (Elt F)), -- main_v70
    StableHlo.reshape main_v70 main_v71 rfl shapeCasts_S65536x32x8_S65536x256, -- main_v71
    StableHlo.unary main_v23 main_v72 (broadcastInDim S1x256 ![1] bcast_S256_S1x256_1 : (⟨S256, .f32⟩ : BufTy).Contents (Elt F) → (⟨S1x256, .f32⟩ : BufTy).Contents (Elt F)) ] -- main_v72

/-- Window 1, statements 24 … 60 of its 60: 45 operations, the last writing main_v107. -/
abbrev ops4 : List (HloOp τ sig (Elt F)) :=
  [ StableHlo.unary main_v72 main_v73 (broadcastInDim S65536x256 ![0, 1] bcast_S1x256_S65536x256_0_1 : (⟨S1x256, .f32⟩ : BufTy).Contents (Elt F) → (⟨S65536x256, .f32⟩ : BufTy).Contents (Elt F)), -- main_v73
    StableHlo.binary main_v71 main_v73 main_v74 (mulf : (⟨S65536x256, .f32⟩ : BufTy).Contents (Elt F) → (⟨S65536x256, .f32⟩ : BufTy).Contents (Elt F) → (⟨S65536x256, .f32⟩ : BufTy).Contents (Elt F)), -- main_v74
    StableHlo.unary main_v25 main_v75 (broadcastInDim S1x256 ![1] bcast_S256_S1x256_1 : (⟨S256, .f32⟩ : BufTy).Contents (Elt F) → (⟨S1x256, .f32⟩ : BufTy).Contents (Elt F)), -- main_v75
    StableHlo.unary main_v75 main_v76 (broadcastInDim S65536x256 ![0, 1] bcast_S1x256_S65536x256_0_1 : (⟨S1x256, .f32⟩ : BufTy).Contents (Elt F) → (⟨S65536x256, .f32⟩ : BufTy).Contents (Elt F)), -- main_v76
    StableHlo.binary main_v74 main_v76 main_v77 (addf : (⟨S65536x256, .f32⟩ : BufTy).Contents (Elt F) → (⟨S65536x256, .f32⟩ : BufTy).Contents (Elt F) → (⟨S65536x256, .f32⟩ : BufTy).Contents (Elt F)), -- main_v77
    StableHlo.TRef.unary (.of main_v77) main_call5.v0 Host.negf, -- main_call5_v0
    StableHlo.TRef.unary main_call5.v0 main_call5.v1 Host.exp, -- main_call5_v1
    StableHlo.TRef.nullary main_call5.cst (constant S_ .f32 0x3F800000#32), -- main_call5_cst
    StableHlo.TRef.unary main_call5.cst main_call5.v2 (broadcastInDim S65536x256 ![] bcast_S_S65536x256), -- main_call5_v2
    StableHlo.TRef.binary main_call5.v2 main_call5.v1 main_call5.v3 addf, -- main_call5_v3
    StableHlo.TRef.nullary main_call5.cst_0 (constant S_ .f32 0x3F800000#32), -- main_call5_cst_0
    StableHlo.TRef.unary main_call5.cst_0 main_call5.v4 (broadcastInDim S65536x256 ![] bcast_S_S65536x256), -- main_call5_v4
    StableHlo.TRef.binary main_call5.v4 main_call5.v3 main_call5.v5 Host.divf, -- main_call5_v5
    StableHlo.TRef.binary (.of main_v77) main_call5.v5 main_call5.v6 mulf, -- main_v78
    StableHlo.unary main_v27 main_v79 ((extractStridedSlice S256x256x1x1 ![0, 0, 1, 1] · slices_S256x256x3x3_S256x256x1x1_0_0_1_1) : (⟨S256x256x3x3, .f32⟩ : BufTy).Contents (Elt F) → (⟨S256x256x1x1, .f32⟩ : BufTy).Contents (Elt F)), -- main_v79
    StableHlo.reshape main_v79 main_v80 rfl shapeCasts_S256x256x1x1_S256x256, -- main_v80
    StableHlo.unary main_v80 main_v81 ((transpose S256x256 [1, 0] · transposes_S256x256_S256x256_1_0) : (⟨S256x256, .f32⟩ : BufTy).Contents (Elt F) → (⟨S256x256, .f32⟩ : BufTy).Contents (Elt F)), -- main_v81
    StableHlo.binary main_v78 main_v81 main_v82 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)), -- main_v82
    StableHlo.unary main_v29 main_v83 (broadcastInDim S1x256 ![1] bcast_S256_S1x256_1 : (⟨S256, .f32⟩ : BufTy).Contents (Elt F) → (⟨S1x256, .f32⟩ : BufTy).Contents (Elt F)), -- main_v83
    StableHlo.unary main_v83 main_v84 (broadcastInDim S65536x256 ![0, 1] bcast_S1x256_S65536x256_0_1 : (⟨S1x256, .f32⟩ : BufTy).Contents (Elt F) → (⟨S65536x256, .f32⟩ : BufTy).Contents (Elt F)), -- main_v84
    StableHlo.binary main_v82 main_v84 main_v85 (addf : (⟨S65536x256, .f32⟩ : BufTy).Contents (Elt F) → (⟨S65536x256, .f32⟩ : BufTy).Contents (Elt F) → (⟨S65536x256, .f32⟩ : BufTy).Contents (Elt F)), -- main_v85
    StableHlo.binary main_v85 main_v13 main_v86 (addf : (⟨S65536x256, .f32⟩ : BufTy).Contents (Elt F) → (⟨S65536x256, .f32⟩ : BufTy).Contents (Elt F) → (⟨S65536x256, .f32⟩ : BufTy).Contents (Elt F)), -- main_v86
    StableHlo.unary main_arg2 main_v87 ((extractStridedSlice S1x256 ![1, 0] · slices_S2x256_S1x256_1_0) : (⟨S2x256, .f32⟩ : BufTy).Contents (Elt F) → (⟨S1x256, .f32⟩ : BufTy).Contents (Elt F)), -- main_v87
    StableHlo.reshape main_v87 main_v88 rfl shapeCasts_S1x256_S256, -- main_v88
    StableHlo.unary main_arg3 main_v89 ((extractStridedSlice S1x256 ![1, 0] · slices_S2x256_S1x256_1_0) : (⟨S2x256, .f32⟩ : BufTy).Contents (Elt F) → (⟨S1x256, .f32⟩ : BufTy).Contents (Elt F)), -- main_v89
    StableHlo.reshape main_v89 main_v90 rfl shapeCasts_S1x256_S256, -- main_v90
    StableHlo.unary main_arg4 main_v91 ((extractStridedSlice S1x256x256x3x3 ![1, 0, 0, 0, 0] · slices_S2x256x256x3x3_S1x256x256x3x3_1_0_0_0_0) : (⟨S2x256x256x3x3, .f32⟩ : BufTy).Contents (Elt F) → (⟨S1x256x256x3x3, .f32⟩ : BufTy).Contents (Elt F)), -- main_v91
    StableHlo.reshape main_v91 main_v92 rfl shapeCasts_S1x256x256x3x3_S256x256x3x3, -- main_v92
    StableHlo.unary main_arg5 main_v93 ((extractStridedSlice S1x256 ![1, 0] · slices_S2x256_S1x256_1_0) : (⟨S2x256, .f32⟩ : BufTy).Contents (Elt F) → (⟨S1x256, .f32⟩ : BufTy).Contents (Elt F)), -- main_v93
    StableHlo.reshape main_v93 main_v94 rfl shapeCasts_S1x256_S256, -- main_v94
    StableHlo.unary main_arg6 main_v95 ((extractStridedSlice S1x256 ![1, 0] · slices_S2x256_S1x256_1_0) : (⟨S2x256, .f32⟩ : BufTy).Contents (Elt F) → (⟨S1x256, .f32⟩ : BufTy).Contents (Elt F)), -- main_v95
    StableHlo.reshape main_v95 main_v96 rfl shapeCasts_S1x256_S256, -- main_v96
    StableHlo.unary main_arg7 main_v97 ((extractStridedSlice S1x256 ![1, 0] · slices_S2x256_S1x256_1_0) : (⟨S2x256, .f32⟩ : BufTy).Contents (Elt F) → (⟨S1x256, .f32⟩ : BufTy).Contents (Elt F)), -- main_v97
    StableHlo.reshape main_v97 main_v98 rfl shapeCasts_S1x256_S256, -- main_v98
    StableHlo.unary main_arg8 main_v99 ((extractStridedSlice S1x256x256x3x3 ![1, 0, 0, 0, 0] · slices_S2x256x256x3x3_S1x256x256x3x3_1_0_0_0_0) : (⟨S2x256x256x3x3, .f32⟩ : BufTy).Contents (Elt F) → (⟨S1x256x256x3x3, .f32⟩ : BufTy).Contents (Elt F)), -- main_v99
    StableHlo.reshape main_v99 main_v100 rfl shapeCasts_S1x256x256x3x3_S256x256x3x3, -- main_v100
    StableHlo.unary main_arg9 main_v101 ((extractStridedSlice S1x256 ![1, 0] · slices_S2x256_S1x256_1_0) : (⟨S2x256, .f32⟩ : BufTy).Contents (Elt F) → (⟨S1x256, .f32⟩ : BufTy).Contents (Elt F)), -- main_v101
    StableHlo.reshape main_v101 main_v102 rfl shapeCasts_S1x256_S256, -- main_v102
    StableHlo.reshape main_v86 main_v103 rfl shapeCasts_S65536x256_S65536x32x8, -- main_v103
    StableHlo.nullary main_cst_8 (constant S_ .f32 0x00000000#32), -- main_cst_8
    StableHlo.binary main_v103 main_cst_8 main_v104 ((fun x v => Host.reduceAdd x v reducesTo_S65536x32x8_S65536x32_d2 h_S_) : (⟨S65536x32x8, .f32⟩ : BufTy).Contents (Elt F) → (⟨S_, .f32⟩ : BufTy).Contents (Elt F) → (⟨S65536x32, .f32⟩ : BufTy).Contents (Elt F)), -- main_v104
    StableHlo.unary main_v104 main_v105 (broadcastInDim S65536x32x1 ![0, 1] bcast_S65536x32_S65536x32x1_0_1 : (⟨S65536x32, .f32⟩ : BufTy).Contents (Elt F) → (⟨S65536x32x1, .f32⟩ : BufTy).Contents (Elt F)), -- main_v105
    StableHlo.nullary main_cst_9 (constant S_ .f32 0x41000000#32), -- main_cst_9
    StableHlo.unary main_cst_9 main_v106 (broadcastInDim S65536x32x1 ![] bcast_S_S65536x32x1 : (⟨S_, .f32⟩ : BufTy).Contents (Elt F) → (⟨S65536x32x1, .f32⟩ : BufTy).Contents (Elt F)), -- main_v106
    StableHlo.binary main_v105 main_v106 main_v107 (Host.divf : (⟨S65536x32x1, .f32⟩ : BufTy).Contents (Elt F) → (⟨S65536x32x1, .f32⟩ : BufTy).Contents (Elt F) → (⟨S65536x32x1, .f32⟩ : BufTy).Contents (Elt F)) ] -- main_v107

end Cert.ReferenceIdeal.Run

end
-- ==== Proof.RefWin1.lean ====
/- The reference program's @main, window main_part1: it is the straight line `seq` of its operation lists
   (ops3, ops4: the window's statements with every call of a module-local function written out at the
   call), every operation touches TensorCore references only, and none leaves a result undetermined. -/
import proofs.«405869_j26843545600773_3_alg».proof.Proof.RefOps1

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- Each operation of `ops3` is one of the builders over TensorCore references, whose buffers are TensorCore
    references: the conjunction over the literal list, one builder fact per conjunct. -/
theorem ops3_sub : (ops3 : List (HloOp τ sig (Elt F))).Forall fun op => op.bufs ⊆ tcRefs τ sig := by
  simp only [List.Forall, nullary_bufs_sub, unary_bufs_sub, binary_bufs_sub, ternary_bufs_sub, reshape_bufs_sub, and_self]

/-- No operation of `ops3` allocates: each determines its results (membership in the literal list, case by case). -/
theorem ops3_fresh : ∀ op ∈ (ops3 : List (HloOp τ sig (Elt F))), op.fresh = ∅ := by
  intro _ h; (repeat (cases h with | head => rfl | tail _ h => ?_)); exact nomatch h

/-- Each operation of `ops4` is one of the builders over TensorCore references, whose buffers are TensorCore
    references: the conjunction over the literal list, one builder fact per conjunct. -/
theorem ops4_sub : (ops4 : List (HloOp τ sig (Elt F))).Forall fun op => op.bufs ⊆ tcRefs τ sig := by
  simp only [List.Forall, nullary_bufs_sub, unary_bufs_sub, binary_bufs_sub, ternary_bufs_sub, reshape_bufs_sub, and_self]

/-- No operation of `ops4` allocates: each determines its results (membership in the literal list, case by case). -/
theorem ops4_fresh : ∀ op ∈ (ops4 : List (HloOp τ sig (Elt F))), op.fresh = ∅ := by
  intro _ h; (repeat (cases h with | head => rfl | tail _ h => ?_)); exact nomatch h

/-- The window is that line: a call unfolds to its callee's body at the call's arguments and record, sequencing
    reassociates, and both sides are the same chain of `hlo` steps — by computation. -/
theorem main_part1_eq (c : Dev nD) : main_part1 (F := F) c = seq (ops3 ++ ops4) := rfl

end Cert.ReferenceIdeal.Run

end
-- ==== Proof.RefOps2.lean ====
/- A TABLE laid out by that script from proof/ReferenceIdeal.lean: the operations of @main's window
   main_part2, in order, each statement as printed there and each call of a module-local function replaced
   by the function's statements over the call's arguments and buffer record (a nested call likewise);
   cut at statements of @main into 3 consecutive lists. The trailing comment names the buffer written. -/
import proofs.«405869_j26843545600773_3_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- Window 2, statements 1 … 18 of its 60: 48 operations, the last writing main_v123. -/
abbrev ops5 : List (HloOp τ sig (Elt F)) :=
  [ StableHlo.nullary main_c_10 (constantI S_ 32 0#32), -- main_c_10
    StableHlo.TRef.nullary main_call6.cst (constant S_ .f32 0x00000000#32), -- main_call6_cst
    StableHlo.TRef.binary (.of main_v103) main_call6.cst main_call6.v0 (fun x v => Host.reduceAdd x v reducesTo_S65536x32x8_S65536x32_d2 h_S_), -- main_call6_v0
    StableHlo.TRef.unary main_call6.v0 main_call6.v1 (broadcastInDim S65536x32x1 ![0, 1] bcast_S65536x32_S65536x32x1_0_1), -- main_call6_v1
    StableHlo.TRef.nullary main_call6.cst_0 (constant S_ .f32 0x41000000#32), -- main_call6_cst_0
    StableHlo.TRef.unary main_call6.cst_0 main_call6.v2 (broadcastInDim S65536x32x1 ![] bcast_S_S65536x32x1), -- main_call6_v2
    StableHlo.TRef.binary main_call6.v1 main_call6.v2 main_call6.v3 Host.divf, -- main_call6_v3
    StableHlo.TRef.unary main_call6.v3 main_call6.v4 (broadcastInDim S65536x32x8 ![0, 1, 2] bcast_S65536x32x1_S65536x32x8_0_1_2), -- main_call6_v4
    StableHlo.TRef.binary (.of main_v103) main_call6.v4 main_call6.v5 subf, -- main_call6_v5
    StableHlo.TRef.binary main_call6.v5 main_call6.v5 main_call6.v6 mulf, -- main_call6_v6
    StableHlo.TRef.unary (.of main_c_10) main_call6.v7 (sitofp .f32), -- main_call6_v7
    StableHlo.TRef.nullary main_call6.cst_1 (constant S_ .f32 0x41000000#32), -- main_call6_cst_1
    StableHlo.TRef.binary main_call6.cst_1 main_call6.v7 main_call6.v8 subf, -- main_call6_v8
    StableHlo.TRef.nullary main_call6.cst_2 (constant S_ .f32 0x00000000#32), -- main_call6_cst_2
    StableHlo.TRef.binary main_call6.v6 main_call6.cst_2 main_call6.v9 (fun x v => Host.reduceAdd x v reducesTo_S65536x32x8_S65536x32_d2 h_S_), -- main_call6_v9
    StableHlo.TRef.unary main_call6.v9 main_call6.v10 (broadcastInDim S65536x32x1 ![0, 1] bcast_S65536x32_S65536x32x1_0_1), -- main_call6_v10
    StableHlo.TRef.unary main_call6.v8 main_call6.v11 (broadcastInDim S65536x32x1 ![] bcast_S_S65536x32x1), -- main_call6_v11
    StableHlo.TRef.binary main_call6.v10 main_call6.v11 main_call6.v12 Host.divf, -- main_call6_v12
    StableHlo.TRef.nullary main_call6.cst_3 (constant S_ .f32 0x00000000#32), -- main_call6_cst_3
    StableHlo.TRef.binary main_call6.v8 main_call6.cst_3 main_call6.v13 (cmpf .ogt), -- main_call6_v13
    StableHlo.TRef.nullary main_call6.cst_4 (constant S_ .f32 0x7FC00000#32), -- main_call6_cst_4
    StableHlo.TRef.unary main_call6.cst_4 main_call6.call0.v0 id, -- main_call6_call0_v0
    StableHlo.TRef.unary main_call6.call0.v0 main_call6.call0.v1 (broadcastInDim S65536x32x1 ![] bcast_S_S65536x32x1), -- main_call6_call0_v1
    StableHlo.TRef.ternary main_call6.v13 main_call6.v12 main_call6.call0.v1 main_call6.call0.v2 (fun p a b => select (broadcastInDim S65536x32x1 ![] bcast_S_S65536x32x1 p) a b), -- main_v108
    StableHlo.unary main_v107 main_v109 (broadcastInDim S65536x32x8 ![0, 1, 2] bcast_S65536x32x1_S65536x32x8_0_1_2 : (⟨S65536x32x1, .f32⟩ : BufTy).Contents (Elt F) → (⟨S65536x32x8, .f32⟩ : BufTy).Contents (Elt F)), -- main_v109
    StableHlo.binary main_v103 main_v109 main_v110 (subf : (⟨S65536x32x8, .f32⟩ : BufTy).Contents (Elt F) → (⟨S65536x32x8, .f32⟩ : BufTy).Contents (Elt F) → (⟨S65536x32x8, .f32⟩ : BufTy).Contents (Elt F)), -- main_v110
    StableHlo.nullary main_cst_11 (constant S_ .f32 0x3727C5AC#32), -- main_cst_11
    StableHlo.unary main_cst_11 main_v111 (broadcastInDim S65536x32x1 ![] bcast_S_S65536x32x1 : (⟨S_, .f32⟩ : BufTy).Contents (Elt F) → (⟨S65536x32x1, .f32⟩ : BufTy).Contents (Elt F)), -- main_v111
    StableHlo.binary main_v108 main_v111 main_v112 (addf : (⟨S65536x32x1, .f32⟩ : BufTy).Contents (Elt F) → (⟨S65536x32x1, .f32⟩ : BufTy).Contents (Elt F) → (⟨S65536x32x1, .f32⟩ : BufTy).Contents (Elt F)), -- main_v112
    StableHlo.unary main_v112 main_v113 (Host.rsqrt : (⟨S65536x32x1, .f32⟩ : BufTy).Contents (Elt F) → (⟨S65536x32x1, .f32⟩ : BufTy).Contents (Elt F)), -- main_v113
    StableHlo.unary main_v113 main_v114 (broadcastInDim S65536x32x8 ![0, 1, 2] bcast_S65536x32x1_S65536x32x8_0_1_2 : (⟨S65536x32x1, .f32⟩ : BufTy).Contents (Elt F) → (⟨S65536x32x8, .f32⟩ : BufTy).Contents (Elt F)), -- main_v114
    StableHlo.binary main_v110 main_v114 main_v115 (mulf : (⟨S65536x32x8, .f32⟩ : BufTy).Contents (Elt F) → (⟨S65536x32x8, .f32⟩ : BufTy).Contents (Elt F) → (⟨S65536x32x8, .f32⟩ : BufTy).Contents (Elt F)), -- main_v115
    StableHlo.reshape main_v115 main_v116 rfl shapeCasts_S65536x32x8_S65536x256, -- main_v116
    StableHlo.unary main_v88 main_v117 (broadcastInDim S1x256 ![1] bcast_S256_S1x256_1 : (⟨S256, .f32⟩ : BufTy).Contents (Elt F) → (⟨S1x256, .f32⟩ : BufTy).Contents (Elt F)), -- main_v117
    StableHlo.unary main_v117 main_v118 (broadcastInDim S65536x256 ![0, 1] bcast_S1x256_S65536x256_0_1 : (⟨S1x256, .f32⟩ : BufTy).Contents (Elt F) → (⟨S65536x256, .f32⟩ : BufTy).Contents (Elt F)), -- main_v118
    StableHlo.binary main_v116 main_v118 main_v119 (mulf : (⟨S65536x256, .f32⟩ : BufTy).Contents (Elt F) → (⟨S65536x256, .f32⟩ : BufTy).Contents (Elt F) → (⟨S65536x256, .f32⟩ : BufTy).Contents (Elt F)), -- main_v119
    StableHlo.unary main_v90 main_v120 (broadcastInDim S1x256 ![1] bcast_S256_S1x256_1 : (⟨S256, .f32⟩ : BufTy).Contents (Elt F) → (⟨S1x256, .f32⟩ : BufTy).Contents (Elt F)), -- main_v120
    StableHlo.unary main_v120 main_v121 (broadcastInDim S65536x256 ![0, 1] bcast_S1x256_S65536x256_0_1 : (⟨S1x256, .f32⟩ : BufTy).Contents (Elt F) → (⟨S65536x256, .f32⟩ : BufTy).Contents (Elt F)), -- main_v121
    StableHlo.binary main_v119 main_v121 main_v122 (addf : (⟨S65536x256, .f32⟩ : BufTy).Contents (Elt F) → (⟨S65536x256, .f32⟩ : BufTy).Contents (Elt F) → (⟨S65536x256, .f32⟩ : BufTy).Contents (Elt F)), -- main_v122
    StableHlo.TRef.unary (.of main_v122) main_call7.v0 Host.negf, -- main_call7_v0
    StableHlo.TRef.unary main_call7.v0 main_call7.v1 Host.exp, -- main_call7_v1
    StableHlo.TRef.nullary main_call7.cst (constant S_ .f32 0x3F800000#32), -- main_call7_cst
    StableHlo.TRef.unary main_call7.cst main_call7.v2 (broadcastInDim S65536x256 ![] bcast_S_S65536x256), -- main_call7_v2
    StableHlo.TRef.binary main_call7.v2 main_call7.v1 main_call7.v3 addf, -- main_call7_v3
    StableHlo.TRef.nullary main_call7.cst_0 (constant S_ .f32 0x3F800000#32), -- main_call7_cst_0
    StableHlo.TRef.unary main_call7.cst_0 main_call7.v4 (broadcastInDim S65536x256 ![] bcast_S_S65536x256), -- main_call7_v4
    StableHlo.TRef.binary main_call7.v4 main_call7.v3 main_call7.v5 Host.divf, -- main_call7_v5
    StableHlo.TRef.binary (.of main_v122) main_call7.v5 main_call7.v6 mulf ] -- main_v123

/-- Window 2, statements 19 … 34 of its 60: 38 operations, the last writing main_v136. -/
abbrev ops6 : List (HloOp τ sig (Elt F)) :=
  [ StableHlo.unary main_v92 main_v124 ((extractStridedSlice S256x256x1x1 ![0, 0, 1, 1] · slices_S256x256x3x3_S256x256x1x1_0_0_1_1) : (⟨S256x256x3x3, .f32⟩ : BufTy).Contents (Elt F) → (⟨S256x256x1x1, .f32⟩ : BufTy).Contents (Elt F)), -- main_v124
    StableHlo.reshape main_v124 main_v125 rfl shapeCasts_S256x256x1x1_S256x256, -- main_v125
    StableHlo.unary main_v125 main_v126 ((transpose S256x256 [1, 0] · transposes_S256x256_S256x256_1_0) : (⟨S256x256, .f32⟩ : BufTy).Contents (Elt F) → (⟨S256x256, .f32⟩ : BufTy).Contents (Elt F)), -- main_v126
    StableHlo.binary main_v123 main_v126 main_v127 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)), -- main_v127
    StableHlo.unary main_v94 main_v128 (broadcastInDim S1x256 ![1] bcast_S256_S1x256_1 : (⟨S256, .f32⟩ : BufTy).Contents (Elt F) → (⟨S1x256, .f32⟩ : BufTy).Contents (Elt F)), -- main_v128
    StableHlo.unary main_v128 main_v129 (broadcastInDim S65536x256 ![0, 1] bcast_S1x256_S65536x256_0_1 : (⟨S1x256, .f32⟩ : BufTy).Contents (Elt F) → (⟨S65536x256, .f32⟩ : BufTy).Contents (Elt F)), -- main_v129
    StableHlo.binary main_v127 main_v129 main_v130 (addf : (⟨S65536x256, .f32⟩ : BufTy).Contents (Elt F) → (⟨S65536x256, .f32⟩ : BufTy).Contents (Elt F) → (⟨S65536x256, .f32⟩ : BufTy).Contents (Elt F)), -- main_v130
    StableHlo.reshape main_v130 main_v131 rfl shapeCasts_S65536x256_S65536x32x8, -- main_v131
    StableHlo.nullary main_cst_12 (constant S_ .f32 0x00000000#32), -- main_cst_12
    StableHlo.binary main_v131 main_cst_12 main_v132 ((fun x v => Host.reduceAdd x v reducesTo_S65536x32x8_S65536x32_d2 h_S_) : (⟨S65536x32x8, .f32⟩ : BufTy).Contents (Elt F) → (⟨S_, .f32⟩ : BufTy).Contents (Elt F) → (⟨S65536x32, .f32⟩ : BufTy).Contents (Elt F)), -- main_v132
    StableHlo.unary main_v132 main_v133 (broadcastInDim S65536x32x1 ![0, 1] bcast_S65536x32_S65536x32x1_0_1 : (⟨S65536x32, .f32⟩ : BufTy).Contents (Elt F) → (⟨S65536x32x1, .f32⟩ : BufTy).Contents (Elt F)), -- main_v133
    StableHlo.nullary main_cst_13 (constant S_ .f32 0x41000000#32), -- main_cst_13
    StableHlo.unary main_cst_13 main_v134 (broadcastInDim S65536x32x1 ![] bcast_S_S65536x32x1 : (⟨S_, .f32⟩ : BufTy).Contents (Elt F) → (⟨S65536x32x1, .f32⟩ : BufTy).Contents (Elt F)), -- main_v134
    StableHlo.binary main_v133 main_v134 main_v135 (Host.divf : (⟨S65536x32x1, .f32⟩ : BufTy).Contents (Elt F) → (⟨S65536x32x1, .f32⟩ : BufTy).Contents (Elt F) → (⟨S65536x32x1, .f32⟩ : BufTy).Contents (Elt F)), -- main_v135
    StableHlo.nullary main_c_14 (constantI S_ 32 0#32), -- main_c_14
    StableHlo.TRef.nullary main_call8.cst (constant S_ .f32 0x00000000#32), -- main_call8_cst
    StableHlo.TRef.binary (.of main_v131) main_call8.cst main_call8.v0 (fun x v => Host.reduceAdd x v reducesTo_S65536x32x8_S65536x32_d2 h_S_), -- main_call8_v0
    StableHlo.TRef.unary main_call8.v0 main_call8.v1 (broadcastInDim S65536x32x1 ![0, 1] bcast_S65536x32_S65536x32x1_0_1), -- main_call8_v1
    StableHlo.TRef.nullary main_call8.cst_0 (constant S_ .f32 0x41000000#32), -- main_call8_cst_0
    StableHlo.TRef.unary main_call8.cst_0 main_call8.v2 (broadcastInDim S65536x32x1 ![] bcast_S_S65536x32x1), -- main_call8_v2
    StableHlo.TRef.binary main_call8.v1 main_call8.v2 main_call8.v3 Host.divf, -- main_call8_v3
    StableHlo.TRef.unary main_call8.v3 main_call8.v4 (broadcastInDim S65536x32x8 ![0, 1, 2] bcast_S65536x32x1_S65536x32x8_0_1_2), -- main_call8_v4
    StableHlo.TRef.binary (.of main_v131) main_call8.v4 main_call8.v5 subf, -- main_call8_v5
    StableHlo.TRef.binary main_call8.v5 main_call8.v5 main_call8.v6 mulf, -- main_call8_v6
    StableHlo.TRef.unary (.of main_c_14) main_call8.v7 (sitofp .f32), -- main_call8_v7
    StableHlo.TRef.nullary main_call8.cst_1 (constant S_ .f32 0x41000000#32), -- main_call8_cst_1
    StableHlo.TRef.binary main_call8.cst_1 main_call8.v7 main_call8.v8 subf, -- main_call8_v8
    StableHlo.TRef.nullary main_call8.cst_2 (constant S_ .f32 0x00000000#32), -- main_call8_cst_2
    StableHlo.TRef.binary main_call8.v6 main_call8.cst_2 main_call8.v9 (fun x v => Host.reduceAdd x v reducesTo_S65536x32x8_S65536x32_d2 h_S_), -- main_call8_v9
    StableHlo.TRef.unary main_call8.v9 main_call8.v10 (broadcastInDim S65536x32x1 ![0, 1] bcast_S65536x32_S65536x32x1_0_1), -- main_call8_v10
    StableHlo.TRef.unary main_call8.v8 main_call8.v11 (broadcastInDim S65536x32x1 ![] bcast_S_S65536x32x1), -- main_call8_v11
    StableHlo.TRef.binary main_call8.v10 main_call8.v11 main_call8.v12 Host.divf, -- main_call8_v12
    StableHlo.TRef.nullary main_call8.cst_3 (constant S_ .f32 0x00000000#32), -- main_call8_cst_3
    StableHlo.TRef.binary main_call8.v8 main_call8.cst_3 main_call8.v13 (cmpf .ogt), -- main_call8_v13
    StableHlo.TRef.nullary main_call8.cst_4 (constant S_ .f32 0x7FC00000#32), -- main_call8_cst_4
    StableHlo.TRef.unary main_call8.cst_4 main_call8.call0.v0 id, -- main_call8_call0_v0
    StableHlo.TRef.unary main_call8.call0.v0 main_call8.call0.v1 (broadcastInDim S65536x32x1 ![] bcast_S_S65536x32x1), -- main_call8_call0_v1
    StableHlo.TRef.ternary main_call8.v13 main_call8.v12 main_call8.call0.v1 main_call8.call0.v2 (fun p a b => select (broadcastInDim S65536x32x1 ![] bcast_S_S65536x32x1 p) a b) ] -- main_v136

/-- Window 2, statements 35 … 60 of its 60: 34 operations, the last writing main_v161. -/
abbrev ops7 : List (HloOp τ sig (Elt F)) :=
  [ StableHlo.unary main_v135 main_v137 (broadcastInDim S65536x32x8 ![0, 1, 2] bcast_S65536x32x1_S65536x32x8_0_1_2 : (⟨S65536x32x1, .f32⟩ : BufTy).Contents (Elt F) → (⟨S65536x32x8, .f32⟩ : BufTy).Contents (Elt F)), -- main_v137
    StableHlo.binary main_v131 main_v137 main_v138 (subf : (⟨S65536x32x8, .f32⟩ : BufTy).Contents (Elt F) → (⟨S65536x32x8, .f32⟩ : BufTy).Contents (Elt F) → (⟨S65536x32x8, .f32⟩ : BufTy).Contents (Elt F)), -- main_v138
    StableHlo.nullary main_cst_15 (constant S_ .f32 0x3727C5AC#32), -- main_cst_15
    StableHlo.unary main_cst_15 main_v139 (broadcastInDim S65536x32x1 ![] bcast_S_S65536x32x1 : (⟨S_, .f32⟩ : BufTy).Contents (Elt F) → (⟨S65536x32x1, .f32⟩ : BufTy).Contents (Elt F)), -- main_v139
    StableHlo.binary main_v136 main_v139 main_v140 (addf : (⟨S65536x32x1, .f32⟩ : BufTy).Contents (Elt F) → (⟨S65536x32x1, .f32⟩ : BufTy).Contents (Elt F) → (⟨S65536x32x1, .f32⟩ : BufTy).Contents (Elt F)), -- main_v140
    StableHlo.unary main_v140 main_v141 (Host.rsqrt : (⟨S65536x32x1, .f32⟩ : BufTy).Contents (Elt F) → (⟨S65536x32x1, .f32⟩ : BufTy).Contents (Elt F)), -- main_v141
    StableHlo.unary main_v141 main_v142 (broadcastInDim S65536x32x8 ![0, 1, 2] bcast_S65536x32x1_S65536x32x8_0_1_2 : (⟨S65536x32x1, .f32⟩ : BufTy).Contents (Elt F) → (⟨S65536x32x8, .f32⟩ : BufTy).Contents (Elt F)), -- main_v142
    StableHlo.binary main_v138 main_v142 main_v143 (mulf : (⟨S65536x32x8, .f32⟩ : BufTy).Contents (Elt F) → (⟨S65536x32x8, .f32⟩ : BufTy).Contents (Elt F) → (⟨S65536x32x8, .f32⟩ : BufTy).Contents (Elt F)), -- main_v143
    StableHlo.reshape main_v143 main_v144 rfl shapeCasts_S65536x32x8_S65536x256, -- main_v144
    StableHlo.unary main_v96 main_v145 (broadcastInDim S1x256 ![1] bcast_S256_S1x256_1 : (⟨S256, .f32⟩ : BufTy).Contents (Elt F) → (⟨S1x256, .f32⟩ : BufTy).Contents (Elt F)), -- main_v145
    StableHlo.unary main_v145 main_v146 (broadcastInDim S65536x256 ![0, 1] bcast_S1x256_S65536x256_0_1 : (⟨S1x256, .f32⟩ : BufTy).Contents (Elt F) → (⟨S65536x256, .f32⟩ : BufTy).Contents (Elt F)), -- main_v146
    StableHlo.binary main_v144 main_v146 main_v147 (mulf : (⟨S65536x256, .f32⟩ : BufTy).Contents (Elt F) → (⟨S65536x256, .f32⟩ : BufTy).Contents (Elt F) → (⟨S65536x256, .f32⟩ : BufTy).Contents (Elt F)), -- main_v147
    StableHlo.unary main_v98 main_v148 (broadcastInDim S1x256 ![1] bcast_S256_S1x256_1 : (⟨S256, .f32⟩ : BufTy).Contents (Elt F) → (⟨S1x256, .f32⟩ : BufTy).Contents (Elt F)), -- main_v148
    StableHlo.unary main_v148 main_v149 (broadcastInDim S65536x256 ![0, 1] bcast_S1x256_S65536x256_0_1 : (⟨S1x256, .f32⟩ : BufTy).Contents (Elt F) → (⟨S65536x256, .f32⟩ : BufTy).Contents (Elt F)), -- main_v149
    StableHlo.binary main_v147 main_v149 main_v150 (addf : (⟨S65536x256, .f32⟩ : BufTy).Contents (Elt F) → (⟨S65536x256, .f32⟩ : BufTy).Contents (Elt F) → (⟨S65536x256, .f32⟩ : BufTy).Contents (Elt F)), -- main_v150
    StableHlo.TRef.unary (.of main_v150) main_call9.v0 Host.negf, -- main_call9_v0
    StableHlo.TRef.unary main_call9.v0 main_call9.v1 Host.exp, -- main_call9_v1
    StableHlo.TRef.nullary main_call9.cst (constant S_ .f32 0x3F800000#32), -- main_call9_cst
    StableHlo.TRef.unary main_call9.cst main_call9.v2 (broadcastInDim S65536x256 ![] bcast_S_S65536x256), -- main_call9_v2
    StableHlo.TRef.binary main_call9.v2 main_call9.v1 main_call9.v3 addf, -- main_call9_v3
    StableHlo.TRef.nullary main_call9.cst_0 (constant S_ .f32 0x3F800000#32), -- main_call9_cst_0
    StableHlo.TRef.unary main_call9.cst_0 main_call9.v4 (broadcastInDim S65536x256 ![] bcast_S_S65536x256), -- main_call9_v4
    StableHlo.TRef.binary main_call9.v4 main_call9.v3 main_call9.v5 Host.divf, -- main_call9_v5
    StableHlo.TRef.binary (.of main_v150) main_call9.v5 main_call9.v6 mulf, -- main_v151
    StableHlo.unary main_v100 main_v152 ((extractStridedSlice S256x256x1x1 ![0, 0, 1, 1] · slices_S256x256x3x3_S256x256x1x1_0_0_1_1) : (⟨S256x256x3x3, .f32⟩ : BufTy).Contents (Elt F) → (⟨S256x256x1x1, .f32⟩ : BufTy).Contents (Elt F)), -- main_v152
    StableHlo.reshape main_v152 main_v153 rfl shapeCasts_S256x256x1x1_S256x256, -- main_v153
    StableHlo.unary main_v153 main_v154 ((transpose S256x256 [1, 0] · transposes_S256x256_S256x256_1_0) : (⟨S256x256, .f32⟩ : BufTy).Contents (Elt F) → (⟨S256x256, .f32⟩ : BufTy).Contents (Elt F)), -- main_v154
    StableHlo.binary main_v151 main_v154 main_v155 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)), -- main_v155
    StableHlo.unary main_v102 main_v156 (broadcastInDim S1x256 ![1] bcast_S256_S1x256_1 : (⟨S256, .f32⟩ : BufTy).Contents (Elt F) → (⟨S1x256, .f32⟩ : BufTy).Contents (Elt F)), -- main_v156
    StableHlo.unary main_v156 main_v157 (broadcastInDim S65536x256 ![0, 1] bcast_S1x256_S65536x256_0_1 : (⟨S1x256, .f32⟩ : BufTy).Contents (Elt F) → (⟨S65536x256, .f32⟩ : BufTy).Contents (Elt F)), -- main_v157
    StableHlo.binary main_v155 main_v157 main_v158 (addf : (⟨S65536x256, .f32⟩ : BufTy).Contents (Elt F) → (⟨S65536x256, .f32⟩ : BufTy).Contents (Elt F) → (⟨S65536x256, .f32⟩ : BufTy).Contents (Elt F)), -- main_v158
    StableHlo.binary main_v158 main_v86 main_v159 (addf : (⟨S65536x256, .f32⟩ : BufTy).Contents (Elt F) → (⟨S65536x256, .f32⟩ : BufTy).Contents (Elt F) → (⟨S65536x256, .f32⟩ : BufTy).Contents (Elt F)), -- main_v159
    StableHlo.unary main_arg10 main_v160 ((transpose S256x2 [1, 0] · transposes_S2x256_S256x2_1_0) : (⟨S2x256, .f32⟩ : BufTy).Contents (Elt F) → (⟨S256x2, .f32⟩ : BufTy).Contents (Elt F)), -- main_v160
    StableHlo.binary main_v159 main_v160 main_v161 ((fun l r => Host.dotGeneral dot_S65536x256_S256x2_S65536x2_1_0_0_1_n_n none l r) : (⟨S65536x256, .f32⟩ : BufTy).Contents (Elt F) → (⟨S256x2, .f32⟩ : BufTy).Contents (Elt F) → (⟨S65536x2, .f32⟩ : BufTy).Contents (Elt F)) ] -- main_v161

end Cert.ReferenceIdeal.Run

end
-- ==== Proof.RefWin2.lean ====
/- The reference program's @main, window main_part2: it is the straight line `seq` of its operation lists
   (ops5, ops6, ops7: the window's statements with every call of a module-local function written out at the
   call), every operation touches TensorCore references only, and none leaves a result undetermined. -/
import proofs.«405869_j26843545600773_3_alg».proof.Proof.RefOps2

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- Each operation of `ops5` is one of the builders over TensorCore references, whose buffers are TensorCore
    references: the conjunction over the literal list, one builder fact per conjunct. -/
theorem ops5_sub : (ops5 : List (HloOp τ sig (Elt F))).Forall fun op => op.bufs ⊆ tcRefs τ sig := by
  simp only [List.Forall, nullary_bufs_sub, unary_bufs_sub, binary_bufs_sub, ternary_bufs_sub, reshape_bufs_sub, and_self]

/-- No operation of `ops5` allocates: each determines its results (membership in the literal list, case by case). -/
theorem ops5_fresh : ∀ op ∈ (ops5 : List (HloOp τ sig (Elt F))), op.fresh = ∅ := by
  intro _ h; (repeat (cases h with | head => rfl | tail _ h => ?_)); exact nomatch h

/-- Each operation of `ops6` is one of the builders over TensorCore references, whose buffers are TensorCore
    references: the conjunction over the literal list, one builder fact per conjunct. -/
theorem ops6_sub : (ops6 : List (HloOp τ sig (Elt F))).Forall fun op => op.bufs ⊆ tcRefs τ sig := by
  simp only [List.Forall, nullary_bufs_sub, unary_bufs_sub, binary_bufs_sub, ternary_bufs_sub, reshape_bufs_sub, and_self]

/-- No operation of `ops6` allocates: each determines its results (membership in the literal list, case by case). -/
theorem ops6_fresh : ∀ op ∈ (ops6 : List (HloOp τ sig (Elt F))), op.fresh = ∅ := by
  intro _ h; (repeat (cases h with | head => rfl | tail _ h => ?_)); exact nomatch h

/-- Each operation of `ops7` is one of the builders over TensorCore references, whose buffers are TensorCore
    references: the conjunction over the literal list, one builder fact per conjunct. -/
theorem ops7_sub : (ops7 : List (HloOp τ sig (Elt F))).Forall fun op => op.bufs ⊆ tcRefs τ sig := by
  simp only [List.Forall, nullary_bufs_sub, unary_bufs_sub, binary_bufs_sub, ternary_bufs_sub, reshape_bufs_sub, and_self]

/-- No operation of `ops7` allocates: each determines its results (membership in the literal list, case by case). -/
theorem ops7_fresh : ∀ op ∈ (ops7 : List (HloOp τ sig (Elt F))), op.fresh = ∅ := by
  intro _ h; (repeat (cases h with | head => rfl | tail _ h => ?_)); exact nomatch h

/-- The window is that line: a call unfolds to its callee's body at the call's arguments and record, sequencing
    reassociates, and both sides are the same chain of `hlo` steps — by computation. -/
theorem main_part2_eq (c : Dev nD) : main_part2 (F := F) c = seq (ops5 ++ ops6 ++ ops7) := rfl

end Cert.ReferenceIdeal.Run

end
-- ==== Proof.RefOps3.lean ====
/- A TABLE laid out by that script from proof/ReferenceIdeal.lean: the operations of @main's window
   main_part3, in order, each statement as printed there and each call of a module-local function replaced
   by the function's statements over the call's arguments and buffer record (a nested call likewise);
   cut at statements of @main into 1 consecutive lists. The trailing comment names the buffer written. -/
import proofs.«405869_j26843545600773_3_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- Window 3, statements 1 … 30 of its 30: 34 operations, the last writing main_v189. -/
abbrev ops8 : List (HloOp τ sig (Elt F)) :=
  [ StableHlo.unary main_arg11 main_v162 (broadcastInDim S1x2 ![1] bcast_S2_S1x2_1 : (⟨S2, .f32⟩ : BufTy).Contents (Elt F) → (⟨S1x2, .f32⟩ : BufTy).Contents (Elt F)), -- main_v162
    StableHlo.unary main_v162 main_v163 (broadcastInDim S65536x2 ![0, 1] bcast_S1x2_S65536x2_0_1 : (⟨S1x2, .f32⟩ : BufTy).Contents (Elt F) → (⟨S65536x2, .f32⟩ : BufTy).Contents (Elt F)), -- main_v163
    StableHlo.binary main_v161 main_v163 main_v164 (addf : (⟨S65536x2, .f32⟩ : BufTy).Contents (Elt F) → (⟨S65536x2, .f32⟩ : BufTy).Contents (Elt F) → (⟨S65536x2, .f32⟩ : BufTy).Contents (Elt F)), -- main_v164
    StableHlo.unary main_arg12 main_v165 ((transpose S256x256 [1, 0] · transposes_S256x256_S256x256_1_0) : (⟨S256x256, .f32⟩ : BufTy).Contents (Elt F) → (⟨S256x256, .f32⟩ : BufTy).Contents (Elt F)), -- main_v165
    StableHlo.binary main_v159 main_v165 main_v166 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)), -- main_v166
    StableHlo.unary main_arg13 main_v167 (broadcastInDim S1x256 ![1] bcast_S256_S1x256_1 : (⟨S256, .f32⟩ : BufTy).Contents (Elt F) → (⟨S1x256, .f32⟩ : BufTy).Contents (Elt F)), -- main_v167
    StableHlo.unary main_v167 main_v168 (broadcastInDim S65536x256 ![0, 1] bcast_S1x256_S65536x256_0_1 : (⟨S1x256, .f32⟩ : BufTy).Contents (Elt F) → (⟨S65536x256, .f32⟩ : BufTy).Contents (Elt F)), -- main_v168
    StableHlo.binary main_v166 main_v168 main_v169 (addf : (⟨S65536x256, .f32⟩ : BufTy).Contents (Elt F) → (⟨S65536x256, .f32⟩ : BufTy).Contents (Elt F) → (⟨S65536x256, .f32⟩ : BufTy).Contents (Elt F)), -- main_v169
    StableHlo.TRef.nullary main_call10.cst (constant S_ .f32 0x00000000#32), -- main_call10_cst
    StableHlo.TRef.unary main_call10.cst main_call10.v0 (broadcastInDim S65536x256 ![] bcast_S_S65536x256), -- main_call10_v0
    StableHlo.TRef.binary (.of main_v169) main_call10.v0 main_call10.v1 maximumf, -- main_v170
    StableHlo.unary main_arg14 main_v171 ((transpose S256x256 [1, 0] · transposes_S256x256_S256x256_1_0) : (⟨S256x256, .f32⟩ : BufTy).Contents (Elt F) → (⟨S256x256, .f32⟩ : BufTy).Contents (Elt F)), -- main_v171
    StableHlo.binary main_v170 main_v171 main_v172 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)), -- main_v172
    StableHlo.unary main_arg15 main_v173 (broadcastInDim S1x256 ![1] bcast_S256_S1x256_1 : (⟨S256, .f32⟩ : BufTy).Contents (Elt F) → (⟨S1x256, .f32⟩ : BufTy).Contents (Elt F)), -- main_v173
    StableHlo.unary main_v173 main_v174 (broadcastInDim S65536x256 ![0, 1] bcast_S1x256_S65536x256_0_1 : (⟨S1x256, .f32⟩ : BufTy).Contents (Elt F) → (⟨S65536x256, .f32⟩ : BufTy).Contents (Elt F)), -- main_v174
    StableHlo.binary main_v172 main_v174 main_v175 (addf : (⟨S65536x256, .f32⟩ : BufTy).Contents (Elt F) → (⟨S65536x256, .f32⟩ : BufTy).Contents (Elt F) → (⟨S65536x256, .f32⟩ : BufTy).Contents (Elt F)), -- main_v175
    StableHlo.TRef.nullary main_call11.cst (constant S_ .f32 0x00000000#32), -- main_call11_cst
    StableHlo.TRef.unary main_call11.cst main_call11.v0 (broadcastInDim S65536x256 ![] bcast_S_S65536x256), -- main_call11_v0
    StableHlo.TRef.binary (.of main_v175) main_call11.v0 main_call11.v1 maximumf, -- main_v176
    StableHlo.unary main_arg16 main_v177 ((transpose S256x4 [1, 0] · transposes_S4x256_S256x4_1_0) : (⟨S4x256, .f32⟩ : BufTy).Contents (Elt F) → (⟨S256x4, .f32⟩ : BufTy).Contents (Elt F)), -- main_v177
    StableHlo.binary main_v176 main_v177 main_v178 ((fun l r => Host.dotGeneral dot_S65536x256_S256x4_S65536x4_1_0_0_1_n_n none l r) : (⟨S65536x256, .f32⟩ : BufTy).Contents (Elt F) → (⟨S256x4, .f32⟩ : BufTy).Contents (Elt F) → (⟨S65536x4, .f32⟩ : BufTy).Contents (Elt F)), -- main_v178
    StableHlo.unary main_arg17 main_v179 (broadcastInDim S1x4 ![1] bcast_S4_S1x4_1 : (⟨S4, .f32⟩ : BufTy).Contents (Elt F) → (⟨S1x4, .f32⟩ : BufTy).Contents (Elt F)), -- main_v179
    StableHlo.unary main_v179 main_v180 (broadcastInDim S65536x4 ![0, 1] bcast_S1x4_S65536x4_0_1 : (⟨S1x4, .f32⟩ : BufTy).Contents (Elt F) → (⟨S65536x4, .f32⟩ : BufTy).Contents (Elt F)), -- main_v180
    StableHlo.binary main_v178 main_v180 main_v181 (addf : (⟨S65536x4, .f32⟩ : BufTy).Contents (Elt F) → (⟨S65536x4, .f32⟩ : BufTy).Contents (Elt F) → (⟨S65536x4, .f32⟩ : BufTy).Contents (Elt F)), -- main_v181
    StableHlo.unary main_v181 main_v182 (Host.negf : (⟨S65536x4, .f32⟩ : BufTy).Contents (Elt F) → (⟨S65536x4, .f32⟩ : BufTy).Contents (Elt F)), -- main_v182
    StableHlo.unary main_v182 main_v183 (Host.exp : (⟨S65536x4, .f32⟩ : BufTy).Contents (Elt F) → (⟨S65536x4, .f32⟩ : BufTy).Contents (Elt F)), -- main_v183
    StableHlo.nullary main_cst_16 (constant S_ .f32 0x3F800000#32), -- main_cst_16
    StableHlo.unary main_cst_16 main_v184 (broadcastInDim S65536x4 ![] bcast_S_S65536x4 : (⟨S_, .f32⟩ : BufTy).Contents (Elt F) → (⟨S65536x4, .f32⟩ : BufTy).Contents (Elt F)), -- main_v184
    StableHlo.binary main_v184 main_v183 main_v185 (addf : (⟨S65536x4, .f32⟩ : BufTy).Contents (Elt F) → (⟨S65536x4, .f32⟩ : BufTy).Contents (Elt F) → (⟨S65536x4, .f32⟩ : BufTy).Contents (Elt F)), -- main_v185
    StableHlo.nullary main_cst_17 (constant S_ .f32 0x3F800000#32), -- main_cst_17
    StableHlo.unary main_cst_17 main_v186 (broadcastInDim S65536x4 ![] bcast_S_S65536x4 : (⟨S_, .f32⟩ : BufTy).Contents (Elt F) → (⟨S65536x4, .f32⟩ : BufTy).Contents (Elt F)), -- main_v186
    StableHlo.binary main_v186 main_v185 main_v187 (Host.divf : (⟨S65536x4, .f32⟩ : BufTy).Contents (Elt F) → (⟨S65536x4, .f32⟩ : BufTy).Contents (Elt F) → (⟨S65536x4, .f32⟩ : BufTy).Contents (Elt F)), -- main_v187
    StableHlo.reshape main_v164 main_v188 rfl shapeCasts_S65536x2_S32x2048x2, -- main_v188
    StableHlo.reshape main_v187 main_v189 rfl shapeCasts_S65536x4_S32x2048x4 ] -- main_v189

end Cert.ReferenceIdeal.Run

end
-- ==== Proof.RefWin3.lean ====
/- The reference program's @main, window main_part3: it is the straight line `seq` of its operation lists
   (ops8: the window's statements with every call of a module-local function written out at the
   call), every operation touches TensorCore references only, and none leaves a result undetermined. -/
import proofs.«405869_j26843545600773_3_alg».proof.Proof.RefOps3

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- Each operation of `ops8` is one of the builders over TensorCore references, whose buffers are TensorCore
    references: the conjunction over the literal list, one builder fact per conjunct. -/
theorem ops8_sub : (ops8 : List (HloOp τ sig (Elt F))).Forall fun op => op.bufs ⊆ tcRefs τ sig := by
  simp only [List.Forall, nullary_bufs_sub, unary_bufs_sub, binary_bufs_sub, ternary_bufs_sub, reshape_bufs_sub, and_self]

/-- No operation of `ops8` allocates: each determines its results (membership in the literal list, case by case). -/
theorem ops8_fresh : ∀ op ∈ (ops8 : List (HloOp τ sig (Elt F))), op.fresh = ∅ := by
  intro _ h; (repeat (cases h with | head => rfl | tail _ h => ?_)); exact nomatch h

/-- The window is that line: a call unfolds to its callee's body at the call's arguments and record, sequencing
    reassociates, and both sides are the same chain of `hlo` steps — by computation. -/
theorem main_part3_eq (c : Dev nD) : main_part3 (F := F) c = seq (ops8) := rfl

end Cert.ReferenceIdeal.Run

end
-- ==== Proof.RefRun.lean ====
/- The reference program's run: @main is the straight line `seq ops` of its 372 host operations (every call of a
   module-local function written out at the call, the four windows' lists in order), so from any memory with zero
   counters every weakly fair execution terminates with each TensorCore buffer at the fold `after ops` of the
   operations' results over the launch contents; the fold factors through the nine lists. -/
import proofs.«405869_j26843545600773_3_alg».proof.Proof.RefWin0
import proofs.«405869_j26843545600773_3_alg».proof.Proof.RefWin1
import proofs.«405869_j26843545600773_3_alg».proof.Proof.RefWin2
import proofs.«405869_j26843545600773_3_alg».proof.Proof.RefWin3
import Idealize.ShloMosaic.Lib.Pipeline.Frame

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- @main's operations: the nine lists in order. -/
abbrev ops : List (HloOp τ sig (Elt F)) := ops0 ++ ops1 ++ ops2 ++ ops3 ++ ops4 ++ ops5 ++ ops6 ++ ops7 ++ ops8

/-- The same list grouped by window. -/
theorem ops_windows : (ops : List (HloOp τ sig (Elt F)))
    = (ops0 ++ ops1 ++ ops2) ++ ((ops3 ++ ops4) ++ ((ops5 ++ ops6 ++ ops7) ++ ops8)) := by
  simp only [ops, List.append_assoc]

/-- @main runs its four windows in order, each a straight line; lines in a row are their concatenation. -/
theorem main_eq (c : Dev nD) : main (F := F) c = seq ops := by
  rw [ops_windows, seq_append (ops0 ++ ops1 ++ ops2), seq_append (ops3 ++ ops4), seq_append (ops5 ++ ops6 ++ ops7),
    ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: list by list. -/
theorem ops_sub : (ops : List (HloOp τ sig (Elt F))).Forall fun op => op.bufs ⊆ tcRefs τ sig := by
  simp only [ops, List.forall_append]
  exact ⟨⟨⟨⟨⟨⟨⟨⟨ops0_sub, ops1_sub⟩, ops2_sub⟩, ops3_sub⟩, ops4_sub⟩, ops5_sub⟩, ops6_sub⟩, ops7_sub⟩, ops8_sub⟩

/-- No operation allocates: list by list. -/
theorem ops_fresh : ∀ op ∈ (ops : List (HloOp τ sig (Elt F))), op.fresh = ∅ := by
  intro op h
  simp only [ops, List.mem_append] at h
  rcases h with (((((((h | h) | h) | h) | h) | h) | h) | h) | h
  exacts [ops0_fresh op h, ops1_fresh op h, ops2_fresh op h, ops3_fresh op h, ops4_fresh op h, ops5_fresh op h,
    ops6_fresh op h, ops7_fresh op h, ops8_fresh op h]

/-- The fold over @main's operations is the folds over the nine lists, one after the other. -/
theorem after_ops (V : Valuation τ sig (Elt F)) :
    after ops V = after ops8 (after ops7 (after ops6 (after ops5 (after ops4 (after ops3 (after ops2 (after ops1 (after ops0 V)))))))) := by
  simp only [ops, StableHlo.after_append]

/-- At the compiled mesh, for any float values, from any memory with zero counters: every weakly fair execution of
    @main on the TensorCores terminates, and every final state has each TensorCore buffer at the operations' fold
    over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Run

end
-- ==== Proof.RefWrites.lean ====
/- A TABLE laid out by that script from proof/ReferenceIdeal.lean: for each operation list opsK of @main
   (the lists of RefOps0 … RefOps3), the references its operations write, in order. -/
import proofs.«405869_j26843545600773_3_alg».proof.Proof.Gen.ReferenceIdeal

namespace Cert.ReferenceIdeal.Run

open Cert.ReferenceIdeal Idealize.ShloMosaic

/-- What ops0 writes. -/
abbrev writes0 : List (Ref sig .tc) :=
  [main_v0, main_c, main_call0_v0, main_call0_v1, main_call0_v2, main_call0_v3, main_call0_v4, main_call0_v5,
   main_call0_v6, main_call0_v7, main_call0_v8, main_call0_c, main_call0_v9, main_call0_v10, main_call0_v11, main_call0_c_0,
   main_call0_v12, main_call0_v13, main_v1, main_v2, main_v3, main_c_0, main_v4, main_v5,
   main_v6, main_v7, main_v8, main_v9, main_v10, main_call1_c, main_call1_v0, main_call1_v1,
   main_call1_c_0, main_call1_v2, main_call1_v3, main_call1_v4, main_call1_v5, main_call1_c_1, main_call1_c_2, main_call1_v6,
   main_call1_v7, main_call1_v8, main_call1_v9, main_call1_v10, main_call1_v11, main_call1_c_3, main_call1_v12, main_call1_v13,
   main_call1_v14, main_call1_cst, main_call1_v15, main_v11]

/-- What ops1 writes. -/
abbrev writes1 : List (Ref sig .tc) :=
  [main_v12, main_v13, main_v14, main_v15, main_v16, main_v17, main_v18, main_v19,
   main_v20, main_v21, main_v22, main_v23, main_v24, main_v25, main_v26, main_v27,
   main_v28, main_v29, main_v30, main_cst, main_v31, main_v32, main_cst_1, main_v33,
   main_v34, main_c_2, main_call2_cst, main_call2_v0, main_call2_v1, main_call2_cst_0, main_call2_v2, main_call2_v3,
   main_call2_v4, main_call2_v5, main_call2_v6, main_call2_v7, main_call2_cst_1, main_call2_v8, main_call2_cst_2, main_call2_v9,
   main_call2_v10, main_call2_v11, main_call2_v12, main_call2_cst_3, main_call2_v13, main_call2_cst_4, main_call2_call0_v0, main_call2_call0_v1,
   main_v35]

/-- What ops2 writes. -/
abbrev writes2 : List (Ref sig .tc) :=
  [main_v36, main_v37, main_cst_3, main_v38, main_v39, main_v40, main_v41, main_v42,
   main_v43, main_v44, main_v45, main_v46, main_v47, main_v48, main_v49, main_call3_v0,
   main_call3_v1, main_call3_cst, main_call3_v2, main_call3_v3, main_call3_cst_0, main_call3_v4, main_call3_v5, main_v50,
   main_v51, main_v52, main_v53]

/-- What ops3 writes. -/
abbrev writes3 : List (Ref sig .tc) :=
  [main_v54, main_v55, main_v56, main_v57, main_v58, main_cst_4, main_v59, main_v60,
   main_cst_5, main_v61, main_v62, main_c_6, main_call4_cst, main_call4_v0, main_call4_v1, main_call4_cst_0,
   main_call4_v2, main_call4_v3, main_call4_v4, main_call4_v5, main_call4_v6, main_call4_v7, main_call4_cst_1, main_call4_v8,
   main_call4_cst_2, main_call4_v9, main_call4_v10, main_call4_v11, main_call4_v12, main_call4_cst_3, main_call4_v13, main_call4_cst_4,
   main_call4_call0_v0, main_call4_call0_v1, main_v63, main_v64, main_v65, main_cst_7, main_v66, main_v67,
   main_v68, main_v69, main_v70, main_v71, main_v72]

/-- What ops4 writes. -/
abbrev writes4 : List (Ref sig .tc) :=
  [main_v73, main_v74, main_v75, main_v76, main_v77, main_call5_v0, main_call5_v1, main_call5_cst,
   main_call5_v2, main_call5_v3, main_call5_cst_0, main_call5_v4, main_call5_v5, main_v78, main_v79, main_v80,
   main_v81, main_v82, main_v83, main_v84, main_v85, main_v86, main_v87, main_v88,
   main_v89, main_v90, main_v91, main_v92, main_v93, main_v94, main_v95, main_v96,
   main_v97, main_v98, main_v99, main_v100, main_v101, main_v102, main_v103, main_cst_8,
   main_v104, main_v105, main_cst_9, main_v106, main_v107]

/-- What ops5 writes. -/
abbrev writes5 : List (Ref sig .tc) :=
  [main_c_10, main_call6_cst, main_call6_v0, main_call6_v1, main_call6_cst_0, main_call6_v2, main_call6_v3, main_call6_v4,
   main_call6_v5, main_call6_v6, main_call6_v7, main_call6_cst_1, main_call6_v8, main_call6_cst_2, main_call6_v9, main_call6_v10,
   main_call6_v11, main_call6_v12, main_call6_cst_3, main_call6_v13, main_call6_cst_4, main_call6_call0_v0, main_call6_call0_v1, main_v108,
   main_v109, main_v110, main_cst_11, main_v111, main_v112, main_v113, main_v114, main_v115,
   main_v116, main_v117, main_v118, main_v119, main_v120, main_v121, main_v122, main_call7_v0,
   main_call7_v1, main_call7_cst, main_call7_v2, main_call7_v3, main_call7_cst_0, main_call7_v4, main_call7_v5, main_v123]

/-- What ops6 writes. -/
abbrev writes6 : List (Ref sig .tc) :=
  [main_v124, main_v125, main_v126, main_v127, main_v128, main_v129, main_v130, main_v131,
   main_cst_12, main_v132, main_v133, main_cst_13, main_v134, main_v135, main_c_14, main_call8_cst,
   main_call8_v0, main_call8_v1, main_call8_cst_0, main_call8_v2, main_call8_v3, main_call8_v4, main_call8_v5, main_call8_v6,
   main_call8_v7, main_call8_cst_1, main_call8_v8, main_call8_cst_2, main_call8_v9, main_call8_v10, main_call8_v11, main_call8_v12,
   main_call8_cst_3, main_call8_v13, main_call8_cst_4, main_call8_call0_v0, main_call8_call0_v1, main_v136]

/-- What ops7 writes. -/
abbrev writes7 : List (Ref sig .tc) :=
  [main_v137, main_v138, main_cst_15, main_v139, main_v140, main_v141, main_v142, main_v143,
   main_v144, main_v145, main_v146, main_v147, main_v148, main_v149, main_v150, main_call9_v0,
   main_call9_v1, main_call9_cst, main_call9_v2, main_call9_v3, main_call9_cst_0, main_call9_v4, main_call9_v5, main_v151,
   main_v152, main_v153, main_v154, main_v155, main_v156, main_v157, main_v158, main_v159,
   main_v160, main_v161]

/-- What ops8 writes. -/
abbrev writes8 : List (Ref sig .tc) :=
  [main_v162, main_v163, main_v164, main_v165, main_v166, main_v167, main_v168, main_v169,
   main_call10_cst, main_call10_v0, main_v170, main_v171, main_v172, main_v173, main_v174, main_v175,
   main_call11_cst, main_call11_v0, main_v176, main_v177, main_v178, main_v179, main_v180, main_v181,
   main_v182, main_v183, main_cst_16, main_v184, main_v185, main_cst_17, main_v186, main_v187,
   main_v188, main_v189]

end Cert.ReferenceIdeal.Run
-- ==== Proof.RefKeep.lean ====
/- Which buffers each of the reference's nine operation lists writes (one per operation, the references of
   `writesK`), and so that a list leaves every other buffer as it was. -/
import proofs.«405869_j26843545600773_3_alg».proof.Proof.RefRun
import proofs.«405869_j26843545600773_3_alg».proof.Proof.RefWrites

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- A reference of a list, as a device buffer of the list's buffers. -/
theorem devRef_mem_of_mem {W : List (Ref sig .tc)} {y : Ref sig .tc} (h : y ∈ W) :
    Proc.devRef (τ := τ) .tc y ∈ (W.map (Proc.devRef (τ := τ) .tc)).toFinset :=
  List.mem_toFinset.2 (List.mem_map.2 ⟨y, h, rfl⟩)

/-- Each operation of `ops0` writes one buffer, a reference of `writes0`. -/
theorem ops0_writes : (ops0 : List (HloOp τ sig (Elt F))).Forall fun op =>
    op.writes ⊆ (writes0.map (Proc.devRef (τ := τ) .tc)).toFinset := by
  simp only [List.Forall, nullary_writes, unary_writes, binary_writes, ternary_writes, reshape_writes, Finset.singleton_subset_iff]
  split_ands <;> exact devRef_mem_of_mem (by decide)

/-- `ops0` leaves a buffer it does not write as it was. -/
theorem ops0_keep (V : Valuation τ sig (Elt F)) {r : Ref sig .tc} (hr : r ∉ writes0) :
    after ops0 V (Proc.devRef .tc r) = V (Proc.devRef .tc r) :=
  after_of_writes_sub ops0 V ops0_writes hr

/-- Each operation of `ops1` writes one buffer, a reference of `writes1`. -/
theorem ops1_writes : (ops1 : List (HloOp τ sig (Elt F))).Forall fun op =>
    op.writes ⊆ (writes1.map (Proc.devRef (τ := τ) .tc)).toFinset := by
  simp only [List.Forall, nullary_writes, unary_writes, binary_writes, ternary_writes, reshape_writes, Finset.singleton_subset_iff]
  split_ands <;> exact devRef_mem_of_mem (by decide)

/-- `ops1` leaves a buffer it does not write as it was. -/
theorem ops1_keep (V : Valuation τ sig (Elt F)) {r : Ref sig .tc} (hr : r ∉ writes1) :
    after ops1 V (Proc.devRef .tc r) = V (Proc.devRef .tc r) :=
  after_of_writes_sub ops1 V ops1_writes hr

/-- Each operation of `ops2` writes one buffer, a reference of `writes2`. -/
theorem ops2_writes : (ops2 : List (HloOp τ sig (Elt F))).Forall fun op =>
    op.writes ⊆ (writes2.map (Proc.devRef (τ := τ) .tc)).toFinset := by
  simp only [List.Forall, nullary_writes, unary_writes, binary_writes, ternary_writes, reshape_writes, Finset.singleton_subset_iff]
  split_ands <;> exact devRef_mem_of_mem (by decide)

/-- `ops2` leaves a buffer it does not write as it was. -/
theorem ops2_keep (V : Valuation τ sig (Elt F)) {r : Ref sig .tc} (hr : r ∉ writes2) :
    after ops2 V (Proc.devRef .tc r) = V (Proc.devRef .tc r) :=
  after_of_writes_sub ops2 V ops2_writes hr

/-- Each operation of `ops3` writes one buffer, a reference of `writes3`. -/
theorem ops3_writes : (ops3 : List (HloOp τ sig (Elt F))).Forall fun op =>
    op.writes ⊆ (writes3.map (Proc.devRef (τ := τ) .tc)).toFinset := by
  simp only [List.Forall, nullary_writes, unary_writes, binary_writes, ternary_writes, reshape_writes, Finset.singleton_subset_iff]
  split_ands <;> exact devRef_mem_of_mem (by decide)

/-- `ops3` leaves a buffer it does not write as it was. -/
theorem ops3_keep (V : Valuation τ sig (Elt F)) {r : Ref sig .tc} (hr : r ∉ writes3) :
    after ops3 V (Proc.devRef .tc r) = V (Proc.devRef .tc r) :=
  after_of_writes_sub ops3 V ops3_writes hr

/-- Each operation of `ops4` writes one buffer, a reference of `writes4`. -/
theorem ops4_writes : (ops4 : List (HloOp τ sig (Elt F))).Forall fun op =>
    op.writes ⊆ (writes4.map (Proc.devRef (τ := τ) .tc)).toFinset := by
  simp only [List.Forall, nullary_writes, unary_writes, binary_writes, ternary_writes, reshape_writes, Finset.singleton_subset_iff]
  split_ands <;> exact devRef_mem_of_mem (by decide)

/-- `ops4` leaves a buffer it does not write as it was. -/
theorem ops4_keep (V : Valuation τ sig (Elt F)) {r : Ref sig .tc} (hr : r ∉ writes4) :
    after ops4 V (Proc.devRef .tc r) = V (Proc.devRef .tc r) :=
  after_of_writes_sub ops4 V ops4_writes hr

/-- Each operation of `ops5` writes one buffer, a reference of `writes5`. -/
theorem ops5_writes : (ops5 : List (HloOp τ sig (Elt F))).Forall fun op =>
    op.writes ⊆ (writes5.map (Proc.devRef (τ := τ) .tc)).toFinset := by
  simp only [List.Forall, nullary_writes, unary_writes, binary_writes, ternary_writes, reshape_writes, Finset.singleton_subset_iff]
  split_ands <;> exact devRef_mem_of_mem (by decide)

/-- `ops5` leaves a buffer it does not write as it was. -/
theorem ops5_keep (V : Valuation τ sig (Elt F)) {r : Ref sig .tc} (hr : r ∉ writes5) :
    after ops5 V (Proc.devRef .tc r) = V (Proc.devRef .tc r) :=
  after_of_writes_sub ops5 V ops5_writes hr

/-- Each operation of `ops6` writes one buffer, a reference of `writes6`. -/
theorem ops6_writes : (ops6 : List (HloOp τ sig (Elt F))).Forall fun op =>
    op.writes ⊆ (writes6.map (Proc.devRef (τ := τ) .tc)).toFinset := by
  simp only [List.Forall, nullary_writes, unary_writes, binary_writes, ternary_writes, reshape_writes, Finset.singleton_subset_iff]
  split_ands <;> exact devRef_mem_of_mem (by decide)

/-- `ops6` leaves a buffer it does not write as it was. -/
theorem ops6_keep (V : Valuation τ sig (Elt F)) {r : Ref sig .tc} (hr : r ∉ writes6) :
    after ops6 V (Proc.devRef .tc r) = V (Proc.devRef .tc r) :=
  after_of_writes_sub ops6 V ops6_writes hr

/-- Each operation of `ops7` writes one buffer, a reference of `writes7`. -/
theorem ops7_writes : (ops7 : List (HloOp τ sig (Elt F))).Forall fun op =>
    op.writes ⊆ (writes7.map (Proc.devRef (τ := τ) .tc)).toFinset := by
  simp only [List.Forall, nullary_writes, unary_writes, binary_writes, ternary_writes, reshape_writes, Finset.singleton_subset_iff]
  split_ands <;> exact devRef_mem_of_mem (by decide)

/-- `ops7` leaves a buffer it does not write as it was. -/
theorem ops7_keep (V : Valuation τ sig (Elt F)) {r : Ref sig .tc} (hr : r ∉ writes7) :
    after ops7 V (Proc.devRef .tc r) = V (Proc.devRef .tc r) :=
  after_of_writes_sub ops7 V ops7_writes hr

/-- Each operation of `ops8` writes one buffer, a reference of `writes8`. -/
theorem ops8_writes : (ops8 : List (HloOp τ sig (Elt F))).Forall fun op =>
    op.writes ⊆ (writes8.map (Proc.devRef (τ := τ) .tc)).toFinset := by
  simp only [List.Forall, nullary_writes, unary_writes, binary_writes, ternary_writes, reshape_writes, Finset.singleton_subset_iff]
  split_ands <;> exact devRef_mem_of_mem (by decide)

/-- `ops8` leaves a buffer it does not write as it was. -/
theorem ops8_keep (V : Valuation τ sig (Elt F)) {r : Ref sig .tc} (hr : r ∉ writes8) :
    after ops8 V (Proc.devRef .tc r) = V (Proc.devRef .tc r) :=
  after_of_writes_sub ops8 V ops8_writes hr

end Cert.ReferenceIdeal.Run

end
-- ==== Proof.RStages.lean ====
/-
  The reference program's stages, on whole arrays of 65536 rows of 256 channels.

  A row is one candidate point: row `R = 2048 · b + j` is candidate `j` of batch `b`. The program first turns each
  point `(p₀, p₁)` into the flat cell index `⌊p₀ / 8⌋ · 32 + ⌊p₁ / 8⌋` (`idxRV`), gathers the image's 256 channels at
  that cell (`gatherRV`) and lays the result out as rows (`rowsV`). A group normalisation cuts a row in 32 groups of 8
  (`grpV`), takes each group's mean (`meanRV`) and centred second moment (`varRV`), normalises (`gnNormV`) and applies
  the per-channel scale and shift (`scaleV`); `gnRV` is the four composed. `siluRV` is `h · (1 / (1 + exp (-h)))`,
  `reluRV` the maximum with zero, `convRV` the product with the transposed centre tap of a 3 × 3 convolution weight plus
  a bias row, `fcRV`, `fc2RV`, `fc4RV` the product with a transposed `n × 256` matrix plus a bias row, `sigRV` the
  logistic function. Every definition is the printed operations composed, for any float values; each stage, read at an
  index `(R, ·)` at the ideal instance, is the specification's row function of row `R`.
-/
import proofs.«405869_j26843545600773_3_alg».proof.Proof.Gen.ReferenceIdeal
import proofs.«405869_j26843545600773_3_alg».proof.Proof.Params
import Idealize.ShloMosaic.Lib.ValueIdx
import Idealize.ShloMosaic.PureOps.Ideal.Laws
import Idealize.ShloMosaic.Lib.Pipeline.Value
import Idealize.ShloMosaic.Lib.IdealHost

noncomputable section

namespace Cert.ReferenceIdeal.Stage

open Cert.ReferenceIdeal Cert.ReferenceIdeal.Gen Idealize.ShloMosaic Idealize.ShloMosaic.TcCoe Idealize.ShloMosaic.ValueIdx

section Defs
variable {F : FTy → Type} [FloatOps F]

/-! ## The parameters' slices -/

/-- Row 0 of a `[2, 256]` parameter array. -/
def par0V (p : FVec F S2x256 .f32) : FVec F S256 .f32 :=
  shapeCast S256 (extractStridedSlice S1x256 ![0, 0] p slices_S2x256_S1x256_0_0) shapeCasts_S1x256_S256
/-- Row 1 of a `[2, 256]` parameter array. -/
def par1V (p : FVec F S2x256 .f32) : FVec F S256 .f32 :=
  shapeCast S256 (extractStridedSlice S1x256 ![1, 0] p slices_S2x256_S1x256_1_0) shapeCasts_S1x256_S256
/-- Block 0 of a `[2, 256, 256, 3, 3]` convolution weight. -/
def cw0V (c : FVec F S2x256x256x3x3 .f32) : FVec F S256x256x3x3 .f32 :=
  shapeCast S256x256x3x3 (extractStridedSlice S1x256x256x3x3 ![0, 0, 0, 0, 0] c slices_S2x256x256x3x3_S1x256x256x3x3_0_0_0_0_0)
    shapeCasts_S1x256x256x3x3_S256x256x3x3
/-- Block 1 of a `[2, 256, 256, 3, 3]` convolution weight. -/
def cw1V (c : FVec F S2x256x256x3x3 .f32) : FVec F S256x256x3x3 .f32 :=
  shapeCast S256x256x3x3 (extractStridedSlice S1x256x256x3x3 ![1, 0, 0, 0, 0] c slices_S2x256x256x3x3_S1x256x256x3x3_1_0_0_0_0)
    shapeCasts_S1x256x256x3x3_S256x256x3x3

/-! ## The gathered rows -/

/-- `⌊p / 8⌋` on every point coordinate: the truncated quotient, less one where the signs of `p` and `8` differ and
    the remainder is not zero. -/
def cellV (p : IVec S32x2048x2 32) : IVec S32x2048x2 32 :=
  select
    (andi (cmpi .ne (signi p) (broadcastInDim S32x2048x2 ![] bcast_S_S32x2048x2 (signi (constantI S_ 32 8#32))))
      (cmpi .ne (Host.remsi p (broadcastInDim S32x2048x2 ![] bcast_S_S32x2048x2 (constantI S_ 32 8#32)))
        (broadcastInDim S32x2048x2 ![] bcast_S_S32x2048x2 (constantI S_ 32 0#32))))
    (subi (Host.divsi p (broadcastInDim S32x2048x2 ![] bcast_S_S32x2048x2 (constantI S_ 32 8#32)))
      (broadcastInDim S32x2048x2 ![] bcast_S_S32x2048x2 (constantI S_ 32 1#32)))
    (Host.divsi p (broadcastInDim S32x2048x2 ![] bcast_S_S32x2048x2 (constantI S_ 32 8#32)))

/-- The flat cell index `⌊p₀ / 8⌋ · 32 + ⌊p₁ / 8⌋` of every point, from cell coordinates. -/
def flatV (q : IVec S32x2048x2 32) : IVec S32x1x2048 32 :=
  broadcastInDim S32x1x2048 ![0, 2] bcast_S32x2048_S32x1x2048_0_2
    (addi
      (muli (shapeCast S32x2048 (extractStridedSlice S32x2048x1 ![0, 0, 0] q slices_S32x2048x2_S32x2048x1_0_0_0) shapeCasts_S32x2048x1_S32x2048)
        (broadcastInDim S32x2048 ![] bcast_S_S32x2048 (constantI S_ 32 32#32)))
      (shapeCast S32x2048 (extractStridedSlice S32x2048x1 ![0, 0, 1] q slices_S32x2048x2_S32x2048x1_0_0_1) shapeCasts_S32x2048x1_S32x2048))

/-- The flat cell index of every point of the `[32, 2048, 1, 2]` point array. -/
def idxRV (pts : IVec S32x2048x1x2 32) : IVec S32x1x2048 32 :=
  flatV (cellV (shapeCast S32x2048x2 pts shapeCasts_S32x2048x1x2_S32x2048x2))

/-- The image with its two spatial axes flattened. -/
def img3V (g : FVec F S32x256x32x32 .f32) : FVec F S32x256x1024 .f32 :=
  shapeCast S32x256x1024 g shapeCasts_S32x256x32x32_S32x256x1024

/-- The gather's start indices: a negative index wrapped by 1024, as a `[32, 2048, 1]` array. -/
def gidxV (lin : IVec S32x1x2048 32) : IVec S32x2048x1 32 :=
  shapeCast S32x2048x1
    (select (cmpi .slt lin (broadcastInDim S32x1x2048 ![] bcast_S_S32x1x2048 (constantI S_ 32 0#32)))
      (addi lin (broadcastInDim S32x1x2048 ![] bcast_S_S32x1x2048 (constantI S_ 32 1024#32))) lin)
    shapeCasts_S32x1x2048_S32x2048x1

/-- Which start indices lie in `[0, 1023]`. -/
def gmaskV (idx : IVec S32x2048x1 32) : IVec S32x2048 1 :=
  Host.reduce IntOp.andi
    (andi (cmpi .sge idx (broadcastInDim S32x2048x1 ![] bcast_S_S32x2048x1 (constantI S_ 32 0#32)))
      (cmpi .sle idx (broadcastInDim S32x2048x1 ![0, 1, 2] bcast_S1x1x1_S32x2048x1_0_1_2
        (broadcastInDim S1x1x1 ![2] bcast_S1_S1x1x1_2 (constantI S1 32 1023#32)))))
    (constantI S_ 1 1#1) reducesTo_S32x2048x1_S32x2048_d2 h_S_

/-- The image's channels at each point's flat cell index; not-a-number where the index is out of range. -/
def gatherRV (g3 : FVec F S32x256x1024 .f32) (lin : IVec S32x1x2048 32) : FVec F S32x256x2048 .f32 :=
  select (broadcastInDim S32x256x2048 ![0, 2] bcast_S32x2048_S32x256x2048_0_2 (gmaskV (gidxV lin)))
    (Host.gather gather_S32x256x1024_S32x2048x1_S32x256x2048_1_2_0_0_2_2_12561 g3 (gidxV lin))
    (broadcastInDim S32x256x2048 ![] bcast_S_S32x256x2048 (constant S_ .f32 0x7FC00000#32))

/-- The gathered channels as 65536 rows: row `2048 · b + j` is point `j` of batch `b`. -/
def rowsV (g : FVec F S32x256x2048 .f32) : FVec F S65536x256 .f32 :=
  shapeCast S65536x256 (transpose S32x2048x256 [0, 2, 1] g transposes_S32x256x2048_S32x2048x256_0_2_1)
    shapeCasts_S32x2048x256_S65536x256

/-- The rows the trunk starts from. -/
def xrowsV (gimage : FVec F S32x256x32x32 .f32) (pts : IVec S32x2048x1x2 32) : FVec F S65536x256 .f32 :=
  rowsV (gatherRV (img3V gimage) (idxRV pts))

/-! ## Group normalisation -/

/-- A row's 256 channels as 32 groups of 8. -/
def grpV (x : FVec F S65536x256 .f32) : FVec F S65536x32x8 .f32 :=
  shapeCast S65536x32x8 x shapeCasts_S65536x256_S65536x32x8

/-- Each group's mean: the sum of its 8 channels, divided by 8. -/
def meanRV (x3 : FVec F S65536x32x8 .f32) : FVec F S65536x32x1 .f32 :=
  Host.divf
    (broadcastInDim S65536x32x1 ![0, 1] bcast_S65536x32_S65536x32x1_0_1
      (Host.reduceAdd x3 (constant S_ .f32 0x00000000#32) reducesTo_S65536x32x8_S65536x32_d2 h_S_))
    (broadcastInDim S65536x32x1 ![] bcast_S_S65536x32x1 (constant S_ .f32 0x41000000#32))

/-- The divisor of the variance: `8` less the (zero) degrees-of-freedom correction. -/
def ddofV : FVec F S_ .f32 := subf (constant S_ .f32 0x41000000#32) (sitofp .f32 (constantI S_ 32 0#32))

/-- Each group's variance: the sum of its 8 squared deviations from the mean, divided by `ddofV`; not-a-number
    were the divisor not positive. -/
def varRV (x3 : FVec F S65536x32x8 .f32) : FVec F S65536x32x1 .f32 :=
  select (broadcastInDim S65536x32x1 ![] bcast_S_S65536x32x1 (cmpf .ogt (ddofV (F := F)) (constant S_ .f32 0x00000000#32)))
    (Host.divf
      (broadcastInDim S65536x32x1 ![0, 1] bcast_S65536x32_S65536x32x1_0_1
        (Host.reduceAdd
          (mulf (subf x3 (broadcastInDim S65536x32x8 ![0, 1, 2] bcast_S65536x32x1_S65536x32x8_0_1_2 (meanRV x3)))
            (subf x3 (broadcastInDim S65536x32x8 ![0, 1, 2] bcast_S65536x32x1_S65536x32x8_0_1_2 (meanRV x3))))
          (constant S_ .f32 0x00000000#32) reducesTo_S65536x32x8_S65536x32_d2 h_S_))
      (broadcastInDim S65536x32x1 ![] bcast_S_S65536x32x1 ddofV))
    (broadcastInDim S65536x32x1 ![] bcast_S_S65536x32x1 (constant S_ .f32 0x7FC00000#32))

/-- `(x - μ) · rsqrt (var + ε)` from given group statistics, back as rows of 256 channels. -/
def gnNormV (x3 : FVec F S65536x32x8 .f32) (mu var : FVec F S65536x32x1 .f32) : FVec F S65536x256 .f32 :=
  shapeCast S65536x256
    (mulf (subf x3 (broadcastInDim S65536x32x8 ![0, 1, 2] bcast_S65536x32x1_S65536x32x8_0_1_2 mu))
      (broadcastInDim S65536x32x8 ![0, 1, 2] bcast_S65536x32x1_S65536x32x8_0_1_2
        (Host.rsqrt (addf var (broadcastInDim S65536x32x1 ![] bcast_S_S65536x32x1 (constant S_ .f32 0x3727C5AC#32))))))
    shapeCasts_S65536x32x8_S65536x256

/-- A vector of 256 channels on every row. -/
def rowB (w : FVec F S256 .f32) : FVec F S65536x256 .f32 :=
  broadcastInDim S65536x256 ![0, 1] bcast_S1x256_S65536x256_0_1 (broadcastInDim S1x256 ![1] bcast_S256_S1x256_1 w)

/-- The per-channel scale and shift. -/
def scaleV (x : FVec F S65536x256 .f32) (w b : FVec F S256 .f32) : FVec F S65536x256 .f32 :=
  addf (mulf x (rowB w)) (rowB b)

/-- The whole group normalisation of the rows. -/
def gnRV (x : FVec F S65536x256 .f32) (w b : FVec F S256 .f32) : FVec F S65536x256 .f32 :=
  scaleV (gnNormV (grpV x) (meanRV (grpV x)) (varRV (grpV x))) w b

/-! ## The pointwise and affine stages -/

/-- `h · (1 / (1 + exp (-h)))`. -/
def siluRV (h : FVec F S65536x256 .f32) : FVec F S65536x256 .f32 :=
  mulf h
    (Host.divf (broadcastInDim S65536x256 ![] bcast_S_S65536x256 (constant S_ .f32 0x3F800000#32))
      (addf (broadcastInDim S65536x256 ![] bcast_S_S65536x256 (constant S_ .f32 0x3F800000#32)) (Host.exp (Host.negf h))))

/-- `max(h, 0)`. -/
def reluRV (h : FVec F S65536x256 .f32) : FVec F S65536x256 .f32 :=
  maximumf h (broadcastInDim S65536x256 ![] bcast_S_S65536x256 (constant S_ .f32 0x00000000#32))

/-- The centre tap of a 3 × 3 convolution weight, transposed: `(k, o) ↦ w[o, k, 1, 1]`. -/
def tapV (w4 : FVec F S256x256x3x3 .f32) : FVec F S256x256 .f32 :=
  transpose S256x256 [1, 0]
    (shapeCast S256x256 (extractStridedSlice S256x256x1x1 ![0, 0, 1, 1] w4 slices_S256x256x3x3_S256x256x1x1_0_0_1_1)
      shapeCasts_S256x256x1x1_S256x256)
    transposes_S256x256_S256x256_1_0

/-- A product of the rows with a 256 × 256 matrix `(k, o)`. -/
def dotV (h : FVec F S65536x256 .f32) (wT : FVec F S256x256 .f32) : FVec F S65536x256 .f32 :=
  Host.dotGeneral dot_S65536x256_S256x256_S65536x256_1_0_0_1_n_n none h wT

/-- A convolution layer on a 1 × 1 image: the product with the centre tap, plus the bias. -/
def convRV (h : FVec F S65536x256 .f32) (w4 : FVec F S256x256x3x3 .f32) (b : FVec F S256 .f32) : FVec F S65536x256 .f32 :=
  addf (dotV h (tapV w4)) (rowB b)

/-- A 256 → 256 layer of the box head: the product with the transposed matrix, plus the bias. -/
def fcRV (h : FVec F S65536x256 .f32) (w : FVec F S256x256 .f32) (b : FVec F S256 .f32) : FVec F S65536x256 .f32 :=
  addf (dotV h (transpose S256x256 [1, 0] w transposes_S256x256_S256x256_1_0)) (rowB b)

/-- The class layer, 256 → 2. -/
def fc2RV (h : FVec F S65536x256 .f32) (w : FVec F S2x256 .f32) (b : FVec F S2 .f32) : FVec F S65536x2 .f32 :=
  addf (Host.dotGeneral dot_S65536x256_S256x2_S65536x2_1_0_0_1_n_n none h (transpose S256x2 [1, 0] w transposes_S2x256_S256x2_1_0))
    (broadcastInDim S65536x2 ![0, 1] bcast_S1x2_S65536x2_0_1 (broadcastInDim S1x2 ![1] bcast_S2_S1x2_1 b))

/-- The last box layer, 256 → 4. -/
def fc4RV (h : FVec F S65536x256 .f32) (w : FVec F S4x256 .f32) (b : FVec F S4 .f32) : FVec F S65536x4 .f32 :=
  addf (Host.dotGeneral dot_S65536x256_S256x4_S65536x4_1_0_0_1_n_n none h (transpose S256x4 [1, 0] w transposes_S4x256_S256x4_1_0))
    (broadcastInDim S65536x4 ![0, 1] bcast_S1x4_S65536x4_0_1 (broadcastInDim S1x4 ![1] bcast_S4_S1x4_1 b))

/-- `1 / (1 + exp (-z))`. -/
def sigRV (z : FVec F S65536x4 .f32) : FVec F S65536x4 .f32 :=
  Host.divf (broadcastInDim S65536x4 ![] bcast_S_S65536x4 (constant S_ .f32 0x3F800000#32))
    (addf (broadcastInDim S65536x4 ![] bcast_S_S65536x4 (constant S_ .f32 0x3F800000#32)) (Host.exp (Host.negf z)))

/-- One residual block on the rows. -/
def rbRV (x : FVec F S65536x256 .f32) (g1w g1b : FVec F S256 .f32) (w1 : FVec F S256x256x3x3 .f32) (b1 g2w g2b : FVec F S256 .f32)
    (w2 : FVec F S256x256x3x3 .f32) (b2 : FVec F S256 .f32) : FVec F S65536x256 .f32 :=
  addf (convRV (siluRV (gnRV (convRV (siluRV (gnRV x g1w g1b)) w1 b1) g2w g2b)) w2 b2) x

/-- The rows of a `[65536, 2]` array as `[32, 2048, 2]`. -/
def out2V (y : FVec F S65536x2 .f32) : FVec F S32x2048x2 .f32 := shapeCast S32x2048x2 y shapeCasts_S65536x2_S32x2048x2
/-- The rows of a `[65536, 4]` array as `[32, 2048, 4]`. -/
def out4V (y : FVec F S65536x4 .f32) : FVec F S32x2048x4 .f32 := shapeCast S32x2048x4 y shapeCasts_S65536x4_S32x2048x4

end Defs

/-! ## The stages at an index -/

/-- Row `2048 · b + j`. -/
def rowIx (b : Fin 32) (j : Fin 2048) : Fin 65536 := ⟨2048 * b.val + j.val, by omega⟩

section Shape
variable {F : FTy → Type} [FloatOps F]

theorem par0V_apply (p : FVec F S2x256 .f32) (k : Fin 256) : par0V p (ix1 k) = p (ix2 (0 : Fin 2) k) := by
  unfold par0V
  refine (shapeCast_apply _ _ (ix1 k) (ix2 (0 : Fin 1) k) ?_).trans ?_
  · rw [Shape.rowMajor_val_two, Shape.rowMajor_val_one]; show 0 * 256 + k.val = k.val; omega
  · refine extractStridedSlice_apply _ _ _ _ (ix2 (0 : Fin 2) k) ?_
    intro a
    match a with
    | ⟨0, _⟩ => rfl
    | ⟨1, _⟩ => show k.val = 0 + k.val; omega
theorem par1V_apply (p : FVec F S2x256 .f32) (k : Fin 256) : par1V p (ix1 k) = p (ix2 (1 : Fin 2) k) := by
  unfold par1V
  refine (shapeCast_apply _ _ (ix1 k) (ix2 (0 : Fin 1) k) ?_).trans ?_
  · rw [Shape.rowMajor_val_two, Shape.rowMajor_val_one]; show 0 * 256 + k.val = k.val; omega
  · refine extractStridedSlice_apply _ _ _ _ (ix2 (1 : Fin 2) k) ?_
    intro a
    match a with
    | ⟨0, _⟩ => rfl
    | ⟨1, _⟩ => show k.val = 0 + k.val; omega
theorem cw0V_apply (c : FVec F S2x256x256x3x3 .f32) (o k : Fin 256) (a b : Fin 3) :
    cw0V c (ix4 o k a b) = c (ix5 (0 : Fin 2) o k a b) := by
  unfold cw0V
  refine (shapeCast_apply _ _ (ix4 o k a b) (ix5 (0 : Fin 1) o k a b) ?_).trans ?_
  · rw [Shape.rowMajor_val_five, Shape.rowMajor_val_four]
    show (((0 * 256 + o.val) * 256 + k.val) * 3 + a.val) * 3 + b.val = ((o.val * 256 + k.val) * 3 + a.val) * 3 + b.val
    omega
  · refine extractStridedSlice_apply _ _ _ _ (ix5 (0 : Fin 2) o k a b) ?_
    intro x
    match x with
    | ⟨0, _⟩ => rfl
    | ⟨1, _⟩ => show o.val = 0 + o.val; omega
    | ⟨2, _⟩ => show k.val = 0 + k.val; omega
    | ⟨3, _⟩ => show a.val = 0 + a.val; omega
    | ⟨4, _⟩ => show b.val = 0 + b.val; omega
theorem cw1V_apply (c : FVec F S2x256x256x3x3 .f32) (o k : Fin 256) (a b : Fin 3) :
    cw1V c (ix4 o k a b) = c (ix5 (1 : Fin 2) o k a b) := by
  unfold cw1V
  refine (shapeCast_apply _ _ (ix4 o k a b) (ix5 (0 : Fin 1) o k a b) ?_).trans ?_
  · rw [Shape.rowMajor_val_five, Shape.rowMajor_val_four]
    show (((0 * 256 + o.val) * 256 + k.val) * 3 + a.val) * 3 + b.val = ((o.val * 256 + k.val) * 3 + a.val) * 3 + b.val
    omega
  · refine extractStridedSlice_apply _ _ _ _ (ix5 (1 : Fin 2) o k a b) ?_
    intro x
    match x with
    | ⟨0, _⟩ => rfl
    | ⟨1, _⟩ => show o.val = 0 + o.val; omega
    | ⟨2, _⟩ => show k.val = 0 + k.val; omega
    | ⟨3, _⟩ => show a.val = 0 + a.val; omega
    | ⟨4, _⟩ => show b.val = 0 + b.val; omega
theorem rowsV_apply (g : FVec F S32x256x2048 .f32) (b : Fin 32) (j : Fin 2048) (ch : Fin 256) :
    rowsV g (ix2 (rowIx b j) ch) = g (ix3 b ch j) := by
  unfold rowsV
  refine (shapeCast_apply _ _ (ix2 (rowIx b j) ch) (ix3 b j ch) ?_).trans ?_
  · rw [Shape.rowMajor_val_three, Shape.rowMajor_val_two]
    show (b.val * 2048 + j.val) * 256 + ch.val = (2048 * b.val + j.val) * 256 + ch.val
    omega
  · refine transpose_apply _ _ _ _ (ix3 b ch j) ?_
    intro x
    match x with
    | ⟨0, _⟩ => rfl
    | ⟨1, _⟩ => rfl
    | ⟨2, _⟩ => rfl
theorem out2V_apply (y : FVec F S65536x2 .f32) (i : S32x2048x2.Idx) : out2V y i = y (ix2 (rowIx (i 0) (i 1)) (i 2)) := by
  unfold out2V
  refine shapeCast_apply _ _ i (ix2 (rowIx (i 0) (i 1)) (i 2)) ?_
  rw [Shape.rowMajor_val_three, Shape.rowMajor_val_two]
  show (2048 * (i 0).val + (i 1).val) * 2 + (i 2).val = ((i 0).val * 2048 + (i 1).val) * 2 + (i 2).val
  omega
theorem out4V_apply (y : FVec F S65536x4 .f32) (i : S32x2048x4.Idx) : out4V y i = y (ix2 (rowIx (i 0) (i 1)) (i 2)) := by
  unfold out4V
  refine shapeCast_apply _ _ i (ix2 (rowIx (i 0) (i 1)) (i 2)) ?_
  rw [Shape.rowMajor_val_three, Shape.rowMajor_val_two]
  show (2048 * (i 0).val + (i 1).val) * 4 + (i 2).val = ((i 0).val * 2048 + (i 1).val) * 4 + (i 2).val
  omega

/-- The printed floor division by 8 on one word: the truncated quotient, less one where the signs of the word and of 8
    differ and the remainder is not zero. -/
def floorDiv8W (p : BitVec 32) : BitVec 32 :=
  Scalar.select
    (IntOp.andi
      (IntOp.cmpi .ne (if p = 0 then (0 : BitVec 32) else if p.msb then -1 else 1)
        (if (8#32) = 0 then (0 : BitVec 32) else if (8#32).msb then -1 else 1))
      (IntOp.cmpi .ne (IntOp.remsi .host p 8#32) 0#32))
    (IntOp.subi (IntOp.divsi .host p 8#32) 1#32)
    (IntOp.divsi .host p 8#32)

/-- The cell array at an index is the word function of the point coordinate there. -/
theorem cellV_apply' (p : IVec S32x2048x2 32) (i : S32x2048x2.Idx) : cellV p i = floorDiv8W (p i) := rfl

/-- On the 256 words from 0 to 255 the printed floor division is the natural quotient by 8. -/
theorem floorDiv8W_small' : ∀ n : Fin 256, floorDiv8W (BitVec.ofNat 32 n.val) = BitVec.ofNat 32 (n.val / 8) := by
  decide

/-- A word whose signed value lies from 0 to 255 is the word of a natural number below 256. -/
theorem word_of_small' (p : BitVec 32) (h0 : 0 ≤ p.toInt) (h1 : p.toInt < 256) :
    ∃ n : Nat, n < 256 ∧ p = BitVec.ofNat 32 n := by
  refine ⟨p.toNat, ?_, ?_⟩
  · have hlt := p.isLt
    rw [BitVec.toInt_eq_toNat_cond] at h0 h1
    split at h0 <;> omega
  · apply BitVec.eq_of_toNat_eq
    rw [BitVec.toNat_ofNat, Nat.mod_eq_of_lt p.isLt]

/-- The flat index at a point: the first cell coordinate times 32 plus the second. -/
theorem flatV_apply' (q : IVec S32x2048x2 32) (b : Fin 32) (j : Fin 2048) :
    flatV q (ix3 b (0 : Fin 1) j) = q (ix3 b j (0 : Fin 2)) * 32#32 + q (ix3 b j (1 : Fin 2)) := by
  unfold flatV
  refine (broadcastInDim_apply _ _ _ (ix3 b (0 : Fin 1) j) (ix2 b j) ?_).trans ?_
  · intro a
    match a with
    | ⟨0, _⟩ => rfl
    | ⟨1, _⟩ => rfl
  · have e0 : shapeCast S32x2048 (extractStridedSlice S32x2048x1 ![0, 0, 0] q slices_S32x2048x2_S32x2048x1_0_0_0)
        shapeCasts_S32x2048x1_S32x2048 (ix2 b j) = q (ix3 b j (0 : Fin 2)) := by
      refine (shapeCast_apply _ _ (ix2 b j) (ix3 b j (0 : Fin 1)) ?_).trans ?_
      · rw [Shape.rowMajor_val_three, Shape.rowMajor_val_two]
        show (b.val * 2048 + j.val) * 1 + 0 = b.val * 2048 + j.val
        omega
      · refine extractStridedSlice_apply _ _ _ _ (ix3 b j (0 : Fin 2)) ?_
        intro a
        match a with
        | ⟨0, _⟩ => show b.val = 0 + b.val; omega
        | ⟨1, _⟩ => show j.val = 0 + j.val; omega
        | ⟨2, _⟩ => rfl
    have e1 : shapeCast S32x2048 (extractStridedSlice S32x2048x1 ![0, 0, 1] q slices_S32x2048x2_S32x2048x1_0_0_1)
        shapeCasts_S32x2048x1_S32x2048 (ix2 b j) = q (ix3 b j (1 : Fin 2)) := by
      refine (shapeCast_apply _ _ (ix2 b j) (ix3 b j (0 : Fin 1)) ?_).trans ?_
      · rw [Shape.rowMajor_val_three, Shape.rowMajor_val_two]
        show (b.val * 2048 + j.val) * 1 + 0 = b.val * 2048 + j.val
        omega
      · refine extractStridedSlice_apply _ _ _ _ (ix3 b j (1 : Fin 2)) ?_
        intro a
        match a with
        | ⟨0, _⟩ => show b.val = 0 + b.val; omega
        | ⟨1, _⟩ => show j.val = 0 + j.val; omega
        | ⟨2, _⟩ => rfl
    exact congrArg₂ IntOp.addi (congrArg (fun x => IntOp.muli x 32#32) e0) e1

/-- For point coordinates in `[0, 256)` the flat cell index is `⌊p₀ / 8⌋ · 32 + ⌊p₁ / 8⌋`, as a word. -/
theorem idxRV_apply (pts : IVec S32x2048x1x2 32) (hpts : ∀ i, 0 ≤ (pts i).toInt ∧ (pts i).toInt < 256) (b : Fin 32) (j : Fin 2048) :
    idxRV pts (ix3 b (0 : Fin 1) j)
      = BitVec.ofNat 32 ((Spec.cell (pts (ix4 b j (0 : Fin 1) (0 : Fin 2)))).val * 32
          + (Spec.cell (pts (ix4 b j (0 : Fin 1) (1 : Fin 2)))).val) := by
  have hw : ∀ c : Fin 2, cellV (shapeCast S32x2048x2 pts shapeCasts_S32x2048x1x2_S32x2048x2) (ix3 b j c)
      = BitVec.ofNat 32 (Spec.cell (pts (ix4 b j (0 : Fin 1) c))).val := by
    intro c
    have hp : shapeCast S32x2048x2 pts shapeCasts_S32x2048x1x2_S32x2048x2 (ix3 b j c) = pts (ix4 b j (0 : Fin 1) c) := by
      refine shapeCast_apply _ _ _ _ ?_
      rw [Shape.rowMajor_val_four, Shape.rowMajor_val_three]
      show ((b.val * 2048 + j.val) * 1 + 0) * 2 + c.val = (b.val * 2048 + j.val) * 2 + c.val
      omega
    rw [cellV_apply', hp]
    obtain ⟨h0, h1⟩ := hpts (ix4 b j (0 : Fin 1) c)
    obtain ⟨n, hn, he⟩ := word_of_small' _ h0 h1
    rw [he]
    show _ = BitVec.ofNat 32 (((BitVec.ofNat 32 n).toNat / 8) % 32)
    rw [BitVec.toNat_ofNat, Nat.mod_eq_of_lt (by omega : n < 2 ^ 32), Nat.mod_eq_of_lt (by omega : n / 8 < 32)]
    exact floorDiv8W_small' ⟨n, hn⟩
  unfold idxRV
  rw [flatV_apply', hw, hw, BitVec.ofNat_add, BitVec.ofNat_mul]

theorem img3V_apply (g : FVec F S32x256x32x32 .f32) (b : Fin 32) (ch : Fin 256) (y x : Fin 32) :
    img3V g (ix3 b ch (⟨y.val * 32 + x.val, by omega⟩ : Fin 1024)) = g (ix4 b ch y x) := by
  unfold img3V
  refine shapeCast_apply _ _ _ (ix4 b ch y x) ?_
  rw [Shape.rowMajor_val_four, Shape.rowMajor_val_three]
  show ((b.val * 256 + ch.val) * 32 + y.val) * 32 + x.val = (b.val * 256 + ch.val) * 1024 + (y.val * 32 + x.val)
  omega

end Shape

/-- Row `R` of an array of rows. -/
abbrev rowOf (h : FVec Ideal S65536x256 .f32) (R : Fin 65536) : Spec.Row := fun k => h (ix2 R k)
/-- A vector of 256 channels as a row. -/
abbrev vecOf (w : FVec Ideal S256 .f32) : Spec.Row := fun k => w (ix1 k)

theorem siluRV_apply (h : FVec Ideal S65536x256 .f32) (R : Fin 65536) (k : Fin 256) :
    siluRV h (ix2 R k) = Spec.silu (rowOf h R) k := by
  show h (ix2 R k) * Ideal.div (Ideal.ofBits .f32 0x3F800000#32) (Ideal.ofBits .f32 0x3F800000#32 + Ideal.exp (-(h (ix2 R k))))
    = h (ix2 R k) * Ideal.logistic (h (ix2 R k))
  rw [Ideal.ofBits_one_f32]; rfl

theorem reluRV_apply (h : FVec Ideal S65536x256 .f32) (R : Fin 65536) (k : Fin 256) :
    reluRV h (ix2 R k) = Spec.relu (rowOf h R) k := by
  show max (h (ix2 R k)) (Ideal.ofBits .f32 0x00000000#32) = max (h (ix2 R k)) 0
  rw [Ideal.ofBits_zero_f32]

/-- The left operand's index of the 65536 × 256 by 256 × 256 product at output `(R, o)` and contraction position `k`. -/
theorem dot256_lhs_0 (j : S65536x256.Idx) (k : dot_S65536x256_S256x256_S65536x256_1_0_0_1_n_n.contr.Idx) :
    (dot_S65536x256_S256x256_S65536x256_1_0_0_1_n_n.lhsIdx j k 0).val = (j 0).val := rfl
theorem dot256_lhs_1 (j : S65536x256.Idx) (k : dot_S65536x256_S256x256_S65536x256_1_0_0_1_n_n.contr.Idx) :
    (dot_S65536x256_S256x256_S65536x256_1_0_0_1_n_n.lhsIdx j k 1).val = (k ⟨0, by decide⟩).val := rfl
theorem dot256_rhs_0 (j : S65536x256.Idx) (k : dot_S65536x256_S256x256_S65536x256_1_0_0_1_n_n.contr.Idx) :
    (dot_S65536x256_S256x256_S65536x256_1_0_0_1_n_n.rhsIdx j k 0).val = (k ⟨0, by decide⟩).val := rfl
theorem dot256_rhs_1 (j : S65536x256.Idx) (k : dot_S65536x256_S256x256_S65536x256_1_0_0_1_n_n.contr.Idx) :
    (dot_S65536x256_S256x256_S65536x256_1_0_0_1_n_n.rhsIdx j k 1).val = (j 1).val := rfl

/-- The product of the rows with a 256 × 256 matrix, read at `(R, o)`: the sum over the 256 input channels. -/
theorem dotV_apply (h : FVec Ideal S65536x256 .f32) (wT : FVec Ideal S256x256 .f32) (R : Fin 65536) (o : Fin 256) :
    dotV h wT (ix2 R o) = ∑ k : Fin 256, h (ix2 R k) * wT (ix2 k o) := by
  unfold dotV
  simp only [Host.dotGeneral]
  rw [Ideal.dotGeneral_apply,
    ← Equiv.sum_comp (contrEquiv1 dot_S65536x256_S256x256_S65536x256_1_0_0_1_n_n 256 rfl rfl).symm]
  refine Finset.sum_congr rfl fun k _ => ?_
  have hk := contrEquiv1_symm_val dot_S65536x256_S256x256_S65536x256_1_0_0_1_n_n 256 rfl rfl k
  have e1 : dot_S65536x256_S256x256_S65536x256_1_0_0_1_n_n.lhsIdx (ix2 R o)
      ((contrEquiv1 dot_S65536x256_S256x256_S65536x256_1_0_0_1_n_n 256 rfl rfl).symm k) = ix2 R k :=
    funext fun a => Fin.ext (by
      match a with
      | ⟨0, _⟩ => exact dot256_lhs_0 _ _
      | ⟨1, _⟩ => exact (dot256_lhs_1 _ _).trans hk)
  have e2 : dot_S65536x256_S256x256_S65536x256_1_0_0_1_n_n.rhsIdx (ix2 R o)
      ((contrEquiv1 dot_S65536x256_S256x256_S65536x256_1_0_0_1_n_n 256 rfl rfl).symm k) = ix2 k o :=
    funext fun a => Fin.ext (by
      match a with
      | ⟨0, _⟩ => exact (dot256_rhs_0 _ _).trans hk
      | ⟨1, _⟩ => exact dot256_rhs_1 _ _)
  rw [e1, e2]

/-- A vector of 256 channels laid on every row reads the vector's channel. -/
theorem rowB_apply {F : FTy → Type} [FloatOps F] (w : FVec F S256 .f32) (R : Fin 65536) (o : Fin 256) :
    rowB w (ix2 R o) = w (ix1 o) := by
  unfold rowB
  refine (broadcastInDim_apply _ _ _ (ix2 R o) (ix2 (0 : Fin 1) o) fun a => ?_).trans ?_
  · match a with
    | ⟨0, _⟩ => rfl
    | ⟨1, _⟩ => rfl
  · refine broadcastInDim_apply _ _ _ (ix2 (0 : Fin 1) o) (ix1 o) fun a => ?_
    match a with
    | ⟨0, _⟩ => rfl

/-- A transposed 256 × 256 matrix at `(k, o)` is the matrix at `(o, k)`. -/
theorem transpose256_apply {α : Type} (w : S256x256.Idx → α) (k o : Fin 256) :
    transpose S256x256 [1, 0] w transposes_S256x256_S256x256_1_0 (ix2 k o) = w (ix2 o k) := by
  refine transpose_apply _ _ _ (ix2 k o) (ix2 o k) fun b => ?_
  match b with
  | ⟨0, _⟩ => rfl
  | ⟨1, _⟩ => rfl

theorem fcRV_apply (h : FVec Ideal S65536x256 .f32) (w : FVec Ideal S256x256 .f32) (b : FVec Ideal S256 .f32)
    (R : Fin 65536) (o : Fin 256) :
    fcRV h w b (ix2 R o) = Spec.affine (fun o k => w (ix2 o k)) (vecOf b) (rowOf h R) o := by
  unfold fcRV Spec.affine
  rw [addf_apply, dotV_apply, rowB_apply]
  refine congrArg (· + b (ix1 o)) (Finset.sum_congr rfl fun k _ => ?_)
  rw [transpose256_apply]

theorem sigRV_apply (z : FVec Ideal S65536x4 .f32) (R : Fin 65536) (q : Fin 4) :
    sigRV z (ix2 R q) = Ideal.logistic (z (ix2 R q)) := by
  show Ideal.div (Ideal.ofBits .f32 0x3F800000#32) (Ideal.ofBits .f32 0x3F800000#32 + Ideal.exp (-(z (ix2 R q))))
    = Ideal.logistic (z (ix2 R q))
  rw [Ideal.ofBits_one_f32]; rfl

end Cert.ReferenceIdeal.Stage

end
-- ==== Proof.RStagesGather.lean ====
/-
  The reference's gather read at an index: for a flat cell index in `[0, 1024)` the index is neither wrapped nor masked,
  and the gathered array holds the image's channel at that cell; hence the rows the trunk starts from.
-/
import proofs.«405869_j26843545600773_3_alg».proof.Proof.RStages

noncomputable section

namespace Cert.ReferenceIdeal.Stage

open Cert.ReferenceIdeal Cert.ReferenceIdeal.Gen Idealize.ShloMosaic Idealize.ShloMosaic.TcCoe Idealize.ShloMosaic.ValueIdx

section Gather
variable {F : FTy → Type} [FloatOps F]

/-- A word below 1024 is not negative, so the wrap keeps it. -/
private theorem wrapW_small : ∀ L : Fin 1024,
    Scalar.select (IntOp.cmpi .slt (BitVec.ofNat 32 L.val) 0#32) (IntOp.addi (BitVec.ofNat 32 L.val) 1024#32)
      (BitVec.ofNat 32 L.val) = BitVec.ofNat 32 L.val := by
  decide

/-- A word below 1024 lies in `[0, 1023]`. -/
private theorem maskW_small : ∀ L : Fin 1024,
    IntOp.andi (IntOp.andi (IntOp.cmpi .sge (BitVec.ofNat 32 L.val) 0#32) (IntOp.cmpi .sle (BitVec.ofNat 32 L.val) 1023#32)) 1#1
      = 1#1 := by
  decide

/-- A word below 1024 read signed is itself. -/
private theorem toNatW_small : ∀ L : Fin 1024, (BitVec.ofNat 32 L.val).toInt.toNat = L.val := by
  decide

/-- The start index at `(b, j)` is the flat index there, kept as it is when it is a word below 1024. -/
private theorem gidxV_apply (lin : IVec S32x1x2048 32) (b : Fin 32) (j : Fin 2048) (L : Fin 1024)
    (hL : lin (ix3 b (0 : Fin 1) j) = BitVec.ofNat 32 L.val) :
    gidxV lin (ix3 b j (0 : Fin 1)) = BitVec.ofNat 32 L.val := by
  unfold gidxV
  refine (shapeCast_apply _ _ (ix3 b j (0 : Fin 1)) (ix3 b (0 : Fin 1) j) ?_).trans ?_
  · rw [Shape.rowMajor_val_three, Shape.rowMajor_val_three]
    show (b.val * 1 + 0) * 2048 + j.val = (b.val * 2048 + j.val) * 1 + 0
    omega
  · show Scalar.select (IntOp.cmpi .slt (lin (ix3 b (0 : Fin 1) j)) 0#32) (IntOp.addi (lin (ix3 b (0 : Fin 1) j)) 1024#32)
      (lin (ix3 b (0 : Fin 1) j)) = _
    rw [hL]
    exact wrapW_small L

/-- The indices of `[32, 2048, 1]` over `(b, j)`: the one with coordinate 0 on the unit axis. -/
private theorem lift_unit (h : S32x2048x1.Reduces [2] S32x2048) (b : Fin 32) (j : Fin 2048) (k : Fin (S32x2048x1.size 2)) :
    h.lift (ix2 b j) k = ix3 b j (0 : Fin 1) := by
  funext c
  apply Fin.ext
  match c with
  | ⟨0, _⟩ => rfl
  | ⟨1, _⟩ => rfl
  | ⟨2, _⟩ => exact Nat.lt_one_iff.mp k.isLt

/-- A fold over a one-element range is the operation on the element and the initial value. -/
private theorem fold_unit {α : Type} (op : α → α → α) [Std.Commutative op] [Std.Associative op] (i : α) (f : Fin 1 → α) :
    (Finset.univ : Finset (Fin 1)).fold op i f = op (f 0) i := by
  rw [show (Finset.univ : Finset (Fin 1)) = {0} from rfl]
  exact Finset.fold_singleton

/-- Where the start index is a word below 1024 the mask is set. -/
private theorem gmaskV_apply (idx : IVec S32x2048x1 32) (b : Fin 32) (j : Fin 2048) (L : Fin 1024)
    (hL : idx (ix3 b j (0 : Fin 1)) = BitVec.ofNat 32 L.val) : gmaskV idx (ix2 b j) = 1#1 := by
  have h : S32x2048x1.Reduces [2] S32x2048 := by decide
  have hl : idx (h.lift (ix2 b j) (0 : Fin 1)) = BitVec.ofNat 32 L.val := (congrArg idx (lift_unit h b j _)).trans hL
  unfold gmaskV
  rw [Host.reduce_eq_fold_single IntOp.andi _ _ reducesTo_S32x2048x1_S32x2048_d2 h h_S_ (ix2 b j)]
  refine (fold_unit _ _ _).trans ?_
  show IntOp.andi (IntOp.andi (IntOp.cmpi .sge (idx (h.lift (ix2 b j) (0 : Fin 1))) 0#32)
    (IntOp.cmpi .sle (idx (h.lift (ix2 b j) (0 : Fin 1))) 1023#32)) 1#1 = 1#1
  rw [hl]
  exact maskW_small L

local notation "GD" => gather_S32x256x1024_S32x2048x1_S32x256x2048_1_2_0_0_2_2_12561

/-- Operand axis 0 is the batching axis: the gather reads the result's batch coordinate. -/
private theorem gd_coord0 (idx : IVec S32x2048x1 32) (b : Fin 32) (ch : Fin 256) (j : Fin 2048) :
    GatherDims.start GD (ix3 b ch j) idx (0 : Fin 3) + GatherDims.batchCoord GD (ix3 b ch j) (0 : Fin 3)
      + GatherDims.offCoord GD (ix3 b ch j) (0 : Fin 3) = b.val := by
  rw [GatherDims.start_batching _ _ _ _ (by decide),
    GatherDims.offCoord_eq_zero _ _ _ (fun h => ((GatherDims.mem_sKept _ _).mp h).2 (by decide))]
  simp only [Nat.zero_add, Nat.add_zero]
  unfold GatherDims.batchCoord
  rw [dif_pos (by decide)]
  rfl

/-- Operand axis 1 is the offset axis: the gather reads the result's channel coordinate. -/
private theorem gd_coord1 (idx : IVec S32x2048x1 32) (b : Fin 32) (ch : Fin 256) (j : Fin 2048) :
    GatherDims.start GD (ix3 b ch j) idx (1 : Fin 3) + GatherDims.batchCoord GD (ix3 b ch j) (1 : Fin 3)
      + GatherDims.offCoord GD (ix3 b ch j) (1 : Fin 3) = ch.val := by
  rw [GatherDims.batchCoord_eq_zero _ _ _ (by decide)]
  unfold GatherDims.start
  rw [dif_neg (by decide)]
  simp only [Nat.zero_add, Nat.add_zero]
  unfold GatherDims.offCoord
  rw [dif_pos (by decide)]
  rfl

/-- Operand axis 2 is the collapsed axis the start index names: the gather reads the clamped start index. -/
private theorem gd_coord2 (idx : IVec S32x2048x1 32) (b : Fin 32) (ch : Fin 256) (j : Fin 2048)
    (L : Fin 1024) (hL : idx (ix3 b j (0 : Fin 1)) = BitVec.ofNat 32 L.val) :
    GatherDims.start GD (ix3 b ch j) idx (2 : Fin 3) + GatherDims.batchCoord GD (ix3 b ch j) (2 : Fin 3)
      + GatherDims.offCoord GD (ix3 b ch j) (2 : Fin 3) = L.val := by
  rw [GatherDims.batchCoord_eq_zero _ _ _ (by decide),
    GatherDims.offCoord_eq_zero _ _ _ (fun h => ((GatherDims.mem_sKept _ _).mp h).1 (by decide))]
  simp only [Nat.add_zero]
  unfold GatherDims.start
  rw [dif_pos (by decide)]
  have hsi : GatherDims.siIdx GD (ix3 b ch j) ⟨List.idxOf (2 : Fin 3) (GatherDims.startIndexMap GD), by decide⟩
      = ix3 b j (0 : Fin 1) := by
    funext c; refine Fin.ext ?_
    match c with
    | ⟨0, _⟩ => rfl
    | ⟨1, _⟩ => rfl
    | ⟨2, _⟩ => rfl
  rw [hsi, hL, toNatW_small]
  show min L.val (1024 - 1) = L.val
  omega

/-- The gather at `(b, ch, j)` with the start index the word of `L < 1024` reads the operand at `(b, ch, L)`. -/
private theorem gather_apply {α : Type} (g3 : S32x256x1024.Idx → α) (idx : IVec S32x2048x1 32) (b : Fin 32) (ch : Fin 256) (j : Fin 2048)
    (L : Fin 1024) (hL : idx (ix3 b j (0 : Fin 1)) = BitVec.ofNat 32 L.val) :
    Host.gather GD g3 idx (ix3 b ch j) = g3 (ix3 b ch L) := by
  unfold Host.gather
  refine congrArg g3 (funext fun a => Fin.ext ?_)
  match a with
  | ⟨0, _⟩ => exact gd_coord0 idx b ch j
  | ⟨1, _⟩ => exact gd_coord1 idx b ch j
  | ⟨2, _⟩ => exact gd_coord2 idx b ch j L hL

/-- An index in `[0, 1024)` is not wrapped and not masked, and the gather reads the operand there. -/
theorem gatherRV_apply (g3 : FVec F S32x256x1024 .f32) (lin : IVec S32x1x2048 32) (b : Fin 32) (ch : Fin 256) (j : Fin 2048)
    (L : Fin 1024) (hL : lin (ix3 b (0 : Fin 1) j) = BitVec.ofNat 32 L.val) :
    gatherRV g3 lin (ix3 b ch j) = g3 (ix3 b ch L) := by
  have hi := gidxV_apply lin b j L hL
  have hm : broadcastInDim S32x256x2048 ![0, 2] bcast_S32x2048_S32x256x2048_0_2 (gmaskV (gidxV lin)) (ix3 b ch j) = 1#1 := by
    refine (broadcastInDim_apply _ _ _ (ix3 b ch j) (ix2 b j) ?_).trans (gmaskV_apply _ b j L hi)
    intro a
    match a with
    | ⟨0, _⟩ => rfl
    | ⟨1, _⟩ => rfl
  unfold gatherRV
  rw [select_apply, hm, select_one]
  exact gather_apply g3 _ b ch j L hi

/-- The rows the trunk starts from are the specification's gathered rows. -/
theorem xrowsV_apply (gimage : FVec F S32x256x32x32 .f32) (pts : IVec S32x2048x1x2 32)
    (hpts : ∀ i, 0 ≤ (pts i).toInt ∧ (pts i).toInt < 256) (b : Fin 32) (j : Fin 2048) (ch : Fin 256) :
    xrowsV gimage pts (ix2 (rowIx b j) ch)
      = gimage (ix4 b ch (Spec.cell (pts (ix4 b j (0 : Fin 1) (0 : Fin 2)))) (Spec.cell (pts (ix4 b j (0 : Fin 1) (1 : Fin 2))))) := by
  have key : ∀ y x : Fin 32, idxRV pts (ix3 b (0 : Fin 1) j) = BitVec.ofNat 32 (y.val * 32 + x.val) →
      gatherRV (img3V gimage) (idxRV pts) (ix3 b ch j) = gimage (ix4 b ch y x) := by
    intro y x h
    rw [gatherRV_apply (img3V gimage) (idxRV pts) b ch j ⟨y.val * 32 + x.val, by omega⟩ h]
    exact img3V_apply gimage b ch y x
  unfold xrowsV
  rw [rowsV_apply]
  exact key _ _ (idxRV_apply pts hpts b j)

end Gather

end Cert.ReferenceIdeal.Stage

end
-- ==== Proof.RStagesDot.lean ====
/-
  The reference's affine layers read at an index: a product of the rows with a transposed matrix is, at `(R, o)`, the sum
  over the 256 input channels, and the bias row adds the bias of channel `o`.
-/
import proofs.«405869_j26843545600773_3_alg».proof.Proof.RStages

noncomputable section

namespace Cert.ReferenceIdeal.Stage

open Cert.ReferenceIdeal Cert.ReferenceIdeal.Gen Idealize.ShloMosaic Idealize.ShloMosaic.TcCoe Idealize.ShloMosaic.ValueIdx

/-! ## The convolution layer -/

/-- The transposed centre tap at `(k, o)` is the weight at `(o, k, 1, 1)`. -/
theorem tapV_apply {F : FTy → Type} [FloatOps F] (w4 : FVec F S256x256x3x3 .f32) (k o : Fin 256) :
    tapV w4 (ix2 k o) = w4 (ix4 o k (1 : Fin 3) (1 : Fin 3)) := by
  unfold tapV
  refine (transpose256_apply _ k o).trans ?_
  refine (shapeCast_apply _ _ (ix2 o k) (ix4 o k (0 : Fin 1) (0 : Fin 1)) ?_).trans ?_
  · rw [Shape.rowMajor_val_four, Shape.rowMajor_val_two]
    show ((o.val * 256 + k.val) * 1 + 0) * 1 + 0 = o.val * 256 + k.val
    omega
  · refine extractStridedSlice_apply _ _ _ _ (ix4 o k (1 : Fin 3) (1 : Fin 3)) ?_
    intro x
    match x with
    | ⟨0, _⟩ => show o.val = 0 + o.val; omega
    | ⟨1, _⟩ => show k.val = 0 + k.val; omega
    | ⟨2, _⟩ => rfl
    | ⟨3, _⟩ => rfl

theorem convRV_apply (h : FVec Ideal S65536x256 .f32) (w4 : FVec Ideal S256x256x3x3 .f32) (b : FVec Ideal S256 .f32)
    (R : Fin 65536) (o : Fin 256) :
    convRV h w4 b (ix2 R o) = Spec.affine (fun o k => w4 (ix4 o k (1 : Fin 3) (1 : Fin 3))) (vecOf b) (rowOf h R) o := by
  unfold convRV Spec.affine
  rw [addf_apply, dotV_apply, rowB_apply]
  refine congrArg (· + b (ix1 o)) (Finset.sum_congr rfl fun k _ => ?_)
  rw [tapV_apply]

/-! ## The class layer, 256 → 2 -/

/-- The left operand's index of the 65536 × 256 by 256 × 2 product at output `(R, q)` and contraction position `k`. -/
theorem dot2_lhs_0 (j : S65536x2.Idx) (k : dot_S65536x256_S256x2_S65536x2_1_0_0_1_n_n.contr.Idx) :
    (dot_S65536x256_S256x2_S65536x2_1_0_0_1_n_n.lhsIdx j k 0).val = (j 0).val := rfl
theorem dot2_lhs_1 (j : S65536x2.Idx) (k : dot_S65536x256_S256x2_S65536x2_1_0_0_1_n_n.contr.Idx) :
    (dot_S65536x256_S256x2_S65536x2_1_0_0_1_n_n.lhsIdx j k 1).val = (k ⟨0, by decide⟩).val := rfl
theorem dot2_rhs_0 (j : S65536x2.Idx) (k : dot_S65536x256_S256x2_S65536x2_1_0_0_1_n_n.contr.Idx) :
    (dot_S65536x256_S256x2_S65536x2_1_0_0_1_n_n.rhsIdx j k 0).val = (k ⟨0, by decide⟩).val := rfl
theorem dot2_rhs_1 (j : S65536x2.Idx) (k : dot_S65536x256_S256x2_S65536x2_1_0_0_1_n_n.contr.Idx) :
    (dot_S65536x256_S256x2_S65536x2_1_0_0_1_n_n.rhsIdx j k 1).val = (j 1).val := rfl

/-- The product of the rows with a 256 × 2 matrix, read at `(R, q)`: the sum over the 256 input channels. -/
theorem dot2V_apply (h : FVec Ideal S65536x256 .f32) (wT : FVec Ideal S256x2 .f32) (R : Fin 65536) (q : Fin 2) :
    Host.dotGeneral dot_S65536x256_S256x2_S65536x2_1_0_0_1_n_n none h wT (ix2 R q)
      = ∑ k : Fin 256, h (ix2 R k) * wT (ix2 k q) := by
  simp only [Host.dotGeneral]
  rw [Ideal.dotGeneral_apply,
    ← Equiv.sum_comp (contrEquiv1 dot_S65536x256_S256x2_S65536x2_1_0_0_1_n_n 256 rfl rfl).symm]
  refine Finset.sum_congr rfl fun k _ => ?_
  have hk := contrEquiv1_symm_val dot_S65536x256_S256x2_S65536x2_1_0_0_1_n_n 256 rfl rfl k
  have e1 : dot_S65536x256_S256x2_S65536x2_1_0_0_1_n_n.lhsIdx (ix2 R q)
      ((contrEquiv1 dot_S65536x256_S256x2_S65536x2_1_0_0_1_n_n 256 rfl rfl).symm k) = ix2 R k :=
    funext fun a => Fin.ext (by
      match a with
      | ⟨0, _⟩ => exact dot2_lhs_0 _ _
      | ⟨1, _⟩ => exact (dot2_lhs_1 _ _).trans hk)
  have e2 : dot_S65536x256_S256x2_S65536x2_1_0_0_1_n_n.rhsIdx (ix2 R q)
      ((contrEquiv1 dot_S65536x256_S256x2_S65536x2_1_0_0_1_n_n 256 rfl rfl).symm k) = ix2 k q :=
    funext fun a => Fin.ext (by
      match a with
      | ⟨0, _⟩ => exact (dot2_rhs_0 _ _).trans hk
      | ⟨1, _⟩ => exact dot2_rhs_1 _ _)
  rw [e1, e2]

/-- A transposed 2 × 256 matrix at `(k, q)` is the matrix at `(q, k)`. -/
theorem transpose2_apply {α : Type} (w : S2x256.Idx → α) (k : Fin 256) (q : Fin 2) :
    transpose S256x2 [1, 0] w transposes_S2x256_S256x2_1_0 (ix2 k q) = w (ix2 q k) := by
  refine transpose_apply _ _ _ (ix2 k q) (ix2 q k) fun b => ?_
  match b with
  | ⟨0, _⟩ => rfl
  | ⟨1, _⟩ => rfl

/-- A vector of 2 channels laid on every row reads the vector's channel. -/
theorem rowB2_apply {F : FTy → Type} [FloatOps F] (w : FVec F S2 .f32) (R : Fin 65536) (q : Fin 2) :
    broadcastInDim S65536x2 ![0, 1] bcast_S1x2_S65536x2_0_1 (broadcastInDim S1x2 ![1] bcast_S2_S1x2_1 w) (ix2 R q)
      = w (ix1 q) := by
  refine (broadcastInDim_apply _ _ _ (ix2 R q) (ix2 (0 : Fin 1) q) fun a => ?_).trans ?_
  · match a with
    | ⟨0, _⟩ => rfl
    | ⟨1, _⟩ => rfl
  · refine broadcastInDim_apply _ _ _ (ix2 (0 : Fin 1) q) (ix1 q) fun a => ?_
    match a with
    | ⟨0, _⟩ => rfl

theorem fc2RV_apply (h : FVec Ideal S65536x256 .f32) (w : FVec Ideal S2x256 .f32) (b : FVec Ideal S2 .f32)
    (R : Fin 65536) (q : Fin 2) :
    fc2RV h w b (ix2 R q) = Spec.affine (fun q k => w (ix2 q k)) (fun q => b (ix1 q)) (rowOf h R) q := by
  unfold fc2RV Spec.affine
  rw [addf_apply, dot2V_apply, rowB2_apply]
  refine congrArg (· + b (ix1 q)) (Finset.sum_congr rfl fun k _ => ?_)
  rw [transpose2_apply]

/-! ## The last box layer, 256 → 4 -/

/-- The left operand's index of the 65536 × 256 by 256 × 4 product at output `(R, q)` and contraction position `k`. -/
theorem dot4_lhs_0 (j : S65536x4.Idx) (k : dot_S65536x256_S256x4_S65536x4_1_0_0_1_n_n.contr.Idx) :
    (dot_S65536x256_S256x4_S65536x4_1_0_0_1_n_n.lhsIdx j k 0).val = (j 0).val := rfl
theorem dot4_lhs_1 (j : S65536x4.Idx) (k : dot_S65536x256_S256x4_S65536x4_1_0_0_1_n_n.contr.Idx) :
    (dot_S65536x256_S256x4_S65536x4_1_0_0_1_n_n.lhsIdx j k 1).val = (k ⟨0, by decide⟩).val := rfl
theorem dot4_rhs_0 (j : S65536x4.Idx) (k : dot_S65536x256_S256x4_S65536x4_1_0_0_1_n_n.contr.Idx) :
    (dot_S65536x256_S256x4_S65536x4_1_0_0_1_n_n.rhsIdx j k 0).val = (k ⟨0, by decide⟩).val := rfl
theorem dot4_rhs_1 (j : S65536x4.Idx) (k : dot_S65536x256_S256x4_S65536x4_1_0_0_1_n_n.contr.Idx) :
    (dot_S65536x256_S256x4_S65536x4_1_0_0_1_n_n.rhsIdx j k 1).val = (j 1).val := rfl

/-- The product of the rows with a 256 × 4 matrix, read at `(R, q)`: the sum over the 256 input channels. -/
theorem dot4V_apply (h : FVec Ideal S65536x256 .f32) (wT : FVec Ideal S256x4 .f32) (R : Fin 65536) (q : Fin 4) :
    Host.dotGeneral dot_S65536x256_S256x4_S65536x4_1_0_0_1_n_n none h wT (ix2 R q)
      = ∑ k : Fin 256, h (ix2 R k) * wT (ix2 k q) := by
  simp only [Host.dotGeneral]
  rw [Ideal.dotGeneral_apply,
    ← Equiv.sum_comp (contrEquiv1 dot_S65536x256_S256x4_S65536x4_1_0_0_1_n_n 256 rfl rfl).symm]
  refine Finset.sum_congr rfl fun k _ => ?_
  have hk := contrEquiv1_symm_val dot_S65536x256_S256x4_S65536x4_1_0_0_1_n_n 256 rfl rfl k
  have e1 : dot_S65536x256_S256x4_S65536x4_1_0_0_1_n_n.lhsIdx (ix2 R q)
      ((contrEquiv1 dot_S65536x256_S256x4_S65536x4_1_0_0_1_n_n 256 rfl rfl).symm k) = ix2 R k :=
    funext fun a => Fin.ext (by
      match a with
      | ⟨0, _⟩ => exact dot4_lhs_0 _ _
      | ⟨1, _⟩ => exact (dot4_lhs_1 _ _).trans hk)
  have e2 : dot_S65536x256_S256x4_S65536x4_1_0_0_1_n_n.rhsIdx (ix2 R q)
      ((contrEquiv1 dot_S65536x256_S256x4_S65536x4_1_0_0_1_n_n 256 rfl rfl).symm k) = ix2 k q :=
    funext fun a => Fin.ext (by
      match a with
      | ⟨0, _⟩ => exact (dot4_rhs_0 _ _).trans hk
      | ⟨1, _⟩ => exact dot4_rhs_1 _ _)
  rw [e1, e2]

/-- A transposed 4 × 256 matrix at `(k, q)` is the matrix at `(q, k)`. -/
theorem transpose4_apply {α : Type} (w : S4x256.Idx → α) (k : Fin 256) (q : Fin 4) :
    transpose S256x4 [1, 0] w transposes_S4x256_S256x4_1_0 (ix2 k q) = w (ix2 q k) := by
  refine transpose_apply _ _ _ (ix2 k q) (ix2 q k) fun b => ?_
  match b with
  | ⟨0, _⟩ => rfl
  | ⟨1, _⟩ => rfl

/-- A vector of 4 channels laid on every row reads the vector's channel. -/
theorem rowB4_apply {F : FTy → Type} [FloatOps F] (w : FVec F S4 .f32) (R : Fin 65536) (q : Fin 4) :
    broadcastInDim S65536x4 ![0, 1] bcast_S1x4_S65536x4_0_1 (broadcastInDim S1x4 ![1] bcast_S4_S1x4_1 w) (ix2 R q)
      = w (ix1 q) := by
  refine (broadcastInDim_apply _ _ _ (ix2 R q) (ix2 (0 : Fin 1) q) fun a => ?_).trans ?_
  · match a with
    | ⟨0, _⟩ => rfl
    | ⟨1, _⟩ => rfl
  · refine broadcastInDim_apply _ _ _ (ix2 (0 : Fin 1) q) (ix1 q) fun a => ?_
    match a with
    | ⟨0, _⟩ => rfl

theorem fc4RV_apply (h : FVec Ideal S65536x256 .f32) (w : FVec Ideal S4x256 .f32) (b : FVec Ideal S4 .f32)
    (R : Fin 65536) (q : Fin 4) :
    fc4RV h w b (ix2 R q) = Spec.affine (fun q k => w (ix2 q k)) (fun q => b (ix1 q)) (rowOf h R) q := by
  unfold fc4RV Spec.affine
  rw [addf_apply, dot4V_apply, rowB4_apply]
  refine congrArg (· + b (ix1 q)) (Finset.sum_congr rfl fun k _ => ?_)
  rw [transpose4_apply]

end Cert.ReferenceIdeal.Stage

end
-- ==== Proof.RStagesGn.lean ====
/-
  The reference's group normalisation read at an index: the mean and the centred second moment of the channel's group of 8,
  then the normalised value scaled and shifted.
-/
import proofs.«405869_j26843545600773_3_alg».proof.Proof.RStages

noncomputable section

namespace Cert.ReferenceIdeal.Stage

open Cert.ReferenceIdeal Cert.ReferenceIdeal.Gen Idealize.ShloMosaic Idealize.ShloMosaic.TcCoe Idealize.ShloMosaic.ValueIdx

/-- The word of `8.0` is the real number 8. -/
theorem eight_eq : Spec.eight = (((8 : ℝ) : ℝ) : EReal) := by
  unfold Spec.eight
  simp [Ideal.ofBits, Ideal.ieee, -EReal.coe_mul]; norm_num

/-- The variance's divisor is the word of `8.0`. -/
theorem ddofV_apply (i : S_.Idx) : ddofV (F := Ideal) i = Spec.eight := by
  show Ideal.ofBits .f32 0x41000000#32 - (((0#32 : BitVec 32).toInt : ℝ) : EReal) = Spec.eight
  have h0 : (((0#32 : BitVec 32).toInt : ℝ) : EReal) = 0 := by
    rw [show (0#32 : BitVec 32).toInt = 0 by decide]; norm_num
  rw [h0, sub_zero]; rfl

/-- The 256 channels of a row as 32 groups of 8: group `g`'s `j`-th entry is channel `8 g + j`. -/
theorem grpV_apply {F : FTy → Type} [FloatOps F] (x : FVec F S65536x256 .f32) (R : Fin 65536) (g : Fin 32) (j : Fin 8) :
    grpV x (ix3 R g j) = x (ix2 R (Spec.chan g j)) := by
  unfold grpV
  refine shapeCast_apply _ _ (ix3 R g j) (ix2 R (Spec.chan g j)) ?_
  rw [Shape.rowMajor_val_three, Shape.rowMajor_val_two]
  show R.val * 256 + (8 * g.val + j.val) = (R.val * 32 + g.val) * 8 + j.val
  omega

/-- Summing the last axis of `[65536, 32, 8]` leaves `[65536, 32]`. -/
theorem reduces_d2 : S65536x32x8.Reduces [2] S65536x32 := by decide

/-- The sum over a group's 8 entries, from the zero word. -/
theorem sum8_apply (y : FVec Ideal S65536x32x8 .f32) (R : Fin 65536) (g : Fin 32) :
    Host.reduceAdd y (constant S_ .f32 0x00000000#32) reducesTo_S65536x32x8_S65536x32_d2 h_S_ (ix2 R g)
      = ∑ j : Fin 8, y (ix3 R g j) := by
  rw [hostReduceAdd_apply, Ideal.hostReduceAdd_single reducesTo_S65536x32x8_S65536x32_d2 reduces_d2]
  show Ideal.ofBits .f32 0x00000000#32 + _ = _
  rw [Ideal.ofBits_zero_f32, zero_add]
  refine Finset.sum_congr rfl fun k _ => congrArg y (funext fun a => Fin.ext ?_)
  match a with
  | ⟨0, _⟩ => rfl
  | ⟨1, _⟩ => rfl
  | ⟨2, _⟩ => rfl

/-- A broadcast of per-group statistics over the group's 8 entries reads the group's statistic. -/
theorem bcast8_apply {α : Type} (m : S65536x32x1.Idx → α) (R : Fin 65536) (g : Fin 32) (j : Fin 8) :
    broadcastInDim S65536x32x8 ![0, 1, 2] bcast_S65536x32x1_S65536x32x8_0_1_2 m (ix3 R g j) = m (ix3 R g (0 : Fin 1)) := by
  refine broadcastInDim_apply _ _ _ (ix3 R g j) (ix3 R g (0 : Fin 1)) fun a => ?_
  match a with
  | ⟨0, _⟩ => rfl
  | ⟨1, _⟩ => rfl
  | ⟨2, _⟩ => rfl

/-- Per-group sums laid out with a trailing unit axis read the group's sum. -/
theorem bcast1_apply {α : Type} (m : S65536x32.Idx → α) (R : Fin 65536) (g : Fin 32) :
    broadcastInDim S65536x32x1 ![0, 1] bcast_S65536x32_S65536x32x1_0_1 m (ix3 R g (0 : Fin 1)) = m (ix2 R g) := by
  refine broadcastInDim_apply _ _ _ (ix3 R g (0 : Fin 1)) (ix2 R g) fun a => ?_
  match a with
  | ⟨0, _⟩ => rfl
  | ⟨1, _⟩ => rfl

/-- A group's mean: the sum of its 8 channels divided by the word of `8.0`. -/
theorem meanRV_apply (x : FVec Ideal S65536x256 .f32) (R : Fin 65536) (g : Fin 32) :
    meanRV (grpV x) (ix3 R g (0 : Fin 1)) = Spec.meanR (rowOf x R) g := by
  unfold meanRV Spec.meanR
  rw [hostDivf_apply, bcast1_apply, sum8_apply]
  show Ideal.div _ (Ideal.ofBits .f32 0x41000000#32) = Ideal.div _ Spec.eight
  refine congrArg (fun s => Ideal.div s Spec.eight) (Finset.sum_congr rfl fun j _ => ?_)
  exact grpV_apply x R g j

/-- A group's variance: the sum of its 8 squared deviations from the mean divided by the word of `8.0`. -/
theorem varRV_apply (x : FVec Ideal S65536x256 .f32) (R : Fin 65536) (g : Fin 32) :
    varRV (grpV x) (ix3 R g (0 : Fin 1)) = Spec.varR (rowOf x R) g := by
  unfold varRV Spec.varR
  rw [select_apply]
  have hc : broadcastInDim S65536x32x1 ![] bcast_S_S65536x32x1
      (cmpf .ogt (ddofV (F := Ideal)) (constant S_ .f32 0x00000000#32)) (ix3 R g (0 : Fin 1)) = 1#1 := by
    show Ideal.cmp .ogt (ddofV (F := Ideal) _) (Ideal.ofBits .f32 0x00000000#32) = 1#1
    rw [ddofV_apply, Ideal.ofBits_zero_f32, eight_eq]
    show BitVec.ofBool (decide ((0 : EReal) < ((8 : ℝ) : EReal))) = 1#1
    rw [decide_eq_true (EReal.coe_pos.mpr (by norm_num))]; rfl
  rw [hc, select_one, hostDivf_apply, bcast1_apply, sum8_apply]
  show Ideal.div _ (ddofV (F := Ideal) _) = _
  rw [ddofV_apply]
  refine congrArg (fun s => Ideal.div s Spec.eight) (Finset.sum_congr rfl fun j _ => ?_)
  rw [mulf_apply, subf_apply, bcast8_apply, meanRV_apply, grpV_apply]

/-- The normalised value at channel `ch`: the deviation from the group's mean times the reciprocal root of the
    group's variance plus `ε`. -/
theorem gnNormV_apply (x3 : FVec Ideal S65536x32x8 .f32) (mu var : FVec Ideal S65536x32x1 .f32) (R : Fin 65536) (ch : Fin 256) :
    gnNormV x3 mu var (ix2 R ch)
      = (x3 (ix3 R (Spec.grpOf ch) (⟨ch.val % 8, Nat.mod_lt _ (by decide)⟩ : Fin 8)) - mu (ix3 R (Spec.grpOf ch) (0 : Fin 1)))
          * Ideal.rsqrt (var (ix3 R (Spec.grpOf ch) (0 : Fin 1)) + Spec.eps) := by
  unfold gnNormV
  refine (shapeCast_apply _ _ (ix2 R ch) (ix3 R (Spec.grpOf ch) (⟨ch.val % 8, Nat.mod_lt _ (by decide)⟩ : Fin 8)) ?_).trans ?_
  · rw [Shape.rowMajor_val_three, Shape.rowMajor_val_two]
    show (R.val * 32 + ch.val / 8) * 8 + ch.val % 8 = R.val * 256 + ch.val
    omega
  · rw [mulf_apply, subf_apply, bcast8_apply, bcast8_apply]
    rfl

/-- The whole group normalisation at `(R, ch)` is the specification's, on row `R`. -/
theorem gnRV_apply (x : FVec Ideal S65536x256 .f32) (w b : FVec Ideal S256 .f32) (R : Fin 65536) (ch : Fin 256) :
    gnRV x w b (ix2 R ch) = Spec.gnR (rowOf x R) (vecOf w) (vecOf b) ch := by
  have hch : Spec.chan (Spec.grpOf ch) (⟨ch.val % 8, Nat.mod_lt _ (by decide)⟩ : Fin 8) = ch :=
    Fin.ext (by show 8 * (ch.val / 8) + ch.val % 8 = ch.val; omega)
  unfold gnRV scaleV Spec.gnR
  rw [addf_apply, mulf_apply, rowB_apply, rowB_apply, gnNormV_apply, meanRV_apply, varRV_apply, grpV_apply, hch]

end Cert.ReferenceIdeal.Stage

end
-- ==== Proof.RValue.lean ====
/- The reference's value: the buffers @main ends with, stage by stage, and the two results against the specification. -/
import proofs.«405869_j26843545600773_3_alg».proof.Proof.RefKeep
import proofs.«405869_j26843545600773_3_alg».proof.Proof.RStages
import proofs.«405869_j26843545600773_3_alg».proof.Proof.RStagesGather
import proofs.«405869_j26843545600773_3_alg».proof.Proof.RStagesDot
import proofs.«405869_j26843545600773_3_alg».proof.Proof.RStagesGn

noncomputable section

namespace Cert.ReferenceIdeal.Value

open Cert.ReferenceIdeal Cert.ReferenceIdeal.Gen Cert.ReferenceIdeal.Run Cert.ReferenceIdeal.Stage Idealize.ShloMosaic Idealize.ShloMosaic.TcCoe
  Idealize.SL.Sem Idealize.ShloMosaic.StableHlo Idealize.ShloMosaic.ValueIdx

variable {F : FTy → Type} [FloatOps F]

/-! ## The buffers after each prefix of the nine lists -/

/-- The buffers after `ops0`, …, after `ops0 … ops8`. -/
def P1 (V : Valuation τ sig (Elt F)) : Valuation τ sig (Elt F) := after ops0 V
def P2 (V : Valuation τ sig (Elt F)) : Valuation τ sig (Elt F) := after ops1 (P1 V)
def P3 (V : Valuation τ sig (Elt F)) : Valuation τ sig (Elt F) := after ops2 (P2 V)
def P4 (V : Valuation τ sig (Elt F)) : Valuation τ sig (Elt F) := after ops3 (P3 V)
def P5 (V : Valuation τ sig (Elt F)) : Valuation τ sig (Elt F) := after ops4 (P4 V)
def P6 (V : Valuation τ sig (Elt F)) : Valuation τ sig (Elt F) := after ops5 (P5 V)
def P7 (V : Valuation τ sig (Elt F)) : Valuation τ sig (Elt F) := after ops6 (P6 V)
def P8 (V : Valuation τ sig (Elt F)) : Valuation τ sig (Elt F) := after ops7 (P7 V)

theorem after_ops_P (V : Valuation τ sig (Elt F)) : after ops V = after ops8 (P8 V) := after_ops V

/-- What the lists from the `k`-th on write. -/
abbrev tail8 : List (Ref sig .tc) := writes8
abbrev tail7 : List (Ref sig .tc) := writes7 ++ tail8
abbrev tail6 : List (Ref sig .tc) := writes6 ++ tail7
abbrev tail5 : List (Ref sig .tc) := writes5 ++ tail6
abbrev tail4 : List (Ref sig .tc) := writes4 ++ tail5
abbrev tail3 : List (Ref sig .tc) := writes3 ++ tail4
abbrev tail2 : List (Ref sig .tc) := writes2 ++ tail3
abbrev tail1 : List (Ref sig .tc) := writes1 ++ tail2
abbrev tail0 : List (Ref sig .tc) := writes0 ++ tail1

/-- A buffer none of the lists from the `k`-th on writes ends as it was before the `k`-th. -/
theorem back8 (V : Valuation τ sig (Elt F)) {r : Ref sig .tc} (h : r ∉ tail8) :
    P8 V (r : DevRef τ sig) = after ops V (r : DevRef τ sig) := by
  rw [after_ops_P, ops8_keep _ h]
theorem back7 (V : Valuation τ sig (Elt F)) {r : Ref sig .tc} (h : r ∉ tail7) :
    P7 V (r : DevRef τ sig) = after ops V (r : DevRef τ sig) := by
  rw [← back8 V (fun m => h (List.mem_append_right _ m)), P8, ops7_keep _ (fun m => h (List.mem_append_left _ m))]
theorem back6 (V : Valuation τ sig (Elt F)) {r : Ref sig .tc} (h : r ∉ tail6) :
    P6 V (r : DevRef τ sig) = after ops V (r : DevRef τ sig) := by
  rw [← back7 V (fun m => h (List.mem_append_right _ m)), P7, ops6_keep _ (fun m => h (List.mem_append_left _ m))]
theorem back5 (V : Valuation τ sig (Elt F)) {r : Ref sig .tc} (h : r ∉ tail5) :
    P5 V (r : DevRef τ sig) = after ops V (r : DevRef τ sig) := by
  rw [← back6 V (fun m => h (List.mem_append_right _ m)), P6, ops5_keep _ (fun m => h (List.mem_append_left _ m))]
theorem back4 (V : Valuation τ sig (Elt F)) {r : Ref sig .tc} (h : r ∉ tail4) :
    P4 V (r : DevRef τ sig) = after ops V (r : DevRef τ sig) := by
  rw [← back5 V (fun m => h (List.mem_append_right _ m)), P5, ops4_keep _ (fun m => h (List.mem_append_left _ m))]
theorem back3 (V : Valuation τ sig (Elt F)) {r : Ref sig .tc} (h : r ∉ tail3) :
    P3 V (r : DevRef τ sig) = after ops V (r : DevRef τ sig) := by
  rw [← back4 V (fun m => h (List.mem_append_right _ m)), P4, ops3_keep _ (fun m => h (List.mem_append_left _ m))]
theorem back2 (V : Valuation τ sig (Elt F)) {r : Ref sig .tc} (h : r ∉ tail2) :
    P2 V (r : DevRef τ sig) = after ops V (r : DevRef τ sig) := by
  rw [← back3 V (fun m => h (List.mem_append_right _ m)), P3, ops2_keep _ (fun m => h (List.mem_append_left _ m))]
theorem back1 (V : Valuation τ sig (Elt F)) {r : Ref sig .tc} (h : r ∉ tail1) :
    P1 V (r : DevRef τ sig) = after ops V (r : DevRef τ sig) := by
  rw [← back2 V (fun m => h (List.mem_append_right _ m)), P2, ops1_keep _ (fun m => h (List.mem_append_left _ m))]
theorem back0 (V : Valuation τ sig (Elt F)) {r : Ref sig .tc} (h : r ∉ tail0) :
    V (r : DevRef τ sig) = after ops V (r : DevRef τ sig) := by
  rw [← back1 V (fun m => h (List.mem_append_right _ m)), P1, ops0_keep _ (fun m => h (List.mem_append_left _ m))]

/-- A buffer the lists after the `k`-th do not write ends as the `k`-th leaves it. -/
theorem read8 (V : Valuation τ sig (Elt F)) (r : Ref sig .tc) :
    after ops V (r : DevRef τ sig) = after ops8 (P8 V) (r : DevRef τ sig) := by rw [after_ops_P]
theorem read7 (V : Valuation τ sig (Elt F)) {r : Ref sig .tc} (h : r ∉ tail8) :
    after ops V (r : DevRef τ sig) = after ops7 (P7 V) (r : DevRef τ sig) := by
  rw [← back8 V h, P8]
theorem read6 (V : Valuation τ sig (Elt F)) {r : Ref sig .tc} (h : r ∉ tail7) :
    after ops V (r : DevRef τ sig) = after ops6 (P6 V) (r : DevRef τ sig) := by
  rw [← back7 V h, P7]
theorem read5 (V : Valuation τ sig (Elt F)) {r : Ref sig .tc} (h : r ∉ tail6) :
    after ops V (r : DevRef τ sig) = after ops5 (P5 V) (r : DevRef τ sig) := by
  rw [← back6 V h, P6]
theorem read4 (V : Valuation τ sig (Elt F)) {r : Ref sig .tc} (h : r ∉ tail5) :
    after ops V (r : DevRef τ sig) = after ops4 (P4 V) (r : DevRef τ sig) := by
  rw [← back5 V h, P5]
theorem read3 (V : Valuation τ sig (Elt F)) {r : Ref sig .tc} (h : r ∉ tail4) :
    after ops V (r : DevRef τ sig) = after ops3 (P3 V) (r : DevRef τ sig) := by
  rw [← back4 V h, P4]
theorem read2 (V : Valuation τ sig (Elt F)) {r : Ref sig .tc} (h : r ∉ tail3) :
    after ops V (r : DevRef τ sig) = after ops2 (P2 V) (r : DevRef τ sig) := by
  rw [← back3 V h, P3]
theorem read1 (V : Valuation τ sig (Elt F)) {r : Ref sig .tc} (h : r ∉ tail2) :
    after ops V (r : DevRef τ sig) = after ops1 (P1 V) (r : DevRef τ sig) := by
  rw [← back2 V h, P2]
theorem read0 (V : Valuation τ sig (Elt F)) {r : Ref sig .tc} (h : r ∉ tail1) :
    after ops V (r : DevRef τ sig) = after ops0 (V) (r : DevRef τ sig) := by
  rw [← back1 V h, P1]

/-- The arguments are never written. -/
theorem ref_arg (V : Valuation τ sig (Elt F)) {r : Ref sig .tc} (h : r ∉ tail0) : after ops V (r : DevRef τ sig) = V (r : DevRef τ sig) :=
  (back0 V h).symm

/-! ## What each list leaves in the buffers later lists read -/

theorem ops0_v11 (W : Valuation τ sig (Elt F)) :
    after ops0 W (main_v11 : DevRef τ sig) = gatherRV (img3V (W main_arg0)) (idxRV (W main_arg1)) := by
  after_results_simp
  simp only [cast_cast, cast_eq]
  rfl
theorem ops1_v13 (W : Valuation τ sig (Elt F)) :
    after ops1 W (main_v13 : DevRef τ sig) = rowsV (W main_v11) := by
  after_results_simp <;> rfl
theorem ops1_v15 (W : Valuation τ sig (Elt F)) :
    after ops1 W (main_v15 : DevRef τ sig) = par0V (W main_arg2) := by
  after_results_simp <;> rfl
theorem ops1_v17 (W : Valuation τ sig (Elt F)) :
    after ops1 W (main_v17 : DevRef τ sig) = par0V (W main_arg3) := by
  after_results_simp <;> rfl
theorem ops1_v19 (W : Valuation τ sig (Elt F)) :
    after ops1 W (main_v19 : DevRef τ sig) = cw0V (W main_arg4) := by
  after_results_simp <;> rfl
theorem ops1_v21 (W : Valuation τ sig (Elt F)) :
    after ops1 W (main_v21 : DevRef τ sig) = par0V (W main_arg5) := by
  after_results_simp <;> rfl
theorem ops1_v23 (W : Valuation τ sig (Elt F)) :
    after ops1 W (main_v23 : DevRef τ sig) = par0V (W main_arg6) := by
  after_results_simp <;> rfl
theorem ops1_v25 (W : Valuation τ sig (Elt F)) :
    after ops1 W (main_v25 : DevRef τ sig) = par0V (W main_arg7) := by
  after_results_simp <;> rfl
theorem ops1_v27 (W : Valuation τ sig (Elt F)) :
    after ops1 W (main_v27 : DevRef τ sig) = cw0V (W main_arg8) := by
  after_results_simp <;> rfl
theorem ops1_v29 (W : Valuation τ sig (Elt F)) :
    after ops1 W (main_v29 : DevRef τ sig) = par0V (W main_arg9) := by
  after_results_simp <;> rfl
theorem ops1_v30 (W : Valuation τ sig (Elt F)) :
    after ops1 W (main_v30 : DevRef τ sig) = grpV (after ops1 W (main_v13 : DevRef τ sig)) := by
  after_results_simp <;> rfl
theorem ops1_v34 (W : Valuation τ sig (Elt F)) :
    after ops1 W (main_v34 : DevRef τ sig) = meanRV (after ops1 W (main_v30 : DevRef τ sig)) := by
  after_results_simp <;> rfl
theorem ops1_v35 (W : Valuation τ sig (Elt F)) :
    after ops1 W (main_v35 : DevRef τ sig) = varRV (after ops1 W (main_v30 : DevRef τ sig)) := by
  after_results_simp <;> rfl
theorem ops2_v50 (W : Valuation τ sig (Elt F)) :
    after ops2 W (main_v50 : DevRef τ sig) = siluRV (scaleV (gnNormV (W main_v30) (W main_v34) (W main_v35)) (W main_v15) (W main_v17)) := by
  after_results_simp <;> rfl
theorem ops2_v53 (W : Valuation τ sig (Elt F)) :
    after ops2 W (main_v53 : DevRef τ sig) = tapV (W main_v19) := by
  after_results_simp <;> rfl
theorem ops3_v57 (W : Valuation τ sig (Elt F)) :
    after ops3 W (main_v57 : DevRef τ sig) = addf (dotV (W main_v50) (W main_v53)) (rowB (W main_v21)) := by
  after_results_simp <;> rfl
theorem ops3_v71 (W : Valuation τ sig (Elt F)) :
    after ops3 W (main_v71 : DevRef τ sig) = gnNormV (grpV (after ops3 W (main_v57 : DevRef τ sig))) (meanRV (grpV (after ops3 W (main_v57 : DevRef τ sig)))) (varRV (grpV (after ops3 W (main_v57 : DevRef τ sig)))) := by
  after_results_simp <;> rfl
theorem ops3_v72 (W : Valuation τ sig (Elt F)) :
    after ops3 W (main_v72 : DevRef τ sig) = broadcastInDim S1x256 ![1] bcast_S256_S1x256_1 (W main_v23) := by
  after_results_simp <;> rfl
theorem ops4_v86 (W : Valuation τ sig (Elt F)) :
    after ops4 W (main_v86 : DevRef τ sig) = addf (convRV (siluRV (addf (mulf (W main_v71) (broadcastInDim S65536x256 ![0, 1] bcast_S1x256_S65536x256_0_1 (W main_v72))) (rowB (W main_v25)))) (W main_v27) (W main_v29)) (W main_v13) := by
  after_results_simp <;> rfl
theorem ops4_v88 (W : Valuation τ sig (Elt F)) :
    after ops4 W (main_v88 : DevRef τ sig) = par1V (W main_arg2) := by
  after_results_simp <;> rfl
theorem ops4_v90 (W : Valuation τ sig (Elt F)) :
    after ops4 W (main_v90 : DevRef τ sig) = par1V (W main_arg3) := by
  after_results_simp <;> rfl
theorem ops4_v92 (W : Valuation τ sig (Elt F)) :
    after ops4 W (main_v92 : DevRef τ sig) = cw1V (W main_arg4) := by
  after_results_simp <;> rfl
theorem ops4_v94 (W : Valuation τ sig (Elt F)) :
    after ops4 W (main_v94 : DevRef τ sig) = par1V (W main_arg5) := by
  after_results_simp <;> rfl
theorem ops4_v96 (W : Valuation τ sig (Elt F)) :
    after ops4 W (main_v96 : DevRef τ sig) = par1V (W main_arg6) := by
  after_results_simp <;> rfl
theorem ops4_v98 (W : Valuation τ sig (Elt F)) :
    after ops4 W (main_v98 : DevRef τ sig) = par1V (W main_arg7) := by
  after_results_simp <;> rfl
theorem ops4_v100 (W : Valuation τ sig (Elt F)) :
    after ops4 W (main_v100 : DevRef τ sig) = cw1V (W main_arg8) := by
  after_results_simp <;> rfl
theorem ops4_v102 (W : Valuation τ sig (Elt F)) :
    after ops4 W (main_v102 : DevRef τ sig) = par1V (W main_arg9) := by
  after_results_simp <;> rfl
theorem ops4_v103 (W : Valuation τ sig (Elt F)) :
    after ops4 W (main_v103 : DevRef τ sig) = grpV (after ops4 W (main_v86 : DevRef τ sig)) := by
  after_results_simp <;> rfl
theorem ops4_v107 (W : Valuation τ sig (Elt F)) :
    after ops4 W (main_v107 : DevRef τ sig) = meanRV (after ops4 W (main_v103 : DevRef τ sig)) := by
  after_results_simp <;> rfl
theorem ops5_v123 (W : Valuation τ sig (Elt F)) :
    after ops5 W (main_v123 : DevRef τ sig) = siluRV (scaleV (gnNormV (W main_v103) (W main_v107) (varRV (W main_v103))) (W main_v88) (W main_v90)) := by
  after_results_simp <;> rfl
theorem ops6_v130 (W : Valuation τ sig (Elt F)) :
    after ops6 W (main_v130 : DevRef τ sig) = convRV (W main_v123) (W main_v92) (W main_v94) := by
  after_results_simp <;> rfl
theorem ops6_v131 (W : Valuation τ sig (Elt F)) :
    after ops6 W (main_v131 : DevRef τ sig) = grpV (after ops6 W (main_v130 : DevRef τ sig)) := by
  after_results_simp <;> rfl
theorem ops6_v135 (W : Valuation τ sig (Elt F)) :
    after ops6 W (main_v135 : DevRef τ sig) = meanRV (after ops6 W (main_v131 : DevRef τ sig)) := by
  after_results_simp <;> rfl
theorem ops6_v136 (W : Valuation τ sig (Elt F)) :
    after ops6 W (main_v136 : DevRef τ sig) = varRV (after ops6 W (main_v131 : DevRef τ sig)) := by
  after_results_simp <;> rfl
theorem ops7_v159 (W : Valuation τ sig (Elt F)) :
    after ops7 W (main_v159 : DevRef τ sig) = addf (convRV (siluRV (scaleV (gnNormV (W main_v131) (W main_v135) (W main_v136)) (W main_v96) (W main_v98))) (W main_v100) (W main_v102)) (W main_v86) := by
  after_results_simp <;> rfl
theorem ops7_v161 (W : Valuation τ sig (Elt F)) :
    after ops7 W (main_v161 : DevRef τ sig) = Host.dotGeneral dot_S65536x256_S256x2_S65536x2_1_0_0_1_n_n none (after ops7 W (main_v159 : DevRef τ sig)) (transpose S256x2 [1, 0] (W main_arg10) transposes_S2x256_S256x2_1_0) := by
  after_results_simp <;> rfl
theorem ops8_v188 (W : Valuation τ sig (Elt F)) :
    after ops8 W (main_v188 : DevRef τ sig) = out2V (addf (W main_v161) (broadcastInDim S65536x2 ![0, 1] bcast_S1x2_S65536x2_0_1 (broadcastInDim S1x2 ![1] bcast_S2_S1x2_1 (W main_arg11)))) := by
  after_results_simp <;> rfl
theorem ops8_v189 (W : Valuation τ sig (Elt F)) :
    after ops8 W (main_v189 : DevRef τ sig) = out4V (sigRV (fc4RV (reluRV (fcRV (reluRV (fcRV (W main_v159) (W main_arg12) (W main_arg13))) (W main_arg14) (W main_arg15))) (W main_arg16) (W main_arg17))) := by
  after_results_simp <;> rfl

/-! ## The buffers at the end, each as a stage of the buffers it reads -/

theorem g_v11 (V : Valuation τ sig (Elt F)) :
    after ops V (main_v11 : DevRef τ sig) = gatherRV (img3V (V main_arg0)) (idxRV (V main_arg1)) := by
  rw [read0 V (r := main_v11) (by decide),
    ops0_v11]
theorem g_v13 (V : Valuation τ sig (Elt F)) :
    after ops V (main_v13 : DevRef τ sig) = rowsV (after ops V (main_v11 : DevRef τ sig)) := by
  rw [read1 V (r := main_v13) (by decide),
    ops1_v13,
    back1 V (r := main_v11) (by decide)]
theorem g_v15 (V : Valuation τ sig (Elt F)) :
    after ops V (main_v15 : DevRef τ sig) = par0V (V main_arg2) := by
  rw [read1 V (r := main_v15) (by decide),
    ops1_v15,
    back1 V (r := main_arg2) (by decide),
    ref_arg V (r := main_arg2) (by decide)]
theorem g_v17 (V : Valuation τ sig (Elt F)) :
    after ops V (main_v17 : DevRef τ sig) = par0V (V main_arg3) := by
  rw [read1 V (r := main_v17) (by decide),
    ops1_v17,
    back1 V (r := main_arg3) (by decide),
    ref_arg V (r := main_arg3) (by decide)]
theorem g_v19 (V : Valuation τ sig (Elt F)) :
    after ops V (main_v19 : DevRef τ sig) = cw0V (V main_arg4) := by
  rw [read1 V (r := main_v19) (by decide),
    ops1_v19,
    back1 V (r := main_arg4) (by decide),
    ref_arg V (r := main_arg4) (by decide)]
theorem g_v21 (V : Valuation τ sig (Elt F)) :
    after ops V (main_v21 : DevRef τ sig) = par0V (V main_arg5) := by
  rw [read1 V (r := main_v21) (by decide),
    ops1_v21,
    back1 V (r := main_arg5) (by decide),
    ref_arg V (r := main_arg5) (by decide)]
theorem g_v23 (V : Valuation τ sig (Elt F)) :
    after ops V (main_v23 : DevRef τ sig) = par0V (V main_arg6) := by
  rw [read1 V (r := main_v23) (by decide),
    ops1_v23,
    back1 V (r := main_arg6) (by decide),
    ref_arg V (r := main_arg6) (by decide)]
theorem g_v25 (V : Valuation τ sig (Elt F)) :
    after ops V (main_v25 : DevRef τ sig) = par0V (V main_arg7) := by
  rw [read1 V (r := main_v25) (by decide),
    ops1_v25,
    back1 V (r := main_arg7) (by decide),
    ref_arg V (r := main_arg7) (by decide)]
theorem g_v27 (V : Valuation τ sig (Elt F)) :
    after ops V (main_v27 : DevRef τ sig) = cw0V (V main_arg8) := by
  rw [read1 V (r := main_v27) (by decide),
    ops1_v27,
    back1 V (r := main_arg8) (by decide),
    ref_arg V (r := main_arg8) (by decide)]
theorem g_v29 (V : Valuation τ sig (Elt F)) :
    after ops V (main_v29 : DevRef τ sig) = par0V (V main_arg9) := by
  rw [read1 V (r := main_v29) (by decide),
    ops1_v29,
    back1 V (r := main_arg9) (by decide),
    ref_arg V (r := main_arg9) (by decide)]
theorem g_v30 (V : Valuation τ sig (Elt F)) :
    after ops V (main_v30 : DevRef τ sig) = grpV (after ops V (main_v13 : DevRef τ sig)) := by
  rw [read1 V (r := main_v30) (by decide),
    ops1_v30,
    ← read1 V (r := main_v13) (by decide)]
theorem g_v34 (V : Valuation τ sig (Elt F)) :
    after ops V (main_v34 : DevRef τ sig) = meanRV (after ops V (main_v30 : DevRef τ sig)) := by
  rw [read1 V (r := main_v34) (by decide),
    ops1_v34,
    ← read1 V (r := main_v30) (by decide)]
theorem g_v35 (V : Valuation τ sig (Elt F)) :
    after ops V (main_v35 : DevRef τ sig) = varRV (after ops V (main_v30 : DevRef τ sig)) := by
  rw [read1 V (r := main_v35) (by decide),
    ops1_v35,
    ← read1 V (r := main_v30) (by decide)]
theorem g_v50 (V : Valuation τ sig (Elt F)) :
    after ops V (main_v50 : DevRef τ sig) = siluRV (scaleV (gnNormV (after ops V (main_v30 : DevRef τ sig)) (after ops V (main_v34 : DevRef τ sig)) (after ops V (main_v35 : DevRef τ sig))) (after ops V (main_v15 : DevRef τ sig)) (after ops V (main_v17 : DevRef τ sig))) := by
  rw [read2 V (r := main_v50) (by decide),
    ops2_v50,
    back2 V (r := main_v30) (by decide),
    back2 V (r := main_v34) (by decide),
    back2 V (r := main_v35) (by decide),
    back2 V (r := main_v15) (by decide),
    back2 V (r := main_v17) (by decide)]
theorem g_v53 (V : Valuation τ sig (Elt F)) :
    after ops V (main_v53 : DevRef τ sig) = tapV (after ops V (main_v19 : DevRef τ sig)) := by
  rw [read2 V (r := main_v53) (by decide),
    ops2_v53,
    back2 V (r := main_v19) (by decide)]
theorem g_v57 (V : Valuation τ sig (Elt F)) :
    after ops V (main_v57 : DevRef τ sig) = addf (dotV (after ops V (main_v50 : DevRef τ sig)) (after ops V (main_v53 : DevRef τ sig))) (rowB (after ops V (main_v21 : DevRef τ sig))) := by
  rw [read3 V (r := main_v57) (by decide),
    ops3_v57,
    back3 V (r := main_v50) (by decide),
    back3 V (r := main_v53) (by decide),
    back3 V (r := main_v21) (by decide)]
theorem g_v71 (V : Valuation τ sig (Elt F)) :
    after ops V (main_v71 : DevRef τ sig) = gnNormV (grpV (after ops V (main_v57 : DevRef τ sig))) (meanRV (grpV (after ops V (main_v57 : DevRef τ sig)))) (varRV (grpV (after ops V (main_v57 : DevRef τ sig)))) := by
  rw [read3 V (r := main_v71) (by decide),
    ops3_v71,
    ← read3 V (r := main_v57) (by decide)]
theorem g_v72 (V : Valuation τ sig (Elt F)) :
    after ops V (main_v72 : DevRef τ sig) = broadcastInDim S1x256 ![1] bcast_S256_S1x256_1 (after ops V (main_v23 : DevRef τ sig)) := by
  rw [read3 V (r := main_v72) (by decide),
    ops3_v72,
    back3 V (r := main_v23) (by decide)]
theorem g_v86 (V : Valuation τ sig (Elt F)) :
    after ops V (main_v86 : DevRef τ sig) = addf (convRV (siluRV (addf (mulf (after ops V (main_v71 : DevRef τ sig)) (broadcastInDim S65536x256 ![0, 1] bcast_S1x256_S65536x256_0_1 (after ops V (main_v72 : DevRef τ sig)))) (rowB (after ops V (main_v25 : DevRef τ sig))))) (after ops V (main_v27 : DevRef τ sig)) (after ops V (main_v29 : DevRef τ sig))) (after ops V (main_v13 : DevRef τ sig)) := by
  rw [read4 V (r := main_v86) (by decide),
    ops4_v86,
    back4 V (r := main_v71) (by decide),
    back4 V (r := main_v72) (by decide),
    back4 V (r := main_v25) (by decide),
    back4 V (r := main_v27) (by decide),
    back4 V (r := main_v29) (by decide),
    back4 V (r := main_v13) (by decide)]
theorem g_v88 (V : Valuation τ sig (Elt F)) :
    after ops V (main_v88 : DevRef τ sig) = par1V (V main_arg2) := by
  rw [read4 V (r := main_v88) (by decide),
    ops4_v88,
    back4 V (r := main_arg2) (by decide),
    ref_arg V (r := main_arg2) (by decide)]
theorem g_v90 (V : Valuation τ sig (Elt F)) :
    after ops V (main_v90 : DevRef τ sig) = par1V (V main_arg3) := by
  rw [read4 V (r := main_v90) (by decide),
    ops4_v90,
    back4 V (r := main_arg3) (by decide),
    ref_arg V (r := main_arg3) (by decide)]
theorem g_v92 (V : Valuation τ sig (Elt F)) :
    after ops V (main_v92 : DevRef τ sig) = cw1V (V main_arg4) := by
  rw [read4 V (r := main_v92) (by decide),
    ops4_v92,
    back4 V (r := main_arg4) (by decide),
    ref_arg V (r := main_arg4) (by decide)]
theorem g_v94 (V : Valuation τ sig (Elt F)) :
    after ops V (main_v94 : DevRef τ sig) = par1V (V main_arg5) := by
  rw [read4 V (r := main_v94) (by decide),
    ops4_v94,
    back4 V (r := main_arg5) (by decide),
    ref_arg V (r := main_arg5) (by decide)]
theorem g_v96 (V : Valuation τ sig (Elt F)) :
    after ops V (main_v96 : DevRef τ sig) = par1V (V main_arg6) := by
  rw [read4 V (r := main_v96) (by decide),
    ops4_v96,
    back4 V (r := main_arg6) (by decide),
    ref_arg V (r := main_arg6) (by decide)]
theorem g_v98 (V : Valuation τ sig (Elt F)) :
    after ops V (main_v98 : DevRef τ sig) = par1V (V main_arg7) := by
  rw [read4 V (r := main_v98) (by decide),
    ops4_v98,
    back4 V (r := main_arg7) (by decide),
    ref_arg V (r := main_arg7) (by decide)]
theorem g_v100 (V : Valuation τ sig (Elt F)) :
    after ops V (main_v100 : DevRef τ sig) = cw1V (V main_arg8) := by
  rw [read4 V (r := main_v100) (by decide),
    ops4_v100,
    back4 V (r := main_arg8) (by decide),
    ref_arg V (r := main_arg8) (by decide)]
theorem g_v102 (V : Valuation τ sig (Elt F)) :
    after ops V (main_v102 : DevRef τ sig) = par1V (V main_arg9) := by
  rw [read4 V (r := main_v102) (by decide),
    ops4_v102,
    back4 V (r := main_arg9) (by decide),
    ref_arg V (r := main_arg9) (by decide)]
theorem g_v103 (V : Valuation τ sig (Elt F)) :
    after ops V (main_v103 : DevRef τ sig) = grpV (after ops V (main_v86 : DevRef τ sig)) := by
  rw [read4 V (r := main_v103) (by decide),
    ops4_v103,
    ← read4 V (r := main_v86) (by decide)]
theorem g_v107 (V : Valuation τ sig (Elt F)) :
    after ops V (main_v107 : DevRef τ sig) = meanRV (after ops V (main_v103 : DevRef τ sig)) := by
  rw [read4 V (r := main_v107) (by decide),
    ops4_v107,
    ← read4 V (r := main_v103) (by decide)]
theorem g_v123 (V : Valuation τ sig (Elt F)) :
    after ops V (main_v123 : DevRef τ sig) = siluRV (scaleV (gnNormV (after ops V (main_v103 : DevRef τ sig)) (after ops V (main_v107 : DevRef τ sig)) (varRV (after ops V (main_v103 : DevRef τ sig)))) (after ops V (main_v88 : DevRef τ sig)) (after ops V (main_v90 : DevRef τ sig))) := by
  rw [read5 V (r := main_v123) (by decide),
    ops5_v123,
    back5 V (r := main_v103) (by decide),
    back5 V (r := main_v107) (by decide),
    back5 V (r := main_v88) (by decide),
    back5 V (r := main_v90) (by decide)]
theorem g_v130 (V : Valuation τ sig (Elt F)) :
    after ops V (main_v130 : DevRef τ sig) = convRV (after ops V (main_v123 : DevRef τ sig)) (after ops V (main_v92 : DevRef τ sig)) (after ops V (main_v94 : DevRef τ sig)) := by
  rw [read6 V (r := main_v130) (by decide),
    ops6_v130,
    back6 V (r := main_v123) (by decide),
    back6 V (r := main_v92) (by decide),
    back6 V (r := main_v94) (by decide)]
theorem g_v131 (V : Valuation τ sig (Elt F)) :
    after ops V (main_v131 : DevRef τ sig) = grpV (after ops V (main_v130 : DevRef τ sig)) := by
  rw [read6 V (r := main_v131) (by decide),
    ops6_v131,
    ← read6 V (r := main_v130) (by decide)]
theorem g_v135 (V : Valuation τ sig (Elt F)) :
    after ops V (main_v135 : DevRef τ sig) = meanRV (after ops V (main_v131 : DevRef τ sig)) := by
  rw [read6 V (r := main_v135) (by decide),
    ops6_v135,
    ← read6 V (r := main_v131) (by decide)]
theorem g_v136 (V : Valuation τ sig (Elt F)) :
    after ops V (main_v136 : DevRef τ sig) = varRV (after ops V (main_v131 : DevRef τ sig)) := by
  rw [read6 V (r := main_v136) (by decide),
    ops6_v136,
    ← read6 V (r := main_v131) (by decide)]
theorem g_v159 (V : Valuation τ sig (Elt F)) :
    after ops V (main_v159 : DevRef τ sig) = addf (convRV (siluRV (scaleV (gnNormV (after ops V (main_v131 : DevRef τ sig)) (after ops V (main_v135 : DevRef τ sig)) (after ops V (main_v136 : DevRef τ sig))) (after ops V (main_v96 : DevRef τ sig)) (after ops V (main_v98 : DevRef τ sig)))) (after ops V (main_v100 : DevRef τ sig)) (after ops V (main_v102 : DevRef τ sig))) (after ops V (main_v86 : DevRef τ sig)) := by
  rw [read7 V (r := main_v159) (by decide),
    ops7_v159,
    back7 V (r := main_v131) (by decide),
    back7 V (r := main_v135) (by decide),
    back7 V (r := main_v136) (by decide),
    back7 V (r := main_v96) (by decide),
    back7 V (r := main_v98) (by decide),
    back7 V (r := main_v100) (by decide),
    back7 V (r := main_v102) (by decide),
    back7 V (r := main_v86) (by decide)]
theorem g_v161 (V : Valuation τ sig (Elt F)) :
    after ops V (main_v161 : DevRef τ sig) = Host.dotGeneral dot_S65536x256_S256x2_S65536x2_1_0_0_1_n_n none (after ops V (main_v159 : DevRef τ sig)) (transpose S256x2 [1, 0] (V main_arg10) transposes_S2x256_S256x2_1_0) := by
  rw [read7 V (r := main_v161) (by decide),
    ops7_v161,
    ← read7 V (r := main_v159) (by decide),
    back7 V (r := main_arg10) (by decide),
    ref_arg V (r := main_arg10) (by decide)]
theorem g_v188 (V : Valuation τ sig (Elt F)) :
    after ops V (main_v188 : DevRef τ sig) = out2V (addf (after ops V (main_v161 : DevRef τ sig)) (broadcastInDim S65536x2 ![0, 1] bcast_S1x2_S65536x2_0_1 (broadcastInDim S1x2 ![1] bcast_S2_S1x2_1 (V main_arg11)))) := by
  rw [read8 V main_v188,
    ops8_v188,
    back8 V (r := main_v161) (by decide),
    back8 V (r := main_arg11) (by decide),
    ref_arg V (r := main_arg11) (by decide)]
theorem g_v189 (V : Valuation τ sig (Elt F)) :
    after ops V (main_v189 : DevRef τ sig) = out4V (sigRV (fc4RV (reluRV (fcRV (reluRV (fcRV (after ops V (main_v159 : DevRef τ sig)) (V main_arg12) (V main_arg13))) (V main_arg14) (V main_arg15))) (V main_arg16) (V main_arg17))) := by
  rw [read8 V main_v189,
    ops8_v189,
    back8 V (r := main_v159) (by decide),
    back8 V (r := main_arg12) (by decide),
    ref_arg V (r := main_arg12) (by decide),
    back8 V (r := main_arg13) (by decide),
    ref_arg V (r := main_arg13) (by decide),
    back8 V (r := main_arg14) (by decide),
    ref_arg V (r := main_arg14) (by decide),
    back8 V (r := main_arg15) (by decide),
    ref_arg V (r := main_arg15) (by decide),
    back8 V (r := main_arg16) (by decide),
    ref_arg V (r := main_arg16) (by decide),
    back8 V (r := main_arg17) (by decide),
    ref_arg V (r := main_arg17) (by decide)]

/-! ## The two residual blocks and the heads, on whole arrays -/

/-- The first block's output rows. -/
theorem g_block0 (V : Valuation τ sig (Elt F)) :
    after ops V (main_v86 : DevRef τ sig)
      = rbRV (xrowsV (V main_arg0) (V main_arg1)) (par0V (V main_arg2)) (par0V (V main_arg3)) (cw0V (V main_arg4)) (par0V (V main_arg5))
          (par0V (V main_arg6)) (par0V (V main_arg7)) (cw0V (V main_arg8)) (par0V (V main_arg9)) := by
  rw [g_v86, g_v71, g_v72, g_v57, g_v50, g_v53, g_v35, g_v34, g_v30, g_v13, g_v11, g_v15, g_v17, g_v19, g_v21, g_v23, g_v25, g_v27, g_v29]
  rfl

/-- The second block's output rows. -/
theorem g_block1 (V : Valuation τ sig (Elt F)) :
    after ops V (main_v159 : DevRef τ sig)
      = rbRV (after ops V (main_v86 : DevRef τ sig)) (par1V (V main_arg2)) (par1V (V main_arg3)) (cw1V (V main_arg4)) (par1V (V main_arg5))
          (par1V (V main_arg6)) (par1V (V main_arg7)) (cw1V (V main_arg8)) (par1V (V main_arg9)) := by
  rw [g_v159, g_v136, g_v135, g_v131, g_v130, g_v123, g_v107, g_v103, g_v88, g_v90, g_v92, g_v94, g_v96, g_v98, g_v100, g_v102]
  rfl

/-- The trunk's output rows, from the arguments. -/
def trunkRV (V : Valuation τ sig (Elt F)) : FVec F S65536x256 .f32 :=
  rbRV
    (rbRV (xrowsV (V main_arg0) (V main_arg1)) (par0V (V main_arg2)) (par0V (V main_arg3)) (cw0V (V main_arg4)) (par0V (V main_arg5))
      (par0V (V main_arg6)) (par0V (V main_arg7)) (cw0V (V main_arg8)) (par0V (V main_arg9)))
    (par1V (V main_arg2)) (par1V (V main_arg3)) (cw1V (V main_arg4)) (par1V (V main_arg5))
    (par1V (V main_arg6)) (par1V (V main_arg7)) (cw1V (V main_arg8)) (par1V (V main_arg9))

theorem g_trunk (V : Valuation τ sig (Elt F)) : after ops V (main_v159 : DevRef τ sig) = trunkRV V := by
  rw [g_block1, g_block0]; rfl

/-- The class logits' buffer. -/
theorem g_logits (V : Valuation τ sig (Elt F)) :
    after ops V (main_v188 : DevRef τ sig) = out2V (fc2RV (trunkRV V) (V main_arg10) (V main_arg11)) := by
  rw [g_v188, g_v161, g_trunk]; rfl

/-- The boxes' buffer. -/
theorem g_boxes (V : Valuation τ sig (Elt F)) :
    after ops V (main_v189 : DevRef τ sig)
      = out4V (sigRV (fc4RV (reluRV (fcRV (reluRV (fcRV (trunkRV V) (V main_arg12) (V main_arg13))) (V main_arg14) (V main_arg15)))
          (V main_arg16) (V main_arg17))) := by
  rw [g_v189, g_trunk]

/-! ## At the ideal instance: rows of the stages are the specification's row functions -/

section Ideal

theorem rowOf_gn (x : FVec Ideal S65536x256 .f32) (w b : FVec Ideal S256 .f32) (R : Fin 65536) :
    rowOf (gnRV x w b) R = Spec.gnR (rowOf x R) (vecOf w) (vecOf b) := funext fun ch => gnRV_apply x w b R ch

theorem rowOf_silu (h : FVec Ideal S65536x256 .f32) (R : Fin 65536) : rowOf (siluRV h) R = Spec.silu (rowOf h R) :=
  funext fun k => siluRV_apply h R k

theorem rowOf_relu (h : FVec Ideal S65536x256 .f32) (R : Fin 65536) : rowOf (reluRV h) R = Spec.relu (rowOf h R) :=
  funext fun k => reluRV_apply h R k

theorem rowOf_conv (h : FVec Ideal S65536x256 .f32) (w4 : FVec Ideal S256x256x3x3 .f32) (b : FVec Ideal S256 .f32) (R : Fin 65536) :
    rowOf (convRV h w4 b) R = Spec.affine (fun o k => w4 (ix4 o k (1 : Fin 3) (1 : Fin 3))) (vecOf b) (rowOf h R) :=
  funext fun o => convRV_apply h w4 b R o

theorem rowOf_fc (h : FVec Ideal S65536x256 .f32) (w : FVec Ideal S256x256 .f32) (b : FVec Ideal S256 .f32) (R : Fin 65536) :
    rowOf (fcRV h w b) R = Spec.affine (fun o k => w (ix2 o k)) (vecOf b) (rowOf h R) :=
  funext fun o => fcRV_apply h w b R o

/-- A block's parameter arrays as the specification's record. -/
def rbpOf (g1w g1b : FVec Ideal S256 .f32) (w1 : FVec Ideal S256x256x3x3 .f32) (b1 g2w g2b : FVec Ideal S256 .f32)
    (w2 : FVec Ideal S256x256x3x3 .f32) (b2 : FVec Ideal S256 .f32) : Spec.RBP where
  g1w := vecOf g1w
  g1b := vecOf g1b
  w1 := fun o k => w1 (ix4 o k (1 : Fin 3) (1 : Fin 3))
  b1 := vecOf b1
  g2w := vecOf g2w
  g2b := vecOf g2b
  w2 := fun o k => w2 (ix4 o k (1 : Fin 3) (1 : Fin 3))
  b2 := vecOf b2

/-- A residual block on the rows is the specification's block on each row. -/
theorem rowOf_rb (x : FVec Ideal S65536x256 .f32) (g1w g1b : FVec Ideal S256 .f32) (w1 : FVec Ideal S256x256x3x3 .f32)
    (b1 g2w g2b : FVec Ideal S256 .f32) (w2 : FVec Ideal S256x256x3x3 .f32) (b2 : FVec Ideal S256 .f32) (R : Fin 65536) :
    rowOf (rbRV x g1w g1b w1 b1 g2w g2b w2 b2) R = Spec.rb Spec.gnR (rbpOf g1w g1b w1 b1 g2w g2b w2 b2) (rowOf x R) := by
  funext k
  show addf (convRV (siluRV (gnRV (convRV (siluRV (gnRV x g1w g1b)) w1 b1) g2w g2b)) w2 b2) x (ix2 R k) = _
  rw [addf_apply]
  show rowOf (convRV (siluRV (gnRV (convRV (siluRV (gnRV x g1w g1b)) w1 b1) g2w g2b)) w2 b2) R k + rowOf x R k = _
  rw [rowOf_conv, rowOf_silu, rowOf_gn, rowOf_conv, rowOf_silu, rowOf_gn]
  rfl

theorem rbpOf_0 (a2 a3 : FVec Ideal S2x256 .f32) (a4 : FVec Ideal S2x256x256x3x3 .f32) (a5 a6 a7 : FVec Ideal S2x256 .f32)
    (a8 : FVec Ideal S2x256x256x3x3 .f32) (a9 : FVec Ideal S2x256 .f32) :
    rbpOf (par0V a2) (par0V a3) (cw0V a4) (par0V a5) (par0V a6) (par0V a7) (cw0V a8) (par0V a9)
      = Spec.rbp 0 a2 a3 a4 a5 a6 a7 a8 a9 := by
  unfold rbpOf Spec.rbp
  congr 1
  · funext k; exact par0V_apply a2 k
  · funext k; exact par0V_apply a3 k
  · funext o k; exact cw0V_apply a4 o k 1 1
  · funext k; exact par0V_apply a5 k
  · funext k; exact par0V_apply a6 k
  · funext k; exact par0V_apply a7 k
  · funext o k; exact cw0V_apply a8 o k 1 1
  · funext k; exact par0V_apply a9 k

theorem rbpOf_1 (a2 a3 : FVec Ideal S2x256 .f32) (a4 : FVec Ideal S2x256x256x3x3 .f32) (a5 a6 a7 : FVec Ideal S2x256 .f32)
    (a8 : FVec Ideal S2x256x256x3x3 .f32) (a9 : FVec Ideal S2x256 .f32) :
    rbpOf (par1V a2) (par1V a3) (cw1V a4) (par1V a5) (par1V a6) (par1V a7) (cw1V a8) (par1V a9)
      = Spec.rbp 1 a2 a3 a4 a5 a6 a7 a8 a9 := by
  unfold rbpOf Spec.rbp
  congr 1
  · funext k; exact par1V_apply a2 k
  · funext k; exact par1V_apply a3 k
  · funext o k; exact cw1V_apply a4 o k 1 1
  · funext k; exact par1V_apply a5 k
  · funext k; exact par1V_apply a6 k
  · funext k; exact par1V_apply a7 k
  · funext o k; exact cw1V_apply a8 o k 1 1
  · funext k; exact par1V_apply a9 k

/-- The rows the trunk starts from are the specification's gathered rows. -/
theorem rowOf_xrows (gimage : FVec Ideal S32x256x32x32 .f32) (pts : IVec S32x2048x1x2 32)
    (hpts : ∀ i, 0 ≤ (pts i).toInt ∧ (pts i).toInt < 256) (b : Fin 32) (j : Fin 2048) :
    rowOf (xrowsV gimage pts) (rowIx b j) = Spec.xrow gimage pts b j :=
  funext fun ch => xrowsV_apply gimage pts hpts b j ch

variable (V : Valuation τ sig (Elt Ideal))

/-- The trunk's output, row by row. -/
theorem rowOf_trunk (hpts : ∀ i, 0 ≤ ((V (main_arg1 : DevRef τ sig) : IVec S32x2048x1x2 32) i).toInt
      ∧ ((V (main_arg1 : DevRef τ sig) : IVec S32x2048x1x2 32) i).toInt < 256) (b : Fin 32) (j : Fin 2048) :
    rowOf (trunkRV V) (rowIx b j)
      = Spec.trunk Spec.gnR
          (Spec.rbp 0 (V main_arg2) (V main_arg3) (V main_arg4) (V main_arg5) (V main_arg6) (V main_arg7) (V main_arg8) (V main_arg9))
          (Spec.rbp 1 (V main_arg2) (V main_arg3) (V main_arg4) (V main_arg5) (V main_arg6) (V main_arg7) (V main_arg8) (V main_arg9))
          (Spec.xrow (V main_arg0) (V main_arg1) b j) := by
  unfold trunkRV Spec.trunk
  rw [rowOf_rb, rowOf_rb, rbpOf_0, rbpOf_1, rowOf_xrows _ _ hpts]

/-- The class logits the reference ends with are the specification's, candidate by candidate. -/
theorem ref_logits (hpts : ∀ i, 0 ≤ ((V (main_arg1 : DevRef τ sig) : IVec S32x2048x1x2 32) i).toInt
      ∧ ((V (main_arg1 : DevRef τ sig) : IVec S32x2048x1x2 32) i).toInt < 256) :
    (after ops V (main_v188 : DevRef τ sig) : S32x2048x2.Idx → EReal)
      = fun i => Spec.logits
          (Spec.headp (V main_arg10) (V main_arg11) (V main_arg12) (V main_arg13) (V main_arg14) (V main_arg15) (V main_arg16) (V main_arg17))
          (Spec.trunk Spec.gnR
            (Spec.rbp 0 (V main_arg2) (V main_arg3) (V main_arg4) (V main_arg5) (V main_arg6) (V main_arg7) (V main_arg8) (V main_arg9))
            (Spec.rbp 1 (V main_arg2) (V main_arg3) (V main_arg4) (V main_arg5) (V main_arg6) (V main_arg7) (V main_arg8) (V main_arg9))
            (Spec.xrow (V main_arg0) (V main_arg1) (i 0) (i 1))) (i 2) := by
  funext i
  rw [g_logits, out2V_apply]
  refine (fc2RV_apply _ _ _ _ _).trans ?_
  rw [rowOf_trunk V hpts (i 0) (i 1)]
  rfl

/-- The boxes the reference ends with are the specification's, candidate by candidate. -/
theorem ref_boxes (hpts : ∀ i, 0 ≤ ((V (main_arg1 : DevRef τ sig) : IVec S32x2048x1x2 32) i).toInt
      ∧ ((V (main_arg1 : DevRef τ sig) : IVec S32x2048x1x2 32) i).toInt < 256) :
    (after ops V (main_v189 : DevRef τ sig) : S32x2048x4.Idx → EReal)
      = fun i => Spec.boxes
          (Spec.headp (V main_arg10) (V main_arg11) (V main_arg12) (V main_arg13) (V main_arg14) (V main_arg15) (V main_arg16) (V main_arg17))
          (Spec.trunk Spec.gnR
            (Spec.rbp 0 (V main_arg2) (V main_arg3) (V main_arg4) (V main_arg5) (V main_arg6) (V main_arg7) (V main_arg8) (V main_arg9))
            (Spec.rbp 1 (V main_arg2) (V main_arg3) (V main_arg4) (V main_arg5) (V main_arg6) (V main_arg7) (V main_arg8) (V main_arg9))
            (Spec.xrow (V main_arg0) (V main_arg1) (i 0) (i 1))) (i 2) := by
  funext i
  rw [g_boxes, out4V_apply]
  refine (sigRV_apply _ _ _).trans ((congrArg Ideal.logistic (fc4RV_apply _ _ _ _ _)).trans ?_)
  rw [rowOf_relu, rowOf_fc, rowOf_relu, rowOf_fc, rowOf_trunk V hpts (i 0) (i 1)]
  rfl

end Ideal

/-! ## At the launch contents

The buffers a device starts from are the memory's at its locations; the three statements above, read there. -/

section Launch

/-- An argument buffer ends as the memory had it at launch. -/
theorem launch_arg (m' : (ℓ : Loc Cert.ReferenceIdeal.nD Cert.ReferenceIdeal.τ Cert.ReferenceIdeal.sig) → Buf (Elt Ideal) ℓ) (c : Dev Cert.ReferenceIdeal.nD)
    (b : Ref Cert.ReferenceIdeal.sig .tc) (hb : b ∈ [main_arg0, main_arg1, main_arg2, main_arg3, main_arg4, main_arg5, main_arg6, main_arg7, main_arg8, main_arg9, main_arg10, main_arg11, main_arg12, main_arg13, main_arg14, main_arg15, main_arg16, main_arg17]) :
    after (ops (F := Ideal)) (launchContents m' c) (b : DevRef τ sig) = m' ((c.tc : Thread nD τ).loc b) := by
  have key : ∀ r ∈ [main_arg0, main_arg1, main_arg2, main_arg3, main_arg4, main_arg5, main_arg6, main_arg7, main_arg8, main_arg9, main_arg10, main_arg11, main_arg12, main_arg13, main_arg14, main_arg15, main_arg16, main_arg17], r ∉ (tail0 : List (Ref sig .tc)) := by
    decide
  exact ref_arg (launchContents m' c) (key b hb)

/-- The class logits at the end, from the memory at launch. -/
theorem launch_logits (m' : (ℓ : Loc Cert.ReferenceIdeal.nD Cert.ReferenceIdeal.τ Cert.ReferenceIdeal.sig) → Buf (Elt Ideal) ℓ) (c : Dev Cert.ReferenceIdeal.nD)
    (hpts : ∀ i, 0 ≤ ((m' ((c.tc : Thread Cert.ReferenceIdeal.nD Cert.ReferenceIdeal.τ).loc Cert.ReferenceIdeal.main_arg1)) i).toInt ∧ ((m' ((c.tc : Thread Cert.ReferenceIdeal.nD Cert.ReferenceIdeal.τ).loc Cert.ReferenceIdeal.main_arg1)) i).toInt < 256) :
    (after (ops (F := Ideal)) (launchContents m' c) (main_v188 : DevRef τ sig) : S32x2048x2.Idx → EReal)
      = fun i => Spec.logits (Spec.headp (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)))
          (Spec.trunk Spec.gnR (Spec.rbp 0 (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))) (Spec.rbp 1 (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))) (Spec.xrow (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (i 0) (i 1))) (i 2) :=
  ref_logits (launchContents m' c) hpts

/-- The boxes at the end, from the memory at launch. -/
theorem launch_boxes (m' : (ℓ : Loc Cert.ReferenceIdeal.nD Cert.ReferenceIdeal.τ Cert.ReferenceIdeal.sig) → Buf (Elt Ideal) ℓ) (c : Dev Cert.ReferenceIdeal.nD)
    (hpts : ∀ i, 0 ≤ ((m' ((c.tc : Thread Cert.ReferenceIdeal.nD Cert.ReferenceIdeal.τ).loc Cert.ReferenceIdeal.main_arg1)) i).toInt ∧ ((m' ((c.tc : Thread Cert.ReferenceIdeal.nD Cert.ReferenceIdeal.τ).loc Cert.ReferenceIdeal.main_arg1)) i).toInt < 256) :
    (after (ops (F := Ideal)) (launchContents m' c) (main_v189 : DevRef τ sig) : S32x2048x4.Idx → EReal)
      = fun i => Spec.boxes (Spec.headp (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)))
          (Spec.trunk Spec.gnR (Spec.rbp 0 (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))) (Spec.rbp 1 (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))) (Spec.xrow (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (i 0) (i 1))) (i 2) :=
  ref_boxes (launchContents m' c) hpts

end Launch

end Cert.ReferenceIdeal.Value

end
-- ==== Proof.lean ====
/-
  Two programs compute, for every candidate point of every batch, the class logits and the box of the image
  feature at the point's cell, passed through two residual blocks and two small heads.

  The kernel gathers the feature by a one-hot product (a bf16 high part plus a low part that vanishes over the
  reals), and takes each group normalisation's statistics as first and second moments against an indicator matrix;
  the reference gathers by index and takes a mean and a centred second moment. Over real inputs, with every point
  inside the image (so that both gathers read the same cell), the two rows agree stage by stage: the moment form of
  the variance is the centred form, `x · ⅛ = x / 8`, and everything else is the same function of the same row.
  The three frames are the programs' runs; the one rewrite of the idealisation is the identity of a narrowing
  followed by a widening.
-/
import proofs.«405869_j26843545600773_3_alg».proof.Defs
import proofs.«405869_j26843545600773_3_alg».proof.Proof.Gen.Kernel
import proofs.«405869_j26843545600773_3_alg».proof.Proof.KernelFrameP
import proofs.«405869_j26843545600773_3_alg».proof.Proof.Gen.KernelIdeal
import proofs.«405869_j26843545600773_3_alg».proof.Proof.KernelIdealFrameP
import proofs.«405869_j26843545600773_3_alg».proof.Proof.KernelIdealRunP
import proofs.«405869_j26843545600773_3_alg».proof.Proof.Gen.ReferenceIdeal
import proofs.«405869_j26843545600773_3_alg».proof.Proof.Gen.Pre_finite_inputs
import proofs.«405869_j26843545600773_3_alg».proof.Proof.PreDecode
import proofs.«405869_j26843545600773_3_alg».proof.Proof.SpecMath
import proofs.«405869_j26843545600773_3_alg».proof.Proof.Params
import proofs.«405869_j26843545600773_3_alg».proof.Proof.KValue
import proofs.«405869_j26843545600773_3_alg».proof.Proof.RefRun
import proofs.«405869_j26843545600773_3_alg».proof.Proof.RValue
import Idealize.ShloMosaic.Adequacy
import Idealize.ShloMosaic.Init

noncomputable section

namespace Cert.Proof

open Idealize.ShloMosaic Idealize.ShloMosaic.TcCoe Idealize.SL.Sem

/-! ## What the precondition gives -/

/-- The precondition read at the kernel's memory: every float argument real, every point coordinate in `[0, 256)`. -/
theorem decoded (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    Cert.PreDecode.Decoded (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) :=
  Cert.PreDecode.decode _ _ _ _ _ _ _ _ _ _ _ _ _ _ _ _ _ _ (hpre c)

/-- A residual block's parameters are real when the arrays they are read from are. -/
theorem rbp_isReal (i : Fin 2)
    (a2 a3 : (⟨2, ![2, 256]⟩ : Shape).Idx → EReal) (a4 : (⟨5, ![2, 256, 256, 3, 3]⟩ : Shape).Idx → EReal)
    (a5 a6 a7 : (⟨2, ![2, 256]⟩ : Shape).Idx → EReal) (a8 : (⟨5, ![2, 256, 256, 3, 3]⟩ : Shape).Idx → EReal)
    (a9 : (⟨2, ![2, 256]⟩ : Shape).Idx → EReal)
    (h2 : ∀ i, ∃ r : ℝ, a2 i = (r : EReal)) (h3 : ∀ i, ∃ r : ℝ, a3 i = (r : EReal)) (h4 : ∀ i, ∃ r : ℝ, a4 i = (r : EReal))
    (h5 : ∀ i, ∃ r : ℝ, a5 i = (r : EReal)) (h6 : ∀ i, ∃ r : ℝ, a6 i = (r : EReal)) (h7 : ∀ i, ∃ r : ℝ, a7 i = (r : EReal))
    (h8 : ∀ i, ∃ r : ℝ, a8 i = (r : EReal)) (h9 : ∀ i, ∃ r : ℝ, a9 i = (r : EReal)) :
    (Spec.rbp i a2 a3 a4 a5 a6 a7 a8 a9).IsReal :=
  ⟨fun _ => h2 _, fun _ => h3 _, fun _ _ => h4 _, fun _ => h5 _, fun _ => h6 _, fun _ => h7 _, fun _ _ => h8 _, fun _ => h9 _⟩

/-! ## The claims -/

theorem frame_p : Cert.frame_Kernel (hKernel := Cert.Kernel.Gen.facts) (hPre_finite_inputs := Cert.Pre_finite_inputs.Gen.facts) :=
  fun m ρ _ => Cert.Kernel.GenP.frame m ρ

theorem frame_pi : Cert.frame_KernelIdeal (hKernelIdeal := Cert.KernelIdeal.Gen.facts) (hPre_finite_inputs := Cert.Pre_finite_inputs.Gen.facts) :=
  fun m ρ _ => Cert.KernelIdeal.GenP.frame m ρ

/-- The one ledger entry: a narrowing to bf16 followed by the widening back is the identity on extended reals. -/
theorem preserves : Cert.preserves_Kernel_KernelIdeal :=
  IdealRules.truncf_extf.statement Cert.KernelIdeal.S256x1024 .f32 .bf16

/-- The reference's frame: its run, read at the argument buffers, none of which any operation writes. -/
theorem frame_ri : Cert.frame_ReferenceIdeal (hReferenceIdeal := Cert.ReferenceIdeal.Gen.facts) (hPre_finite_inputs := Cert.Pre_finite_inputs.Gen.facts) := by
  intro m' ρ' _
  refine (θ_run Cert.ReferenceIdeal.defs _ _).mono (fun r h c => ?_) (Cert.ReferenceIdeal.Run.run_all (F := Ideal) m' ρ')
  exact ⟨(h c Cert.ReferenceIdeal.main_arg0).trans (Cert.ReferenceIdeal.Value.launch_arg m' c _ (by simp)),
    (h c Cert.ReferenceIdeal.main_arg1).trans (Cert.ReferenceIdeal.Value.launch_arg m' c _ (by simp)),
    (h c Cert.ReferenceIdeal.main_arg2).trans (Cert.ReferenceIdeal.Value.launch_arg m' c _ (by simp)),
    (h c Cert.ReferenceIdeal.main_arg3).trans (Cert.ReferenceIdeal.Value.launch_arg m' c _ (by simp)),
    (h c Cert.ReferenceIdeal.main_arg4).trans (Cert.ReferenceIdeal.Value.launch_arg m' c _ (by simp)),
    (h c Cert.ReferenceIdeal.main_arg5).trans (Cert.ReferenceIdeal.Value.launch_arg m' c _ (by simp)),
    (h c Cert.ReferenceIdeal.main_arg6).trans (Cert.ReferenceIdeal.Value.launch_arg m' c _ (by simp)),
    (h c Cert.ReferenceIdeal.main_arg7).trans (Cert.ReferenceIdeal.Value.launch_arg m' c _ (by simp)),
    (h c Cert.ReferenceIdeal.main_arg8).trans (Cert.ReferenceIdeal.Value.launch_arg m' c _ (by simp)),
    (h c Cert.ReferenceIdeal.main_arg9).trans (Cert.ReferenceIdeal.Value.launch_arg m' c _ (by simp)),
    (h c Cert.ReferenceIdeal.main_arg10).trans (Cert.ReferenceIdeal.Value.launch_arg m' c _ (by simp)),
    (h c Cert.ReferenceIdeal.main_arg11).trans (Cert.ReferenceIdeal.Value.launch_arg m' c _ (by simp)),
    (h c Cert.ReferenceIdeal.main_arg12).trans (Cert.ReferenceIdeal.Value.launch_arg m' c _ (by simp)),
    (h c Cert.ReferenceIdeal.main_arg13).trans (Cert.ReferenceIdeal.Value.launch_arg m' c _ (by simp)),
    (h c Cert.ReferenceIdeal.main_arg14).trans (Cert.ReferenceIdeal.Value.launch_arg m' c _ (by simp)),
    (h c Cert.ReferenceIdeal.main_arg15).trans (Cert.ReferenceIdeal.Value.launch_arg m' c _ (by simp)),
    (h c Cert.ReferenceIdeal.main_arg16).trans (Cert.ReferenceIdeal.Value.launch_arg m' c _ (by simp)),
    (h c Cert.ReferenceIdeal.main_arg17).trans (Cert.ReferenceIdeal.Value.launch_arg m' c _ (by simp))⟩

/-- Both programs end with, at candidate `j` of batch `b`, the heads of the trunk output of the gathered row:
    the kernel in the moment form of the normalisation, the reference in the centred form, equal on real rows. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (fun i => Spec.logits (Cert.KernelIdeal.KValue.headK m c) (Cert.KernelIdeal.KValue.trunkK m c (i 0) (i 1)) (i 2) : Cert.KernelIdeal.S32x2048x2.Idx → EReal),
    fun c => (fun i => Spec.boxes (Cert.KernelIdeal.KValue.headK m c) (Cert.KernelIdeal.KValue.trunkK m c (i 0) (i 1)) (i 2) : Cert.KernelIdeal.S32x2048x4.Idx → EReal), ?_, ?_⟩
  · refine (θ_run Cert.KernelIdeal.defs _ _).mono (fun r h c => ?_) (Cert.KernelIdeal.GenP.run_results (F := Ideal) m ρ)
    have D := decoded m hpre c
    obtain ⟨h83, h84, hargs⟩ := h c
    exact ⟨h83.trans (Cert.KernelIdeal.KValue.kernel_logits m ρ c D.pts D.r0),
      h84.trans (Cert.KernelIdeal.KValue.kernel_boxes m ρ c D.pts D.r0), hargs⟩
  · refine (θ_run Cert.ReferenceIdeal.defs _ _).mono (fun r h c => ?_) (Cert.ReferenceIdeal.Run.run_all (F := Ideal) m' ρ')
    have D := decoded m hpre c
    obtain ⟨e0, e1, e2, e3, e4, e5, e6, e7, e8, e9, e10, e11, e12, e13, e14, e15, e16, e17⟩ := hagree c
    have hpts' : ∀ i, 0 ≤ ((m' ((c.tc : Thread Cert.ReferenceIdeal.nD Cert.ReferenceIdeal.τ).loc Cert.ReferenceIdeal.main_arg1)) i).toInt ∧ ((m' ((c.tc : Thread Cert.ReferenceIdeal.nD Cert.ReferenceIdeal.τ).loc Cert.ReferenceIdeal.main_arg1)) i).toInt < 256 := by rw [e1]; exact D.pts
    have hP0 := rbp_isReal 0 _ _ _ _ _ _ _ _ D.r2 D.r3 D.r4 D.r5 D.r6 D.r7 D.r8 D.r9
    have hP1 := rbp_isReal 1 _ _ _ _ _ _ _ _ D.r2 D.r3 D.r4 D.r5 D.r6 D.r7 D.r8 D.r9
    refine ⟨(h c Cert.ReferenceIdeal.main_v188).trans ?_, (h c Cert.ReferenceIdeal.main_v189).trans ?_,
      (h c Cert.ReferenceIdeal.main_arg0).trans (Cert.ReferenceIdeal.Value.launch_arg m' c _ (by simp)),
      (h c Cert.ReferenceIdeal.main_arg1).trans (Cert.ReferenceIdeal.Value.launch_arg m' c _ (by simp)),
      (h c Cert.ReferenceIdeal.main_arg2).trans (Cert.ReferenceIdeal.Value.launch_arg m' c _ (by simp)),
      (h c Cert.ReferenceIdeal.main_arg3).trans (Cert.ReferenceIdeal.Value.launch_arg m' c _ (by simp)),
      (h c Cert.ReferenceIdeal.main_arg4).trans (Cert.ReferenceIdeal.Value.launch_arg m' c _ (by simp)),
      (h c Cert.ReferenceIdeal.main_arg5).trans (Cert.ReferenceIdeal.Value.launch_arg m' c _ (by simp)),
      (h c Cert.ReferenceIdeal.main_arg6).trans (Cert.ReferenceIdeal.Value.launch_arg m' c _ (by simp)),
      (h c Cert.ReferenceIdeal.main_arg7).trans (Cert.ReferenceIdeal.Value.launch_arg m' c _ (by simp)),
      (h c Cert.ReferenceIdeal.main_arg8).trans (Cert.ReferenceIdeal.Value.launch_arg m' c _ (by simp)),
      (h c Cert.ReferenceIdeal.main_arg9).trans (Cert.ReferenceIdeal.Value.launch_arg m' c _ (by simp)),
      (h c Cert.ReferenceIdeal.main_arg10).trans (Cert.ReferenceIdeal.Value.launch_arg m' c _ (by simp)),
      (h c Cert.ReferenceIdeal.main_arg11).trans (Cert.ReferenceIdeal.Value.launch_arg m' c _ (by simp)),
      (h c Cert.ReferenceIdeal.main_arg12).trans (Cert.ReferenceIdeal.Value.launch_arg m' c _ (by simp)),
      (h c Cert.ReferenceIdeal.main_arg13).trans (Cert.ReferenceIdeal.Value.launch_arg m' c _ (by simp)),
      (h c Cert.ReferenceIdeal.main_arg14).trans (Cert.ReferenceIdeal.Value.launch_arg m' c _ (by simp)),
      (h c Cert.ReferenceIdeal.main_arg15).trans (Cert.ReferenceIdeal.Value.launch_arg m' c _ (by simp)),
      (h c Cert.ReferenceIdeal.main_arg16).trans (Cert.ReferenceIdeal.Value.launch_arg m' c _ (by simp)),
      (h c Cert.ReferenceIdeal.main_arg17).trans (Cert.ReferenceIdeal.Value.launch_arg m' c _ (by simp))⟩
    · rw [Cert.ReferenceIdeal.Value.launch_logits m' c hpts', e0, e1, e2, e3, e4, e5, e6, e7, e8, e9, e10, e11, e12, e13, e14, e15, e16, e17]
      funext i
      exact congrArg (fun T : Spec.Row => Spec.logits _ T _) (Spec.trunk_eq _ _ _ hP0 hP1 (fun ch => D.r0 _)).symm
    · rw [Cert.ReferenceIdeal.Value.launch_boxes m' c hpts', e0, e1, e2, e3, e4, e5, e6, e7, e8, e9, e10, e11, e12, e13, e14, e15, e16, e17]
      funext i
      exact congrArg (fun T : Spec.Row => Spec.boxes _ T _) (Spec.trunk_eq _ _ _ hP0 hP1 (fun ch => D.r0 _)).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
